-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x16384 : Shape := ⟨3, ![2, 256, 16384]⟩
abbrev S2x256x384x384 : Shape := ⟨4, ![2, 256, 384, 384]⟩
abbrev S16384x2 : Shape := ⟨2, ![16384, 2]⟩
abbrev S_ : Shape := ⟨0, ![]⟩

class Facts : Prop where
  bcast_S_S2x256x16384 : S_.BroadcastsInDim S2x256x16384 (![] : Fin 0 → Fin S2x256x16384.rank)
  reducesTo_S2x256x16384_S_d0_1_2 : S2x256x16384.ReducesTo [0, 1, 2] S_
  h_S_ : 0 < S_.numel
  bcast_S_S2x256x384x384 : S_.BroadcastsInDim S2x256x384x384 (![] : Fin 0 → Fin S2x256x384x384.rank)
  reducesTo_S2x256x384x384_S_d0_1_2_3 : S2x256x384x384.ReducesTo [0, 1, 2, 3] S_
  bcast_S_S16384x2 : S_.BroadcastsInDim S16384x2 (![] : Fin 0 → Fin S16384x2.rank)
  reducesTo_S16384x2_S_d0_1 : S16384x2.ReducesTo [0, 1] S_

variable [Facts]

def fn {F : FTy → Type} [FloatOps F] (main_arg0 : FVec F S2x256x16384 .f32) (main_arg1 : FVec F S2x256x384x384 .f32) (main_arg2 : IVec S16384x2 32) : IVec S_ 1 :=
  let main_v0 : FVec F S2x256x16384 .f32 := Host.absf main_arg0
  let main_cst : FVec F S_ .f32 := constant S_ .f32 0x7F800000#32
  let main_v1 : FVec F S2x256x16384 .f32 := broadcastInDim S2x256x16384 ![] bcast_S_S2x256x16384 main_cst
  let main_v2 : IVec S2x256x16384 1 := cmpf .olt main_v0 main_v1
  let main_c : IVec S_ 1 := constantI S_ 1 1#1
  let main_v3 : IVec S_ 1 := (fun x v => Host.reduce IntOp.andi x v reducesTo_S2x256x16384_S_d0_1_2 h_S_) main_v2 main_c
  let main_v4 : FVec F S2x256x384x384 .f32 := Host.absf main_arg1
  let main_cst_0 : FVec F S_ .f32 := constant S_ .f32 0x7F800000#32
  let main_v5 : FVec F S2x256x384x384 .f32 := broadcastInDim S2x256x384x384 ![] bcast_S_S2x256x384x384 main_cst_0
  let main_v6 : IVec S2x256x384x384 1 := cmpf .olt main_v4 main_v5
  let main_c_1 : IVec S_ 1 := constantI S_ 1 1#1
  let main_v7 : IVec S_ 1 := (fun x v => Host.reduce IntOp.andi x v reducesTo_S2x256x384x384_S_d0_1_2_3 h_S_) main_v6 main_c_1
  let main_v8 : IVec S_ 1 := andi main_v3 main_v7
  let main_c_2 : IVec S_ 32 := constantI S_ 32 0#32
  let main_v9 : IVec S16384x2 32 := broadcastInDim S16384x2 ![] bcast_S_S16384x2 main_c_2
  let main_v10 : IVec S16384x2 1 := cmpi .sge main_arg2 main_v9
  let main_c_3 : IVec S_ 32 := constantI S_ 32 192#32
  let main_v11 : IVec S16384x2 32 := broadcastInDim S16384x2 ![] bcast_S_S16384x2 main_c_3
  let main_v12 : IVec S16384x2 1 := cmpi .slt main_arg2 main_v11
  let main_v13 : IVec S16384x2 1 := andi main_v10 main_v12
  let main_c_4 : IVec S_ 1 := constantI S_ 1 1#1
  let main_v14 : IVec S_ 1 := (fun x v => Host.reduce IntOp.andi x v reducesTo_S16384x2_S_d0_1 h_S_) main_v13 main_c_4
  let main_v15 : IVec S_ 1 := andi main_v8 main_v14
  main_v15
-- ==== Kernel.lean ====
abbrev S2x256x16384 : Shape := ⟨3, ![2, 256, 16384]⟩
abbrev S2x256x384x384 : Shape := ⟨4, ![2, 256, 384, 384]⟩
abbrev S16384x2 : Shape := ⟨2, ![16384, 2]⟩
abbrev S16384x1 : Shape := ⟨2, ![16384, 1]⟩
abbrev S16384 : Shape := ⟨1, ![16384]⟩
abbrev S_ : Shape := ⟨0, ![]⟩
abbrev S16384x2x256 : Shape := ⟨3, ![16384, 2, 256]⟩
abbrev S2x256x147456 : Shape := ⟨3, ![2, 256, 147456]⟩
abbrev S147456x2x256 : Shape := ⟨3, ![147456, 2, 256]⟩
abbrev S1 : Shape := ⟨1, ![1]⟩
abbrev S1x2x256 : Shape := ⟨3, ![1, 2, 256]⟩
abbrev S2x256 : Shape := ⟨2, ![2, 256]⟩

abbrev nBuf : Space → Nat
  | .hbm => 28
  | .vmem => 0
  | .smem => 1
  | _ => 0

abbrev bufTy : (tb : Table) → Fin (tcTables nBuf tb) → BufTy
  | .hbm, ⟨0, _⟩ => ⟨S2x256x16384, .f32⟩
  | .hbm, ⟨1, _⟩ => ⟨S2x256x384x384, .f32⟩
  | .hbm, ⟨2, _⟩ => ⟨S16384x2, .i32⟩
  | .hbm, ⟨3, _⟩ => ⟨S16384x1, .i32⟩
  | .hbm, ⟨4, _⟩ => ⟨S16384, .i32⟩
  | .hbm, ⟨5, _⟩ => ⟨S16384x1, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384x2x256, .f32⟩
  | .hbm, ⟨23, _⟩ => ⟨S2x256x147456, .f32⟩
  | .hbm, ⟨24, _⟩ => ⟨S147456x2x256, .f32⟩
  | .hbm, ⟨25, _⟩ => ⟨S147456x2x256, .f32⟩
  | .hbm, ⟨26, _⟩ => ⟨S2x256x147456, .f32⟩
  | .hbm, ⟨27, _⟩ => ⟨S2x256x384x384, .f32⟩
  | .local _ .smem, ⟨0, _⟩ => ⟨S16384, .i32⟩
  | _, _ => ⟨S2x256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v14 : Ref sig .tc := ⟨.smem, 0, rfl⟩

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_0 : BitVec 32 := 0#32
  let c0_i32_1 : BitVec 32 := 0#32
  ![v3.toNat, 0, 0]

def k0_chk1 (v3 : BitVec 32) : Prop :=
  (∀ a, (k0_off2 v3) a + S1x2x256.size a ≤ S147456x2x256.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x2x256.size a ≤ S147456x2x256.size a := fun v3 k0_hw1 => k0_hw1

def k0_off3 (i : grid0.Coords) : Fin 3 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let c0_i32_2 : BitVec 32 := 0#32
  let c0_i32_3 : BitVec 32 := 0#32
  ![v1.toNat, 0, 0]
def k0_off4 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v12 : BitVec 32 := Scalar.addi v0 c1_i32
  let v13 : Index := Scalar.indexCast v12
  ![v13.toNat]
def k0_off5 (v14 : BitVec 32) : Fin 3 → Nat :=
  let c0_i32_8 : BitVec 32 := 0#32
  let c0_i32_9 : BitVec 32 := 0#32
  ![v14.toNat, 0, 0]

def k0_chk2 (v14 : BitVec 32) : Prop :=
  (∀ a, (k0_off5 v14) a + S1x2x256.size a ≤ S147456x2x256.size a)
instance k0_chk2.dec : ∀ (v14 : BitVec 32), Decidable (k0_chk2 v14) := fun v14 => decidable_of_iff' _ (Iff.of_eq (k0_chk2.eq_1 v14))
theorem k0_off5_inb : ∀ (v14 : BitVec 32) (k0_hw2 : k0_chk2 v14), ∀ a, (k0_off5 v14) a + S1x2x256.size a ≤ S147456x2x256.size a := fun v14 k0_hw2 => k0_hw2

def k0_off6 (i : grid0.Coords) : Fin 3 → Nat :=
  let arg0 : BitVec 32 := BitVec.ofNat 32 (i 0).val
  let c128_i32 : BitVec 32 := 128#32
  let v0 : BitVec 32 := Scalar.muli arg0 c128_i32
  let c1_i32 : BitVec 32 := 1#32
  let v12 : BitVec 32 := Scalar.addi v0 c1_i32
  let c0_i32_10 : BitVec 32 := 0#32
  let c0_i32_11 : BitVec 32 := 0#32
  ![v12.toNat, 0, 0]
def k0_off7 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v23 : BitVec 32 := Scalar.addi v0 c2_i32
  let v24 : Index := Scalar.indexCast v23
  ![v24.toNat]
def k0_off8 (v25 : BitVec 32) : Fin 3 → Nat :=
  let c0_i32_16 : BitVec 32 := 0#32
  let c0_i32_17 : BitVec 32 := 0#32
  ![v25.toNat, 0, 0]

def k0_chk3 (v25 : BitVec 32) : Prop :=
  (∀ a, (k0_off8 v25) a + S1x2x256.size a ≤ S147456x2x256.size a)
instance k0_chk3.dec : ∀ (v25 : BitVec 32), Decidable (k0_chk3 v25) := fun v25 => decidable_of_iff' _ (Iff.of_eq (k0_chk3.eq_1 v25))
theorem k0_off8_inb : ∀ (v25 : BitVec 32) (k0_hw3 : k0_chk3 v25), ∀ a, (k0_off8 v25) a + S1x2x256.size a ≤ S147456x2x256.size a := fun v25 k0_hw3 => k0_hw3

def k0_off9 (i : grid0.Coords) : Fin 3 → Nat :=
  let arg0 : BitVec 32 := BitVec.ofNat 32 (i 0).val
  let c128_i32 : BitVec 32 := 128#32
  let v0 : BitVec 32 := Scalar.muli arg0 c128_i32
  let c2_i32 : BitVec 32 := 2#32
  let v23 : BitVec 32 := Scalar.addi v0 c2_i32
  let c0_i32_18 : BitVec 32 := 0#32
  let c0_i32_19 : BitVec 32 := 0#32
  ![v23.toNat, 0, 0]
def k0_off10 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v34 : BitVec 32 := Scalar.addi v0 c3_i32
  let v35 : Index := Scalar.indexCast v34
  ![v35.toNat]
def k0_off11 (v36 : BitVec 32) : Fin 3 → Nat :=
  let c0_i32_24 : BitVec 32 := 0#32
  let c0_i32_25 : BitVec 32 := 0#32
  ![v36.toNat, 0, 0]

def k0_chk4 (v36 : BitVec 32) : Prop :=
  (∀ a, (k0_off11 v36) a + S1x2x256.size a ≤ S147456x2x256.size a)
instance k0_chk4.dec : ∀ (v36 : BitVec 32), Decidable (k0_chk4 v36) := fun v36 => decidable_of_iff' _ (Iff.of_eq (k0_chk4.eq_1 v36))
theorem k0_off11_inb : ∀ (v36 : BitVec 32) (k0_hw4 : k0_chk4 v36), ∀ a, (k0_off11 v36) a + S1x2x256.size a ≤ S147456x2x256.size a := fun v36 k0_hw4 => k0_hw4

def k0_off12 (i : grid0.Coords) : Fin 3 → Nat :=
  let arg0 : BitVec 32 := BitVec.ofNat 32 (i 0).val
  let c128_i32 : BitVec 32 := 128#32
  let v0 : BitVec 32 := Scalar.muli arg0 c128_i32
  let c3_i32 : BitVec 32 := 3#32
  let v34 : BitVec 32 := Scalar.addi v0 c3_i32
  let c0_i32_26 : BitVec 32 := 0#32
  let c0_i32_27 : BitVec 32 := 0#32
  ![v34.toNat, 0, 0]
def k0_off13 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v45 : BitVec 32 := Scalar.addi v0 c4_i32
  let v46 : Index := Scalar.indexCast v45
  ![v46.toNat]
def k0_off14 (v47 : BitVec 32) : Fin 3 → Nat :=
  let c0_i32_32 : BitVec 32 := 0#32
  let c0_i32_33 : BitVec 32 := 0#32
  ![v47.toNat, 0, 0]

def k0_chk5 (v47 : BitVec 32) : Prop :=
  (∀ a, (k0_off14 v47) a + S1x2x256.size a ≤ S147456x2x256.size a)
instance k0_chk5.dec : ∀ (v47 : BitVec 32), Decidable (k0_chk5 v47) := fun v47 => decidable_of_iff' _ (Iff.of_eq (k0_chk5.eq_1 v47))
theorem k0_off14_inb : ∀ (v47 : BitVec 32) (k0_hw5 : k0_chk5 v47), ∀ a, (k0_off14 v47) a + S1x2x256.size a ≤ S147456x2x256.size a := fun v47 k0_hw5 => k0_hw5

def k0_off15 (i : grid0.Coords) : Fin 3 → Nat :=
  let arg0 : BitVec 32 := BitVec.ofNat 32 (i 0).val
  let c128_i32 : BitVec 32 := 128#32
  let v0 : BitVec 32 := Scalar.muli arg0 c128_i32
  let c4_i32 : BitVec 32 := 4#32
  let v45 : BitVec 32 := Scalar.addi v0 c4_i32
  let c0_i32_34 : BitVec 32 := 0#32
  let c0_i32_35 : BitVec 32 := 0#32
  ![v45.toNat, 0, 0]
def k0_off16 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v56 : BitVec 32 := Scalar.addi v0 c5_i32
  let v57 : Index := Scalar.indexCast v56
  ![v57.toNat]
def k0_off17 (v58 : BitVec 32) : Fin 3 → Nat :=
  let c0_i32_40 : BitVec 32 := 0#32
  let c0_i32_41 : BitVec 32 := 0#32
  ![v58.toNat, 0, 0]

def k0_chk6 (v58 : BitVec 32) : Prop :=
  (∀ a, (k0_off17 v58) a + S1x2x256.size a ≤ S147456x2x256.size a)
instance k0_chk6.dec : ∀ (v58 : BitVec 32), Decidable (k0_chk6 v58) := fun v58 => decidable_of_iff' _ (Iff.of_eq (k0_chk6.eq_1 v58))
theorem k0_off17_inb : ∀ (v58 : BitVec 32) (k0_hw6 : k0_chk6 v58), ∀ a, (k0_off17 v58) a + S1x2x256.size a ≤ S147456x2x256.size a := fun v58 k0_hw6 => k0_hw6

def k0_off18 (i : grid0.Coords) : Fin 3 → Nat :=
  let arg0 : BitVec 32 := BitVec.ofNat 32 (i 0).val
  let c128_i32 : BitVec 32 := 128#32
  let v0 : BitVec 32 := Scalar.muli arg0 c128_i32
  let c5_i32 : BitVec 32 := 5#32
  let v56 : BitVec 32 := Scalar.addi v0 c5_i32
  let c0_i32_42 : BitVec 32 := 0#32
  let c0_i32_43 : BitVec 32 := 0#32
  ![v56.toNat, 0, 0]
def k0_off19 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v67 : BitVec 32 := Scalar.addi v0 c6_i32
  let v68 : Index := Scalar.indexCast v67
  ![v68.toNat]
def k0_off20 (v69 : BitVec 32) : Fin 3 → Nat :=
  let c0_i32_48 : BitVec 32 := 0#32
  let c0_i32_49 : BitVec 32 := 0#32
  ![v69.toNat, 0, 0]

def k0_chk7 (v69 : BitVec 32) : Prop :=
  (∀ a, (k0_off20 v69) a + S1x2x256.size a ≤ S147456x2x256.size a)
instance k0_chk7.dec : ∀ (v69 : BitVec 32), Decidable (k0_chk7 v69) := fun v69 => decidable_of_iff' _ (Iff.of_eq (k0_chk7.eq_1 v69))
theorem k0_off20_inb : ∀ (v69 : BitVec 32) (k0_hw7 : k0_chk7 v69), ∀ a, (k0_off20 v69) a + S1x2x256.size a ≤ S147456x2x256.size a := fun v69 k0_hw7 => k0_hw7

def k0_off21 (i : grid0.Coords) : Fin 3 → Nat :=
  let arg0 : BitVec 32 := BitVec.ofNat 32 (i 0).val
  let c128_i32 : BitVec 32 := 128#32
  let v0 : BitVec 32 := Scalar.muli arg0 c128_i32
  let c6_i32 : BitVec 32 := 6#32
  let v67 : BitVec 32 := Scalar.addi v0 c6_i32
  let c0_i32_50 : BitVec 32 := 0#32
  let c0_i32_51 : BitVec 32 := 0#32
  ![v67.toNat, 0, 0]
def k0_off22 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v78 : BitVec 32 := Scalar.addi v0 c7_i32
  let v79 : Index := Scalar.indexCast v78
  ![v79.toNat]
def k0_off23 (v80 : BitVec 32) : Fin 3 → Nat :=
  let c0_i32_56 : BitVec 32 := 0#32
  let c0_i32_57 : BitVec 32 := 0#32
  ![v80.toNat, 0, 0]

def k0_chk8 (v80 : BitVec 32) : Prop :=
  (∀ a, (k0_off23 v80) a + S1x2x256.size a ≤ S147456x2x256.size a)
instance k0_chk8.dec : ∀ (v80 : BitVec 32), Decidable (k0_chk8 v80) := fun v80 => decidable_of_iff' _ (Iff.of_eq (k0_chk8.eq_1 v80))
theorem k0_off23_inb : ∀ (v80 : BitVec 32) (k0_hw8 : k0_chk8 v80), ∀ a, (k0_off23 v80) a + S1x2x256.size a ≤ S147456x2x256.size a := fun v80 k0_hw8 => k0_hw8

def k0_off24 (i : grid0.Coords) : Fin 3 → Nat :=
  let arg0 : BitVec 32 := BitVec.ofNat 32 (i 0).val
  let c128_i32 : BitVec 32 := 128#32
  let v0 : BitVec 32 := Scalar.muli arg0 c128_i32
  let c7_i32 : BitVec 32 := 7#32
  let v78 : BitVec 32 := Scalar.addi v0 c7_i32
  let c0_i32_58 : BitVec 32 := 0#32
  let c0_i32_59 : BitVec 32 := 0#32
  ![v78.toNat, 0, 0]
def k0_off25 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v89 : BitVec 32 := Scalar.addi v0 c8_i32
  let v90 : Index := Scalar.indexCast v89
  ![v90.toNat]
def k0_off26 (v91 : BitVec 32) : Fin 3 → Nat :=
  let c0_i32_64 : BitVec 32 := 0#32
  let c0_i32_65 : BitVec 32 := 0#32
  ![v91.toNat, 0, 0]

def k0_chk9 (v91 : BitVec 32) : Prop :=
  (∀ a, (k0_off26 v91) a + S1x2x256.size a ≤ S147456x2x256.size a)
instance k0_chk9.dec : ∀ (v91 : BitVec 32), Decidable (k0_chk9 v91) := fun v91 => decidable_of_iff' _ (Iff.of_eq (k0_chk9.eq_1 v91))
theorem k0_off26_inb : ∀ (v91 : BitVec 32) (k0_hw9 : k0_chk9 v91), ∀ a, (k0_off26 v91) a + S1x2x256.size a ≤ S147456x2x256.size a := fun v91 k0_hw9 => k0_hw9

def k0_off27 (i : grid0.Coords) : Fin 3 → Nat :=
  let arg0 : BitVec 32 := BitVec.ofNat 32 (i 0).val
  let c128_i32 : BitVec 32 := 128#32
  let v0 : BitVec 32 := Scalar.muli arg0 c128_i32
  let c8_i32 : BitVec 32 := 8#32
  let v89 : BitVec 32 := Scalar.addi v0 c8_i32
  let c0_i32_66 : BitVec 32 := 0#32
  let c0_i32_67 : BitVec 32 := 0#32
  ![v89.toNat, 0, 0]
def k0_off28 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v100 : BitVec 32 := Scalar.addi v0 c9_i32
  let v101 : Index := Scalar.indexCast v100
  ![v101.toNat]
def k0_off29 (v102 : BitVec 32) : Fin 3 → Nat :=
  let c0_i32_72 : BitVec 32 := 0#32
  let c0_i32_73 : BitVec 32 := 0#32
  ![v102.toNat, 0, 0]

def k0_chk10 (v102 : BitVec 32) : Prop :=
  (∀ a, (k0_off29 v102) a + S1x2x256.size a ≤ S147456x2x256.size a)
instance k0_chk10.dec : ∀ (v102 : BitVec 32), Decidable (k0_chk10 v102) := fun v102 => decidable_of_iff' _ (Iff.of_eq (k0_chk10.eq_1 v102))
theorem k0_off29_inb : ∀ (v102 : BitVec 32) (k0_hw10 : k0_chk10 v102), ∀ a, (k0_off29 v102) a + S1x2x256.size a ≤ S147456x2x256.size a := fun v102 k0_hw10 => k0_hw10

def k0_off30 (i : grid0.Coords) : Fin 3 → Nat :=
  let arg0 : BitVec 32 := BitVec.ofNat 32 (i 0).val
  let c128_i32 : BitVec 32 := 128#32
  let v0 : BitVec 32 := Scalar.muli arg0 c128_i32
  let c9_i32 : BitVec 32 := 9#32
  let v100 : BitVec 32 := Scalar.addi v0 c9_i32
  let c0_i32_74 : BitVec 32 := 0#32
  let c0_i32_75 : BitVec 32 := 0#32
  ![v100.toNat, 0, 0]
def k0_off31 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v111 : BitVec 32 := Scalar.addi v0 c10_i32
  let v112 : Index := Scalar.indexCast v111
  ![v112.toNat]
def k0_off32 (v113 : BitVec 32) : Fin 3 → Nat :=
  let c0_i32_80 : BitVec 32 := 0#32
  let c0_i32_81 : BitVec 32 := 0#32
  ![v113.toNat, 0, 0]

def k0_chk11 (v113 : BitVec 32) : Prop :=
  (∀ a, (k0_off32 v113) a + S1x2x256.size a ≤ S147456x2x256.size a)
instance k0_chk11.dec : ∀ (v113 : BitVec 32), Decidable (k0_chk11 v113) := fun v113 => decidable_of_iff' _ (Iff.of_eq (k0_chk11.eq_1 v113))
theorem k0_off32_inb : ∀ (v113 : BitVec 32) (k0_hw11 : k0_chk11 v113), ∀ a, (k0_off32 v113) a + S1x2x256.size a ≤ S147456x2x256.size a := fun v113 k0_hw11 => k0_hw11

def k0_off33 (i : grid0.Coords) : Fin 3 → Nat :=
  let arg0 : BitVec 32 := BitVec.ofNat 32 (i 0).val
  let c128_i32 : BitVec 32 := 128#32
  let v0 : BitVec 32 := Scalar.muli arg0 c128_i32
  let c10_i32 : BitVec 32 := 10#32
  let v111 : BitVec 32 := Scalar.addi v0 c10_i32
  let c0_i32_82 : BitVec 32 := 0#32
  let c0_i32_83 : BitVec 32 := 0#32
  ![v111.toNat, 0, 0]
def k0_off34 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v122 : BitVec 32 := Scalar.addi v0 c11_i32
  let v123 : Index := Scalar.indexCast v122
  ![v123.toNat]
def k0_off35 (v124 : BitVec 32) : Fin 3 → Nat :=
  let c0_i32_88 : BitVec 32 := 0#32
  let c0_i32_89 : BitVec 32 := 0#32
  ![v124.toNat, 0, 0]

def k0_chk12 (v124 : BitVec 32) : Prop :=
  (∀ a, (k0_off35 v124) a + S1x2x256.size a ≤ S147456x2x256.size a)
instance k0_chk12.dec : ∀ (v124 : BitVec 32), Decidable (k0_chk12 v124) := fun v124 => decidable_of_iff' _ (Iff.of_eq (k0_chk12.eq_1 v124))
theorem k0_off35_inb : ∀ (v124 : BitVec 32) (k0_hw12 : k0_chk12 v124), ∀ a, (k0_off35 v124) a + S1x2x256.size a ≤ S147456x2x256.size a := fun v124 k0_hw12 => k0_hw12

def k0_off36 (i : grid0.Coords) : Fin 3 → Nat :=
  let arg0 : BitVec 32 := BitVec.ofNat 32 (i 0).val
  let c128_i32 : BitVec 32 := 128#32
  let v0 : BitVec 32 := Scalar.muli arg0 c128_i32
  let c11_i32 : BitVec 32 := 11#32
  let v122 : BitVec 32 := Scalar.addi v0 c11_i32
  let c0_i32_90 : BitVec 32 := 0#32
  let c0_i32_91 : BitVec 32 := 0#32
  ![v122.toNat, 0, 0]
def k0_off37 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v133 : BitVec 32 := Scalar.addi v0 c12_i32
  let v134 : Index := Scalar.indexCast v133
  ![v134.toNat]
def k0_off38 (v135 : BitVec 32) : Fin 3 → Nat :=
  let c0_i32_96 : BitVec 32 := 0#32
  let c0_i32_97 : BitVec 32 := 0#32
  ![v135.toNat, 0, 0]

def k0_chk13 (v135 : BitVec 32) : Prop :=
  (∀ a, (k0_off38 v135) a + S1x2x256.size a ≤ S147456x2x256.size a)
instance k0_chk13.dec : ∀ (v135 : BitVec 32), Decidable (k0_chk13 v135) := fun v135 => decidable_of_iff' _ (Iff.of_eq (k0_chk13.eq_1 v135))
theorem k0_off38_inb : ∀ (v135 : BitVec 32) (k0_hw13 : k0_chk13 v135), ∀ a, (k0_off38 v135) a + S1x2x256.size a ≤ S147456x2x256.size a := fun v135 k0_hw13 => k0_hw13

def k0_off39 (i : grid0.Coords) : Fin 3 → Nat :=
  let arg0 : BitVec 32 := BitVec.ofNat 32 (i 0).val
  let c128_i32 : BitVec 32 := 128#32
  let v0 : BitVec 32 := Scalar.muli arg0 c128_i32
  let c12_i32 : BitVec 32 := 12#32
  let v133 : BitVec 32 := Scalar.addi v0 c12_i32
  let c0_i32_98 : BitVec 32 := 0#32
  let c0_i32_99 : BitVec 32 := 0#32
  ![v133.toNat, 0, 0]
def k0_off40 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v144 : BitVec 32 := Scalar.addi v0 c13_i32
  let v145 : Index := Scalar.indexCast v144
  ![v145.toNat]
def k0_off41 (v146 : BitVec 32) : Fin 3 → Nat :=
  let c0_i32_104 : BitVec 32 := 0#32
  let c0_i32_105 : BitVec 32 := 0#32
  ![v146.toNat, 0, 0]

def k0_chk14 (v146 : BitVec 32) : Prop :=
  (∀ a, (k0_off41 v146) a + S1x2x256.size a ≤ S147456x2x256.size a)
instance k0_chk14.dec : ∀ (v146 : BitVec 32), Decidable (k0_chk14 v146) := fun v146 => decidable_of_iff' _ (Iff.of_eq (k0_chk14.eq_1 v146))
theorem k0_off41_inb : ∀ (v146 : BitVec 32) (k0_hw14 : k0_chk14 v146), ∀ a, (k0_off41 v146) a + S1x2x256.size a ≤ S147456x2x256.size a := fun v146 k0_hw14 => k0_hw14

def k0_off42 (i : grid0.Coords) : Fin 3 → Nat :=
  let arg0 : BitVec 32 := BitVec.ofNat 32 (i 0).val
  let c128_i32 : BitVec 32 := 128#32
  let v0 : BitVec 32 := Scalar.muli arg0 c128_i32
  let c13_i32 : BitVec 32 := 13#32
  let v144 : BitVec 32 := Scalar.addi v0 c13_i32
  let c0_i32_106 : BitVec 32 := 0#32
  let c0_i32_107 : BitVec 32 := 0#32
  ![v144.toNat, 0, 0]
def k0_off43 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v155 : BitVec 32 := Scalar.addi v0 c14_i32
  let v156 : Index := Scalar.indexCast v155
  ![v156.toNat]
def k0_off44 (v157 : BitVec 32) : Fin 3 → Nat :=
  let c0_i32_112 : BitVec 32 := 0#32
  let c0_i32_113 : BitVec 32 := 0#32
  ![v157.toNat, 0, 0]

def k0_chk15 (v157 : BitVec 32) : Prop :=
  (∀ a, (k0_off44 v157) a + S1x2x256.size a ≤ S147456x2x256.size a)
instance k0_chk15.dec : ∀ (v157 : BitVec 32), Decidable (k0_chk15 v157) := fun v157 => decidable_of_iff' _ (Iff.of_eq (k0_chk15.eq_1 v157))
theorem k0_off44_inb : ∀ (v157 : BitVec 32) (k0_hw15 : k0_chk15 v157), ∀ a, (k0_off44 v157) a + S1x2x256.size a ≤ S147456x2x256.size a := fun v157 k0_hw15 => k0_hw15

def k0_off45 (i : grid0.Coords) : Fin 3 → Nat :=
  let arg0 : BitVec 32 := BitVec.ofNat 32 (i 0).val
  let c128_i32 : BitVec 32 := 128#32
  let v0 : BitVec 32 := Scalar.muli arg0 c128_i32
  let c14_i32 : BitVec 32 := 14#32
  let v155 : BitVec 32 := Scalar.addi v0 c14_i32
  let c0_i32_114 : BitVec 32 := 0#32
  let c0_i32_115 : BitVec 32 := 0#32
  ![v155.toNat, 0, 0]
def k0_off46 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v166 : BitVec 32 := Scalar.addi v0 c15_i32
  let v167 : Index := Scalar.indexCast v166
  ![v167.toNat]
def k0_off47 (v168 : BitVec 32) : Fin 3 → Nat :=
  let c0_i32_120 : BitVec 32 := 0#32
  let c0_i32_121 : BitVec 32 := 0#32
  ![v168.toNat, 0, 0]

def k0_chk16 (v168 : BitVec 32) : Prop :=
  (∀ a, (k0_off47 v168) a + S1x2x256.size a ≤ S147456x2x256.size a)
instance k0_chk16.dec : ∀ (v168 : BitVec 32), Decidable (k0_chk16 v168) := fun v168 => decidable_of_iff' _ (Iff.of_eq (k0_chk16.eq_1 v168))
theorem k0_off47_inb : ∀ (v168 : BitVec 32) (k0_hw16 : k0_chk16 v168), ∀ a, (k0_off47 v168) a + S1x2x256.size a ≤ S147456x2x256.size a := fun v168 k0_hw16 => k0_hw16

def k0_off48 (i : grid0.Coords) : Fin 3 → Nat :=
  let arg0 : BitVec 32 := BitVec.ofNat 32 (i 0).val
  let c128_i32 : BitVec 32 := 128#32
  let v0 : BitVec 32 := Scalar.muli arg0 c128_i32
  let c15_i32 : BitVec 32 := 15#32
  let v166 : BitVec 32 := Scalar.addi v0 c15_i32
  let c0_i32_122 : BitVec 32 := 0#32
  let c0_i32_123 : BitVec 32 := 0#32
  ![v166.toNat, 0, 0]
def k0_off49 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v177 : BitVec 32 := Scalar.addi v0 c16_i32
  let v178 : Index := Scalar.indexCast v177
  ![v178.toNat]
def k0_off50 (v179 : BitVec 32) : Fin 3 → Nat :=
  let c0_i32_128 : BitVec 32 := 0#32
  let c0_i32_129 : BitVec 32 := 0#32
  ![v179.toNat, 0, 0]

def k0_chk17 (v179 : BitVec 32) : Prop :=
  (∀ a, (k0_off50 v179) a + S1x2x256.size a ≤ S147456x2x256.size a)
instance k0_chk17.dec : ∀ (v179 : BitVec 32), Decidable (k0_chk17 v179) := fun v179 => decidable_of_iff' _ (Iff.of_eq (k0_chk17.eq_1 v179))
theorem k0_off50_inb : ∀ (v179 : BitVec 32) (k0_hw17 : k0_chk17 v179), ∀ a, (k0_off50 v179) a + S1x2x256.size a ≤ S147456x2x256.size a := fun v179 k0_hw17 => k0_hw17

def k0_off51 (i : grid0.Coords) : Fin 3 → Nat :=
  let arg0 : BitVec 32 := BitVec.ofNat 32 (i 0).val
  let c128_i32 : BitVec 32 := 128#32
  let v0 : BitVec 32 := Scalar.muli arg0 c128_i32
  let c16_i32 : BitVec 32 := 16#32
  let v177 : BitVec 32 := Scalar.addi v0 c16_i32
  let c0_i32_130 : BitVec 32 := 0#32
  let c0_i32_131 : BitVec 32 := 0#32
  ![v177.toNat, 0, 0]
def k0_off52 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v188 : BitVec 32 := Scalar.addi v0 c17_i32
  let v189 : Index := Scalar.indexCast v188
  ![v189.toNat]
def k0_off53 (v190 : BitVec 32) : Fin 3 → Nat :=
  let c0_i32_136 : BitVec 32 := 0#32
  let c0_i32_137 : BitVec 32 := 0#32
  ![v190.toNat, 0, 0]

def k0_chk18 (v190 : BitVec 32) : Prop :=
  (∀ a, (k0_off53 v190) a + S1x2x256.size a ≤ S147456x2x256.size a)
instance k0_chk18.dec : ∀ (v190 : BitVec 32), Decidable (k0_chk18 v190) := fun v190 => decidable_of_iff' _ (Iff.of_eq (k0_chk18.eq_1 v190))
theorem k0_off53_inb : ∀ (v190 : BitVec 32) (k0_hw18 : k0_chk18 v190), ∀ a, (k0_off53 v190) a + S1x2x256.size a ≤ S147456x2x256.size a := fun v190 k0_hw18 => k0_hw18

def k0_off54 (i : grid0.Coords) : Fin 3 → Nat :=
  let arg0 : BitVec 32 := BitVec.ofNat 32 (i 0).val
  let c128_i32 : BitVec 32 := 128#32
  let v0 : BitVec 32 := Scalar.muli arg0 c128_i32
  let c17_i32 : BitVec 32 := 17#32
  let v188 : BitVec 32 := Scalar.addi v0 c17_i32
  let c0_i32_138 : BitVec 32 := 0#32
  let c0_i32_139 : BitVec 32 := 0#32
  ![v188.toNat, 0, 0]
def k0_off55 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v199 : BitVec 32 := Scalar.addi v0 c18_i32
  let v200 : Index := Scalar.indexCast v199
  ![v200.toNat]
def k0_off56 (v201 : BitVec 32) : Fin 3 → Nat :=
  let c0_i32_144 : BitVec 32 := 0#32
  let c0_i32_145 : BitVec 32 := 0#32
  ![v201.toNat, 0, 0]

def k0_chk19 (v201 : BitVec 32) : Prop :=
  (∀ a, (k0_off56 v201) a + S1x2x256.size a ≤ S147456x2x256.size a)
instance k0_chk19.dec : ∀ (v201 : BitVec 32), Decidable (k0_chk19 v201) := fun v201 => decidable_of_iff' _ (Iff.of_eq (k0_chk19.eq_1 v201))
theorem k0_off56_inb : ∀ (v201 : BitVec 32) (k0_hw19 : k0_chk19 v201), ∀ a, (k0_off56 v201) a + S1x2x256.size a ≤ S147456x2x256.size a := fun v201 k0_hw19 => k0_hw19

def k0_off57 (i : grid0.Coords) : Fin 3 → Nat :=
  let arg0 : BitVec 32 := BitVec.ofNat 32 (i 0).val
  let c128_i32 : BitVec 32 := 128#32
  let v0 : BitVec 32 := Scalar.muli arg0 c128_i32
  let c18_i32 : BitVec 32 := 18#32
  let v199 : BitVec 32 := Scalar.addi v0 c18_i32
  let c0_i32_146 : BitVec 32 := 0#32
  let c0_i32_147 : BitVec 32 := 0#32
  ![v199.toNat, 0, 0]
def k0_off58 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v210 : BitVec 32 := Scalar.addi v0 c19_i32
  let v211 : Index := Scalar.indexCast v210
  ![v211.toNat]
def k0_off59 (v212 : BitVec 32) : Fin 3 → Nat :=
  let c0_i32_152 : BitVec 32 := 0#32
  let c0_i32_153 : BitVec 32 := 0#32
  ![v212.toNat, 0, 0]

def k0_chk20 (v212 : BitVec 32) : Prop :=
  (∀ a, (k0_off59 v212) a + S1x2x256.size a ≤ S147456x2x256.size a)
instance k0_chk20.dec : ∀ (v212 : BitVec 32), Decidable (k0_chk20 v212) := fun v212 => decidable_of_iff' _ (Iff.of_eq (k0_chk20.eq_1 v212))
theorem k0_off59_inb : ∀ (v212 : BitVec 32) (k0_hw20 : k0_chk20 v212), ∀ a, (k0_off59 v212) a + S1x2x256.size a ≤ S147456x2x256.size a := fun v212 k0_hw20 => k0_hw20

def k0_off60 (i : grid0.Coords) : Fin 3 → Nat :=
  let arg0 : BitVec 32 := BitVec.ofNat 32 (i 0).val
  let c128_i32 : BitVec 32 := 128#32
  let v0 : BitVec 32 := Scalar.muli arg0 c128_i32
  let c19_i32 : BitVec 32 := 19#32
  let v210 : BitVec 32 := Scalar.addi v0 c19_i32
  let c0_i32_154 : BitVec 32 := 0#32
  let c0_i32_155 : BitVec 32 := 0#32
  ![v210.toNat, 0, 0]
def k0_off61 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v221 : BitVec 32 := Scalar.addi v0 c20_i32
  let v222 : Index := Scalar.indexCast v221
  ![v222.toNat]
def k0_off62 (v223 : BitVec 32) : Fin 3 → Nat :=
  let c0_i32_160 : BitVec 32 := 0#32
  let c0_i32_161 : BitVec 32 := 0#32
  ![v223.toNat, 0, 0]

def k0_chk21 (v223 : BitVec 32) : Prop :=
  (∀ a, (k0_off62 v223) a + S1x2x256.size a ≤ S147456x2x256.size a)
instance k0_chk21.dec : ∀ (v223 : BitVec 32), Decidable (k0_chk21 v223) := fun v223 => decidable_of_iff' _ (Iff.of_eq (k0_chk21.eq_1 v223))
theorem k0_off62_inb : ∀ (v223 : BitVec 32) (k0_hw21 : k0_chk21 v223), ∀ a, (k0_off62 v223) a + S1x2x256.size a ≤ S147456x2x256.size a := fun v223 k0_hw21 => k0_hw21

def k0_off63 (i : grid0.Coords) : Fin 3 → Nat :=
  let arg0 : BitVec 32 := BitVec.ofNat 32 (i 0).val
  let c128_i32 : BitVec 32 := 128#32
  let v0 : BitVec 32 := Scalar.muli arg0 c128_i32
  let c20_i32 : BitVec 32 := 20#32
  let v221 : BitVec 32 := Scalar.addi v0 c20_i32
  let c0_i32_162 : BitVec 32 := 0#32
  let c0_i32_163 : BitVec 32 := 0#32
  ![v221.toNat, 0, 0]
def k0_off64 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v232 : BitVec 32 := Scalar.addi v0 c21_i32
  let v233 : Index := Scalar.indexCast v232
  ![v233.toNat]
def k0_off65 (v234 : BitVec 32) : Fin 3 → Nat :=
  let c0_i32_168 : BitVec 32 := 0#32
  let c0_i32_169 : BitVec 32 := 0#32
  ![v234.toNat, 0, 0]

def k0_chk22 (v234 : BitVec 32) : Prop :=
  (∀ a, (k0_off65 v234) a + S1x2x256.size a ≤ S147456x2x256.size a)
instance k0_chk22.dec : ∀ (v234 : BitVec 32), Decidable (k0_chk22 v234) := fun v234 => decidable_of_iff' _ (Iff.of_eq (k0_chk22.eq_1 v234))
theorem k0_off65_inb : ∀ (v234 : BitVec 32) (k0_hw22 : k0_chk22 v234), ∀ a, (k0_off65 v234) a + S1x2x256.size a ≤ S147456x2x256.size a := fun v234 k0_hw22 => k0_hw22

def k0_off66 (i : grid0.Coords) : Fin 3 → Nat :=
  let arg0 : BitVec 32 := BitVec.ofNat 32 (i 0).val
  let c128_i32 : BitVec 32 := 128#32
  let v0 : BitVec 32 := Scalar.muli arg0 c128_i32
  let c21_i32 : BitVec 32 := 21#32
  let v232 : BitVec 32 := Scalar.addi v0 c21_i32
  let c0_i32_170 : BitVec 32 := 0#32
  let c0_i32_171 : BitVec 32 := 0#32
  ![v232.toNat, 0, 0]
def k0_off67 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v243 : BitVec 32 := Scalar.addi v0 c22_i32
  let v244 : Index := Scalar.indexCast v243
  ![v244.toNat]
def k0_off68 (v245 : BitVec 32) : Fin 3 → Nat :=
  let c0_i32_176 : BitVec 32 := 0#32
  let c0_i32_177 : BitVec 32 := 0#32
  ![v245.toNat, 0, 0]

def k0_chk23 (v245 : BitVec 32) : Prop :=
  (∀ a, (k0_off68 v245) a + S1x2x256.size a ≤ S147456x2x256.size a)
instance k0_chk23.dec : ∀ (v245 : BitVec 32), Decidable (k0_chk23 v245) := fun v245 => decidable_of_iff' _ (Iff.of_eq (k0_chk23.eq_1 v245))
theorem k0_off68_inb : ∀ (v245 : BitVec 32) (k0_hw23 : k0_chk23 v245), ∀ a, (k0_off68 v245) a + S1x2x256.size a ≤ S147456x2x256.size a := fun v245 k0_hw23 => k0_hw23

def k0_off69 (i : grid0.Coords) : Fin 3 → Nat :=
  let arg0 : BitVec 32 := BitVec.ofNat 32 (i 0).val
  let c128_i32 : BitVec 32 := 128#32
  let v0 : BitVec 32 := Scalar.muli arg0 c128_i32
  let c22_i32 : BitVec 32 := 22#32
  let v243 : BitVec 32 := Scalar.addi v0 c22_i32
  let c0_i32_178 : BitVec 32 := 0#32
  let c0_i32_179 : BitVec 32 := 0#32
  ![v243.toNat, 0, 0]
def k0_off70 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v254 : BitVec 32 := Scalar.addi v0 c23_i32
  let v255 : Index := Scalar.indexCast v254
  ![v255.toNat]
def k0_off71 (v256 : BitVec 32) : Fin 3 → Nat :=
  let c0_i32_184 : BitVec 32 := 0#32
  let c0_i32_185 : BitVec 32 := 0#32
  ![v256.toNat, 0, 0]

def k0_chk24 (v256 : BitVec 32) : Prop :=
  (∀ a, (k0_off71 v256) a + S1x2x256.size a ≤ S147456x2x256.size a)
instance k0_chk24.dec : ∀ (v256 : BitVec 32), Decidable (k0_chk24 v256) := fun v256 => decidable_of_iff' _ (Iff.of_eq (k0_chk24.eq_1 v256))
theorem k0_off71_inb : ∀ (v256 : BitVec 32) (k0_hw24 : k0_chk24 v256), ∀ a, (k0_off71 v256) a + S1x2x256.size a ≤ S147456x2x256.size a := fun v256 k0_hw24 => k0_hw24

def k0_off72 (i : grid0.Coords) : Fin 3 → Nat :=
  let arg0 : BitVec 32 := BitVec.ofNat 32 (i 0).val
  let c128_i32 : BitVec 32 := 128#32
  let v0 : BitVec 32 := Scalar.muli arg0 c128_i32
  let c23_i32 : BitVec 32 := 23#32
  let v254 : BitVec 32 := Scalar.addi v0 c23_i32
  let c0_i32_186 : BitVec 32 := 0#32
  let c0_i32_187 : BitVec 32 := 0#32
  ![v254.toNat, 0, 0]
def k0_off73 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v265 : BitVec 32 := Scalar.addi v0 c24_i32
  let v266 : Index := Scalar.indexCast v265
  ![v266.toNat]
def k0_off74 (v267 : BitVec 32) : Fin 3 → Nat :=
  let c0_i32_192 : BitVec 32 := 0#32
  let c0_i32_193 : BitVec 32 := 0#32
  ![v267.toNat, 0, 0]

def k0_chk25 (v267 : BitVec 32) : Prop :=
  (∀ a, (k0_off74 v267) a + S1x2x256.size a ≤ S147456x2x256.size a)
instance k0_chk25.dec : ∀ (v267 : BitVec 32), Decidable (k0_chk25 v267) := fun v267 => decidable_of_iff' _ (Iff.of_eq (k0_chk25.eq_1 v267))
theorem k0_off74_inb : ∀ (v267 : BitVec 32) (k0_hw25 : k0_chk25 v267), ∀ a, (k0_off74 v267) a + S1x2x256.size a ≤ S147456x2x256.size a := fun v267 k0_hw25 => k0_hw25

def k0_off75 (i : grid0.Coords) : Fin 3 → Nat :=
  let arg0 : BitVec 32 := BitVec.ofNat 32 (i 0).val
  let c128_i32 : BitVec 32 := 128#32
  let v0 : BitVec 32 := Scalar.muli arg0 c128_i32
  let c24_i32 : BitVec 32 := 24#32
  let v265 : BitVec 32 := Scalar.addi v0 c24_i32
  let c0_i32_194 : BitVec 32 := 0#32
  let c0_i32_195 : BitVec 32 := 0#32
  ![v265.toNat, 0, 0]
def k0_off76 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v276 : BitVec 32 := Scalar.addi v0 c25_i32
  let v277 : Index := Scalar.indexCast v276
  ![v277.toNat]
def k0_off77 (v278 : BitVec 32) : Fin 3 → Nat :=
  let c0_i32_200 : BitVec 32 := 0#32
  let c0_i32_201 : BitVec 32 := 0#32
  ![v278.toNat, 0, 0]

def k0_chk26 (v278 : BitVec 32) : Prop :=
  (∀ a, (k0_off77 v278) a + S1x2x256.size a ≤ S147456x2x256.size a)
instance k0_chk26.dec : ∀ (v278 : BitVec 32), Decidable (k0_chk26 v278) := fun v278 => decidable_of_iff' _ (Iff.of_eq (k0_chk26.eq_1 v278))
theorem k0_off77_inb : ∀ (v278 : BitVec 32) (k0_hw26 : k0_chk26 v278), ∀ a, (k0_off77 v278) a + S1x2x256.size a ≤ S147456x2x256.size a := fun v278 k0_hw26 => k0_hw26

def k0_off78 (i : grid0.Coords) : Fin 3 → Nat :=
  let arg0 : BitVec 32 := BitVec.ofNat 32 (i 0).val
  let c128_i32 : BitVec 32 := 128#32
  let v0 : BitVec 32 := Scalar.muli arg0 c128_i32
  let c25_i32 : BitVec 32 := 25#32
  let v276 : BitVec 32 := Scalar.addi v0 c25_i32
  let c0_i32_202 : BitVec 32 := 0#32
  let c0_i32_203 : BitVec 32 := 0#32
  ![v276.toNat, 0, 0]
def k0_off79 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v287 : BitVec 32 := Scalar.addi v0 c26_i32
  let v288 : Index := Scalar.indexCast v287
  ![v288.toNat]
def k0_off80 (v289 : BitVec 32) : Fin 3 → Nat :=
  let c0_i32_208 : BitVec 32 := 0#32
  let c0_i32_209 : BitVec 32 := 0#32
  ![v289.toNat, 0, 0]

def k0_chk27 (v289 : BitVec 32) : Prop :=
  (∀ a, (k0_off80 v289) a + S1x2x256.size a ≤ S147456x2x256.size a)
instance k0_chk27.dec : ∀ (v289 : BitVec 32), Decidable (k0_chk27 v289) := fun v289 => decidable_of_iff' _ (Iff.of_eq (k0_chk27.eq_1 v289))
theorem k0_off80_inb : ∀ (v289 : BitVec 32) (k0_hw27 : k0_chk27 v289), ∀ a, (k0_off80 v289) a + S1x2x256.size a ≤ S147456x2x256.size a := fun v289 k0_hw27 => k0_hw27

def k0_off81 (i : grid0.Coords) : Fin 3 → Nat :=
  let arg0 : BitVec 32 := BitVec.ofNat 32 (i 0).val
  let c128_i32 : BitVec 32 := 128#32
  let v0 : BitVec 32 := Scalar.muli arg0 c128_i32
  let c26_i32 : BitVec 32 := 26#32
  let v287 : BitVec 32 := Scalar.addi v0 c26_i32
  let c0_i32_210 : BitVec 32 := 0#32
  let c0_i32_211 : BitVec 32 := 0#32
  ![v287.toNat, 0, 0]
def k0_off82 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v298 : BitVec 32 := Scalar.addi v0 c27_i32
  let v299 : Index := Scalar.indexCast v298
  ![v299.toNat]
def k0_off83 (v300 : BitVec 32) : Fin 3 → Nat :=
  let c0_i32_216 : BitVec 32 := 0#32
  let c0_i32_217 : BitVec 32 := 0#32
  ![v300.toNat, 0, 0]

def k0_chk28 (v300 : BitVec 32) : Prop :=
  (∀ a, (k0_off83 v300) a + S1x2x256.size a ≤ S147456x2x256.size a)
instance k0_chk28.dec : ∀ (v300 : BitVec 32), Decidable (k0_chk28 v300) := fun v300 => decidable_of_iff' _ (Iff.of_eq (k0_chk28.eq_1 v300))
theorem k0_off83_inb : ∀ (v300 : BitVec 32) (k0_hw28 : k0_chk28 v300), ∀ a, (k0_off83 v300) a + S1x2x256.size a ≤ S147456x2x256.size a := fun v300 k0_hw28 => k0_hw28

def k0_off84 (i : grid0.Coords) : Fin 3 → Nat :=
  let arg0 : BitVec 32 := BitVec.ofNat 32 (i 0).val
  let c128_i32 : BitVec 32 := 128#32
  let v0 : BitVec 32 := Scalar.muli arg0 c128_i32
  let c27_i32 : BitVec 32 := 27#32
  let v298 : BitVec 32 := Scalar.addi v0 c27_i32
  let c0_i32_218 : BitVec 32 := 0#32
  let c0_i32_219 : BitVec 32 := 0#32
  ![v298.toNat, 0, 0]
def k0_off85 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v309 : BitVec 32 := Scalar.addi v0 c28_i32
  let v310 : Index := Scalar.indexCast v309
  ![v310.toNat]
def k0_off86 (v311 : BitVec 32) : Fin 3 → Nat :=
  let c0_i32_224 : BitVec 32 := 0#32
  let c0_i32_225 : BitVec 32 := 0#32
  ![v311.toNat, 0, 0]

def k0_chk29 (v311 : BitVec 32) : Prop :=
  (∀ a, (k0_off86 v311) a + S1x2x256.size a ≤ S147456x2x256.size a)
instance k0_chk29.dec : ∀ (v311 : BitVec 32), Decidable (k0_chk29 v311) := fun v311 => decidable_of_iff' _ (Iff.of_eq (k0_chk29.eq_1 v311))
theorem k0_off86_inb : ∀ (v311 : BitVec 32) (k0_hw29 : k0_chk29 v311), ∀ a, (k0_off86 v311) a + S1x2x256.size a ≤ S147456x2x256.size a := fun v311 k0_hw29 => k0_hw29

def k0_off87 (i : grid0.Coords) : Fin 3 → Nat :=
  let arg0 : BitVec 32 := BitVec.ofNat 32 (i 0).val
  let c128_i32 : BitVec 32 := 128#32
  let v0 : BitVec 32 := Scalar.muli arg0 c128_i32
  let c28_i32 : BitVec 32 := 28#32
  let v309 : BitVec 32 := Scalar.addi v0 c28_i32
  let c0_i32_226 : BitVec 32 := 0#32
  let c0_i32_227 : BitVec 32 := 0#32
  ![v309.toNat, 0, 0]
def k0_off88 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v320 : BitVec 32 := Scalar.addi v0 c29_i32
  let v321 : Index := Scalar.indexCast v320
  ![v321.toNat]
def k0_off89 (v322 : BitVec 32) : Fin 3 → Nat :=
  let c0_i32_232 : BitVec 32 := 0#32
  let c0_i32_233 : BitVec 32 := 0#32
  ![v322.toNat, 0, 0]

def k0_chk30 (v322 : BitVec 32) : Prop :=
  (∀ a, (k0_off89 v322) a + S1x2x256.size a ≤ S147456x2x256.size a)
instance k0_chk30.dec : ∀ (v322 : BitVec 32), Decidable (k0_chk30 v322) := fun v322 => decidable_of_iff' _ (Iff.of_eq (k0_chk30.eq_1 v322))
theorem k0_off89_inb : ∀ (v322 : BitVec 32) (k0_hw30 : k0_chk30 v322), ∀ a, (k0_off89 v322) a + S1x2x256.size a ≤ S147456x2x256.size a := fun v322 k0_hw30 => k0_hw30

def k0_off90 (i : grid0.Coords) : Fin 3 → Nat :=
  let arg0 : BitVec 32 := BitVec.ofNat 32 (i 0).val
  let c128_i32 : BitVec 32 := 128#32
  let v0 : BitVec 32 := Scalar.muli arg0 c128_i32
  let c29_i32 : BitVec 32 := 29#32
  let v320 : BitVec 32 := Scalar.addi v0 c29_i32
  let c0_i32_234 : BitVec 32 := 0#32
  let c0_i32_235 : BitVec 32 := 0#32
  ![v320.toNat, 0, 0]
def k0_off91 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v331 : BitVec 32 := Scalar.addi v0 c30_i32
  let v332 : Index := Scalar.indexCast v331
  ![v332.toNat]
def k0_off92 (v333 : BitVec 32) : Fin 3 → Nat :=
  let c0_i32_240 : BitVec 32 := 0#32
  let c0_i32_241 : BitVec 32 := 0#32
  ![v333.toNat, 0, 0]

def k0_chk31 (v333 : BitVec 32) : Prop :=
  (∀ a, (k0_off92 v333) a + S1x2x256.size a ≤ S147456x2x256.size a)
instance k0_chk31.dec : ∀ (v333 : BitVec 32), Decidable (k0_chk31 v333) := fun v333 => decidable_of_iff' _ (Iff.of_eq (k0_chk31.eq_1 v333))
theorem k0_off92_inb : ∀ (v333 : BitVec 32) (k0_hw31 : k0_chk31 v333), ∀ a, (k0_off92 v333) a + S1x2x256.size a ≤ S147456x2x256.size a := fun v333 k0_hw31 => k0_hw31

def k0_off93 (i : grid0.Coords) : Fin 3 → Nat :=
  let arg0 : BitVec 32 := BitVec.ofNat 32 (i 0).val
  let c128_i32 : BitVec 32 := 128#32
  let v0 : BitVec 32 := Scalar.muli arg0 c128_i32
  let c30_i32 : BitVec 32 := 30#32
  let v331 : BitVec 32 := Scalar.addi v0 c30_i32
  let c0_i32_242 : BitVec 32 := 0#32
  let c0_i32_243 : BitVec 32 := 0#32
  ![v331.toNat, 0, 0]
def k0_off94 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v342 : BitVec 32 := Scalar.addi v0 c31_i32
  let v343 : Index := Scalar.indexCast v342
  ![v343.toNat]
def k0_off95 (v344 : BitVec 32) : Fin 3 → Nat :=
  let c0_i32_248 : BitVec 32 := 0#32
  let c0_i32_249 : BitVec 32 := 0#32
  ![v344.toNat, 0, 0]

def k0_chk32 (v344 : BitVec 32) : Prop :=
  (∀ a, (k0_off95 v344) a + S1x2x256.size a ≤ S147456x2x256.size a)
instance k0_chk32.dec : ∀ (v344 : BitVec 32), Decidable (k0_chk32 v344) := fun v344 => decidable_of_iff' _ (Iff.of_eq (k0_chk32.eq_1 v344))
theorem k0_off95_inb : ∀ (v344 : BitVec 32) (k0_hw32 : k0_chk32 v344), ∀ a, (k0_off95 v344) a + S1x2x256.size a ≤ S147456x2x256.size a := fun v344 k0_hw32 => k0_hw32

def k0_off96 (i : grid0.Coords) : Fin 3 → Nat :=
  let arg0 : BitVec 32 := BitVec.ofNat 32 (i 0).val
  let c128_i32 : BitVec 32 := 128#32
  let v0 : BitVec 32 := Scalar.muli arg0 c128_i32
  let c31_i32 : BitVec 32 := 31#32
  let v342 : BitVec 32 := Scalar.addi v0 c31_i32
  let c0_i32_250 : BitVec 32 := 0#32
  let c0_i32_251 : BitVec 32 := 0#32
  ![v342.toNat, 0, 0]
def k0_off97 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v353 : BitVec 32 := Scalar.addi v0 c32_i32
  let v354 : Index := Scalar.indexCast v353
  ![v354.toNat]
def k0_off98 (v355 : BitVec 32) : Fin 3 → Nat :=
  let c0_i32_256 : BitVec 32 := 0#32
  let c0_i32_257 : BitVec 32 := 0#32
  ![v355.toNat, 0, 0]

def k0_chk33 (v355 : BitVec 32) : Prop :=
  (∀ a, (k0_off98 v355) a + S1x2x256.size a ≤ S147456x2x256.size a)
instance k0_chk33.dec : ∀ (v355 : BitVec 32), Decidable (k0_chk33 v355) := fun v355 => decidable_of_iff' _ (Iff.of_eq (k0_chk33.eq_1 v355))
theorem k0_off98_inb : ∀ (v355 : BitVec 32) (k0_hw33 : k0_chk33 v355), ∀ a, (k0_off98 v355) a + S1x2x256.size a ≤ S147456x2x256.size a := fun v355 k0_hw33 => k0_hw33

def k0_off99 (i : grid0.Coords) : Fin 3 → Nat :=
  let arg0 : BitVec 32 := BitVec.ofNat 32 (i 0).val
  let c128_i32 : BitVec 32 := 128#32
  let v0 : BitVec 32 := Scalar.muli arg0 c128_i32
  let c32_i32 : BitVec 32 := 32#32
  let v353 : BitVec 32 := Scalar.addi v0 c32_i32
  let c0_i32_258 : BitVec 32 := 0#32
  let c0_i32_259 : BitVec 32 := 0#32
  ![v353.toNat, 0, 0]
def k0_off100 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v364 : BitVec 32 := Scalar.addi v0 c33_i32
  let v365 : Index := Scalar.indexCast v364
  ![v365.toNat]
def k0_off101 (v366 : BitVec 32) : Fin 3 → Nat :=
  let c0_i32_264 : BitVec 32 := 0#32
  let c0_i32_265 : BitVec 32 := 0#32
  ![v366.toNat, 0, 0]

def k0_chk34 (v366 : BitVec 32) : Prop :=
  (∀ a, (k0_off101 v366) a + S1x2x256.size a ≤ S147456x2x256.size a)
instance k0_chk34.dec : ∀ (v366 : BitVec 32), Decidable (k0_chk34 v366) := fun v366 => decidable_of_iff' _ (Iff.of_eq (k0_chk34.eq_1 v366))
theorem k0_off101_inb : ∀ (v366 : BitVec 32) (k0_hw34 : k0_chk34 v366), ∀ a, (k0_off101 v366) a + S1x2x256.size a ≤ S147456x2x256.size a := fun v366 k0_hw34 => k0_hw34

def k0_off102 (i : grid0.Coords) : Fin 3 → Nat :=
  let arg0 : BitVec 32 := BitVec.ofNat 32 (i 0).val
  let c128_i32 : BitVec 32 := 128#32
  let v0 : BitVec 32 := Scalar.muli arg0 c128_i32
  let c33_i32 : BitVec 32 := 33#32
  let v364 : BitVec 32 := Scalar.addi v0 c33_i32
  let c0_i32_266 : BitVec 32 := 0#32
  let c0_i32_267 : BitVec 32 := 0#32
  ![v364.toNat, 0, 0]
def k0_off103 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v375 : BitVec 32 := Scalar.addi v0 c34_i32
  let v376 : Index := Scalar.indexCast v375
  ![v376.toNat]
def k0_off104 (v377 : BitVec 32) : Fin 3 → Nat :=
  let c0_i32_272 : BitVec 32 := 0#32
  let c0_i32_273 : BitVec 32 := 0#32
  ![v377.toNat, 0, 0]

def k0_chk35 (v377 : BitVec 32) : Prop :=
  (∀ a, (k0_off104 v377) a + S1x2x256.size a ≤ S147456x2x256.size a)
instance k0_chk35.dec : ∀ (v377 : BitVec 32), Decidable (k0_chk35 v377) := fun v377 => decidable_of_iff' _ (Iff.of_eq (k0_chk35.eq_1 v377))
theorem k0_off104_inb : ∀ (v377 : BitVec 32) (k0_hw35 : k0_chk35 v377), ∀ a, (k0_off104 v377) a + S1x2x256.size a ≤ S147456x2x256.size a := fun v377 k0_hw35 => k0_hw35

def k0_off105 (i : grid0.Coords) : Fin 3 → Nat :=
  let arg0 : BitVec 32 := BitVec.ofNat 32 (i 0).val
  let c128_i32 : BitVec 32 := 128#32
  let v0 : BitVec 32 := Scalar.muli arg0 c128_i32
  let c34_i32 : BitVec 32 := 34#32
  let v375 : BitVec 32 := Scalar.addi v0 c34_i32
  let c0_i32_274 : BitVec 32 := 0#32
  let c0_i32_275 : BitVec 32 := 0#32
  ![v375.toNat, 0, 0]
def k0_off106 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v386 : BitVec 32 := Scalar.addi v0 c35_i32
  let v387 : Index := Scalar.indexCast v386
  ![v387.toNat]
def k0_off107 (v388 : BitVec 32) : Fin 3 → Nat :=
  let c0_i32_280 : BitVec 32 := 0#32
  let c0_i32_281 : BitVec 32 := 0#32
  ![v388.toNat, 0, 0]

def k0_chk36 (v388 : BitVec 32) : Prop :=
  (∀ a, (k0_off107 v388) a + S1x2x256.size a ≤ S147456x2x256.size a)
instance k0_chk36.dec : ∀ (v388 : BitVec 32), Decidable (k0_chk36 v388) := fun v388 => decidable_of_iff' _ (Iff.of_eq (k0_chk36.eq_1 v388))
theorem k0_off107_inb : ∀ (v388 : BitVec 32) (k0_hw36 : k0_chk36 v388), ∀ a, (k0_off107 v388) a + S1x2x256.size a ≤ S147456x2x256.size a := fun v388 k0_hw36 => k0_hw36

def k0_off108 (i : grid0.Coords) : Fin 3 → Nat :=
  let arg0 : BitVec 32 := BitVec.ofNat 32 (i 0).val
  let c128_i32 : BitVec 32 := 128#32
  let v0 : BitVec 32 := Scalar.muli arg0 c128_i32
  let c35_i32 : BitVec 32 := 35#32
  let v386 : BitVec 32 := Scalar.addi v0 c35_i32
  let c0_i32_282 : BitVec 32 := 0#32
  let c0_i32_283 : BitVec 32 := 0#32
  ![v386.toNat, 0, 0]
def k0_off109 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v397 : BitVec 32 := Scalar.addi v0 c36_i32
  let v398 : Index := Scalar.indexCast v397
  ![v398.toNat]
def k0_off110 (v399 : BitVec 32) : Fin 3 → Nat :=
  let c0_i32_288 : BitVec 32 := 0#32
  let c0_i32_289 : BitVec 32 := 0#32
  ![v399.toNat, 0, 0]

def k0_chk37 (v399 : BitVec 32) : Prop :=
  (∀ a, (k0_off110 v399) a + S1x2x256.size a ≤ S147456x2x256.size a)
instance k0_chk37.dec : ∀ (v399 : BitVec 32), Decidable (k0_chk37 v399) := fun v399 => decidable_of_iff' _ (Iff.of_eq (k0_chk37.eq_1 v399))
theorem k0_off110_inb : ∀ (v399 : BitVec 32) (k0_hw37 : k0_chk37 v399), ∀ a, (k0_off110 v399) a + S1x2x256.size a ≤ S147456x2x256.size a := fun v399 k0_hw37 => k0_hw37

def k0_off111 (i : grid0.Coords) : Fin 3 → Nat :=
  let arg0 : BitVec 32 := BitVec.ofNat 32 (i 0).val
  let c128_i32 : BitVec 32 := 128#32
  let v0 : BitVec 32 := Scalar.muli arg0 c128_i32
  let c36_i32 : BitVec 32 := 36#32
  let v397 : BitVec 32 := Scalar.addi v0 c36_i32
  let c0_i32_290 : BitVec 32 := 0#32
  let c0_i32_291 : BitVec 32 := 0#32
  ![v397.toNat, 0, 0]
def k0_off112 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v408 : BitVec 32 := Scalar.addi v0 c37_i32
  let v409 : Index := Scalar.indexCast v408
  ![v409.toNat]
def k0_off113 (v410 : BitVec 32) : Fin 3 → Nat :=
  let c0_i32_296 : BitVec 32 := 0#32
  let c0_i32_297 : BitVec 32 := 0#32
  ![v410.toNat, 0, 0]

def k0_chk38 (v410 : BitVec 32) : Prop :=
  (∀ a, (k0_off113 v410) a + S1x2x256.size a ≤ S147456x2x256.size a)
instance k0_chk38.dec : ∀ (v410 : BitVec 32), Decidable (k0_chk38 v410) := fun v410 => decidable_of_iff' _ (Iff.of_eq (k0_chk38.eq_1 v410))
theorem k0_off113_inb : ∀ (v410 : BitVec 32) (k0_hw38 : k0_chk38 v410), ∀ a, (k0_off113 v410) a + S1x2x256.size a ≤ S147456x2x256.size a := fun v410 k0_hw38 => k0_hw38

def k0_off114 (i : grid0.Coords) : Fin 3 → Nat :=
  let arg0 : BitVec 32 := BitVec.ofNat 32 (i 0).val
  let c128_i32 : BitVec 32 := 128#32
  let v0 : BitVec 32 := Scalar.muli arg0 c128_i32
  let c37_i32 : BitVec 32 := 37#32
  let v408 : BitVec 32 := Scalar.addi v0 c37_i32
  let c0_i32_298 : BitVec 32 := 0#32
  let c0_i32_299 : BitVec 32 := 0#32
  ![v408.toNat, 0, 0]
def k0_off115 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v419 : BitVec 32 := Scalar.addi v0 c38_i32
  let v420 : Index := Scalar.indexCast v419
  ![v420.toNat]
def k0_off116 (v421 : BitVec 32) : Fin 3 → Nat :=
  let c0_i32_304 : BitVec 32 := 0#32
  let c0_i32_305 : BitVec 32 := 0#32
  ![v421.toNat, 0, 0]

def k0_chk39 (v421 : BitVec 32) : Prop :=
  (∀ a, (k0_off116 v421) a + S1x2x256.size a ≤ S147456x2x256.size a)
instance k0_chk39.dec : ∀ (v421 : BitVec 32), Decidable (k0_chk39 v421) := fun v421 => decidable_of_iff' _ (Iff.of_eq (k0_chk39.eq_1 v421))
theorem k0_off116_inb : ∀ (v421 : BitVec 32) (k0_hw39 : k0_chk39 v421), ∀ a, (k0_off116 v421) a + S1x2x256.size a ≤ S147456x2x256.size a := fun v421 k0_hw39 => k0_hw39

def k0_off117 (i : grid0.Coords) : Fin 3 → Nat :=
  let arg0 : BitVec 32 := BitVec.ofNat 32 (i 0).val
  let c128_i32 : BitVec 32 := 128#32
  let v0 : BitVec 32 := Scalar.muli arg0 c128_i32
  let c38_i32 : BitVec 32 := 38#32
  let v419 : BitVec 32 := Scalar.addi v0 c38_i32
  let c0_i32_306 : BitVec 32 := 0#32
  let c0_i32_307 : BitVec 32 := 0#32
  ![v419.toNat, 0, 0]
def k0_off118 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v430 : BitVec 32 := Scalar.addi v0 c39_i32
  let v431 : Index := Scalar.indexCast v430
  ![v431.toNat]
def k0_off119 (v432 : BitVec 32) : Fin 3 → Nat :=
  let c0_i32_312 : BitVec 32 := 0#32
  let c0_i32_313 : BitVec 32 := 0#32
  ![v432.toNat, 0, 0]

def k0_chk40 (v432 : BitVec 32) : Prop :=
  (∀ a, (k0_off119 v432) a + S1x2x256.size a ≤ S147456x2x256.size a)
instance k0_chk40.dec : ∀ (v432 : BitVec 32), Decidable (k0_chk40 v432) := fun v432 => decidable_of_iff' _ (Iff.of_eq (k0_chk40.eq_1 v432))
theorem k0_off119_inb : ∀ (v432 : BitVec 32) (k0_hw40 : k0_chk40 v432), ∀ a, (k0_off119 v432) a + S1x2x256.size a ≤ S147456x2x256.size a := fun v432 k0_hw40 => k0_hw40

def k0_off120 (i : grid0.Coords) : Fin 3 → Nat :=
  let arg0 : BitVec 32 := BitVec.ofNat 32 (i 0).val
  let c128_i32 : BitVec 32 := 128#32
  let v0 : BitVec 32 := Scalar.muli arg0 c128_i32
  let c39_i32 : BitVec 32 := 39#32
  let v430 : BitVec 32 := Scalar.addi v0 c39_i32
  let c0_i32_314 : BitVec 32 := 0#32
  let c0_i32_315 : BitVec 32 := 0#32
  ![v430.toNat, 0, 0]
def k0_off121 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v441 : BitVec 32 := Scalar.addi v0 c40_i32
  let v442 : Index := Scalar.indexCast v441
  ![v442.toNat]
def k0_off122 (v443 : BitVec 32) : Fin 3 → Nat :=
  let c0_i32_320 : BitVec 32 := 0#32
  let c0_i32_321 : BitVec 32 := 0#32
  ![v443.toNat, 0, 0]

def k0_chk41 (v443 : BitVec 32) : Prop :=
  (∀ a, (k0_off122 v443) a + S1x2x256.size a ≤ S147456x2x256.size a)
instance k0_chk41.dec : ∀ (v443 : BitVec 32), Decidable (k0_chk41 v443) := fun v443 => decidable_of_iff' _ (Iff.of_eq (k0_chk41.eq_1 v443))
theorem k0_off122_inb : ∀ (v443 : BitVec 32) (k0_hw41 : k0_chk41 v443), ∀ a, (k0_off122 v443) a + S1x2x256.size a ≤ S147456x2x256.size a := fun v443 k0_hw41 => k0_hw41

def k0_off123 (i : grid0.Coords) : Fin 3 → Nat :=
  let arg0 : BitVec 32 := BitVec.ofNat 32 (i 0).val
  let c128_i32 : BitVec 32 := 128#32
  let v0 : BitVec 32 := Scalar.muli arg0 c128_i32
  let c40_i32 : BitVec 32 := 40#32
  let v441 : BitVec 32 := Scalar.addi v0 c40_i32
  let c0_i32_322 : BitVec 32 := 0#32
  let c0_i32_323 : BitVec 32 := 0#32
  ![v441.toNat, 0, 0]
def k0_off124 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v452 : BitVec 32 := Scalar.addi v0 c41_i32
  let v453 : Index := Scalar.indexCast v452
  ![v453.toNat]
def k0_off125 (v454 : BitVec 32) : Fin 3 → Nat :=
  let c0_i32_328 : BitVec 32 := 0#32
  let c0_i32_329 : BitVec 32 := 0#32
  ![v454.toNat, 0, 0]

def k0_chk42 (v454 : BitVec 32) : Prop :=
  (∀ a, (k0_off125 v454) a + S1x2x256.size a ≤ S147456x2x256.size a)
instance k0_chk42.dec : ∀ (v454 : BitVec 32), Decidable (k0_chk42 v454) := fun v454 => decidable_of_iff' _ (Iff.of_eq (k0_chk42.eq_1 v454))
theorem k0_off125_inb : ∀ (v454 : BitVec 32) (k0_hw42 : k0_chk42 v454), ∀ a, (k0_off125 v454) a + S1x2x256.size a ≤ S147456x2x256.size a := fun v454 k0_hw42 => k0_hw42

def k0_off126 (i : grid0.Coords) : Fin 3 → Nat :=
  let arg0 : BitVec 32 := BitVec.ofNat 32 (i 0).val
  let c128_i32 : BitVec 32 := 128#32
  let v0 : BitVec 32 := Scalar.muli arg0 c128_i32
  let c41_i32 : BitVec 32 := 41#32
  let v452 : BitVec 32 := Scalar.addi v0 c41_i32
  let c0_i32_330 : BitVec 32 := 0#32
  let c0_i32_331 : BitVec 32 := 0#32
  ![v452.toNat, 0, 0]
def k0_off127 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v463 : BitVec 32 := Scalar.addi v0 c42_i32
  let v464 : Index := Scalar.indexCast v463
  ![v464.toNat]
def k0_off128 (v465 : BitVec 32) : Fin 3 → Nat :=
  let c0_i32_336 : BitVec 32 := 0#32
  let c0_i32_337 : BitVec 32 := 0#32
  ![v465.toNat, 0, 0]

def k0_chk43 (v465 : BitVec 32) : Prop :=
  (∀ a, (k0_off128 v465) a + S1x2x256.size a ≤ S147456x2x256.size a)
instance k0_chk43.dec : ∀ (v465 : BitVec 32), Decidable (k0_chk43 v465) := fun v465 => decidable_of_iff' _ (Iff.of_eq (k0_chk43.eq_1 v465))
theorem k0_off128_inb : ∀ (v465 : BitVec 32) (k0_hw43 : k0_chk43 v465), ∀ a, (k0_off128 v465) a + S1x2x256.size a ≤ S147456x2x256.size a := fun v465 k0_hw43 => k0_hw43

def k0_off129 (i : grid0.Coords) : Fin 3 → Nat :=
  let arg0 : BitVec 32 := BitVec.ofNat 32 (i 0).val
  let c128_i32 : BitVec 32 := 128#32
  let v0 : BitVec 32 := Scalar.muli arg0 c128_i32
  let c42_i32 : BitVec 32 := 42#32
  let v463 : BitVec 32 := Scalar.addi v0 c42_i32
  let c0_i32_338 : BitVec 32 := 0#32
  let c0_i32_339 : BitVec 32 := 0#32
  ![v463.toNat, 0, 0]
def k0_off130 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v474 : BitVec 32 := Scalar.addi v0 c43_i32
  let v475 : Index := Scalar.indexCast v474
  ![v475.toNat]
def k0_off131 (v476 : BitVec 32) : Fin 3 → Nat :=
  let c0_i32_344 : BitVec 32 := 0#32
  let c0_i32_345 : BitVec 32 := 0#32
  ![v476.toNat, 0, 0]

def k0_chk44 (v476 : BitVec 32) : Prop :=
  (∀ a, (k0_off131 v476) a + S1x2x256.size a ≤ S147456x2x256.size a)
instance k0_chk44.dec : ∀ (v476 : BitVec 32), Decidable (k0_chk44 v476) := fun v476 => decidable_of_iff' _ (Iff.of_eq (k0_chk44.eq_1 v476))
theorem k0_off131_inb : ∀ (v476 : BitVec 32) (k0_hw44 : k0_chk44 v476), ∀ a, (k0_off131 v476) a + S1x2x256.size a ≤ S147456x2x256.size a := fun v476 k0_hw44 => k0_hw44

def k0_off132 (i : grid0.Coords) : Fin 3 → Nat :=
  let arg0 : BitVec 32 := BitVec.ofNat 32 (i 0).val
  let c128_i32 : BitVec 32 := 128#32
  let v0 : BitVec 32 := Scalar.muli arg0 c128_i32
  let c43_i32 : BitVec 32 := 43#32
  let v474 : BitVec 32 := Scalar.addi v0 c43_i32
  let c0_i32_346 : BitVec 32 := 0#32
  let c0_i32_347 : BitVec 32 := 0#32
  ![v474.toNat, 0, 0]
def k0_off133 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v485 : BitVec 32 := Scalar.addi v0 c44_i32
  let v486 : Index := Scalar.indexCast v485
  ![v486.toNat]
def k0_off134 (v487 : BitVec 32) : Fin 3 → Nat :=
  let c0_i32_352 : BitVec 32 := 0#32
  let c0_i32_353 : BitVec 32 := 0#32
  ![v487.toNat, 0, 0]

def k0_chk45 (v487 : BitVec 32) : Prop :=
  (∀ a, (k0_off134 v487) a + S1x2x256.size a ≤ S147456x2x256.size a)
instance k0_chk45.dec : ∀ (v487 : BitVec 32), Decidable (k0_chk45 v487) := fun v487 => decidable_of_iff' _ (Iff.of_eq (k0_chk45.eq_1 v487))
theorem k0_off134_inb : ∀ (v487 : BitVec 32) (k0_hw45 : k0_chk45 v487), ∀ a, (k0_off134 v487) a + S1x2x256.size a ≤ S147456x2x256.size a := fun v487 k0_hw45 => k0_hw45

def k0_off135 (i : grid0.Coords) : Fin 3 → Nat :=
  let arg0 : BitVec 32 := BitVec.ofNat 32 (i 0).val
  let c128_i32 : BitVec 32 := 128#32
  let v0 : BitVec 32 := Scalar.muli arg0 c128_i32
  let c44_i32 : BitVec 32 := 44#32
  let v485 : BitVec 32 := Scalar.addi v0 c44_i32
  let c0_i32_354 : BitVec 32 := 0#32
  let c0_i32_355 : BitVec 32 := 0#32
  ![v485.toNat, 0, 0]
def k0_off136 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v496 : BitVec 32 := Scalar.addi v0 c45_i32
  let v497 : Index := Scalar.indexCast v496
  ![v497.toNat]
def k0_off137 (v498 : BitVec 32) : Fin 3 → Nat :=
  let c0_i32_360 : BitVec 32 := 0#32
  let c0_i32_361 : BitVec 32 := 0#32
  ![v498.toNat, 0, 0]

def k0_chk46 (v498 : BitVec 32) : Prop :=
  (∀ a, (k0_off137 v498) a + S1x2x256.size a ≤ S147456x2x256.size a)
instance k0_chk46.dec : ∀ (v498 : BitVec 32), Decidable (k0_chk46 v498) := fun v498 => decidable_of_iff' _ (Iff.of_eq (k0_chk46.eq_1 v498))
theorem k0_off137_inb : ∀ (v498 : BitVec 32) (k0_hw46 : k0_chk46 v498), ∀ a, (k0_off137 v498) a + S1x2x256.size a ≤ S147456x2x256.size a := fun v498 k0_hw46 => k0_hw46

def k0_off138 (i : grid0.Coords) : Fin 3 → Nat :=
  let arg0 : BitVec 32 := BitVec.ofNat 32 (i 0).val
  let c128_i32 : BitVec 32 := 128#32
  let v0 : BitVec 32 := Scalar.muli arg0 c128_i32
  let c45_i32 : BitVec 32 := 45#32
  let v496 : BitVec 32 := Scalar.addi v0 c45_i32
  let c0_i32_362 : BitVec 32 := 0#32
  let c0_i32_363 : BitVec 32 := 0#32
  ![v496.toNat, 0, 0]
def k0_off139 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v507 : BitVec 32 := Scalar.addi v0 c46_i32
  let v508 : Index := Scalar.indexCast v507
  ![v508.toNat]
def k0_off140 (v509 : BitVec 32) : Fin 3 → Nat :=
  let c0_i32_368 : BitVec 32 := 0#32
  let c0_i32_369 : BitVec 32 := 0#32
  ![v509.toNat, 0, 0]

def k0_chk47 (v509 : BitVec 32) : Prop :=
  (∀ a, (k0_off140 v509) a + S1x2x256.size a ≤ S147456x2x256.size a)
instance k0_chk47.dec : ∀ (v509 : BitVec 32), Decidable (k0_chk47 v509) := fun v509 => decidable_of_iff' _ (Iff.of_eq (k0_chk47.eq_1 v509))
theorem k0_off140_inb : ∀ (v509 : BitVec 32) (k0_hw47 : k0_chk47 v509), ∀ a, (k0_off140 v509) a + S1x2x256.size a ≤ S147456x2x256.size a := fun v509 k0_hw47 => k0_hw47

def k0_off141 (i : grid0.Coords) : Fin 3 → Nat :=
  let arg0 : BitVec 32 := BitVec.ofNat 32 (i 0).val
  let c128_i32 : BitVec 32 := 128#32
  let v0 : BitVec 32 := Scalar.muli arg0 c128_i32
  let c46_i32 : BitVec 32 := 46#32
  let v507 : BitVec 32 := Scalar.addi v0 c46_i32
  let c0_i32_370 : BitVec 32 := 0#32
  let c0_i32_371 : BitVec 32 := 0#32
  ![v507.toNat, 0, 0]
def k0_off142 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v518 : BitVec 32 := Scalar.addi v0 c47_i32
  let v519 : Index := Scalar.indexCast v518
  ![v519.toNat]
def k0_off143 (v520 : BitVec 32) : Fin 3 → Nat :=
  let c0_i32_376 : BitVec 32 := 0#32
  let c0_i32_377 : BitVec 32 := 0#32
  ![v520.toNat, 0, 0]

def k0_chk48 (v520 : BitVec 32) : Prop :=
  (∀ a, (k0_off143 v520) a + S1x2x256.size a ≤ S147456x2x256.size a)
instance k0_chk48.dec : ∀ (v520 : BitVec 32), Decidable (k0_chk48 v520) := fun v520 => decidable_of_iff' _ (Iff.of_eq (k0_chk48.eq_1 v520))
theorem k0_off143_inb : ∀ (v520 : BitVec 32) (k0_hw48 : k0_chk48 v520), ∀ a, (k0_off143 v520) a + S1x2x256.size a ≤ S147456x2x256.size a := fun v520 k0_hw48 => k0_hw48

def k0_off144 (i : grid0.Coords) : Fin 3 → Nat :=
  let arg0 : BitVec 32 := BitVec.ofNat 32 (i 0).val
  let c128_i32 : BitVec 32 := 128#32
  let v0 : BitVec 32 := Scalar.muli arg0 c128_i32
  let c47_i32 : BitVec 32 := 47#32
  let v518 : BitVec 32 := Scalar.addi v0 c47_i32
  let c0_i32_378 : BitVec 32 := 0#32
  let c0_i32_379 : BitVec 32 := 0#32
  ![v518.toNat, 0, 0]
def k0_off145 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v529 : BitVec 32 := Scalar.addi v0 c48_i32
  let v530 : Index := Scalar.indexCast v529
  ![v530.toNat]
def k0_off146 (v531 : BitVec 32) : Fin 3 → Nat :=
  let c0_i32_384 : BitVec 32 := 0#32
  let c0_i32_385 : BitVec 32 := 0#32
  ![v531.toNat, 0, 0]

def k0_chk49 (v531 : BitVec 32) : Prop :=
  (∀ a, (k0_off146 v531) a + S1x2x256.size a ≤ S147456x2x256.size a)
instance k0_chk49.dec : ∀ (v531 : BitVec 32), Decidable (k0_chk49 v531) := fun v531 => decidable_of_iff' _ (Iff.of_eq (k0_chk49.eq_1 v531))
theorem k0_off146_inb : ∀ (v531 : BitVec 32) (k0_hw49 : k0_chk49 v531), ∀ a, (k0_off146 v531) a + S1x2x256.size a ≤ S147456x2x256.size a := fun v531 k0_hw49 => k0_hw49

def k0_off147 (i : grid0.Coords) : Fin 3 → Nat :=
  let arg0 : BitVec 32 := BitVec.ofNat 32 (i 0).val
  let c128_i32 : BitVec 32 := 128#32
  let v0 : BitVec 32 := Scalar.muli arg0 c128_i32
  let c48_i32 : BitVec 32 := 48#32
  let v529 : BitVec 32 := Scalar.addi v0 c48_i32
  let c0_i32_386 : BitVec 32 := 0#32
  let c0_i32_387 : BitVec 32 := 0#32
  ![v529.toNat, 0, 0]
def k0_off148 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v540 : BitVec 32 := Scalar.addi v0 c49_i32
  let v541 : Index := Scalar.indexCast v540
  ![v541.toNat]
def k0_off149 (v542 : BitVec 32) : Fin 3 → Nat :=
  let c0_i32_392 : BitVec 32 := 0#32
  let c0_i32_393 : BitVec 32 := 0#32
  ![v542.toNat, 0, 0]

def k0_chk50 (v542 : BitVec 32) : Prop :=
  (∀ a, (k0_off149 v542) a + S1x2x256.size a ≤ S147456x2x256.size a)
instance k0_chk50.dec : ∀ (v542 : BitVec 32), Decidable (k0_chk50 v542) := fun v542 => decidable_of_iff' _ (Iff.of_eq (k0_chk50.eq_1 v542))
theorem k0_off149_inb : ∀ (v542 : BitVec 32) (k0_hw50 : k0_chk50 v542), ∀ a, (k0_off149 v542) a + S1x2x256.size a ≤ S147456x2x256.size a := fun v542 k0_hw50 => k0_hw50

def k0_off150 (i : grid0.Coords) : Fin 3 → Nat :=
  let arg0 : BitVec 32 := BitVec.ofNat 32 (i 0).val
  let c128_i32 : BitVec 32 := 128#32
  let v0 : BitVec 32 := Scalar.muli arg0 c128_i32
  let c49_i32 : BitVec 32 := 49#32
  let v540 : BitVec 32 := Scalar.addi v0 c49_i32
  let c0_i32_394 : BitVec 32 := 0#32
  let c0_i32_395 : BitVec 32 := 0#32
  ![v540.toNat, 0, 0]
def k0_off151 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v551 : BitVec 32 := Scalar.addi v0 c50_i32
  let v552 : Index := Scalar.indexCast v551
  ![v552.toNat]
def k0_off152 (v553 : BitVec 32) : Fin 3 → Nat :=
  let c0_i32_400 : BitVec 32 := 0#32
  let c0_i32_401 : BitVec 32 := 0#32
  ![v553.toNat, 0, 0]

def k0_chk51 (v553 : BitVec 32) : Prop :=
  (∀ a, (k0_off152 v553) a + S1x2x256.size a ≤ S147456x2x256.size a)
instance k0_chk51.dec : ∀ (v553 : BitVec 32), Decidable (k0_chk51 v553) := fun v553 => decidable_of_iff' _ (Iff.of_eq (k0_chk51.eq_1 v553))
theorem k0_off152_inb : ∀ (v553 : BitVec 32) (k0_hw51 : k0_chk51 v553), ∀ a, (k0_off152 v553) a + S1x2x256.size a ≤ S147456x2x256.size a := fun v553 k0_hw51 => k0_hw51

def k0_off153 (i : grid0.Coords) : Fin 3 → Nat :=
  let arg0 : BitVec 32 := BitVec.ofNat 32 (i 0).val
  let c128_i32 : BitVec 32 := 128#32
  let v0 : BitVec 32 := Scalar.muli arg0 c128_i32
  let c50_i32 : BitVec 32 := 50#32
  let v551 : BitVec 32 := Scalar.addi v0 c50_i32
  let c0_i32_402 : BitVec 32 := 0#32
  let c0_i32_403 : BitVec 32 := 0#32
  ![v551.toNat, 0, 0]
def k0_off154 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v562 : BitVec 32 := Scalar.addi v0 c51_i32
  let v563 : Index := Scalar.indexCast v562
  ![v563.toNat]
def k0_off155 (v564 : BitVec 32) : Fin 3 → Nat :=
  let c0_i32_408 : BitVec 32 := 0#32
  let c0_i32_409 : BitVec 32 := 0#32
  ![v564.toNat, 0, 0]

def k0_chk52 (v564 : BitVec 32) : Prop :=
  (∀ a, (k0_off155 v564) a + S1x2x256.size a ≤ S147456x2x256.size a)
instance k0_chk52.dec : ∀ (v564 : BitVec 32), Decidable (k0_chk52 v564) := fun v564 => decidable_of_iff' _ (Iff.of_eq (k0_chk52.eq_1 v564))
theorem k0_off155_inb : ∀ (v564 : BitVec 32) (k0_hw52 : k0_chk52 v564), ∀ a, (k0_off155 v564) a + S1x2x256.size a ≤ S147456x2x256.size a := fun v564 k0_hw52 => k0_hw52

def k0_off156 (i : grid0.Coords) : Fin 3 → Nat :=
  let arg0 : BitVec 32 := BitVec.ofNat 32 (i 0).val
  let c128_i32 : BitVec 32 := 128#32
  let v0 : BitVec 32 := Scalar.muli arg0 c128_i32
  let c51_i32 : BitVec 32 := 51#32
  let v562 : BitVec 32 := Scalar.addi v0 c51_i32
  let c0_i32_410 : BitVec 32 := 0#32
  let c0_i32_411 : BitVec 32 := 0#32
  ![v562.toNat, 0, 0]
def k0_off157 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v573 : BitVec 32 := Scalar.addi v0 c52_i32
  let v574 : Index := Scalar.indexCast v573
  ![v574.toNat]
def k0_off158 (v575 : BitVec 32) : Fin 3 → Nat :=
  let c0_i32_416 : BitVec 32 := 0#32
  let c0_i32_417 : BitVec 32 := 0#32
  ![v575.toNat, 0, 0]

def k0_chk53 (v575 : BitVec 32) : Prop :=
  (∀ a, (k0_off158 v575) a + S1x2x256.size a ≤ S147456x2x256.size a)
instance k0_chk53.dec : ∀ (v575 : BitVec 32), Decidable (k0_chk53 v575) := fun v575 => decidable_of_iff' _ (Iff.of_eq (k0_chk53.eq_1 v575))
theorem k0_off158_inb : ∀ (v575 : BitVec 32) (k0_hw53 : k0_chk53 v575), ∀ a, (k0_off158 v575) a + S1x2x256.size a ≤ S147456x2x256.size a := fun v575 k0_hw53 => k0_hw53

def k0_off159 (i : grid0.Coords) : Fin 3 → Nat :=
  let arg0 : BitVec 32 := BitVec.ofNat 32 (i 0).val
  let c128_i32 : BitVec 32 := 128#32
  let v0 : BitVec 32 := Scalar.muli arg0 c128_i32
  let c52_i32 : BitVec 32 := 52#32
  let v573 : BitVec 32 := Scalar.addi v0 c52_i32
  let c0_i32_418 : BitVec 32 := 0#32
  let c0_i32_419 : BitVec 32 := 0#32
  ![v573.toNat, 0, 0]
def k0_off160 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v584 : BitVec 32 := Scalar.addi v0 c53_i32
  let v585 : Index := Scalar.indexCast v584
  ![v585.toNat]
def k0_off161 (v586 : BitVec 32) : Fin 3 → Nat :=
  let c0_i32_424 : BitVec 32 := 0#32
  let c0_i32_425 : BitVec 32 := 0#32
  ![v586.toNat, 0, 0]

def k0_chk54 (v586 : BitVec 32) : Prop :=
  (∀ a, (k0_off161 v586) a + S1x2x256.size a ≤ S147456x2x256.size a)
instance k0_chk54.dec : ∀ (v586 : BitVec 32), Decidable (k0_chk54 v586) := fun v586 => decidable_of_iff' _ (Iff.of_eq (k0_chk54.eq_1 v586))
theorem k0_off161_inb : ∀ (v586 : BitVec 32) (k0_hw54 : k0_chk54 v586), ∀ a, (k0_off161 v586) a + S1x2x256.size a ≤ S147456x2x256.size a := fun v586 k0_hw54 => k0_hw54

def k0_off162 (i : grid0.Coords) : Fin 3 → Nat :=
  let arg0 : BitVec 32 := BitVec.ofNat 32 (i 0).val
  let c128_i32 : BitVec 32 := 128#32
  let v0 : BitVec 32 := Scalar.muli arg0 c128_i32
  let c53_i32 : BitVec 32 := 53#32
  let v584 : BitVec 32 := Scalar.addi v0 c53_i32
  let c0_i32_426 : BitVec 32 := 0#32
  let c0_i32_427 : BitVec 32 := 0#32
  ![v584.toNat, 0, 0]
def k0_off163 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v595 : BitVec 32 := Scalar.addi v0 c54_i32
  let v596 : Index := Scalar.indexCast v595
  ![v596.toNat]
def k0_off164 (v597 : BitVec 32) : Fin 3 → Nat :=
  let c0_i32_432 : BitVec 32 := 0#32
  let c0_i32_433 : BitVec 32 := 0#32
  ![v597.toNat, 0, 0]

def k0_chk55 (v597 : BitVec 32) : Prop :=
  (∀ a, (k0_off164 v597) a + S1x2x256.size a ≤ S147456x2x256.size a)
instance k0_chk55.dec : ∀ (v597 : BitVec 32), Decidable (k0_chk55 v597) := fun v597 => decidable_of_iff' _ (Iff.of_eq (k0_chk55.eq_1 v597))
theorem k0_off164_inb : ∀ (v597 : BitVec 32) (k0_hw55 : k0_chk55 v597), ∀ a, (k0_off164 v597) a + S1x2x256.size a ≤ S147456x2x256.size a := fun v597 k0_hw55 => k0_hw55

def k0_off165 (i : grid0.Coords) : Fin 3 → Nat :=
  let arg0 : BitVec 32 := BitVec.ofNat 32 (i 0).val
  let c128_i32 : BitVec 32 := 128#32
  let v0 : BitVec 32 := Scalar.muli arg0 c128_i32
  let c54_i32 : BitVec 32 := 54#32
  let v595 : BitVec 32 := Scalar.addi v0 c54_i32
  let c0_i32_434 : BitVec 32 := 0#32
  let c0_i32_435 : BitVec 32 := 0#32
  ![v595.toNat, 0, 0]
def k0_off166 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v606 : BitVec 32 := Scalar.addi v0 c55_i32
  let v607 : Index := Scalar.indexCast v606
  ![v607.toNat]
def k0_off167 (v608 : BitVec 32) : Fin 3 → Nat :=
  let c0_i32_440 : BitVec 32 := 0#32
  let c0_i32_441 : BitVec 32 := 0#32
  ![v608.toNat, 0, 0]

def k0_chk56 (v608 : BitVec 32) : Prop :=
  (∀ a, (k0_off167 v608) a + S1x2x256.size a ≤ S147456x2x256.size a)
instance k0_chk56.dec : ∀ (v608 : BitVec 32), Decidable (k0_chk56 v608) := fun v608 => decidable_of_iff' _ (Iff.of_eq (k0_chk56.eq_1 v608))
theorem k0_off167_inb : ∀ (v608 : BitVec 32) (k0_hw56 : k0_chk56 v608), ∀ a, (k0_off167 v608) a + S1x2x256.size a ≤ S147456x2x256.size a := fun v608 k0_hw56 => k0_hw56

def k0_off168 (i : grid0.Coords) : Fin 3 → Nat :=
  let arg0 : BitVec 32 := BitVec.ofNat 32 (i 0).val
  let c128_i32 : BitVec 32 := 128#32
  let v0 : BitVec 32 := Scalar.muli arg0 c128_i32
  let c55_i32 : BitVec 32 := 55#32
  let v606 : BitVec 32 := Scalar.addi v0 c55_i32
  let c0_i32_442 : BitVec 32 := 0#32
  let c0_i32_443 : BitVec 32 := 0#32
  ![v606.toNat, 0, 0]
def k0_off169 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v617 : BitVec 32 := Scalar.addi v0 c56_i32
  let v618 : Index := Scalar.indexCast v617
  ![v618.toNat]
def k0_off170 (v619 : BitVec 32) : Fin 3 → Nat :=
  let c0_i32_448 : BitVec 32 := 0#32
  let c0_i32_449 : BitVec 32 := 0#32
  ![v619.toNat, 0, 0]

def k0_chk57 (v619 : BitVec 32) : Prop :=
  (∀ a, (k0_off170 v619) a + S1x2x256.size a ≤ S147456x2x256.size a)
instance k0_chk57.dec : ∀ (v619 : BitVec 32), Decidable (k0_chk57 v619) := fun v619 => decidable_of_iff' _ (Iff.of_eq (k0_chk57.eq_1 v619))
theorem k0_off170_inb : ∀ (v619 : BitVec 32) (k0_hw57 : k0_chk57 v619), ∀ a, (k0_off170 v619) a + S1x2x256.size a ≤ S147456x2x256.size a := fun v619 k0_hw57 => k0_hw57

def k0_off171 (i : grid0.Coords) : Fin 3 → Nat :=
  let arg0 : BitVec 32 := BitVec.ofNat 32 (i 0).val
  let c128_i32 : BitVec 32 := 128#32
  let v0 : BitVec 32 := Scalar.muli arg0 c128_i32
  let c56_i32 : BitVec 32 := 56#32
  let v617 : BitVec 32 := Scalar.addi v0 c56_i32
  let c0_i32_450 : BitVec 32 := 0#32
  let c0_i32_451 : BitVec 32 := 0#32
  ![v617.toNat, 0, 0]
def k0_off172 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v628 : BitVec 32 := Scalar.addi v0 c57_i32
  let v629 : Index := Scalar.indexCast v628
  ![v629.toNat]
def k0_off173 (v630 : BitVec 32) : Fin 3 → Nat :=
  let c0_i32_456 : BitVec 32 := 0#32
  let c0_i32_457 : BitVec 32 := 0#32
  ![v630.toNat, 0, 0]

def k0_chk58 (v630 : BitVec 32) : Prop :=
  (∀ a, (k0_off173 v630) a + S1x2x256.size a ≤ S147456x2x256.size a)
instance k0_chk58.dec : ∀ (v630 : BitVec 32), Decidable (k0_chk58 v630) := fun v630 => decidable_of_iff' _ (Iff.of_eq (k0_chk58.eq_1 v630))
theorem k0_off173_inb : ∀ (v630 : BitVec 32) (k0_hw58 : k0_chk58 v630), ∀ a, (k0_off173 v630) a + S1x2x256.size a ≤ S147456x2x256.size a := fun v630 k0_hw58 => k0_hw58

def k0_off174 (i : grid0.Coords) : Fin 3 → Nat :=
  let arg0 : BitVec 32 := BitVec.ofNat 32 (i 0).val
  let c128_i32 : BitVec 32 := 128#32
  let v0 : BitVec 32 := Scalar.muli arg0 c128_i32
  let c57_i32 : BitVec 32 := 57#32
  let v628 : BitVec 32 := Scalar.addi v0 c57_i32
  let c0_i32_458 : BitVec 32 := 0#32
  let c0_i32_459 : BitVec 32 := 0#32
  ![v628.toNat, 0, 0]
def k0_off175 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v639 : BitVec 32 := Scalar.addi v0 c58_i32
  let v640 : Index := Scalar.indexCast v639
  ![v640.toNat]
def k0_off176 (v641 : BitVec 32) : Fin 3 → Nat :=
  let c0_i32_464 : BitVec 32 := 0#32
  let c0_i32_465 : BitVec 32 := 0#32
  ![v641.toNat, 0, 0]

def k0_chk59 (v641 : BitVec 32) : Prop :=
  (∀ a, (k0_off176 v641) a + S1x2x256.size a ≤ S147456x2x256.size a)
instance k0_chk59.dec : ∀ (v641 : BitVec 32), Decidable (k0_chk59 v641) := fun v641 => decidable_of_iff' _ (Iff.of_eq (k0_chk59.eq_1 v641))
theorem k0_off176_inb : ∀ (v641 : BitVec 32) (k0_hw59 : k0_chk59 v641), ∀ a, (k0_off176 v641) a + S1x2x256.size a ≤ S147456x2x256.size a := fun v641 k0_hw59 => k0_hw59

def k0_off177 (i : grid0.Coords) : Fin 3 → Nat :=
  let arg0 : BitVec 32 := BitVec.ofNat 32 (i 0).val
  let c128_i32 : BitVec 32 := 128#32
  let v0 : BitVec 32 := Scalar.muli arg0 c128_i32
  let c58_i32 : BitVec 32 := 58#32
  let v639 : BitVec 32 := Scalar.addi v0 c58_i32
  let c0_i32_466 : BitVec 32 := 0#32
  let c0_i32_467 : BitVec 32 := 0#32
  ![v639.toNat, 0, 0]
def k0_off178 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v650 : BitVec 32 := Scalar.addi v0 c59_i32
  let v651 : Index := Scalar.indexCast v650
  ![v651.toNat]
def k0_off179 (v652 : BitVec 32) : Fin 3 → Nat :=
  let c0_i32_472 : BitVec 32 := 0#32
  let c0_i32_473 : BitVec 32 := 0#32
  ![v652.toNat, 0, 0]

def k0_chk60 (v652 : BitVec 32) : Prop :=
  (∀ a, (k0_off179 v652) a + S1x2x256.size a ≤ S147456x2x256.size a)
instance k0_chk60.dec : ∀ (v652 : BitVec 32), Decidable (k0_chk60 v652) := fun v652 => decidable_of_iff' _ (Iff.of_eq (k0_chk60.eq_1 v652))
theorem k0_off179_inb : ∀ (v652 : BitVec 32) (k0_hw60 : k0_chk60 v652), ∀ a, (k0_off179 v652) a + S1x2x256.size a ≤ S147456x2x256.size a := fun v652 k0_hw60 => k0_hw60

def k0_off180 (i : grid0.Coords) : Fin 3 → Nat :=
  let arg0 : BitVec 32 := BitVec.ofNat 32 (i 0).val
  let c128_i32 : BitVec 32 := 128#32
  let v0 : BitVec 32 := Scalar.muli arg0 c128_i32
  let c59_i32 : BitVec 32 := 59#32
  let v650 : BitVec 32 := Scalar.addi v0 c59_i32
  let c0_i32_474 : BitVec 32 := 0#32
  let c0_i32_475 : BitVec 32 := 0#32
  ![v650.toNat, 0, 0]
def k0_off181 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v661 : BitVec 32 := Scalar.addi v0 c60_i32
  let v662 : Index := Scalar.indexCast v661
  ![v662.toNat]
def k0_off182 (v663 : BitVec 32) : Fin 3 → Nat :=
  let c0_i32_480 : BitVec 32 := 0#32
  let c0_i32_481 : BitVec 32 := 0#32
  ![v663.toNat, 0, 0]

def k0_chk61 (v663 : BitVec 32) : Prop :=
  (∀ a, (k0_off182 v663) a + S1x2x256.size a ≤ S147456x2x256.size a)
instance k0_chk61.dec : ∀ (v663 : BitVec 32), Decidable (k0_chk61 v663) := fun v663 => decidable_of_iff' _ (Iff.of_eq (k0_chk61.eq_1 v663))
theorem k0_off182_inb : ∀ (v663 : BitVec 32) (k0_hw61 : k0_chk61 v663), ∀ a, (k0_off182 v663) a + S1x2x256.size a ≤ S147456x2x256.size a := fun v663 k0_hw61 => k0_hw61

def k0_off183 (i : grid0.Coords) : Fin 3 → Nat :=
  let arg0 : BitVec 32 := BitVec.ofNat 32 (i 0).val
  let c128_i32 : BitVec 32 := 128#32
  let v0 : BitVec 32 := Scalar.muli arg0 c128_i32
  let c60_i32 : BitVec 32 := 60#32
  let v661 : BitVec 32 := Scalar.addi v0 c60_i32
  let c0_i32_482 : BitVec 32 := 0#32
  let c0_i32_483 : BitVec 32 := 0#32
  ![v661.toNat, 0, 0]
def k0_off184 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v672 : BitVec 32 := Scalar.addi v0 c61_i32
  let v673 : Index := Scalar.indexCast v672
  ![v673.toNat]
def k0_off185 (v674 : BitVec 32) : Fin 3 → Nat :=
  let c0_i32_488 : BitVec 32 := 0#32
  let c0_i32_489 : BitVec 32 := 0#32
  ![v674.toNat, 0, 0]

def k0_chk62 (v674 : BitVec 32) : Prop :=
  (∀ a, (k0_off185 v674) a + S1x2x256.size a ≤ S147456x2x256.size a)
instance k0_chk62.dec : ∀ (v674 : BitVec 32), Decidable (k0_chk62 v674) := fun v674 => decidable_of_iff' _ (Iff.of_eq (k0_chk62.eq_1 v674))
theorem k0_off185_inb : ∀ (v674 : BitVec 32) (k0_hw62 : k0_chk62 v674), ∀ a, (k0_off185 v674) a + S1x2x256.size a ≤ S147456x2x256.size a := fun v674 k0_hw62 => k0_hw62

def k0_off186 (i : grid0.Coords) : Fin 3 → Nat :=
  let arg0 : BitVec 32 := BitVec.ofNat 32 (i 0).val
  let c128_i32 : BitVec 32 := 128#32
  let v0 : BitVec 32 := Scalar.muli arg0 c128_i32
  let c61_i32 : BitVec 32 := 61#32
  let v672 : BitVec 32 := Scalar.addi v0 c61_i32
  let c0_i32_490 : BitVec 32 := 0#32
  let c0_i32_491 : BitVec 32 := 0#32
  ![v672.toNat, 0, 0]
def k0_off187 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v683 : BitVec 32 := Scalar.addi v0 c62_i32
  let v684 : Index := Scalar.indexCast v683
  ![v684.toNat]
def k0_off188 (v685 : BitVec 32) : Fin 3 → Nat :=
  let c0_i32_496 : BitVec 32 := 0#32
  let c0_i32_497 : BitVec 32 := 0#32
  ![v685.toNat, 0, 0]

def k0_chk63 (v685 : BitVec 32) : Prop :=
  (∀ a, (k0_off188 v685) a + S1x2x256.size a ≤ S147456x2x256.size a)
instance k0_chk63.dec : ∀ (v685 : BitVec 32), Decidable (k0_chk63 v685) := fun v685 => decidable_of_iff' _ (Iff.of_eq (k0_chk63.eq_1 v685))
theorem k0_off188_inb : ∀ (v685 : BitVec 32) (k0_hw63 : k0_chk63 v685), ∀ a, (k0_off188 v685) a + S1x2x256.size a ≤ S147456x2x256.size a := fun v685 k0_hw63 => k0_hw63

def k0_off189 (i : grid0.Coords) : Fin 3 → Nat :=
  let arg0 : BitVec 32 := BitVec.ofNat 32 (i 0).val
  let c128_i32 : BitVec 32 := 128#32
  let v0 : BitVec 32 := Scalar.muli arg0 c128_i32
  let c62_i32 : BitVec 32 := 62#32
  let v683 : BitVec 32 := Scalar.addi v0 c62_i32
  let c0_i32_498 : BitVec 32 := 0#32
  let c0_i32_499 : BitVec 32 := 0#32
  ![v683.toNat, 0, 0]
def k0_off190 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v694 : BitVec 32 := Scalar.addi v0 c63_i32
  let v695 : Index := Scalar.indexCast v694
  ![v695.toNat]
def k0_off191 (v696 : BitVec 32) : Fin 3 → Nat :=
  let c0_i32_504 : BitVec 32 := 0#32
  let c0_i32_505 : BitVec 32 := 0#32
  ![v696.toNat, 0, 0]

def k0_chk64 (v696 : BitVec 32) : Prop :=
  (∀ a, (k0_off191 v696) a + S1x2x256.size a ≤ S147456x2x256.size a)
instance k0_chk64.dec : ∀ (v696 : BitVec 32), Decidable (k0_chk64 v696) := fun v696 => decidable_of_iff' _ (Iff.of_eq (k0_chk64.eq_1 v696))
theorem k0_off191_inb : ∀ (v696 : BitVec 32) (k0_hw64 : k0_chk64 v696), ∀ a, (k0_off191 v696) a + S1x2x256.size a ≤ S147456x2x256.size a := fun v696 k0_hw64 => k0_hw64

def k0_off192 (i : grid0.Coords) : Fin 3 → Nat :=
  let arg0 : BitVec 32 := BitVec.ofNat 32 (i 0).val
  let c128_i32 : BitVec 32 := 128#32
  let v0 : BitVec 32 := Scalar.muli arg0 c128_i32
  let c63_i32 : BitVec 32 := 63#32
  let v694 : BitVec 32 := Scalar.addi v0 c63_i32
  let c0_i32_506 : BitVec 32 := 0#32
  let c0_i32_507 : BitVec 32 := 0#32
  ![v694.toNat, 0, 0]
def k0_off193 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v705 : BitVec 32 := Scalar.addi v0 c64_i32
  let v706 : Index := Scalar.indexCast v705
  ![v706.toNat]
def k0_off194 (v707 : BitVec 32) : Fin 3 → Nat :=
  let c0_i32_512 : BitVec 32 := 0#32
  let c0_i32_513 : BitVec 32 := 0#32
  ![v707.toNat, 0, 0]

def k0_chk65 (v707 : BitVec 32) : Prop :=
  (∀ a, (k0_off194 v707) a + S1x2x256.size a ≤ S147456x2x256.size a)
instance k0_chk65.dec : ∀ (v707 : BitVec 32), Decidable (k0_chk65 v707) := fun v707 => decidable_of_iff' _ (Iff.of_eq (k0_chk65.eq_1 v707))
theorem k0_off194_inb : ∀ (v707 : BitVec 32) (k0_hw65 : k0_chk65 v707), ∀ a, (k0_off194 v707) a + S1x2x256.size a ≤ S147456x2x256.size a := fun v707 k0_hw65 => k0_hw65

def k0_off195 (i : grid0.Coords) : Fin 3 → Nat :=
  let arg0 : BitVec 32 := BitVec.ofNat 32 (i 0).val
  let c128_i32 : BitVec 32 := 128#32
  let v0 : BitVec 32 := Scalar.muli arg0 c128_i32
  let c64_i32 : BitVec 32 := 64#32
  let v705 : BitVec 32 := Scalar.addi v0 c64_i32
  let c0_i32_514 : BitVec 32 := 0#32
  let c0_i32_515 : BitVec 32 := 0#32
  ![v705.toNat, 0, 0]
def k0_off196 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v716 : BitVec 32 := Scalar.addi v0 c65_i32
  let v717 : Index := Scalar.indexCast v716
  ![v717.toNat]
def k0_off197 (v718 : BitVec 32) : Fin 3 → Nat :=
  let c0_i32_520 : BitVec 32 := 0#32
  let c0_i32_521 : BitVec 32 := 0#32
  ![v718.toNat, 0, 0]

def k0_chk66 (v718 : BitVec 32) : Prop :=
  (∀ a, (k0_off197 v718) a + S1x2x256.size a ≤ S147456x2x256.size a)
instance k0_chk66.dec : ∀ (v718 : BitVec 32), Decidable (k0_chk66 v718) := fun v718 => decidable_of_iff' _ (Iff.of_eq (k0_chk66.eq_1 v718))
theorem k0_off197_inb : ∀ (v718 : BitVec 32) (k0_hw66 : k0_chk66 v718), ∀ a, (k0_off197 v718) a + S1x2x256.size a ≤ S147456x2x256.size a := fun v718 k0_hw66 => k0_hw66

def k0_off198 (i : grid0.Coords) : Fin 3 → Nat :=
  let arg0 : BitVec 32 := BitVec.ofNat 32 (i 0).val
  let c128_i32 : BitVec 32 := 128#32
  let v0 : BitVec 32 := Scalar.muli arg0 c128_i32
  let c65_i32 : BitVec 32 := 65#32
  let v716 : BitVec 32 := Scalar.addi v0 c65_i32
  let c0_i32_522 : BitVec 32 := 0#32
  let c0_i32_523 : BitVec 32 := 0#32
  ![v716.toNat, 0, 0]
def k0_off199 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v727 : BitVec 32 := Scalar.addi v0 c66_i32
  let v728 : Index := Scalar.indexCast v727
  ![v728.toNat]
def k0_off200 (v729 : BitVec 32) : Fin 3 → Nat :=
  let c0_i32_528 : BitVec 32 := 0#32
  let c0_i32_529 : BitVec 32 := 0#32
  ![v729.toNat, 0, 0]

def k0_chk67 (v729 : BitVec 32) : Prop :=
  (∀ a, (k0_off200 v729) a + S1x2x256.size a ≤ S147456x2x256.size a)
instance k0_chk67.dec : ∀ (v729 : BitVec 32), Decidable (k0_chk67 v729) := fun v729 => decidable_of_iff' _ (Iff.of_eq (k0_chk67.eq_1 v729))
theorem k0_off200_inb : ∀ (v729 : BitVec 32) (k0_hw67 : k0_chk67 v729), ∀ a, (k0_off200 v729) a + S1x2x256.size a ≤ S147456x2x256.size a := fun v729 k0_hw67 => k0_hw67

def k0_off201 (i : grid0.Coords) : Fin 3 → Nat :=
  let arg0 : BitVec 32 := BitVec.ofNat 32 (i 0).val
  let c128_i32 : BitVec 32 := 128#32
  let v0 : BitVec 32 := Scalar.muli arg0 c128_i32
  let c66_i32 : BitVec 32 := 66#32
  let v727 : BitVec 32 := Scalar.addi v0 c66_i32
  let c0_i32_530 : BitVec 32 := 0#32
  let c0_i32_531 : BitVec 32 := 0#32
  ![v727.toNat, 0, 0]
def k0_off202 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v738 : BitVec 32 := Scalar.addi v0 c67_i32
  let v739 : Index := Scalar.indexCast v738
  ![v739.toNat]
def k0_off203 (v740 : BitVec 32) : Fin 3 → Nat :=
  let c0_i32_536 : BitVec 32 := 0#32
  let c0_i32_537 : BitVec 32 := 0#32
  ![v740.toNat, 0, 0]

def k0_chk68 (v740 : BitVec 32) : Prop :=
  (∀ a, (k0_off203 v740) a + S1x2x256.size a ≤ S147456x2x256.size a)
instance k0_chk68.dec : ∀ (v740 : BitVec 32), Decidable (k0_chk68 v740) := fun v740 => decidable_of_iff' _ (Iff.of_eq (k0_chk68.eq_1 v740))
theorem k0_off203_inb : ∀ (v740 : BitVec 32) (k0_hw68 : k0_chk68 v740), ∀ a, (k0_off203 v740) a + S1x2x256.size a ≤ S147456x2x256.size a := fun v740 k0_hw68 => k0_hw68

def k0_off204 (i : grid0.Coords) : Fin 3 → Nat :=
  let arg0 : BitVec 32 := BitVec.ofNat 32 (i 0).val
  let c128_i32 : BitVec 32 := 128#32
  let v0 : BitVec 32 := Scalar.muli arg0 c128_i32
  let c67_i32 : BitVec 32 := 67#32
  let v738 : BitVec 32 := Scalar.addi v0 c67_i32
  let c0_i32_538 : BitVec 32 := 0#32
  let c0_i32_539 : BitVec 32 := 0#32
  ![v738.toNat, 0, 0]
def k0_off205 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v749 : BitVec 32 := Scalar.addi v0 c68_i32
  let v750 : Index := Scalar.indexCast v749
  ![v750.toNat]
def k0_off206 (v751 : BitVec 32) : Fin 3 → Nat :=
  let c0_i32_544 : BitVec 32 := 0#32
  let c0_i32_545 : BitVec 32 := 0#32
  ![v751.toNat, 0, 0]

def k0_chk69 (v751 : BitVec 32) : Prop :=
  (∀ a, (k0_off206 v751) a + S1x2x256.size a ≤ S147456x2x256.size a)
instance k0_chk69.dec : ∀ (v751 : BitVec 32), Decidable (k0_chk69 v751) := fun v751 => decidable_of_iff' _ (Iff.of_eq (k0_chk69.eq_1 v751))
theorem k0_off206_inb : ∀ (v751 : BitVec 32) (k0_hw69 : k0_chk69 v751), ∀ a, (k0_off206 v751) a + S1x2x256.size a ≤ S147456x2x256.size a := fun v751 k0_hw69 => k0_hw69

def k0_off207 (i : grid0.Coords) : Fin 3 → Nat :=
  let arg0 : BitVec 32 := BitVec.ofNat 32 (i 0).val
  let c128_i32 : BitVec 32 := 128#32
  let v0 : BitVec 32 := Scalar.muli arg0 c128_i32
  let c68_i32 : BitVec 32 := 68#32
  let v749 : BitVec 32 := Scalar.addi v0 c68_i32
  let c0_i32_546 : BitVec 32 := 0#32
  let c0_i32_547 : BitVec 32 := 0#32
  ![v749.toNat, 0, 0]
def k0_off208 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v760 : BitVec 32 := Scalar.addi v0 c69_i32
  let v761 : Index := Scalar.indexCast v760
  ![v761.toNat]
def k0_off209 (v762 : BitVec 32) : Fin 3 → Nat :=
  let c0_i32_552 : BitVec 32 := 0#32
  let c0_i32_553 : BitVec 32 := 0#32
  ![v762.toNat, 0, 0]

def k0_chk70 (v762 : BitVec 32) : Prop :=
  (∀ a, (k0_off209 v762) a + S1x2x256.size a ≤ S147456x2x256.size a)
instance k0_chk70.dec : ∀ (v762 : BitVec 32), Decidable (k0_chk70 v762) := fun v762 => decidable_of_iff' _ (Iff.of_eq (k0_chk70.eq_1 v762))
theorem k0_off209_inb : ∀ (v762 : BitVec 32) (k0_hw70 : k0_chk70 v762), ∀ a, (k0_off209 v762) a + S1x2x256.size a ≤ S147456x2x256.size a := fun v762 k0_hw70 => k0_hw70

def k0_off210 (i : grid0.Coords) : Fin 3 → Nat :=
  let arg0 : BitVec 32 := BitVec.ofNat 32 (i 0).val
  let c128_i32 : BitVec 32 := 128#32
  let v0 : BitVec 32 := Scalar.muli arg0 c128_i32
  let c69_i32 : BitVec 32 := 69#32
  let v760 : BitVec 32 := Scalar.addi v0 c69_i32
  let c0_i32_554 : BitVec 32 := 0#32
  let c0_i32_555 : BitVec 32 := 0#32
  ![v760.toNat, 0, 0]
def k0_off211 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v771 : BitVec 32 := Scalar.addi v0 c70_i32
  let v772 : Index := Scalar.indexCast v771
  ![v772.toNat]
def k0_off212 (v773 : BitVec 32) : Fin 3 → Nat :=
  let c0_i32_560 : BitVec 32 := 0#32
  let c0_i32_561 : BitVec 32 := 0#32
  ![v773.toNat, 0, 0]

def k0_chk71 (v773 : BitVec 32) : Prop :=
  (∀ a, (k0_off212 v773) a + S1x2x256.size a ≤ S147456x2x256.size a)
instance k0_chk71.dec : ∀ (v773 : BitVec 32), Decidable (k0_chk71 v773) := fun v773 => decidable_of_iff' _ (Iff.of_eq (k0_chk71.eq_1 v773))
theorem k0_off212_inb : ∀ (v773 : BitVec 32) (k0_hw71 : k0_chk71 v773), ∀ a, (k0_off212 v773) a + S1x2x256.size a ≤ S147456x2x256.size a := fun v773 k0_hw71 => k0_hw71

def k0_off213 (i : grid0.Coords) : Fin 3 → Nat :=
  let arg0 : BitVec 32 := BitVec.ofNat 32 (i 0).val
  let c128_i32 : BitVec 32 := 128#32
  let v0 : BitVec 32 := Scalar.muli arg0 c128_i32
  let c70_i32 : BitVec 32 := 70#32
  let v771 : BitVec 32 := Scalar.addi v0 c70_i32
  let c0_i32_562 : BitVec 32 := 0#32
  let c0_i32_563 : BitVec 32 := 0#32
  ![v771.toNat, 0, 0]
def k0_off214 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v782 : BitVec 32 := Scalar.addi v0 c71_i32
  let v783 : Index := Scalar.indexCast v782
  ![v783.toNat]
def k0_off215 (v784 : BitVec 32) : Fin 3 → Nat :=
  let c0_i32_568 : BitVec 32 := 0#32
  let c0_i32_569 : BitVec 32 := 0#32
  ![v784.toNat, 0, 0]

def k0_chk72 (v784 : BitVec 32) : Prop :=
  (∀ a, (k0_off215 v784) a + S1x2x256.size a ≤ S147456x2x256.size a)
instance k0_chk72.dec : ∀ (v784 : BitVec 32), Decidable (k0_chk72 v784) := fun v784 => decidable_of_iff' _ (Iff.of_eq (k0_chk72.eq_1 v784))
theorem k0_off215_inb : ∀ (v784 : BitVec 32) (k0_hw72 : k0_chk72 v784), ∀ a, (k0_off215 v784) a + S1x2x256.size a ≤ S147456x2x256.size a := fun v784 k0_hw72 => k0_hw72

def k0_off216 (i : grid0.Coords) : Fin 3 → Nat :=
  let arg0 : BitVec 32 := BitVec.ofNat 32 (i 0).val
  let c128_i32 : BitVec 32 := 128#32
  let v0 : BitVec 32 := Scalar.muli arg0 c128_i32
  let c71_i32 : BitVec 32 := 71#32
  let v782 : BitVec 32 := Scalar.addi v0 c71_i32
  let c0_i32_570 : BitVec 32 := 0#32
  let c0_i32_571 : BitVec 32 := 0#32
  ![v782.toNat, 0, 0]
def k0_off217 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v793 : BitVec 32 := Scalar.addi v0 c72_i32
  let v794 : Index := Scalar.indexCast v793
  ![v794.toNat]
def k0_off218 (v795 : BitVec 32) : Fin 3 → Nat :=
  let c0_i32_576 : BitVec 32 := 0#32
  let c0_i32_577 : BitVec 32 := 0#32
  ![v795.toNat, 0, 0]

def k0_chk73 (v795 : BitVec 32) : Prop :=
  (∀ a, (k0_off218 v795) a + S1x2x256.size a ≤ S147456x2x256.size a)
instance k0_chk73.dec : ∀ (v795 : BitVec 32), Decidable (k0_chk73 v795) := fun v795 => decidable_of_iff' _ (Iff.of_eq (k0_chk73.eq_1 v795))
theorem k0_off218_inb : ∀ (v795 : BitVec 32) (k0_hw73 : k0_chk73 v795), ∀ a, (k0_off218 v795) a + S1x2x256.size a ≤ S147456x2x256.size a := fun v795 k0_hw73 => k0_hw73

def k0_off219 (i : grid0.Coords) : Fin 3 → Nat :=
  let arg0 : BitVec 32 := BitVec.ofNat 32 (i 0).val
  let c128_i32 : BitVec 32 := 128#32
  let v0 : BitVec 32 := Scalar.muli arg0 c128_i32
  let c72_i32 : BitVec 32 := 72#32
  let v793 : BitVec 32 := Scalar.addi v0 c72_i32
  let c0_i32_578 : BitVec 32 := 0#32
  let c0_i32_579 : BitVec 32 := 0#32
  ![v793.toNat, 0, 0]
def k0_off220 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v804 : BitVec 32 := Scalar.addi v0 c73_i32
  let v805 : Index := Scalar.indexCast v804
  ![v805.toNat]
def k0_off221 (v806 : BitVec 32) : Fin 3 → Nat :=
  let c0_i32_584 : BitVec 32 := 0#32
  let c0_i32_585 : BitVec 32 := 0#32
  ![v806.toNat, 0, 0]

def k0_chk74 (v806 : BitVec 32) : Prop :=
  (∀ a, (k0_off221 v806) a + S1x2x256.size a ≤ S147456x2x256.size a)
instance k0_chk74.dec : ∀ (v806 : BitVec 32), Decidable (k0_chk74 v806) := fun v806 => decidable_of_iff' _ (Iff.of_eq (k0_chk74.eq_1 v806))
theorem k0_off221_inb : ∀ (v806 : BitVec 32) (k0_hw74 : k0_chk74 v806), ∀ a, (k0_off221 v806) a + S1x2x256.size a ≤ S147456x2x256.size a := fun v806 k0_hw74 => k0_hw74

def k0_off222 (i : grid0.Coords) : Fin 3 → Nat :=
  let arg0 : BitVec 32 := BitVec.ofNat 32 (i 0).val
  let c128_i32 : BitVec 32 := 128#32
  let v0 : BitVec 32 := Scalar.muli arg0 c128_i32
  let c73_i32 : BitVec 32 := 73#32
  let v804 : BitVec 32 := Scalar.addi v0 c73_i32
  let c0_i32_586 : BitVec 32 := 0#32
  let c0_i32_587 : BitVec 32 := 0#32
  ![v804.toNat, 0, 0]
def k0_off223 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v815 : BitVec 32 := Scalar.addi v0 c74_i32
  let v816 : Index := Scalar.indexCast v815
  ![v816.toNat]
def k0_off224 (v817 : BitVec 32) : Fin 3 → Nat :=
  let c0_i32_592 : BitVec 32 := 0#32
  let c0_i32_593 : BitVec 32 := 0#32
  ![v817.toNat, 0, 0]

def k0_chk75 (v817 : BitVec 32) : Prop :=
  (∀ a, (k0_off224 v817) a + S1x2x256.size a ≤ S147456x2x256.size a)
instance k0_chk75.dec : ∀ (v817 : BitVec 32), Decidable (k0_chk75 v817) := fun v817 => decidable_of_iff' _ (Iff.of_eq (k0_chk75.eq_1 v817))
theorem k0_off224_inb : ∀ (v817 : BitVec 32) (k0_hw75 : k0_chk75 v817), ∀ a, (k0_off224 v817) a + S1x2x256.size a ≤ S147456x2x256.size a := fun v817 k0_hw75 => k0_hw75

def k0_off225 (i : grid0.Coords) : Fin 3 → Nat :=
  let arg0 : BitVec 32 := BitVec.ofNat 32 (i 0).val
  let c128_i32 : BitVec 32 := 128#32
  let v0 : BitVec 32 := Scalar.muli arg0 c128_i32
  let c74_i32 : BitVec 32 := 74#32
  let v815 : BitVec 32 := Scalar.addi v0 c74_i32
  let c0_i32_594 : BitVec 32 := 0#32
  let c0_i32_595 : BitVec 32 := 0#32
  ![v815.toNat, 0, 0]
def k0_off226 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v826 : BitVec 32 := Scalar.addi v0 c75_i32
  let v827 : Index := Scalar.indexCast v826
  ![v827.toNat]
def k0_off227 (v828 : BitVec 32) : Fin 3 → Nat :=
  let c0_i32_600 : BitVec 32 := 0#32
  let c0_i32_601 : BitVec 32 := 0#32
  ![v828.toNat, 0, 0]

def k0_chk76 (v828 : BitVec 32) : Prop :=
  (∀ a, (k0_off227 v828) a + S1x2x256.size a ≤ S147456x2x256.size a)
instance k0_chk76.dec : ∀ (v828 : BitVec 32), Decidable (k0_chk76 v828) := fun v828 => decidable_of_iff' _ (Iff.of_eq (k0_chk76.eq_1 v828))
theorem k0_off227_inb : ∀ (v828 : BitVec 32) (k0_hw76 : k0_chk76 v828), ∀ a, (k0_off227 v828) a + S1x2x256.size a ≤ S147456x2x256.size a := fun v828 k0_hw76 => k0_hw76

def k0_off228 (i : grid0.Coords) : Fin 3 → Nat :=
  let arg0 : BitVec 32 := BitVec.ofNat 32 (i 0).val
  let c128_i32 : BitVec 32 := 128#32
  let v0 : BitVec 32 := Scalar.muli arg0 c128_i32
  let c75_i32 : BitVec 32 := 75#32
  let v826 : BitVec 32 := Scalar.addi v0 c75_i32
  let c0_i32_602 : BitVec 32 := 0#32
  let c0_i32_603 : BitVec 32 := 0#32
  ![v826.toNat, 0, 0]
def k0_off229 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v837 : BitVec 32 := Scalar.addi v0 c76_i32
  let v838 : Index := Scalar.indexCast v837
  ![v838.toNat]
def k0_off230 (v839 : BitVec 32) : Fin 3 → Nat :=
  let c0_i32_608 : BitVec 32 := 0#32
  let c0_i32_609 : BitVec 32 := 0#32
  ![v839.toNat, 0, 0]

def k0_chk77 (v839 : BitVec 32) : Prop :=
  (∀ a, (k0_off230 v839) a + S1x2x256.size a ≤ S147456x2x256.size a)
instance k0_chk77.dec : ∀ (v839 : BitVec 32), Decidable (k0_chk77 v839) := fun v839 => decidable_of_iff' _ (Iff.of_eq (k0_chk77.eq_1 v839))
theorem k0_off230_inb : ∀ (v839 : BitVec 32) (k0_hw77 : k0_chk77 v839), ∀ a, (k0_off230 v839) a + S1x2x256.size a ≤ S147456x2x256.size a := fun v839 k0_hw77 => k0_hw77

def k0_off231 (i : grid0.Coords) : Fin 3 → Nat :=
  let arg0 : BitVec 32 := BitVec.ofNat 32 (i 0).val
  let c128_i32 : BitVec 32 := 128#32
  let v0 : BitVec 32 := Scalar.muli arg0 c128_i32
  let c76_i32 : BitVec 32 := 76#32
  let v837 : BitVec 32 := Scalar.addi v0 c76_i32
  let c0_i32_610 : BitVec 32 := 0#32
  let c0_i32_611 : BitVec 32 := 0#32
  ![v837.toNat, 0, 0]
def k0_off232 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v848 : BitVec 32 := Scalar.addi v0 c77_i32
  let v849 : Index := Scalar.indexCast v848
  ![v849.toNat]
def k0_off233 (v850 : BitVec 32) : Fin 3 → Nat :=
  let c0_i32_616 : BitVec 32 := 0#32
  let c0_i32_617 : BitVec 32 := 0#32
  ![v850.toNat, 0, 0]

def k0_chk78 (v850 : BitVec 32) : Prop :=
  (∀ a, (k0_off233 v850) a + S1x2x256.size a ≤ S147456x2x256.size a)
instance k0_chk78.dec : ∀ (v850 : BitVec 32), Decidable (k0_chk78 v850) := fun v850 => decidable_of_iff' _ (Iff.of_eq (k0_chk78.eq_1 v850))
theorem k0_off233_inb : ∀ (v850 : BitVec 32) (k0_hw78 : k0_chk78 v850), ∀ a, (k0_off233 v850) a + S1x2x256.size a ≤ S147456x2x256.size a := fun v850 k0_hw78 => k0_hw78

def k0_off234 (i : grid0.Coords) : Fin 3 → Nat :=
  let arg0 : BitVec 32 := BitVec.ofNat 32 (i 0).val
  let c128_i32 : BitVec 32 := 128#32
  let v0 : BitVec 32 := Scalar.muli arg0 c128_i32
  let c77_i32 : BitVec 32 := 77#32
  let v848 : BitVec 32 := Scalar.addi v0 c77_i32
  let c0_i32_618 : BitVec 32 := 0#32
  let c0_i32_619 : BitVec 32 := 0#32
  ![v848.toNat, 0, 0]
def k0_off235 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v859 : BitVec 32 := Scalar.addi v0 c78_i32
  let v860 : Index := Scalar.indexCast v859
  ![v860.toNat]
def k0_off236 (v861 : BitVec 32) : Fin 3 → Nat :=
  let c0_i32_624 : BitVec 32 := 0#32
  let c0_i32_625 : BitVec 32 := 0#32
  ![v861.toNat, 0, 0]

def k0_chk79 (v861 : BitVec 32) : Prop :=
  (∀ a, (k0_off236 v861) a + S1x2x256.size a ≤ S147456x2x256.size a)
instance k0_chk79.dec : ∀ (v861 : BitVec 32), Decidable (k0_chk79 v861) := fun v861 => decidable_of_iff' _ (Iff.of_eq (k0_chk79.eq_1 v861))
theorem k0_off236_inb : ∀ (v861 : BitVec 32) (k0_hw79 : k0_chk79 v861), ∀ a, (k0_off236 v861) a + S1x2x256.size a ≤ S147456x2x256.size a := fun v861 k0_hw79 => k0_hw79

def k0_off237 (i : grid0.Coords) : Fin 3 → Nat :=
  let arg0 : BitVec 32 := BitVec.ofNat 32 (i 0).val
  let c128_i32 : BitVec 32 := 128#32
  let v0 : BitVec 32 := Scalar.muli arg0 c128_i32
  let c78_i32 : BitVec 32 := 78#32
  let v859 : BitVec 32 := Scalar.addi v0 c78_i32
  let c0_i32_626 : BitVec 32 := 0#32
  let c0_i32_627 : BitVec 32 := 0#32
  ![v859.toNat, 0, 0]
def k0_off238 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v870 : BitVec 32 := Scalar.addi v0 c79_i32
  let v871 : Index := Scalar.indexCast v870
  ![v871.toNat]
def k0_off239 (v872 : BitVec 32) : Fin 3 → Nat :=
  let c0_i32_632 : BitVec 32 := 0#32
  let c0_i32_633 : BitVec 32 := 0#32
  ![v872.toNat, 0, 0]

def k0_chk80 (v872 : BitVec 32) : Prop :=
  (∀ a, (k0_off239 v872) a + S1x2x256.size a ≤ S147456x2x256.size a)
instance k0_chk80.dec : ∀ (v872 : BitVec 32), Decidable (k0_chk80 v872) := fun v872 => decidable_of_iff' _ (Iff.of_eq (k0_chk80.eq_1 v872))
theorem k0_off239_inb : ∀ (v872 : BitVec 32) (k0_hw80 : k0_chk80 v872), ∀ a, (k0_off239 v872) a + S1x2x256.size a ≤ S147456x2x256.size a := fun v872 k0_hw80 => k0_hw80

def k0_off240 (i : grid0.Coords) : Fin 3 → Nat :=
  let arg0 : BitVec 32 := BitVec.ofNat 32 (i 0).val
  let c128_i32 : BitVec 32 := 128#32
  let v0 : BitVec 32 := Scalar.muli arg0 c128_i32
  let c79_i32 : BitVec 32 := 79#32
  let v870 : BitVec 32 := Scalar.addi v0 c79_i32
  let c0_i32_634 : BitVec 32 := 0#32
  let c0_i32_635 : BitVec 32 := 0#32
  ![v870.toNat, 0, 0]
def k0_off241 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v881 : BitVec 32 := Scalar.addi v0 c80_i32
  let v882 : Index := Scalar.indexCast v881
  ![v882.toNat]
def k0_off242 (v883 : BitVec 32) : Fin 3 → Nat :=
  let c0_i32_640 : BitVec 32 := 0#32
  let c0_i32_641 : BitVec 32 := 0#32
  ![v883.toNat, 0, 0]

def k0_chk81 (v883 : BitVec 32) : Prop :=
  (∀ a, (k0_off242 v883) a + S1x2x256.size a ≤ S147456x2x256.size a)
instance k0_chk81.dec : ∀ (v883 : BitVec 32), Decidable (k0_chk81 v883) := fun v883 => decidable_of_iff' _ (Iff.of_eq (k0_chk81.eq_1 v883))
theorem k0_off242_inb : ∀ (v883 : BitVec 32) (k0_hw81 : k0_chk81 v883), ∀ a, (k0_off242 v883) a + S1x2x256.size a ≤ S147456x2x256.size a := fun v883 k0_hw81 => k0_hw81

def k0_off243 (i : grid0.Coords) : Fin 3 → Nat :=
  let arg0 : BitVec 32 := BitVec.ofNat 32 (i 0).val
  let c128_i32 : BitVec 32 := 128#32
  let v0 : BitVec 32 := Scalar.muli arg0 c128_i32
  let c80_i32 : BitVec 32 := 80#32
  let v881 : BitVec 32 := Scalar.addi v0 c80_i32
  let c0_i32_642 : BitVec 32 := 0#32
  let c0_i32_643 : BitVec 32 := 0#32
  ![v881.toNat, 0, 0]
def k0_off244 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v892 : BitVec 32 := Scalar.addi v0 c81_i32
  let v893 : Index := Scalar.indexCast v892
  ![v893.toNat]
def k0_off245 (v894 : BitVec 32) : Fin 3 → Nat :=
  let c0_i32_648 : BitVec 32 := 0#32
  let c0_i32_649 : BitVec 32 := 0#32
  ![v894.toNat, 0, 0]

def k0_chk82 (v894 : BitVec 32) : Prop :=
  (∀ a, (k0_off245 v894) a + S1x2x256.size a ≤ S147456x2x256.size a)
instance k0_chk82.dec : ∀ (v894 : BitVec 32), Decidable (k0_chk82 v894) := fun v894 => decidable_of_iff' _ (Iff.of_eq (k0_chk82.eq_1 v894))
theorem k0_off245_inb : ∀ (v894 : BitVec 32) (k0_hw82 : k0_chk82 v894), ∀ a, (k0_off245 v894) a + S1x2x256.size a ≤ S147456x2x256.size a := fun v894 k0_hw82 => k0_hw82

def k0_off246 (i : grid0.Coords) : Fin 3 → Nat :=
  let arg0 : BitVec 32 := BitVec.ofNat 32 (i 0).val
  let c128_i32 : BitVec 32 := 128#32
  let v0 : BitVec 32 := Scalar.muli arg0 c128_i32
  let c81_i32 : BitVec 32 := 81#32
  let v892 : BitVec 32 := Scalar.addi v0 c81_i32
  let c0_i32_650 : BitVec 32 := 0#32
  let c0_i32_651 : BitVec 32 := 0#32
  ![v892.toNat, 0, 0]
def k0_off247 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v903 : BitVec 32 := Scalar.addi v0 c82_i32
  let v904 : Index := Scalar.indexCast v903
  ![v904.toNat]
def k0_off248 (v905 : BitVec 32) : Fin 3 → Nat :=
  let c0_i32_656 : BitVec 32 := 0#32
  let c0_i32_657 : BitVec 32 := 0#32
  ![v905.toNat, 0, 0]

def k0_chk83 (v905 : BitVec 32) : Prop :=
  (∀ a, (k0_off248 v905) a + S1x2x256.size a ≤ S147456x2x256.size a)
instance k0_chk83.dec : ∀ (v905 : BitVec 32), Decidable (k0_chk83 v905) := fun v905 => decidable_of_iff' _ (Iff.of_eq (k0_chk83.eq_1 v905))
theorem k0_off248_inb : ∀ (v905 : BitVec 32) (k0_hw83 : k0_chk83 v905), ∀ a, (k0_off248 v905) a + S1x2x256.size a ≤ S147456x2x256.size a := fun v905 k0_hw83 => k0_hw83

def k0_off249 (i : grid0.Coords) : Fin 3 → Nat :=
  let arg0 : BitVec 32 := BitVec.ofNat 32 (i 0).val
  let c128_i32 : BitVec 32 := 128#32
  let v0 : BitVec 32 := Scalar.muli arg0 c128_i32
  let c82_i32 : BitVec 32 := 82#32
  let v903 : BitVec 32 := Scalar.addi v0 c82_i32
  let c0_i32_658 : BitVec 32 := 0#32
  let c0_i32_659 : BitVec 32 := 0#32
  ![v903.toNat, 0, 0]
def k0_off250 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v914 : BitVec 32 := Scalar.addi v0 c83_i32
  let v915 : Index := Scalar.indexCast v914
  ![v915.toNat]
def k0_off251 (v916 : BitVec 32) : Fin 3 → Nat :=
  let c0_i32_664 : BitVec 32 := 0#32
  let c0_i32_665 : BitVec 32 := 0#32
  ![v916.toNat, 0, 0]

def k0_chk84 (v916 : BitVec 32) : Prop :=
  (∀ a, (k0_off251 v916) a + S1x2x256.size a ≤ S147456x2x256.size a)
instance k0_chk84.dec : ∀ (v916 : BitVec 32), Decidable (k0_chk84 v916) := fun v916 => decidable_of_iff' _ (Iff.of_eq (k0_chk84.eq_1 v916))
theorem k0_off251_inb : ∀ (v916 : BitVec 32) (k0_hw84 : k0_chk84 v916), ∀ a, (k0_off251 v916) a + S1x2x256.size a ≤ S147456x2x256.size a := fun v916 k0_hw84 => k0_hw84

def k0_off252 (i : grid0.Coords) : Fin 3 → Nat :=
  let arg0 : BitVec 32 := BitVec.ofNat 32 (i 0).val
  let c128_i32 : BitVec 32 := 128#32
  let v0 : BitVec 32 := Scalar.muli arg0 c128_i32
  let c83_i32 : BitVec 32 := 83#32
  let v914 : BitVec 32 := Scalar.addi v0 c83_i32
  let c0_i32_666 : BitVec 32 := 0#32
  let c0_i32_667 : BitVec 32 := 0#32
  ![v914.toNat, 0, 0]
def k0_off253 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v925 : BitVec 32 := Scalar.addi v0 c84_i32
  let v926 : Index := Scalar.indexCast v925
  ![v926.toNat]
def k0_off254 (v927 : BitVec 32) : Fin 3 → Nat :=
  let c0_i32_672 : BitVec 32 := 0#32
  let c0_i32_673 : BitVec 32 := 0#32
  ![v927.toNat, 0, 0]

def k0_chk85 (v927 : BitVec 32) : Prop :=
  (∀ a, (k0_off254 v927) a + S1x2x256.size a ≤ S147456x2x256.size a)
instance k0_chk85.dec : ∀ (v927 : BitVec 32), Decidable (k0_chk85 v927) := fun v927 => decidable_of_iff' _ (Iff.of_eq (k0_chk85.eq_1 v927))
theorem k0_off254_inb : ∀ (v927 : BitVec 32) (k0_hw85 : k0_chk85 v927), ∀ a, (k0_off254 v927) a + S1x2x256.size a ≤ S147456x2x256.size a := fun v927 k0_hw85 => k0_hw85

def k0_off255 (i : grid0.Coords) : Fin 3 → Nat :=
  let arg0 : BitVec 32 := BitVec.ofNat 32 (i 0).val
  let c128_i32 : BitVec 32 := 128#32
  let v0 : BitVec 32 := Scalar.muli arg0 c128_i32
  let c84_i32 : BitVec 32 := 84#32
  let v925 : BitVec 32 := Scalar.addi v0 c84_i32
  let c0_i32_674 : BitVec 32 := 0#32
  let c0_i32_675 : BitVec 32 := 0#32
  ![v925.toNat, 0, 0]
def k0_off256 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v936 : BitVec 32 := Scalar.addi v0 c85_i32
  let v937 : Index := Scalar.indexCast v936
  ![v937.toNat]
def k0_off257 (v938 : BitVec 32) : Fin 3 → Nat :=
  let c0_i32_680 : BitVec 32 := 0#32
  let c0_i32_681 : BitVec 32 := 0#32
  ![v938.toNat, 0, 0]

def k0_chk86 (v938 : BitVec 32) : Prop :=
  (∀ a, (k0_off257 v938) a + S1x2x256.size a ≤ S147456x2x256.size a)
instance k0_chk86.dec : ∀ (v938 : BitVec 32), Decidable (k0_chk86 v938) := fun v938 => decidable_of_iff' _ (Iff.of_eq (k0_chk86.eq_1 v938))
theorem k0_off257_inb : ∀ (v938 : BitVec 32) (k0_hw86 : k0_chk86 v938), ∀ a, (k0_off257 v938) a + S1x2x256.size a ≤ S147456x2x256.size a := fun v938 k0_hw86 => k0_hw86

def k0_off258 (i : grid0.Coords) : Fin 3 → Nat :=
  let arg0 : BitVec 32 := BitVec.ofNat 32 (i 0).val
  let c128_i32 : BitVec 32 := 128#32
  let v0 : BitVec 32 := Scalar.muli arg0 c128_i32
  let c85_i32 : BitVec 32 := 85#32
  let v936 : BitVec 32 := Scalar.addi v0 c85_i32
  let c0_i32_682 : BitVec 32 := 0#32
  let c0_i32_683 : BitVec 32 := 0#32
  ![v936.toNat, 0, 0]
def k0_off259 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v947 : BitVec 32 := Scalar.addi v0 c86_i32
  let v948 : Index := Scalar.indexCast v947
  ![v948.toNat]
def k0_off260 (v949 : BitVec 32) : Fin 3 → Nat :=
  let c0_i32_688 : BitVec 32 := 0#32
  let c0_i32_689 : BitVec 32 := 0#32
  ![v949.toNat, 0, 0]

def k0_chk87 (v949 : BitVec 32) : Prop :=
  (∀ a, (k0_off260 v949) a + S1x2x256.size a ≤ S147456x2x256.size a)
instance k0_chk87.dec : ∀ (v949 : BitVec 32), Decidable (k0_chk87 v949) := fun v949 => decidable_of_iff' _ (Iff.of_eq (k0_chk87.eq_1 v949))
theorem k0_off260_inb : ∀ (v949 : BitVec 32) (k0_hw87 : k0_chk87 v949), ∀ a, (k0_off260 v949) a + S1x2x256.size a ≤ S147456x2x256.size a := fun v949 k0_hw87 => k0_hw87

def k0_off261 (i : grid0.Coords) : Fin 3 → Nat :=
  let arg0 : BitVec 32 := BitVec.ofNat 32 (i 0).val
  let c128_i32 : BitVec 32 := 128#32
  let v0 : BitVec 32 := Scalar.muli arg0 c128_i32
  let c86_i32 : BitVec 32 := 86#32
  let v947 : BitVec 32 := Scalar.addi v0 c86_i32
  let c0_i32_690 : BitVec 32 := 0#32
  let c0_i32_691 : BitVec 32 := 0#32
  ![v947.toNat, 0, 0]
def k0_off262 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v958 : BitVec 32 := Scalar.addi v0 c87_i32
  let v959 : Index := Scalar.indexCast v958
  ![v959.toNat]
def k0_off263 (v960 : BitVec 32) : Fin 3 → Nat :=
  let c0_i32_696 : BitVec 32 := 0#32
  let c0_i32_697 : BitVec 32 := 0#32
  ![v960.toNat, 0, 0]

def k0_chk88 (v960 : BitVec 32) : Prop :=
  (∀ a, (k0_off263 v960) a + S1x2x256.size a ≤ S147456x2x256.size a)
instance k0_chk88.dec : ∀ (v960 : BitVec 32), Decidable (k0_chk88 v960) := fun v960 => decidable_of_iff' _ (Iff.of_eq (k0_chk88.eq_1 v960))
theorem k0_off263_inb : ∀ (v960 : BitVec 32) (k0_hw88 : k0_chk88 v960), ∀ a, (k0_off263 v960) a + S1x2x256.size a ≤ S147456x2x256.size a := fun v960 k0_hw88 => k0_hw88

def k0_off264 (i : grid0.Coords) : Fin 3 → Nat :=
  let arg0 : BitVec 32 := BitVec.ofNat 32 (i 0).val
  let c128_i32 : BitVec 32 := 128#32
  let v0 : BitVec 32 := Scalar.muli arg0 c128_i32
  let c87_i32 : BitVec 32 := 87#32
  let v958 : BitVec 32 := Scalar.addi v0 c87_i32
  let c0_i32_698 : BitVec 32 := 0#32
  let c0_i32_699 : BitVec 32 := 0#32
  ![v958.toNat, 0, 0]
def k0_off265 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v969 : BitVec 32 := Scalar.addi v0 c88_i32
  let v970 : Index := Scalar.indexCast v969
  ![v970.toNat]
def k0_off266 (v971 : BitVec 32) : Fin 3 → Nat :=
  let c0_i32_704 : BitVec 32 := 0#32
  let c0_i32_705 : BitVec 32 := 0#32
  ![v971.toNat, 0, 0]

def k0_chk89 (v971 : BitVec 32) : Prop :=
  (∀ a, (k0_off266 v971) a + S1x2x256.size a ≤ S147456x2x256.size a)
instance k0_chk89.dec : ∀ (v971 : BitVec 32), Decidable (k0_chk89 v971) := fun v971 => decidable_of_iff' _ (Iff.of_eq (k0_chk89.eq_1 v971))
theorem k0_off266_inb : ∀ (v971 : BitVec 32) (k0_hw89 : k0_chk89 v971), ∀ a, (k0_off266 v971) a + S1x2x256.size a ≤ S147456x2x256.size a := fun v971 k0_hw89 => k0_hw89

def k0_off267 (i : grid0.Coords) : Fin 3 → Nat :=
  let arg0 : BitVec 32 := BitVec.ofNat 32 (i 0).val
  let c128_i32 : BitVec 32 := 128#32
  let v0 : BitVec 32 := Scalar.muli arg0 c128_i32
  let c88_i32 : BitVec 32 := 88#32
  let v969 : BitVec 32 := Scalar.addi v0 c88_i32
  let c0_i32_706 : BitVec 32 := 0#32
  let c0_i32_707 : BitVec 32 := 0#32
  ![v969.toNat, 0, 0]
def k0_off268 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v980 : BitVec 32 := Scalar.addi v0 c89_i32
  let v981 : Index := Scalar.indexCast v980
  ![v981.toNat]
def k0_off269 (v982 : BitVec 32) : Fin 3 → Nat :=
  let c0_i32_712 : BitVec 32 := 0#32
  let c0_i32_713 : BitVec 32 := 0#32
  ![v982.toNat, 0, 0]

def k0_chk90 (v982 : BitVec 32) : Prop :=
  (∀ a, (k0_off269 v982) a + S1x2x256.size a ≤ S147456x2x256.size a)
instance k0_chk90.dec : ∀ (v982 : BitVec 32), Decidable (k0_chk90 v982) := fun v982 => decidable_of_iff' _ (Iff.of_eq (k0_chk90.eq_1 v982))
theorem k0_off269_inb : ∀ (v982 : BitVec 32) (k0_hw90 : k0_chk90 v982), ∀ a, (k0_off269 v982) a + S1x2x256.size a ≤ S147456x2x256.size a := fun v982 k0_hw90 => k0_hw90

def k0_off270 (i : grid0.Coords) : Fin 3 → Nat :=
  let arg0 : BitVec 32 := BitVec.ofNat 32 (i 0).val
  let c128_i32 : BitVec 32 := 128#32
  let v0 : BitVec 32 := Scalar.muli arg0 c128_i32
  let c89_i32 : BitVec 32 := 89#32
  let v980 : BitVec 32 := Scalar.addi v0 c89_i32
  let c0_i32_714 : BitVec 32 := 0#32
  let c0_i32_715 : BitVec 32 := 0#32
  ![v980.toNat, 0, 0]
def k0_off271 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v991 : BitVec 32 := Scalar.addi v0 c90_i32
  let v992 : Index := Scalar.indexCast v991
  ![v992.toNat]
def k0_off272 (v993 : BitVec 32) : Fin 3 → Nat :=
  let c0_i32_720 : BitVec 32 := 0#32
  let c0_i32_721 : BitVec 32 := 0#32
  ![v993.toNat, 0, 0]

def k0_chk91 (v993 : BitVec 32) : Prop :=
  (∀ a, (k0_off272 v993) a + S1x2x256.size a ≤ S147456x2x256.size a)
instance k0_chk91.dec : ∀ (v993 : BitVec 32), Decidable (k0_chk91 v993) := fun v993 => decidable_of_iff' _ (Iff.of_eq (k0_chk91.eq_1 v993))
theorem k0_off272_inb : ∀ (v993 : BitVec 32) (k0_hw91 : k0_chk91 v993), ∀ a, (k0_off272 v993) a + S1x2x256.size a ≤ S147456x2x256.size a := fun v993 k0_hw91 => k0_hw91

def k0_off273 (i : grid0.Coords) : Fin 3 → Nat :=
  let arg0 : BitVec 32 := BitVec.ofNat 32 (i 0).val
  let c128_i32 : BitVec 32 := 128#32
  let v0 : BitVec 32 := Scalar.muli arg0 c128_i32
  let c90_i32 : BitVec 32 := 90#32
  let v991 : BitVec 32 := Scalar.addi v0 c90_i32
  let c0_i32_722 : BitVec 32 := 0#32
  let c0_i32_723 : BitVec 32 := 0#32
  ![v991.toNat, 0, 0]
def k0_off274 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v1002 : BitVec 32 := Scalar.addi v0 c91_i32
  let v1003 : Index := Scalar.indexCast v1002
  ![v1003.toNat]
def k0_off275 (v1004 : BitVec 32) : Fin 3 → Nat :=
  let c0_i32_728 : BitVec 32 := 0#32
  let c0_i32_729 : BitVec 32 := 0#32
  ![v1004.toNat, 0, 0]

def k0_chk92 (v1004 : BitVec 32) : Prop :=
  (∀ a, (k0_off275 v1004) a + S1x2x256.size a ≤ S147456x2x256.size a)
instance k0_chk92.dec : ∀ (v1004 : BitVec 32), Decidable (k0_chk92 v1004) := fun v1004 => decidable_of_iff' _ (Iff.of_eq (k0_chk92.eq_1 v1004))
theorem k0_off275_inb : ∀ (v1004 : BitVec 32) (k0_hw92 : k0_chk92 v1004), ∀ a, (k0_off275 v1004) a + S1x2x256.size a ≤ S147456x2x256.size a := fun v1004 k0_hw92 => k0_hw92

def k0_off276 (i : grid0.Coords) : Fin 3 → Nat :=
  let arg0 : BitVec 32 := BitVec.ofNat 32 (i 0).val
  let c128_i32 : BitVec 32 := 128#32
  let v0 : BitVec 32 := Scalar.muli arg0 c128_i32
  let c91_i32 : BitVec 32 := 91#32
  let v1002 : BitVec 32 := Scalar.addi v0 c91_i32
  let c0_i32_730 : BitVec 32 := 0#32
  let c0_i32_731 : BitVec 32 := 0#32
  ![v1002.toNat, 0, 0]
def k0_off277 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v1013 : BitVec 32 := Scalar.addi v0 c92_i32
  let v1014 : Index := Scalar.indexCast v1013
  ![v1014.toNat]
def k0_off278 (v1015 : BitVec 32) : Fin 3 → Nat :=
  let c0_i32_736 : BitVec 32 := 0#32
  let c0_i32_737 : BitVec 32 := 0#32
  ![v1015.toNat, 0, 0]

def k0_chk93 (v1015 : BitVec 32) : Prop :=
  (∀ a, (k0_off278 v1015) a + S1x2x256.size a ≤ S147456x2x256.size a)
instance k0_chk93.dec : ∀ (v1015 : BitVec 32), Decidable (k0_chk93 v1015) := fun v1015 => decidable_of_iff' _ (Iff.of_eq (k0_chk93.eq_1 v1015))
theorem k0_off278_inb : ∀ (v1015 : BitVec 32) (k0_hw93 : k0_chk93 v1015), ∀ a, (k0_off278 v1015) a + S1x2x256.size a ≤ S147456x2x256.size a := fun v1015 k0_hw93 => k0_hw93

def k0_off279 (i : grid0.Coords) : Fin 3 → Nat :=
  let arg0 : BitVec 32 := BitVec.ofNat 32 (i 0).val
  let c128_i32 : BitVec 32 := 128#32
  let v0 : BitVec 32 := Scalar.muli arg0 c128_i32
  let c92_i32 : BitVec 32 := 92#32
  let v1013 : BitVec 32 := Scalar.addi v0 c92_i32
  let c0_i32_738 : BitVec 32 := 0#32
  let c0_i32_739 : BitVec 32 := 0#32
  ![v1013.toNat, 0, 0]
def k0_off280 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v1024 : BitVec 32 := Scalar.addi v0 c93_i32
  let v1025 : Index := Scalar.indexCast v1024
  ![v1025.toNat]
def k0_off281 (v1026 : BitVec 32) : Fin 3 → Nat :=
  let c0_i32_744 : BitVec 32 := 0#32
  let c0_i32_745 : BitVec 32 := 0#32
  ![v1026.toNat, 0, 0]

def k0_chk94 (v1026 : BitVec 32) : Prop :=
  (∀ a, (k0_off281 v1026) a + S1x2x256.size a ≤ S147456x2x256.size a)
instance k0_chk94.dec : ∀ (v1026 : BitVec 32), Decidable (k0_chk94 v1026) := fun v1026 => decidable_of_iff' _ (Iff.of_eq (k0_chk94.eq_1 v1026))
theorem k0_off281_inb : ∀ (v1026 : BitVec 32) (k0_hw94 : k0_chk94 v1026), ∀ a, (k0_off281 v1026) a + S1x2x256.size a ≤ S147456x2x256.size a := fun v1026 k0_hw94 => k0_hw94

def k0_off282 (i : grid0.Coords) : Fin 3 → Nat :=
  let arg0 : BitVec 32 := BitVec.ofNat 32 (i 0).val
  let c128_i32 : BitVec 32 := 128#32
  let v0 : BitVec 32 := Scalar.muli arg0 c128_i32
  let c93_i32 : BitVec 32 := 93#32
  let v1024 : BitVec 32 := Scalar.addi v0 c93_i32
  let c0_i32_746 : BitVec 32 := 0#32
  let c0_i32_747 : BitVec 32 := 0#32
  ![v1024.toNat, 0, 0]
def k0_off283 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v1035 : BitVec 32 := Scalar.addi v0 c94_i32
  let v1036 : Index := Scalar.indexCast v1035
  ![v1036.toNat]
def k0_off284 (v1037 : BitVec 32) : Fin 3 → Nat :=
  let c0_i32_752 : BitVec 32 := 0#32
  let c0_i32_753 : BitVec 32 := 0#32
  ![v1037.toNat, 0, 0]

def k0_chk95 (v1037 : BitVec 32) : Prop :=
  (∀ a, (k0_off284 v1037) a + S1x2x256.size a ≤ S147456x2x256.size a)
instance k0_chk95.dec : ∀ (v1037 : BitVec 32), Decidable (k0_chk95 v1037) := fun v1037 => decidable_of_iff' _ (Iff.of_eq (k0_chk95.eq_1 v1037))
theorem k0_off284_inb : ∀ (v1037 : BitVec 32) (k0_hw95 : k0_chk95 v1037), ∀ a, (k0_off284 v1037) a + S1x2x256.size a ≤ S147456x2x256.size a := fun v1037 k0_hw95 => k0_hw95

def k0_off285 (i : grid0.Coords) : Fin 3 → Nat :=
  let arg0 : BitVec 32 := BitVec.ofNat 32 (i 0).val
  let c128_i32 : BitVec 32 := 128#32
  let v0 : BitVec 32 := Scalar.muli arg0 c128_i32
  let c94_i32 : BitVec 32 := 94#32
  let v1035 : BitVec 32 := Scalar.addi v0 c94_i32
  let c0_i32_754 : BitVec 32 := 0#32
  let c0_i32_755 : BitVec 32 := 0#32
  ![v1035.toNat, 0, 0]
def k0_off286 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v1046 : BitVec 32 := Scalar.addi v0 c95_i32
  let v1047 : Index := Scalar.indexCast v1046
  ![v1047.toNat]
def k0_off287 (v1048 : BitVec 32) : Fin 3 → Nat :=
  let c0_i32_760 : BitVec 32 := 0#32
  let c0_i32_761 : BitVec 32 := 0#32
  ![v1048.toNat, 0, 0]

def k0_chk96 (v1048 : BitVec 32) : Prop :=
  (∀ a, (k0_off287 v1048) a + S1x2x256.size a ≤ S147456x2x256.size a)
instance k0_chk96.dec : ∀ (v1048 : BitVec 32), Decidable (k0_chk96 v1048) := fun v1048 => decidable_of_iff' _ (Iff.of_eq (k0_chk96.eq_1 v1048))
theorem k0_off287_inb : ∀ (v1048 : BitVec 32) (k0_hw96 : k0_chk96 v1048), ∀ a, (k0_off287 v1048) a + S1x2x256.size a ≤ S147456x2x256.size a := fun v1048 k0_hw96 => k0_hw96

def k0_off288 (i : grid0.Coords) : Fin 3 → Nat :=
  let arg0 : BitVec 32 := BitVec.ofNat 32 (i 0).val
  let c128_i32 : BitVec 32 := 128#32
  let v0 : BitVec 32 := Scalar.muli arg0 c128_i32
  let c95_i32 : BitVec 32 := 95#32
  let v1046 : BitVec 32 := Scalar.addi v0 c95_i32
  let c0_i32_762 : BitVec 32 := 0#32
  let c0_i32_763 : BitVec 32 := 0#32
  ![v1046.toNat, 0, 0]
def k0_off289 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v1057 : BitVec 32 := Scalar.addi v0 c96_i32
  let v1058 : Index := Scalar.indexCast v1057
  ![v1058.toNat]
def k0_off290 (v1059 : BitVec 32) : Fin 3 → Nat :=
  let c0_i32_768 : BitVec 32 := 0#32
  let c0_i32_769 : BitVec 32 := 0#32
  ![v1059.toNat, 0, 0]

def k0_chk97 (v1059 : BitVec 32) : Prop :=
  (∀ a, (k0_off290 v1059) a + S1x2x256.size a ≤ S147456x2x256.size a)
instance k0_chk97.dec : ∀ (v1059 : BitVec 32), Decidable (k0_chk97 v1059) := fun v1059 => decidable_of_iff' _ (Iff.of_eq (k0_chk97.eq_1 v1059))
theorem k0_off290_inb : ∀ (v1059 : BitVec 32) (k0_hw97 : k0_chk97 v1059), ∀ a, (k0_off290 v1059) a + S1x2x256.size a ≤ S147456x2x256.size a := fun v1059 k0_hw97 => k0_hw97

def k0_off291 (i : grid0.Coords) : Fin 3 → Nat :=
  let arg0 : BitVec 32 := BitVec.ofNat 32 (i 0).val
  let c128_i32 : BitVec 32 := 128#32
  let v0 : BitVec 32 := Scalar.muli arg0 c128_i32
  let c96_i32 : BitVec 32 := 96#32
  let v1057 : BitVec 32 := Scalar.addi v0 c96_i32
  let c0_i32_770 : BitVec 32 := 0#32
  let c0_i32_771 : BitVec 32 := 0#32
  ![v1057.toNat, 0, 0]
def k0_off292 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v1068 : BitVec 32 := Scalar.addi v0 c97_i32
  let v1069 : Index := Scalar.indexCast v1068
  ![v1069.toNat]
def k0_off293 (v1070 : BitVec 32) : Fin 3 → Nat :=
  let c0_i32_776 : BitVec 32 := 0#32
  let c0_i32_777 : BitVec 32 := 0#32
  ![v1070.toNat, 0, 0]

def k0_chk98 (v1070 : BitVec 32) : Prop :=
  (∀ a, (k0_off293 v1070) a + S1x2x256.size a ≤ S147456x2x256.size a)
instance k0_chk98.dec : ∀ (v1070 : BitVec 32), Decidable (k0_chk98 v1070) := fun v1070 => decidable_of_iff' _ (Iff.of_eq (k0_chk98.eq_1 v1070))
theorem k0_off293_inb : ∀ (v1070 : BitVec 32) (k0_hw98 : k0_chk98 v1070), ∀ a, (k0_off293 v1070) a + S1x2x256.size a ≤ S147456x2x256.size a := fun v1070 k0_hw98 => k0_hw98

def k0_off294 (i : grid0.Coords) : Fin 3 → Nat :=
  let arg0 : BitVec 32 := BitVec.ofNat 32 (i 0).val
  let c128_i32 : BitVec 32 := 128#32
  let v0 : BitVec 32 := Scalar.muli arg0 c128_i32
  let c97_i32 : BitVec 32 := 97#32
  let v1068 : BitVec 32 := Scalar.addi v0 c97_i32
  let c0_i32_778 : BitVec 32 := 0#32
  let c0_i32_779 : BitVec 32 := 0#32
  ![v1068.toNat, 0, 0]
def k0_off295 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v1079 : BitVec 32 := Scalar.addi v0 c98_i32
  let v1080 : Index := Scalar.indexCast v1079
  ![v1080.toNat]
def k0_off296 (v1081 : BitVec 32) : Fin 3 → Nat :=
  let c0_i32_784 : BitVec 32 := 0#32
  let c0_i32_785 : BitVec 32 := 0#32
  ![v1081.toNat, 0, 0]

def k0_chk99 (v1081 : BitVec 32) : Prop :=
  (∀ a, (k0_off296 v1081) a + S1x2x256.size a ≤ S147456x2x256.size a)
instance k0_chk99.dec : ∀ (v1081 : BitVec 32), Decidable (k0_chk99 v1081) := fun v1081 => decidable_of_iff' _ (Iff.of_eq (k0_chk99.eq_1 v1081))
theorem k0_off296_inb : ∀ (v1081 : BitVec 32) (k0_hw99 : k0_chk99 v1081), ∀ a, (k0_off296 v1081) a + S1x2x256.size a ≤ S147456x2x256.size a := fun v1081 k0_hw99 => k0_hw99

def k0_off297 (i : grid0.Coords) : Fin 3 → Nat :=
  let arg0 : BitVec 32 := BitVec.ofNat 32 (i 0).val
  let c128_i32 : BitVec 32 := 128#32
  let v0 : BitVec 32 := Scalar.muli arg0 c128_i32
  let c98_i32 : BitVec 32 := 98#32
  let v1079 : BitVec 32 := Scalar.addi v0 c98_i32
  let c0_i32_786 : BitVec 32 := 0#32
  let c0_i32_787 : BitVec 32 := 0#32
  ![v1079.toNat, 0, 0]
def k0_off298 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v1090 : BitVec 32 := Scalar.addi v0 c99_i32
  let v1091 : Index := Scalar.indexCast v1090
  ![v1091.toNat]
def k0_off299 (v1092 : BitVec 32) : Fin 3 → Nat :=
  let c0_i32_792 : BitVec 32 := 0#32
  let c0_i32_793 : BitVec 32 := 0#32
  ![v1092.toNat, 0, 0]

def k0_chk100 (v1092 : BitVec 32) : Prop :=
  (∀ a, (k0_off299 v1092) a + S1x2x256.size a ≤ S147456x2x256.size a)
instance k0_chk100.dec : ∀ (v1092 : BitVec 32), Decidable (k0_chk100 v1092) := fun v1092 => decidable_of_iff' _ (Iff.of_eq (k0_chk100.eq_1 v1092))
theorem k0_off299_inb : ∀ (v1092 : BitVec 32) (k0_hw100 : k0_chk100 v1092), ∀ a, (k0_off299 v1092) a + S1x2x256.size a ≤ S147456x2x256.size a := fun v1092 k0_hw100 => k0_hw100

def k0_off300 (i : grid0.Coords) : Fin 3 → Nat :=
  let arg0 : BitVec 32 := BitVec.ofNat 32 (i 0).val
  let c128_i32 : BitVec 32 := 128#32
  let v0 : BitVec 32 := Scalar.muli arg0 c128_i32
  let c99_i32 : BitVec 32 := 99#32
  let v1090 : BitVec 32 := Scalar.addi v0 c99_i32
  let c0_i32_794 : BitVec 32 := 0#32
  let c0_i32_795 : BitVec 32 := 0#32
  ![v1090.toNat, 0, 0]
def k0_off301 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v1101 : BitVec 32 := Scalar.addi v0 c100_i32
  let v1102 : Index := Scalar.indexCast v1101
  ![v1102.toNat]
def k0_off302 (v1103 : BitVec 32) : Fin 3 → Nat :=
  let c0_i32_800 : BitVec 32 := 0#32
  let c0_i32_801 : BitVec 32 := 0#32
  ![v1103.toNat, 0, 0]

def k0_chk101 (v1103 : BitVec 32) : Prop :=
  (∀ a, (k0_off302 v1103) a + S1x2x256.size a ≤ S147456x2x256.size a)
instance k0_chk101.dec : ∀ (v1103 : BitVec 32), Decidable (k0_chk101 v1103) := fun v1103 => decidable_of_iff' _ (Iff.of_eq (k0_chk101.eq_1 v1103))
theorem k0_off302_inb : ∀ (v1103 : BitVec 32) (k0_hw101 : k0_chk101 v1103), ∀ a, (k0_off302 v1103) a + S1x2x256.size a ≤ S147456x2x256.size a := fun v1103 k0_hw101 => k0_hw101

def k0_off303 (i : grid0.Coords) : Fin 3 → Nat :=
  let arg0 : BitVec 32 := BitVec.ofNat 32 (i 0).val
  let c128_i32 : BitVec 32 := 128#32
  let v0 : BitVec 32 := Scalar.muli arg0 c128_i32
  let c100_i32 : BitVec 32 := 100#32
  let v1101 : BitVec 32 := Scalar.addi v0 c100_i32
  let c0_i32_802 : BitVec 32 := 0#32
  let c0_i32_803 : BitVec 32 := 0#32
  ![v1101.toNat, 0, 0]
def k0_off304 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v1112 : BitVec 32 := Scalar.addi v0 c101_i32
  let v1113 : Index := Scalar.indexCast v1112
  ![v1113.toNat]
def k0_off305 (v1114 : BitVec 32) : Fin 3 → Nat :=
  let c0_i32_808 : BitVec 32 := 0#32
  let c0_i32_809 : BitVec 32 := 0#32
  ![v1114.toNat, 0, 0]

def k0_chk102 (v1114 : BitVec 32) : Prop :=
  (∀ a, (k0_off305 v1114) a + S1x2x256.size a ≤ S147456x2x256.size a)
instance k0_chk102.dec : ∀ (v1114 : BitVec 32), Decidable (k0_chk102 v1114) := fun v1114 => decidable_of_iff' _ (Iff.of_eq (k0_chk102.eq_1 v1114))
theorem k0_off305_inb : ∀ (v1114 : BitVec 32) (k0_hw102 : k0_chk102 v1114), ∀ a, (k0_off305 v1114) a + S1x2x256.size a ≤ S147456x2x256.size a := fun v1114 k0_hw102 => k0_hw102

def k0_off306 (i : grid0.Coords) : Fin 3 → Nat :=
  let arg0 : BitVec 32 := BitVec.ofNat 32 (i 0).val
  let c128_i32 : BitVec 32 := 128#32
  let v0 : BitVec 32 := Scalar.muli arg0 c128_i32
  let c101_i32 : BitVec 32 := 101#32
  let v1112 : BitVec 32 := Scalar.addi v0 c101_i32
  let c0_i32_810 : BitVec 32 := 0#32
  let c0_i32_811 : BitVec 32 := 0#32
  ![v1112.toNat, 0, 0]
def k0_off307 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v1123 : BitVec 32 := Scalar.addi v0 c102_i32
  let v1124 : Index := Scalar.indexCast v1123
  ![v1124.toNat]
def k0_off308 (v1125 : BitVec 32) : Fin 3 → Nat :=
  let c0_i32_816 : BitVec 32 := 0#32
  let c0_i32_817 : BitVec 32 := 0#32
  ![v1125.toNat, 0, 0]

def k0_chk103 (v1125 : BitVec 32) : Prop :=
  (∀ a, (k0_off308 v1125) a + S1x2x256.size a ≤ S147456x2x256.size a)
instance k0_chk103.dec : ∀ (v1125 : BitVec 32), Decidable (k0_chk103 v1125) := fun v1125 => decidable_of_iff' _ (Iff.of_eq (k0_chk103.eq_1 v1125))
theorem k0_off308_inb : ∀ (v1125 : BitVec 32) (k0_hw103 : k0_chk103 v1125), ∀ a, (k0_off308 v1125) a + S1x2x256.size a ≤ S147456x2x256.size a := fun v1125 k0_hw103 => k0_hw103

def k0_off309 (i : grid0.Coords) : Fin 3 → Nat :=
  let arg0 : BitVec 32 := BitVec.ofNat 32 (i 0).val
  let c128_i32 : BitVec 32 := 128#32
  let v0 : BitVec 32 := Scalar.muli arg0 c128_i32
  let c102_i32 : BitVec 32 := 102#32
  let v1123 : BitVec 32 := Scalar.addi v0 c102_i32
  let c0_i32_818 : BitVec 32 := 0#32
  let c0_i32_819 : BitVec 32 := 0#32
  ![v1123.toNat, 0, 0]
def k0_off310 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v1134 : BitVec 32 := Scalar.addi v0 c103_i32
  let v1135 : Index := Scalar.indexCast v1134
  ![v1135.toNat]
def k0_off311 (v1136 : BitVec 32) : Fin 3 → Nat :=
  let c0_i32_824 : BitVec 32 := 0#32
  let c0_i32_825 : BitVec 32 := 0#32
  ![v1136.toNat, 0, 0]

def k0_chk104 (v1136 : BitVec 32) : Prop :=
  (∀ a, (k0_off311 v1136) a + S1x2x256.size a ≤ S147456x2x256.size a)
instance k0_chk104.dec : ∀ (v1136 : BitVec 32), Decidable (k0_chk104 v1136) := fun v1136 => decidable_of_iff' _ (Iff.of_eq (k0_chk104.eq_1 v1136))
theorem k0_off311_inb : ∀ (v1136 : BitVec 32) (k0_hw104 : k0_chk104 v1136), ∀ a, (k0_off311 v1136) a + S1x2x256.size a ≤ S147456x2x256.size a := fun v1136 k0_hw104 => k0_hw104

def k0_off312 (i : grid0.Coords) : Fin 3 → Nat :=
  let arg0 : BitVec 32 := BitVec.ofNat 32 (i 0).val
  let c128_i32 : BitVec 32 := 128#32
  let v0 : BitVec 32 := Scalar.muli arg0 c128_i32
  let c103_i32 : BitVec 32 := 103#32
  let v1134 : BitVec 32 := Scalar.addi v0 c103_i32
  let c0_i32_826 : BitVec 32 := 0#32
  let c0_i32_827 : BitVec 32 := 0#32
  ![v1134.toNat, 0, 0]
def k0_off313 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v1145 : BitVec 32 := Scalar.addi v0 c104_i32
  let v1146 : Index := Scalar.indexCast v1145
  ![v1146.toNat]
def k0_off314 (v1147 : BitVec 32) : Fin 3 → Nat :=
  let c0_i32_832 : BitVec 32 := 0#32
  let c0_i32_833 : BitVec 32 := 0#32
  ![v1147.toNat, 0, 0]

def k0_chk105 (v1147 : BitVec 32) : Prop :=
  (∀ a, (k0_off314 v1147) a + S1x2x256.size a ≤ S147456x2x256.size a)
instance k0_chk105.dec : ∀ (v1147 : BitVec 32), Decidable (k0_chk105 v1147) := fun v1147 => decidable_of_iff' _ (Iff.of_eq (k0_chk105.eq_1 v1147))
theorem k0_off314_inb : ∀ (v1147 : BitVec 32) (k0_hw105 : k0_chk105 v1147), ∀ a, (k0_off314 v1147) a + S1x2x256.size a ≤ S147456x2x256.size a := fun v1147 k0_hw105 => k0_hw105

def k0_off315 (i : grid0.Coords) : Fin 3 → Nat :=
  let arg0 : BitVec 32 := BitVec.ofNat 32 (i 0).val
  let c128_i32 : BitVec 32 := 128#32
  let v0 : BitVec 32 := Scalar.muli arg0 c128_i32
  let c104_i32 : BitVec 32 := 104#32
  let v1145 : BitVec 32 := Scalar.addi v0 c104_i32
  let c0_i32_834 : BitVec 32 := 0#32
  let c0_i32_835 : BitVec 32 := 0#32
  ![v1145.toNat, 0, 0]
def k0_off316 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v1156 : BitVec 32 := Scalar.addi v0 c105_i32
  let v1157 : Index := Scalar.indexCast v1156
  ![v1157.toNat]
def k0_off317 (v1158 : BitVec 32) : Fin 3 → Nat :=
  let c0_i32_840 : BitVec 32 := 0#32
  let c0_i32_841 : BitVec 32 := 0#32
  ![v1158.toNat, 0, 0]

def k0_chk106 (v1158 : BitVec 32) : Prop :=
  (∀ a, (k0_off317 v1158) a + S1x2x256.size a ≤ S147456x2x256.size a)
instance k0_chk106.dec : ∀ (v1158 : BitVec 32), Decidable (k0_chk106 v1158) := fun v1158 => decidable_of_iff' _ (Iff.of_eq (k0_chk106.eq_1 v1158))
theorem k0_off317_inb : ∀ (v1158 : BitVec 32) (k0_hw106 : k0_chk106 v1158), ∀ a, (k0_off317 v1158) a + S1x2x256.size a ≤ S147456x2x256.size a := fun v1158 k0_hw106 => k0_hw106

def k0_off318 (i : grid0.Coords) : Fin 3 → Nat :=
  let arg0 : BitVec 32 := BitVec.ofNat 32 (i 0).val
  let c128_i32 : BitVec 32 := 128#32
  let v0 : BitVec 32 := Scalar.muli arg0 c128_i32
  let c105_i32 : BitVec 32 := 105#32
  let v1156 : BitVec 32 := Scalar.addi v0 c105_i32
  let c0_i32_842 : BitVec 32 := 0#32
  let c0_i32_843 : BitVec 32 := 0#32
  ![v1156.toNat, 0, 0]
def k0_off319 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v1167 : BitVec 32 := Scalar.addi v0 c106_i32
  let v1168 : Index := Scalar.indexCast v1167
  ![v1168.toNat]
def k0_off320 (v1169 : BitVec 32) : Fin 3 → Nat :=
  let c0_i32_848 : BitVec 32 := 0#32
  let c0_i32_849 : BitVec 32 := 0#32
  ![v1169.toNat, 0, 0]

def k0_chk107 (v1169 : BitVec 32) : Prop :=
  (∀ a, (k0_off320 v1169) a + S1x2x256.size a ≤ S147456x2x256.size a)
instance k0_chk107.dec : ∀ (v1169 : BitVec 32), Decidable (k0_chk107 v1169) := fun v1169 => decidable_of_iff' _ (Iff.of_eq (k0_chk107.eq_1 v1169))
theorem k0_off320_inb : ∀ (v1169 : BitVec 32) (k0_hw107 : k0_chk107 v1169), ∀ a, (k0_off320 v1169) a + S1x2x256.size a ≤ S147456x2x256.size a := fun v1169 k0_hw107 => k0_hw107

def k0_off321 (i : grid0.Coords) : Fin 3 → Nat :=
  let arg0 : BitVec 32 := BitVec.ofNat 32 (i 0).val
  let c128_i32 : BitVec 32 := 128#32
  let v0 : BitVec 32 := Scalar.muli arg0 c128_i32
  let c106_i32 : BitVec 32 := 106#32
  let v1167 : BitVec 32 := Scalar.addi v0 c106_i32
  let c0_i32_850 : BitVec 32 := 0#32
  let c0_i32_851 : BitVec 32 := 0#32
  ![v1167.toNat, 0, 0]
def k0_off322 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v1178 : BitVec 32 := Scalar.addi v0 c107_i32
  let v1179 : Index := Scalar.indexCast v1178
  ![v1179.toNat]
def k0_off323 (v1180 : BitVec 32) : Fin 3 → Nat :=
  let c0_i32_856 : BitVec 32 := 0#32
  let c0_i32_857 : BitVec 32 := 0#32
  ![v1180.toNat, 0, 0]

def k0_chk108 (v1180 : BitVec 32) : Prop :=
  (∀ a, (k0_off323 v1180) a + S1x2x256.size a ≤ S147456x2x256.size a)
instance k0_chk108.dec : ∀ (v1180 : BitVec 32), Decidable (k0_chk108 v1180) := fun v1180 => decidable_of_iff' _ (Iff.of_eq (k0_chk108.eq_1 v1180))
theorem k0_off323_inb : ∀ (v1180 : BitVec 32) (k0_hw108 : k0_chk108 v1180), ∀ a, (k0_off323 v1180) a + S1x2x256.size a ≤ S147456x2x256.size a := fun v1180 k0_hw108 => k0_hw108

def k0_off324 (i : grid0.Coords) : Fin 3 → Nat :=
  let arg0 : BitVec 32 := BitVec.ofNat 32 (i 0).val
  let c128_i32 : BitVec 32 := 128#32
  let v0 : BitVec 32 := Scalar.muli arg0 c128_i32
  let c107_i32 : BitVec 32 := 107#32
  let v1178 : BitVec 32 := Scalar.addi v0 c107_i32
  let c0_i32_858 : BitVec 32 := 0#32
  let c0_i32_859 : BitVec 32 := 0#32
  ![v1178.toNat, 0, 0]
def k0_off325 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v1189 : BitVec 32 := Scalar.addi v0 c108_i32
  let v1190 : Index := Scalar.indexCast v1189
  ![v1190.toNat]
def k0_off326 (v1191 : BitVec 32) : Fin 3 → Nat :=
  let c0_i32_864 : BitVec 32 := 0#32
  let c0_i32_865 : BitVec 32 := 0#32
  ![v1191.toNat, 0, 0]

def k0_chk109 (v1191 : BitVec 32) : Prop :=
  (∀ a, (k0_off326 v1191) a + S1x2x256.size a ≤ S147456x2x256.size a)
instance k0_chk109.dec : ∀ (v1191 : BitVec 32), Decidable (k0_chk109 v1191) := fun v1191 => decidable_of_iff' _ (Iff.of_eq (k0_chk109.eq_1 v1191))
theorem k0_off326_inb : ∀ (v1191 : BitVec 32) (k0_hw109 : k0_chk109 v1191), ∀ a, (k0_off326 v1191) a + S1x2x256.size a ≤ S147456x2x256.size a := fun v1191 k0_hw109 => k0_hw109

def k0_off327 (i : grid0.Coords) : Fin 3 → Nat :=
  let arg0 : BitVec 32 := BitVec.ofNat 32 (i 0).val
  let c128_i32 : BitVec 32 := 128#32
  let v0 : BitVec 32 := Scalar.muli arg0 c128_i32
  let c108_i32 : BitVec 32 := 108#32
  let v1189 : BitVec 32 := Scalar.addi v0 c108_i32
  let c0_i32_866 : BitVec 32 := 0#32
  let c0_i32_867 : BitVec 32 := 0#32
  ![v1189.toNat, 0, 0]
def k0_off328 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v1200 : BitVec 32 := Scalar.addi v0 c109_i32
  let v1201 : Index := Scalar.indexCast v1200
  ![v1201.toNat]
def k0_off329 (v1202 : BitVec 32) : Fin 3 → Nat :=
  let c0_i32_872 : BitVec 32 := 0#32
  let c0_i32_873 : BitVec 32 := 0#32
  ![v1202.toNat, 0, 0]

def k0_chk110 (v1202 : BitVec 32) : Prop :=
  (∀ a, (k0_off329 v1202) a + S1x2x256.size a ≤ S147456x2x256.size a)
instance k0_chk110.dec : ∀ (v1202 : BitVec 32), Decidable (k0_chk110 v1202) := fun v1202 => decidable_of_iff' _ (Iff.of_eq (k0_chk110.eq_1 v1202))
theorem k0_off329_inb : ∀ (v1202 : BitVec 32) (k0_hw110 : k0_chk110 v1202), ∀ a, (k0_off329 v1202) a + S1x2x256.size a ≤ S147456x2x256.size a := fun v1202 k0_hw110 => k0_hw110

def k0_off330 (i : grid0.Coords) : Fin 3 → Nat :=
  let arg0 : BitVec 32 := BitVec.ofNat 32 (i 0).val
  let c128_i32 : BitVec 32 := 128#32
  let v0 : BitVec 32 := Scalar.muli arg0 c128_i32
  let c109_i32 : BitVec 32 := 109#32
  let v1200 : BitVec 32 := Scalar.addi v0 c109_i32
  let c0_i32_874 : BitVec 32 := 0#32
  let c0_i32_875 : BitVec 32 := 0#32
  ![v1200.toNat, 0, 0]
def k0_off331 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v1211 : BitVec 32 := Scalar.addi v0 c110_i32
  let v1212 : Index := Scalar.indexCast v1211
  ![v1212.toNat]
def k0_off332 (v1213 : BitVec 32) : Fin 3 → Nat :=
  let c0_i32_880 : BitVec 32 := 0#32
  let c0_i32_881 : BitVec 32 := 0#32
  ![v1213.toNat, 0, 0]

def k0_chk111 (v1213 : BitVec 32) : Prop :=
  (∀ a, (k0_off332 v1213) a + S1x2x256.size a ≤ S147456x2x256.size a)
instance k0_chk111.dec : ∀ (v1213 : BitVec 32), Decidable (k0_chk111 v1213) := fun v1213 => decidable_of_iff' _ (Iff.of_eq (k0_chk111.eq_1 v1213))
theorem k0_off332_inb : ∀ (v1213 : BitVec 32) (k0_hw111 : k0_chk111 v1213), ∀ a, (k0_off332 v1213) a + S1x2x256.size a ≤ S147456x2x256.size a := fun v1213 k0_hw111 => k0_hw111

def k0_off333 (i : grid0.Coords) : Fin 3 → Nat :=
  let arg0 : BitVec 32 := BitVec.ofNat 32 (i 0).val
  let c128_i32 : BitVec 32 := 128#32
  let v0 : BitVec 32 := Scalar.muli arg0 c128_i32
  let c110_i32 : BitVec 32 := 110#32
  let v1211 : BitVec 32 := Scalar.addi v0 c110_i32
  let c0_i32_882 : BitVec 32 := 0#32
  let c0_i32_883 : BitVec 32 := 0#32
  ![v1211.toNat, 0, 0]
def k0_off334 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1222 : BitVec 32 := Scalar.addi v0 c111_i32
  let v1223 : Index := Scalar.indexCast v1222
  ![v1223.toNat]
def k0_off335 (v1224 : BitVec 32) : Fin 3 → Nat :=
  let c0_i32_888 : BitVec 32 := 0#32
  let c0_i32_889 : BitVec 32 := 0#32
  ![v1224.toNat, 0, 0]

def k0_chk112 (v1224 : BitVec 32) : Prop :=
  (∀ a, (k0_off335 v1224) a + S1x2x256.size a ≤ S147456x2x256.size a)
instance k0_chk112.dec : ∀ (v1224 : BitVec 32), Decidable (k0_chk112 v1224) := fun v1224 => decidable_of_iff' _ (Iff.of_eq (k0_chk112.eq_1 v1224))
theorem k0_off335_inb : ∀ (v1224 : BitVec 32) (k0_hw112 : k0_chk112 v1224), ∀ a, (k0_off335 v1224) a + S1x2x256.size a ≤ S147456x2x256.size a := fun v1224 k0_hw112 => k0_hw112

def k0_off336 (i : grid0.Coords) : Fin 3 → Nat :=
  let arg0 : BitVec 32 := BitVec.ofNat 32 (i 0).val
  let c128_i32 : BitVec 32 := 128#32
  let v0 : BitVec 32 := Scalar.muli arg0 c128_i32
  let c111_i32 : BitVec 32 := 111#32
  let v1222 : BitVec 32 := Scalar.addi v0 c111_i32
  let c0_i32_890 : BitVec 32 := 0#32
  let c0_i32_891 : BitVec 32 := 0#32
  ![v1222.toNat, 0, 0]
def k0_off337 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1233 : BitVec 32 := Scalar.addi v0 c112_i32
  let v1234 : Index := Scalar.indexCast v1233
  ![v1234.toNat]
def k0_off338 (v1235 : BitVec 32) : Fin 3 → Nat :=
  let c0_i32_896 : BitVec 32 := 0#32
  let c0_i32_897 : BitVec 32 := 0#32
  ![v1235.toNat, 0, 0]

def k0_chk113 (v1235 : BitVec 32) : Prop :=
  (∀ a, (k0_off338 v1235) a + S1x2x256.size a ≤ S147456x2x256.size a)
instance k0_chk113.dec : ∀ (v1235 : BitVec 32), Decidable (k0_chk113 v1235) := fun v1235 => decidable_of_iff' _ (Iff.of_eq (k0_chk113.eq_1 v1235))
theorem k0_off338_inb : ∀ (v1235 : BitVec 32) (k0_hw113 : k0_chk113 v1235), ∀ a, (k0_off338 v1235) a + S1x2x256.size a ≤ S147456x2x256.size a := fun v1235 k0_hw113 => k0_hw113

def k0_off339 (i : grid0.Coords) : Fin 3 → Nat :=
  let arg0 : BitVec 32 := BitVec.ofNat 32 (i 0).val
  let c128_i32 : BitVec 32 := 128#32
  let v0 : BitVec 32 := Scalar.muli arg0 c128_i32
  let c112_i32 : BitVec 32 := 112#32
  let v1233 : BitVec 32 := Scalar.addi v0 c112_i32
  let c0_i32_898 : BitVec 32 := 0#32
  let c0_i32_899 : BitVec 32 := 0#32
  ![v1233.toNat, 0, 0]
def k0_off340 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1244 : BitVec 32 := Scalar.addi v0 c113_i32
  let v1245 : Index := Scalar.indexCast v1244
  ![v1245.toNat]
def k0_off341 (v1246 : BitVec 32) : Fin 3 → Nat :=
  let c0_i32_904 : BitVec 32 := 0#32
  let c0_i32_905 : BitVec 32 := 0#32
  ![v1246.toNat, 0, 0]

def k0_chk114 (v1246 : BitVec 32) : Prop :=
  (∀ a, (k0_off341 v1246) a + S1x2x256.size a ≤ S147456x2x256.size a)
instance k0_chk114.dec : ∀ (v1246 : BitVec 32), Decidable (k0_chk114 v1246) := fun v1246 => decidable_of_iff' _ (Iff.of_eq (k0_chk114.eq_1 v1246))
theorem k0_off341_inb : ∀ (v1246 : BitVec 32) (k0_hw114 : k0_chk114 v1246), ∀ a, (k0_off341 v1246) a + S1x2x256.size a ≤ S147456x2x256.size a := fun v1246 k0_hw114 => k0_hw114

def k0_off342 (i : grid0.Coords) : Fin 3 → Nat :=
  let arg0 : BitVec 32 := BitVec.ofNat 32 (i 0).val
  let c128_i32 : BitVec 32 := 128#32
  let v0 : BitVec 32 := Scalar.muli arg0 c128_i32
  let c113_i32 : BitVec 32 := 113#32
  let v1244 : BitVec 32 := Scalar.addi v0 c113_i32
  let c0_i32_906 : BitVec 32 := 0#32
  let c0_i32_907 : BitVec 32 := 0#32
  ![v1244.toNat, 0, 0]
def k0_off343 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1255 : BitVec 32 := Scalar.addi v0 c114_i32
  let v1256 : Index := Scalar.indexCast v1255
  ![v1256.toNat]
def k0_off344 (v1257 : BitVec 32) : Fin 3 → Nat :=
  let c0_i32_912 : BitVec 32 := 0#32
  let c0_i32_913 : BitVec 32 := 0#32
  ![v1257.toNat, 0, 0]

def k0_chk115 (v1257 : BitVec 32) : Prop :=
  (∀ a, (k0_off344 v1257) a + S1x2x256.size a ≤ S147456x2x256.size a)
instance k0_chk115.dec : ∀ (v1257 : BitVec 32), Decidable (k0_chk115 v1257) := fun v1257 => decidable_of_iff' _ (Iff.of_eq (k0_chk115.eq_1 v1257))
theorem k0_off344_inb : ∀ (v1257 : BitVec 32) (k0_hw115 : k0_chk115 v1257), ∀ a, (k0_off344 v1257) a + S1x2x256.size a ≤ S147456x2x256.size a := fun v1257 k0_hw115 => k0_hw115

def k0_off345 (i : grid0.Coords) : Fin 3 → Nat :=
  let arg0 : BitVec 32 := BitVec.ofNat 32 (i 0).val
  let c128_i32 : BitVec 32 := 128#32
  let v0 : BitVec 32 := Scalar.muli arg0 c128_i32
  let c114_i32 : BitVec 32 := 114#32
  let v1255 : BitVec 32 := Scalar.addi v0 c114_i32
  let c0_i32_914 : BitVec 32 := 0#32
  let c0_i32_915 : BitVec 32 := 0#32
  ![v1255.toNat, 0, 0]
def k0_off346 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1266 : BitVec 32 := Scalar.addi v0 c115_i32
  let v1267 : Index := Scalar.indexCast v1266
  ![v1267.toNat]
def k0_off347 (v1268 : BitVec 32) : Fin 3 → Nat :=
  let c0_i32_920 : BitVec 32 := 0#32
  let c0_i32_921 : BitVec 32 := 0#32
  ![v1268.toNat, 0, 0]

def k0_chk116 (v1268 : BitVec 32) : Prop :=
  (∀ a, (k0_off347 v1268) a + S1x2x256.size a ≤ S147456x2x256.size a)
instance k0_chk116.dec : ∀ (v1268 : BitVec 32), Decidable (k0_chk116 v1268) := fun v1268 => decidable_of_iff' _ (Iff.of_eq (k0_chk116.eq_1 v1268))
theorem k0_off347_inb : ∀ (v1268 : BitVec 32) (k0_hw116 : k0_chk116 v1268), ∀ a, (k0_off347 v1268) a + S1x2x256.size a ≤ S147456x2x256.size a := fun v1268 k0_hw116 => k0_hw116

def k0_off348 (i : grid0.Coords) : Fin 3 → Nat :=
  let arg0 : BitVec 32 := BitVec.ofNat 32 (i 0).val
  let c128_i32 : BitVec 32 := 128#32
  let v0 : BitVec 32 := Scalar.muli arg0 c128_i32
  let c115_i32 : BitVec 32 := 115#32
  let v1266 : BitVec 32 := Scalar.addi v0 c115_i32
  let c0_i32_922 : BitVec 32 := 0#32
  let c0_i32_923 : BitVec 32 := 0#32
  ![v1266.toNat, 0, 0]
def k0_off349 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1277 : BitVec 32 := Scalar.addi v0 c116_i32
  let v1278 : Index := Scalar.indexCast v1277
  ![v1278.toNat]
def k0_off350 (v1279 : BitVec 32) : Fin 3 → Nat :=
  let c0_i32_928 : BitVec 32 := 0#32
  let c0_i32_929 : BitVec 32 := 0#32
  ![v1279.toNat, 0, 0]

def k0_chk117 (v1279 : BitVec 32) : Prop :=
  (∀ a, (k0_off350 v1279) a + S1x2x256.size a ≤ S147456x2x256.size a)
instance k0_chk117.dec : ∀ (v1279 : BitVec 32), Decidable (k0_chk117 v1279) := fun v1279 => decidable_of_iff' _ (Iff.of_eq (k0_chk117.eq_1 v1279))
theorem k0_off350_inb : ∀ (v1279 : BitVec 32) (k0_hw117 : k0_chk117 v1279), ∀ a, (k0_off350 v1279) a + S1x2x256.size a ≤ S147456x2x256.size a := fun v1279 k0_hw117 => k0_hw117

def k0_off351 (i : grid0.Coords) : Fin 3 → Nat :=
  let arg0 : BitVec 32 := BitVec.ofNat 32 (i 0).val
  let c128_i32 : BitVec 32 := 128#32
  let v0 : BitVec 32 := Scalar.muli arg0 c128_i32
  let c116_i32 : BitVec 32 := 116#32
  let v1277 : BitVec 32 := Scalar.addi v0 c116_i32
  let c0_i32_930 : BitVec 32 := 0#32
  let c0_i32_931 : BitVec 32 := 0#32
  ![v1277.toNat, 0, 0]
def k0_off352 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1288 : BitVec 32 := Scalar.addi v0 c117_i32
  let v1289 : Index := Scalar.indexCast v1288
  ![v1289.toNat]
def k0_off353 (v1290 : BitVec 32) : Fin 3 → Nat :=
  let c0_i32_936 : BitVec 32 := 0#32
  let c0_i32_937 : BitVec 32 := 0#32
  ![v1290.toNat, 0, 0]

def k0_chk118 (v1290 : BitVec 32) : Prop :=
  (∀ a, (k0_off353 v1290) a + S1x2x256.size a ≤ S147456x2x256.size a)
instance k0_chk118.dec : ∀ (v1290 : BitVec 32), Decidable (k0_chk118 v1290) := fun v1290 => decidable_of_iff' _ (Iff.of_eq (k0_chk118.eq_1 v1290))
theorem k0_off353_inb : ∀ (v1290 : BitVec 32) (k0_hw118 : k0_chk118 v1290), ∀ a, (k0_off353 v1290) a + S1x2x256.size a ≤ S147456x2x256.size a := fun v1290 k0_hw118 => k0_hw118

def k0_off354 (i : grid0.Coords) : Fin 3 → Nat :=
  let arg0 : BitVec 32 := BitVec.ofNat 32 (i 0).val
  let c128_i32 : BitVec 32 := 128#32
  let v0 : BitVec 32 := Scalar.muli arg0 c128_i32
  let c117_i32 : BitVec 32 := 117#32
  let v1288 : BitVec 32 := Scalar.addi v0 c117_i32
  let c0_i32_938 : BitVec 32 := 0#32
  let c0_i32_939 : BitVec 32 := 0#32
  ![v1288.toNat, 0, 0]
def k0_off355 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1299 : BitVec 32 := Scalar.addi v0 c118_i32
  let v1300 : Index := Scalar.indexCast v1299
  ![v1300.toNat]
def k0_off356 (v1301 : BitVec 32) : Fin 3 → Nat :=
  let c0_i32_944 : BitVec 32 := 0#32
  let c0_i32_945 : BitVec 32 := 0#32
  ![v1301.toNat, 0, 0]

def k0_chk119 (v1301 : BitVec 32) : Prop :=
  (∀ a, (k0_off356 v1301) a + S1x2x256.size a ≤ S147456x2x256.size a)
instance k0_chk119.dec : ∀ (v1301 : BitVec 32), Decidable (k0_chk119 v1301) := fun v1301 => decidable_of_iff' _ (Iff.of_eq (k0_chk119.eq_1 v1301))
theorem k0_off356_inb : ∀ (v1301 : BitVec 32) (k0_hw119 : k0_chk119 v1301), ∀ a, (k0_off356 v1301) a + S1x2x256.size a ≤ S147456x2x256.size a := fun v1301 k0_hw119 => k0_hw119

def k0_off357 (i : grid0.Coords) : Fin 3 → Nat :=
  let arg0 : BitVec 32 := BitVec.ofNat 32 (i 0).val
  let c128_i32 : BitVec 32 := 128#32
  let v0 : BitVec 32 := Scalar.muli arg0 c128_i32
  let c118_i32 : BitVec 32 := 118#32
  let v1299 : BitVec 32 := Scalar.addi v0 c118_i32
  let c0_i32_946 : BitVec 32 := 0#32
  let c0_i32_947 : BitVec 32 := 0#32
  ![v1299.toNat, 0, 0]
def k0_off358 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1310 : BitVec 32 := Scalar.addi v0 c119_i32
  let v1311 : Index := Scalar.indexCast v1310
  ![v1311.toNat]
def k0_off359 (v1312 : BitVec 32) : Fin 3 → Nat :=
  let c0_i32_952 : BitVec 32 := 0#32
  let c0_i32_953 : BitVec 32 := 0#32
  ![v1312.toNat, 0, 0]

def k0_chk120 (v1312 : BitVec 32) : Prop :=
  (∀ a, (k0_off359 v1312) a + S1x2x256.size a ≤ S147456x2x256.size a)
instance k0_chk120.dec : ∀ (v1312 : BitVec 32), Decidable (k0_chk120 v1312) := fun v1312 => decidable_of_iff' _ (Iff.of_eq (k0_chk120.eq_1 v1312))
theorem k0_off359_inb : ∀ (v1312 : BitVec 32) (k0_hw120 : k0_chk120 v1312), ∀ a, (k0_off359 v1312) a + S1x2x256.size a ≤ S147456x2x256.size a := fun v1312 k0_hw120 => k0_hw120

def k0_off360 (i : grid0.Coords) : Fin 3 → Nat :=
  let arg0 : BitVec 32 := BitVec.ofNat 32 (i 0).val
  let c128_i32 : BitVec 32 := 128#32
  let v0 : BitVec 32 := Scalar.muli arg0 c128_i32
  let c119_i32 : BitVec 32 := 119#32
  let v1310 : BitVec 32 := Scalar.addi v0 c119_i32
  let c0_i32_954 : BitVec 32 := 0#32
  let c0_i32_955 : BitVec 32 := 0#32
  ![v1310.toNat, 0, 0]
def k0_off361 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1321 : BitVec 32 := Scalar.addi v0 c120_i32
  let v1322 : Index := Scalar.indexCast v1321
  ![v1322.toNat]
def k0_off362 (v1323 : BitVec 32) : Fin 3 → Nat :=
  let c0_i32_960 : BitVec 32 := 0#32
  let c0_i32_961 : BitVec 32 := 0#32
  ![v1323.toNat, 0, 0]

def k0_chk121 (v1323 : BitVec 32) : Prop :=
  (∀ a, (k0_off362 v1323) a + S1x2x256.size a ≤ S147456x2x256.size a)
instance k0_chk121.dec : ∀ (v1323 : BitVec 32), Decidable (k0_chk121 v1323) := fun v1323 => decidable_of_iff' _ (Iff.of_eq (k0_chk121.eq_1 v1323))
theorem k0_off362_inb : ∀ (v1323 : BitVec 32) (k0_hw121 : k0_chk121 v1323), ∀ a, (k0_off362 v1323) a + S1x2x256.size a ≤ S147456x2x256.size a := fun v1323 k0_hw121 => k0_hw121

def k0_off363 (i : grid0.Coords) : Fin 3 → Nat :=
  let arg0 : BitVec 32 := BitVec.ofNat 32 (i 0).val
  let c128_i32 : BitVec 32 := 128#32
  let v0 : BitVec 32 := Scalar.muli arg0 c128_i32
  let c120_i32 : BitVec 32 := 120#32
  let v1321 : BitVec 32 := Scalar.addi v0 c120_i32
  let c0_i32_962 : BitVec 32 := 0#32
  let c0_i32_963 : BitVec 32 := 0#32
  ![v1321.toNat, 0, 0]
def k0_off364 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1332 : BitVec 32 := Scalar.addi v0 c121_i32
  let v1333 : Index := Scalar.indexCast v1332
  ![v1333.toNat]
def k0_off365 (v1334 : BitVec 32) : Fin 3 → Nat :=
  let c0_i32_968 : BitVec 32 := 0#32
  let c0_i32_969 : BitVec 32 := 0#32
  ![v1334.toNat, 0, 0]

def k0_chk122 (v1334 : BitVec 32) : Prop :=
  (∀ a, (k0_off365 v1334) a + S1x2x256.size a ≤ S147456x2x256.size a)
instance k0_chk122.dec : ∀ (v1334 : BitVec 32), Decidable (k0_chk122 v1334) := fun v1334 => decidable_of_iff' _ (Iff.of_eq (k0_chk122.eq_1 v1334))
theorem k0_off365_inb : ∀ (v1334 : BitVec 32) (k0_hw122 : k0_chk122 v1334), ∀ a, (k0_off365 v1334) a + S1x2x256.size a ≤ S147456x2x256.size a := fun v1334 k0_hw122 => k0_hw122

def k0_off366 (i : grid0.Coords) : Fin 3 → Nat :=
  let arg0 : BitVec 32 := BitVec.ofNat 32 (i 0).val
  let c128_i32 : BitVec 32 := 128#32
  let v0 : BitVec 32 := Scalar.muli arg0 c128_i32
  let c121_i32 : BitVec 32 := 121#32
  let v1332 : BitVec 32 := Scalar.addi v0 c121_i32
  let c0_i32_970 : BitVec 32 := 0#32
  let c0_i32_971 : BitVec 32 := 0#32
  ![v1332.toNat, 0, 0]
def k0_off367 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1343 : BitVec 32 := Scalar.addi v0 c122_i32
  let v1344 : Index := Scalar.indexCast v1343
  ![v1344.toNat]
def k0_off368 (v1345 : BitVec 32) : Fin 3 → Nat :=
  let c0_i32_976 : BitVec 32 := 0#32
  let c0_i32_977 : BitVec 32 := 0#32
  ![v1345.toNat, 0, 0]

def k0_chk123 (v1345 : BitVec 32) : Prop :=
  (∀ a, (k0_off368 v1345) a + S1x2x256.size a ≤ S147456x2x256.size a)
instance k0_chk123.dec : ∀ (v1345 : BitVec 32), Decidable (k0_chk123 v1345) := fun v1345 => decidable_of_iff' _ (Iff.of_eq (k0_chk123.eq_1 v1345))
theorem k0_off368_inb : ∀ (v1345 : BitVec 32) (k0_hw123 : k0_chk123 v1345), ∀ a, (k0_off368 v1345) a + S1x2x256.size a ≤ S147456x2x256.size a := fun v1345 k0_hw123 => k0_hw123

def k0_off369 (i : grid0.Coords) : Fin 3 → Nat :=
  let arg0 : BitVec 32 := BitVec.ofNat 32 (i 0).val
  let c128_i32 : BitVec 32 := 128#32
  let v0 : BitVec 32 := Scalar.muli arg0 c128_i32
  let c122_i32 : BitVec 32 := 122#32
  let v1343 : BitVec 32 := Scalar.addi v0 c122_i32
  let c0_i32_978 : BitVec 32 := 0#32
  let c0_i32_979 : BitVec 32 := 0#32
  ![v1343.toNat, 0, 0]
def k0_off370 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1354 : BitVec 32 := Scalar.addi v0 c123_i32
  let v1355 : Index := Scalar.indexCast v1354
  ![v1355.toNat]
def k0_off371 (v1356 : BitVec 32) : Fin 3 → Nat :=
  let c0_i32_984 : BitVec 32 := 0#32
  let c0_i32_985 : BitVec 32 := 0#32
  ![v1356.toNat, 0, 0]

def k0_chk124 (v1356 : BitVec 32) : Prop :=
  (∀ a, (k0_off371 v1356) a + S1x2x256.size a ≤ S147456x2x256.size a)
instance k0_chk124.dec : ∀ (v1356 : BitVec 32), Decidable (k0_chk124 v1356) := fun v1356 => decidable_of_iff' _ (Iff.of_eq (k0_chk124.eq_1 v1356))
theorem k0_off371_inb : ∀ (v1356 : BitVec 32) (k0_hw124 : k0_chk124 v1356), ∀ a, (k0_off371 v1356) a + S1x2x256.size a ≤ S147456x2x256.size a := fun v1356 k0_hw124 => k0_hw124

def k0_off372 (i : grid0.Coords) : Fin 3 → Nat :=
  let arg0 : BitVec 32 := BitVec.ofNat 32 (i 0).val
  let c128_i32 : BitVec 32 := 128#32
  let v0 : BitVec 32 := Scalar.muli arg0 c128_i32
  let c123_i32 : BitVec 32 := 123#32
  let v1354 : BitVec 32 := Scalar.addi v0 c123_i32
  let c0_i32_986 : BitVec 32 := 0#32
  let c0_i32_987 : BitVec 32 := 0#32
  ![v1354.toNat, 0, 0]
def k0_off373 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1365 : BitVec 32 := Scalar.addi v0 c124_i32
  let v1366 : Index := Scalar.indexCast v1365
  ![v1366.toNat]
def k0_off374 (v1367 : BitVec 32) : Fin 3 → Nat :=
  let c0_i32_992 : BitVec 32 := 0#32
  let c0_i32_993 : BitVec 32 := 0#32
  ![v1367.toNat, 0, 0]

def k0_chk125 (v1367 : BitVec 32) : Prop :=
  (∀ a, (k0_off374 v1367) a + S1x2x256.size a ≤ S147456x2x256.size a)
instance k0_chk125.dec : ∀ (v1367 : BitVec 32), Decidable (k0_chk125 v1367) := fun v1367 => decidable_of_iff' _ (Iff.of_eq (k0_chk125.eq_1 v1367))
theorem k0_off374_inb : ∀ (v1367 : BitVec 32) (k0_hw125 : k0_chk125 v1367), ∀ a, (k0_off374 v1367) a + S1x2x256.size a ≤ S147456x2x256.size a := fun v1367 k0_hw125 => k0_hw125

def k0_off375 (i : grid0.Coords) : Fin 3 → Nat :=
  let arg0 : BitVec 32 := BitVec.ofNat 32 (i 0).val
  let c128_i32 : BitVec 32 := 128#32
  let v0 : BitVec 32 := Scalar.muli arg0 c128_i32
  let c124_i32 : BitVec 32 := 124#32
  let v1365 : BitVec 32 := Scalar.addi v0 c124_i32
  let c0_i32_994 : BitVec 32 := 0#32
  let c0_i32_995 : BitVec 32 := 0#32
  ![v1365.toNat, 0, 0]
def k0_off376 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1376 : BitVec 32 := Scalar.addi v0 c125_i32
  let v1377 : Index := Scalar.indexCast v1376
  ![v1377.toNat]
def k0_off377 (v1378 : BitVec 32) : Fin 3 → Nat :=
  let c0_i32_1000 : BitVec 32 := 0#32
  let c0_i32_1001 : BitVec 32 := 0#32
  ![v1378.toNat, 0, 0]

def k0_chk126 (v1378 : BitVec 32) : Prop :=
  (∀ a, (k0_off377 v1378) a + S1x2x256.size a ≤ S147456x2x256.size a)
instance k0_chk126.dec : ∀ (v1378 : BitVec 32), Decidable (k0_chk126 v1378) := fun v1378 => decidable_of_iff' _ (Iff.of_eq (k0_chk126.eq_1 v1378))
theorem k0_off377_inb : ∀ (v1378 : BitVec 32) (k0_hw126 : k0_chk126 v1378), ∀ a, (k0_off377 v1378) a + S1x2x256.size a ≤ S147456x2x256.size a := fun v1378 k0_hw126 => k0_hw126

def k0_off378 (i : grid0.Coords) : Fin 3 → Nat :=
  let arg0 : BitVec 32 := BitVec.ofNat 32 (i 0).val
  let c128_i32 : BitVec 32 := 128#32
  let v0 : BitVec 32 := Scalar.muli arg0 c128_i32
  let c125_i32 : BitVec 32 := 125#32
  let v1376 : BitVec 32 := Scalar.addi v0 c125_i32
  let c0_i32_1002 : BitVec 32 := 0#32
  let c0_i32_1003 : BitVec 32 := 0#32
  ![v1376.toNat, 0, 0]
def k0_off379 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1387 : BitVec 32 := Scalar.addi v0 c126_i32
  let v1388 : Index := Scalar.indexCast v1387
  ![v1388.toNat]
def k0_off380 (v1389 : BitVec 32) : Fin 3 → Nat :=
  let c0_i32_1008 : BitVec 32 := 0#32
  let c0_i32_1009 : BitVec 32 := 0#32
  ![v1389.toNat, 0, 0]

def k0_chk127 (v1389 : BitVec 32) : Prop :=
  (∀ a, (k0_off380 v1389) a + S1x2x256.size a ≤ S147456x2x256.size a)
instance k0_chk127.dec : ∀ (v1389 : BitVec 32), Decidable (k0_chk127 v1389) := fun v1389 => decidable_of_iff' _ (Iff.of_eq (k0_chk127.eq_1 v1389))
theorem k0_off380_inb : ∀ (v1389 : BitVec 32) (k0_hw127 : k0_chk127 v1389), ∀ a, (k0_off380 v1389) a + S1x2x256.size a ≤ S147456x2x256.size a := fun v1389 k0_hw127 => k0_hw127

def k0_off381 (i : grid0.Coords) : Fin 3 → Nat :=
  let arg0 : BitVec 32 := BitVec.ofNat 32 (i 0).val
  let c128_i32 : BitVec 32 := 128#32
  let v0 : BitVec 32 := Scalar.muli arg0 c128_i32
  let c126_i32 : BitVec 32 := 126#32
  let v1387 : BitVec 32 := Scalar.addi v0 c126_i32
  let c0_i32_1010 : BitVec 32 := 0#32
  let c0_i32_1011 : BitVec 32 := 0#32
  ![v1387.toNat, 0, 0]
def k0_off382 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1398 : BitVec 32 := Scalar.addi v0 c127_i32
  let v1399 : Index := Scalar.indexCast v1398
  ![v1399.toNat]
def k0_off383 (v1400 : BitVec 32) : Fin 3 → Nat :=
  let c0_i32_1016 : BitVec 32 := 0#32
  let c0_i32_1017 : BitVec 32 := 0#32
  ![v1400.toNat, 0, 0]

def k0_chk128 (v1400 : BitVec 32) : Prop :=
  (∀ a, (k0_off383 v1400) a + S1x2x256.size a ≤ S147456x2x256.size a)
instance k0_chk128.dec : ∀ (v1400 : BitVec 32), Decidable (k0_chk128 v1400) := fun v1400 => decidable_of_iff' _ (Iff.of_eq (k0_chk128.eq_1 v1400))
theorem k0_off383_inb : ∀ (v1400 : BitVec 32) (k0_hw128 : k0_chk128 v1400), ∀ a, (k0_off383 v1400) a + S1x2x256.size a ≤ S147456x2x256.size a := fun v1400 k0_hw128 => k0_hw128

def k0_off384 (i : grid0.Coords) : Fin 3 → Nat :=
  let arg0 : BitVec 32 := BitVec.ofNat 32 (i 0).val
  let c128_i32 : BitVec 32 := 128#32
  let v0 : BitVec 32 := Scalar.muli arg0 c128_i32
  let c127_i32 : BitVec 32 := 127#32
  let v1398 : BitVec 32 := Scalar.addi v0 c127_i32
  let c0_i32_1018 : BitVec 32 := 0#32
  let c0_i32_1019 : BitVec 32 := 0#32
  ![v1398.toNat, 0, 0]

class Facts₀ : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  transposes_S2x256x16384_S16384x2x256_2_0_1 : S2x256x16384.Transposes [2, 0, 1] S16384x2x256
  shapeCasts_S2x256x384x384_S2x256x147456 : S2x256x384x384.ShapeCasts S2x256x147456
  transposes_S2x256x147456_S147456x2x256_2_0_1 : S2x256x147456.Transposes [2, 0, 1] S147456x2x256
  numel1_S1 : S1.numel = 1
  squeezes_S1x2x256_S2x256 : S1x2x256.Squeezes S2x256
  transposes_S147456x2x256_S2x256x147456_1_2_0 : S147456x2x256.Transposes [1, 2, 0] S2x256x147456
  shapeCasts_S2x256x147456_S2x256x384x384 : S2x256x147456.ShapeCasts S2x256x384x384
  hcc0_scratch0 : 0 + S_.numel ≤ 1
  hrank0 : 0 < grid0.rank
  k0_off1_inb : ∀ i : grid0.Coords, ∀ a, (k0_off1 i) a + S1.size a ≤ S16384.size a
  k0_off3_inb : ∀ i : grid0.Coords, ∀ a, (k0_off3 i) a + S1x2x256.size a ≤ S16384x2x256.size a
  k0_off4_inb : ∀ i : grid0.Coords, ∀ a, (k0_off4 i) a + S1.size a ≤ S16384.size a
  k0_off6_inb : ∀ i : grid0.Coords, ∀ a, (k0_off6 i) a + S1x2x256.size a ≤ S16384x2x256.size a
  k0_off7_inb : ∀ i : grid0.Coords, ∀ a, (k0_off7 i) a + S1.size a ≤ S16384.size a
  k0_off9_inb : ∀ i : grid0.Coords, ∀ a, (k0_off9 i) a + S1x2x256.size a ≤ S16384x2x256.size a
  k0_off10_inb : ∀ i : grid0.Coords, ∀ a, (k0_off10 i) a + S1.size a ≤ S16384.size a
  k0_off12_inb : ∀ i : grid0.Coords, ∀ a, (k0_off12 i) a + S1x2x256.size a ≤ S16384x2x256.size a
  k0_off13_inb : ∀ i : grid0.Coords, ∀ a, (k0_off13 i) a + S1.size a ≤ S16384.size a
  k0_off15_inb : ∀ i : grid0.Coords, ∀ a, (k0_off15 i) a + S1x2x256.size a ≤ S16384x2x256.size a
  k0_off16_inb : ∀ i : grid0.Coords, ∀ a, (k0_off16 i) a + S1.size a ≤ S16384.size a
  k0_off18_inb : ∀ i : grid0.Coords, ∀ a, (k0_off18 i) a + S1x2x256.size a ≤ S16384x2x256.size a
  k0_off19_inb : ∀ i : grid0.Coords, ∀ a, (k0_off19 i) a + S1.size a ≤ S16384.size a
  k0_off21_inb : ∀ i : grid0.Coords, ∀ a, (k0_off21 i) a + S1x2x256.size a ≤ S16384x2x256.size a
  k0_off22_inb : ∀ i : grid0.Coords, ∀ a, (k0_off22 i) a + S1.size a ≤ S16384.size a
  k0_off24_inb : ∀ i : grid0.Coords, ∀ a, (k0_off24 i) a + S1x2x256.size a ≤ S16384x2x256.size a
  k0_off25_inb : ∀ i : grid0.Coords, ∀ a, (k0_off25 i) a + S1.size a ≤ S16384.size a
  k0_off27_inb : ∀ i : grid0.Coords, ∀ a, (k0_off27 i) a + S1x2x256.size a ≤ S16384x2x256.size a
  k0_off28_inb : ∀ i : grid0.Coords, ∀ a, (k0_off28 i) a + S1.size a ≤ S16384.size a
  k0_off30_inb : ∀ i : grid0.Coords, ∀ a, (k0_off30 i) a + S1x2x256.size a ≤ S16384x2x256.size a
  k0_off31_inb : ∀ i : grid0.Coords, ∀ a, (k0_off31 i) a + S1.size a ≤ S16384.size a
  k0_off33_inb : ∀ i : grid0.Coords, ∀ a, (k0_off33 i) a + S1x2x256.size a ≤ S16384x2x256.size a
  k0_off34_inb : ∀ i : grid0.Coords, ∀ a, (k0_off34 i) a + S1.size a ≤ S16384.size a
  k0_off36_inb : ∀ i : grid0.Coords, ∀ a, (k0_off36 i) a + S1x2x256.size a ≤ S16384x2x256.size a
  k0_off37_inb : ∀ i : grid0.Coords, ∀ a, (k0_off37 i) a + S1.size a ≤ S16384.size a
  k0_off39_inb : ∀ i : grid0.Coords, ∀ a, (k0_off39 i) a + S1x2x256.size a ≤ S16384x2x256.size a
  k0_off40_inb : ∀ i : grid0.Coords, ∀ a, (k0_off40 i) a + S1.size a ≤ S16384.size a
  k0_off42_inb : ∀ i : grid0.Coords, ∀ a, (k0_off42 i) a + S1x2x256.size a ≤ S16384x2x256.size a
  k0_off43_inb : ∀ i : grid0.Coords, ∀ a, (k0_off43 i) a + S1.size a ≤ S16384.size a
  k0_off45_inb : ∀ i : grid0.Coords, ∀ a, (k0_off45 i) a + S1x2x256.size a ≤ S16384x2x256.size a
  k0_off46_inb : ∀ i : grid0.Coords, ∀ a, (k0_off46 i) a + S1.size a ≤ S16384.size a
  k0_off48_inb : ∀ i : grid0.Coords, ∀ a, (k0_off48 i) a + S1x2x256.size a ≤ S16384x2x256.size a
  k0_off49_inb : ∀ i : grid0.Coords, ∀ a, (k0_off49 i) a + S1.size a ≤ S16384.size a
  k0_off51_inb : ∀ i : grid0.Coords, ∀ a, (k0_off51 i) a + S1x2x256.size a ≤ S16384x2x256.size a
  k0_off52_inb : ∀ i : grid0.Coords, ∀ a, (k0_off52 i) a + S1.size a ≤ S16384.size a
  k0_off54_inb : ∀ i : grid0.Coords, ∀ a, (k0_off54 i) a + S1x2x256.size a ≤ S16384x2x256.size a
  k0_off55_inb : ∀ i : grid0.Coords, ∀ a, (k0_off55 i) a + S1.size a ≤ S16384.size a
  k0_off57_inb : ∀ i : grid0.Coords, ∀ a, (k0_off57 i) a + S1x2x256.size a ≤ S16384x2x256.size a
  k0_off58_inb : ∀ i : grid0.Coords, ∀ a, (k0_off58 i) a + S1.size a ≤ S16384.size a
  k0_off60_inb : ∀ i : grid0.Coords, ∀ a, (k0_off60 i) a + S1x2x256.size a ≤ S16384x2x256.size a
  k0_off61_inb : ∀ i : grid0.Coords, ∀ a, (k0_off61 i) a + S1.size a ≤ S16384.size a
  k0_off63_inb : ∀ i : grid0.Coords, ∀ a, (k0_off63 i) a + S1x2x256.size a ≤ S16384x2x256.size a
  k0_off64_inb : ∀ i : grid0.Coords, ∀ a, (k0_off64 i) a + S1.size a ≤ S16384.size a
  k0_off66_inb : ∀ i : grid0.Coords, ∀ a, (k0_off66 i) a + S1x2x256.size a ≤ S16384x2x256.size a
  k0_off67_inb : ∀ i : grid0.Coords, ∀ a, (k0_off67 i) a + S1.size a ≤ S16384.size a
  k0_off69_inb : ∀ i : grid0.Coords, ∀ a, (k0_off69 i) a + S1x2x256.size a ≤ S16384x2x256.size a
  k0_off70_inb : ∀ i : grid0.Coords, ∀ a, (k0_off70 i) a + S1.size a ≤ S16384.size a
  k0_off72_inb : ∀ i : grid0.Coords, ∀ a, (k0_off72 i) a + S1x2x256.size a ≤ S16384x2x256.size a
  k0_off73_inb : ∀ i : grid0.Coords, ∀ a, (k0_off73 i) a + S1.size a ≤ S16384.size a
  k0_off75_inb : ∀ i : grid0.Coords, ∀ a, (k0_off75 i) a + S1x2x256.size a ≤ S16384x2x256.size a
  k0_off76_inb : ∀ i : grid0.Coords, ∀ a, (k0_off76 i) a + S1.size a ≤ S16384.size a
  k0_off78_inb : ∀ i : grid0.Coords, ∀ a, (k0_off78 i) a + S1x2x256.size a ≤ S16384x2x256.size a
  k0_off79_inb : ∀ i : grid0.Coords, ∀ a, (k0_off79 i) a + S1.size a ≤ S16384.size a
  k0_off81_inb : ∀ i : grid0.Coords, ∀ a, (k0_off81 i) a + S1x2x256.size a ≤ S16384x2x256.size a
  k0_off82_inb : ∀ i : grid0.Coords, ∀ a, (k0_off82 i) a + S1.size a ≤ S16384.size a
  k0_off84_inb : ∀ i : grid0.Coords, ∀ a, (k0_off84 i) a + S1x2x256.size a ≤ S16384x2x256.size a
  k0_off85_inb : ∀ i : grid0.Coords, ∀ a, (k0_off85 i) a + S1.size a ≤ S16384.size a
  k0_off87_inb : ∀ i : grid0.Coords, ∀ a, (k0_off87 i) a + S1x2x256.size a ≤ S16384x2x256.size a
  k0_off88_inb : ∀ i : grid0.Coords, ∀ a, (k0_off88 i) a + S1.size a ≤ S16384.size a
  k0_off90_inb : ∀ i : grid0.Coords, ∀ a, (k0_off90 i) a + S1x2x256.size a ≤ S16384x2x256.size a
  k0_off91_inb : ∀ i : grid0.Coords, ∀ a, (k0_off91 i) a + S1.size a ≤ S16384.size a
  k0_off93_inb : ∀ i : grid0.Coords, ∀ a, (k0_off93 i) a + S1x2x256.size a ≤ S16384x2x256.size a
  k0_off94_inb : ∀ i : grid0.Coords, ∀ a, (k0_off94 i) a + S1.size a ≤ S16384.size a
  k0_off96_inb : ∀ i : grid0.Coords, ∀ a, (k0_off96 i) a + S1x2x256.size a ≤ S16384x2x256.size a
  k0_off97_inb : ∀ i : grid0.Coords, ∀ a, (k0_off97 i) a + S1.size a ≤ S16384.size a
  k0_off99_inb : ∀ i : grid0.Coords, ∀ a, (k0_off99 i) a + S1x2x256.size a ≤ S16384x2x256.size a
  k0_off100_inb : ∀ i : grid0.Coords, ∀ a, (k0_off100 i) a + S1.size a ≤ S16384.size a
  k0_off102_inb : ∀ i : grid0.Coords, ∀ a, (k0_off102 i) a + S1x2x256.size a ≤ S16384x2x256.size a
  k0_off103_inb : ∀ i : grid0.Coords, ∀ a, (k0_off103 i) a + S1.size a ≤ S16384.size a
  k0_off105_inb : ∀ i : grid0.Coords, ∀ a, (k0_off105 i) a + S1x2x256.size a ≤ S16384x2x256.size a
  k0_off106_inb : ∀ i : grid0.Coords, ∀ a, (k0_off106 i) a + S1.size a ≤ S16384.size a
  k0_off108_inb : ∀ i : grid0.Coords, ∀ a, (k0_off108 i) a + S1x2x256.size a ≤ S16384x2x256.size a
  k0_off109_inb : ∀ i : grid0.Coords, ∀ a, (k0_off109 i) a + S1.size a ≤ S16384.size a
  k0_off111_inb : ∀ i : grid0.Coords, ∀ a, (k0_off111 i) a + S1x2x256.size a ≤ S16384x2x256.size a
  k0_off112_inb : ∀ i : grid0.Coords, ∀ a, (k0_off112 i) a + S1.size a ≤ S16384.size a
  k0_off114_inb : ∀ i : grid0.Coords, ∀ a, (k0_off114 i) a + S1x2x256.size a ≤ S16384x2x256.size a
  k0_off115_inb : ∀ i : grid0.Coords, ∀ a, (k0_off115 i) a + S1.size a ≤ S16384.size a
  k0_off117_inb : ∀ i : grid0.Coords, ∀ a, (k0_off117 i) a + S1x2x256.size a ≤ S16384x2x256.size a
  k0_off118_inb : ∀ i : grid0.Coords, ∀ a, (k0_off118 i) a + S1.size a ≤ S16384.size a
  k0_off120_inb : ∀ i : grid0.Coords, ∀ a, (k0_off120 i) a + S1x2x256.size a ≤ S16384x2x256.size a
  k0_off121_inb : ∀ i : grid0.Coords, ∀ a, (k0_off121 i) a + S1.size a ≤ S16384.size a
  k0_off123_inb : ∀ i : grid0.Coords, ∀ a, (k0_off123 i) a + S1x2x256.size a ≤ S16384x2x256.size a
  k0_off124_inb : ∀ i : grid0.Coords, ∀ a, (k0_off124 i) a + S1.size a ≤ S16384.size a
  k0_off126_inb : ∀ i : grid0.Coords, ∀ a, (k0_off126 i) a + S1x2x256.size a ≤ S16384x2x256.size a
  k0_off127_inb : ∀ i : grid0.Coords, ∀ a, (k0_off127 i) a + S1.size a ≤ S16384.size a
  k0_off129_inb : ∀ i : grid0.Coords, ∀ a, (k0_off129 i) a + S1x2x256.size a ≤ S16384x2x256.size a
  k0_off130_inb : ∀ i : grid0.Coords, ∀ a, (k0_off130 i) a + S1.size a ≤ S16384.size a
  k0_off132_inb : ∀ i : grid0.Coords, ∀ a, (k0_off132 i) a + S1x2x256.size a ≤ S16384x2x256.size a
  k0_off133_inb : ∀ i : grid0.Coords, ∀ a, (k0_off133 i) a + S1.size a ≤ S16384.size a
  k0_off135_inb : ∀ i : grid0.Coords, ∀ a, (k0_off135 i) a + S1x2x256.size a ≤ S16384x2x256.size a
  k0_off136_inb : ∀ i : grid0.Coords, ∀ a, (k0_off136 i) a + S1.size a ≤ S16384.size a
  k0_off138_inb : ∀ i : grid0.Coords, ∀ a, (k0_off138 i) a + S1x2x256.size a ≤ S16384x2x256.size a
  k0_off139_inb : ∀ i : grid0.Coords, ∀ a, (k0_off139 i) a + S1.size a ≤ S16384.size a
  k0_off141_inb : ∀ i : grid0.Coords, ∀ a, (k0_off141 i) a + S1x2x256.size a ≤ S16384x2x256.size a
  k0_off142_inb : ∀ i : grid0.Coords, ∀ a, (k0_off142 i) a + S1.size a ≤ S16384.size a
  k0_off144_inb : ∀ i : grid0.Coords, ∀ a, (k0_off144 i) a + S1x2x256.size a ≤ S16384x2x256.size a
  k0_off145_inb : ∀ i : grid0.Coords, ∀ a, (k0_off145 i) a + S1.size a ≤ S16384.size a
  k0_off147_inb : ∀ i : grid0.Coords, ∀ a, (k0_off147 i) a + S1x2x256.size a ≤ S16384x2x256.size a
  k0_off148_inb : ∀ i : grid0.Coords, ∀ a, (k0_off148 i) a + S1.size a ≤ S16384.size a
  k0_off150_inb : ∀ i : grid0.Coords, ∀ a, (k0_off150 i) a + S1x2x256.size a ≤ S16384x2x256.size a
  k0_off151_inb : ∀ i : grid0.Coords, ∀ a, (k0_off151 i) a + S1.size a ≤ S16384.size a
  k0_off153_inb : ∀ i : grid0.Coords, ∀ a, (k0_off153 i) a + S1x2x256.size a ≤ S16384x2x256.size a
  k0_off154_inb : ∀ i : grid0.Coords, ∀ a, (k0_off154 i) a + S1.size a ≤ S16384.size a
  k0_off156_inb : ∀ i : grid0.Coords, ∀ a, (k0_off156 i) a + S1x2x256.size a ≤ S16384x2x256.size a
  k0_off157_inb : ∀ i : grid0.Coords, ∀ a, (k0_off157 i) a + S1.size a ≤ S16384.size a
  k0_off159_inb : ∀ i : grid0.Coords, ∀ a, (k0_off159 i) a + S1x2x256.size a ≤ S16384x2x256.size a
  k0_off160_inb : ∀ i : grid0.Coords, ∀ a, (k0_off160 i) a + S1.size a ≤ S16384.size a
  k0_off162_inb : ∀ i : grid0.Coords, ∀ a, (k0_off162 i) a + S1x2x256.size a ≤ S16384x2x256.size a
  k0_off163_inb : ∀ i : grid0.Coords, ∀ a, (k0_off163 i) a + S1.size a ≤ S16384.size a
  k0_off165_inb : ∀ i : grid0.Coords, ∀ a, (k0_off165 i) a + S1x2x256.size a ≤ S16384x2x256.size a
  k0_off166_inb : ∀ i : grid0.Coords, ∀ a, (k0_off166 i) a + S1.size a ≤ S16384.size a
  k0_off168_inb : ∀ i : grid0.Coords, ∀ a, (k0_off168 i) a + S1x2x256.size a ≤ S16384x2x256.size a
  k0_off169_inb : ∀ i : grid0.Coords, ∀ a, (k0_off169 i) a + S1.size a ≤ S16384.size a
  k0_off171_inb : ∀ i : grid0.Coords, ∀ a, (k0_off171 i) a + S1x2x256.size a ≤ S16384x2x256.size a
  k0_off172_inb : ∀ i : grid0.Coords, ∀ a, (k0_off172 i) a + S1.size a ≤ S16384.size a
  k0_off174_inb : ∀ i : grid0.Coords, ∀ a, (k0_off174 i) a + S1x2x256.size a ≤ S16384x2x256.size a
  k0_off175_inb : ∀ i : grid0.Coords, ∀ a, (k0_off175 i) a + S1.size a ≤ S16384.size a
  k0_off177_inb : ∀ i : grid0.Coords, ∀ a, (k0_off177 i) a + S1x2x256.size a ≤ S16384x2x256.size a
  k0_off178_inb : ∀ i : grid0.Coords, ∀ a, (k0_off178 i) a + S1.size a ≤ S16384.size a
  k0_off180_inb : ∀ i : grid0.Coords, ∀ a, (k0_off180 i) a + S1x2x256.size a ≤ S16384x2x256.size a
  k0_off181_inb : ∀ i : grid0.Coords, ∀ a, (k0_off181 i) a + S1.size a ≤ S16384.size a
  k0_off183_inb : ∀ i : grid0.Coords, ∀ a, (k0_off183 i) a + S1x2x256.size a ≤ S16384x2x256.size a
  k0_off184_inb : ∀ i : grid0.Coords, ∀ a, (k0_off184 i) a + S1.size a ≤ S16384.size a
  k0_off186_inb : ∀ i : grid0.Coords, ∀ a, (k0_off186 i) a + S1x2x256.size a ≤ S16384x2x256.size a
  k0_off187_inb : ∀ i : grid0.Coords, ∀ a, (k0_off187 i) a + S1.size a ≤ S16384.size a
  k0_off189_inb : ∀ i : grid0.Coords, ∀ a, (k0_off189 i) a + S1x2x256.size a ≤ S16384x2x256.size a
  k0_off190_inb : ∀ i : grid0.Coords, ∀ a, (k0_off190 i) a + S1.size a ≤ S16384.size a
  k0_off192_inb : ∀ i : grid0.Coords, ∀ a, (k0_off192 i) a + S1x2x256.size a ≤ S16384x2x256.size a
  k0_off193_inb : ∀ i : grid0.Coords, ∀ a, (k0_off193 i) a + S1.size a ≤ S16384.size a
  k0_off195_inb : ∀ i : grid0.Coords, ∀ a, (k0_off195 i) a + S1x2x256.size a ≤ S16384x2x256.size a
  k0_off196_inb : ∀ i : grid0.Coords, ∀ a, (k0_off196 i) a + S1.size a ≤ S16384.size a
  k0_off198_inb : ∀ i : grid0.Coords, ∀ a, (k0_off198 i) a + S1x2x256.size a ≤ S16384x2x256.size a
  k0_off199_inb : ∀ i : grid0.Coords, ∀ a, (k0_off199 i) a + S1.size a ≤ S16384.size a
  k0_off201_inb : ∀ i : grid0.Coords, ∀ a, (k0_off201 i) a + S1x2x256.size a ≤ S16384x2x256.size a
  k0_off202_inb : ∀ i : grid0.Coords, ∀ a, (k0_off202 i) a + S1.size a ≤ S16384.size a
  k0_off204_inb : ∀ i : grid0.Coords, ∀ a, (k0_off204 i) a + S1x2x256.size a ≤ S16384x2x256.size a
  k0_off205_inb : ∀ i : grid0.Coords, ∀ a, (k0_off205 i) a + S1.size a ≤ S16384.size a
  k0_off207_inb : ∀ i : grid0.Coords, ∀ a, (k0_off207 i) a + S1x2x256.size a ≤ S16384x2x256.size a
  k0_off208_inb : ∀ i : grid0.Coords, ∀ a, (k0_off208 i) a + S1.size a ≤ S16384.size a
  k0_off210_inb : ∀ i : grid0.Coords, ∀ a, (k0_off210 i) a + S1x2x256.size a ≤ S16384x2x256.size a
  k0_off211_inb : ∀ i : grid0.Coords, ∀ a, (k0_off211 i) a + S1.size a ≤ S16384.size a
  k0_off213_inb : ∀ i : grid0.Coords, ∀ a, (k0_off213 i) a + S1x2x256.size a ≤ S16384x2x256.size a
  k0_off214_inb : ∀ i : grid0.Coords, ∀ a, (k0_off214 i) a + S1.size a ≤ S16384.size a
  k0_off216_inb : ∀ i : grid0.Coords, ∀ a, (k0_off216 i) a + S1x2x256.size a ≤ S16384x2x256.size a
  k0_off217_inb : ∀ i : grid0.Coords, ∀ a, (k0_off217 i) a + S1.size a ≤ S16384.size a
  k0_off219_inb : ∀ i : grid0.Coords, ∀ a, (k0_off219 i) a + S1x2x256.size a ≤ S16384x2x256.size a
  k0_off220_inb : ∀ i : grid0.Coords, ∀ a, (k0_off220 i) a + S1.size a ≤ S16384.size a
  k0_off222_inb : ∀ i : grid0.Coords, ∀ a, (k0_off222 i) a + S1x2x256.size a ≤ S16384x2x256.size a
  k0_off223_inb : ∀ i : grid0.Coords, ∀ a, (k0_off223 i) a + S1.size a ≤ S16384.size a
  k0_off225_inb : ∀ i : grid0.Coords, ∀ a, (k0_off225 i) a + S1x2x256.size a ≤ S16384x2x256.size a
  k0_off226_inb : ∀ i : grid0.Coords, ∀ a, (k0_off226 i) a + S1.size a ≤ S16384.size a
  k0_off228_inb : ∀ i : grid0.Coords, ∀ a, (k0_off228 i) a + S1x2x256.size a ≤ S16384x2x256.size a
  k0_off229_inb : ∀ i : grid0.Coords, ∀ a, (k0_off229 i) a + S1.size a ≤ S16384.size a
  k0_off231_inb : ∀ i : grid0.Coords, ∀ a, (k0_off231 i) a + S1x2x256.size a ≤ S16384x2x256.size a
  k0_off232_inb : ∀ i : grid0.Coords, ∀ a, (k0_off232 i) a + S1.size a ≤ S16384.size a
  k0_off234_inb : ∀ i : grid0.Coords, ∀ a, (k0_off234 i) a + S1x2x256.size a ≤ S16384x2x256.size a
  k0_off235_inb : ∀ i : grid0.Coords, ∀ a, (k0_off235 i) a + S1.size a ≤ S16384.size a
  k0_off237_inb : ∀ i : grid0.Coords, ∀ a, (k0_off237 i) a + S1x2x256.size a ≤ S16384x2x256.size a
  k0_off238_inb : ∀ i : grid0.Coords, ∀ a, (k0_off238 i) a + S1.size a ≤ S16384.size a
  k0_off240_inb : ∀ i : grid0.Coords, ∀ a, (k0_off240 i) a + S1x2x256.size a ≤ S16384x2x256.size a
  k0_off241_inb : ∀ i : grid0.Coords, ∀ a, (k0_off241 i) a + S1.size a ≤ S16384.size a
  k0_off243_inb : ∀ i : grid0.Coords, ∀ a, (k0_off243 i) a + S1x2x256.size a ≤ S16384x2x256.size a
  k0_off244_inb : ∀ i : grid0.Coords, ∀ a, (k0_off244 i) a + S1.size a ≤ S16384.size a
  k0_off246_inb : ∀ i : grid0.Coords, ∀ a, (k0_off246 i) a + S1x2x256.size a ≤ S16384x2x256.size a
  k0_off247_inb : ∀ i : grid0.Coords, ∀ a, (k0_off247 i) a + S1.size a ≤ S16384.size a
  k0_off249_inb : ∀ i : grid0.Coords, ∀ a, (k0_off249 i) a + S1x2x256.size a ≤ S16384x2x256.size a
  k0_off250_inb : ∀ i : grid0.Coords, ∀ a, (k0_off250 i) a + S1.size a ≤ S16384.size a
  k0_off252_inb : ∀ i : grid0.Coords, ∀ a, (k0_off252 i) a + S1x2x256.size a ≤ S16384x2x256.size a
  k0_off253_inb : ∀ i : grid0.Coords, ∀ a, (k0_off253 i) a + S1.size a ≤ S16384.size a
  k0_off255_inb : ∀ i : grid0.Coords, ∀ a, (k0_off255 i) a + S1x2x256.size a ≤ S16384x2x256.size a
  k0_off256_inb : ∀ i : grid0.Coords, ∀ a, (k0_off256 i) a + S1.size a ≤ S16384.size a
  k0_off258_inb : ∀ i : grid0.Coords, ∀ a, (k0_off258 i) a + S1x2x256.size a ≤ S16384x2x256.size a
  k0_off259_inb : ∀ i : grid0.Coords, ∀ a, (k0_off259 i) a + S1.size a ≤ S16384.size a
  k0_off261_inb : ∀ i : grid0.Coords, ∀ a, (k0_off261 i) a + S1x2x256.size a ≤ S16384x2x256.size a
  k0_off262_inb : ∀ i : grid0.Coords, ∀ a, (k0_off262 i) a + S1.size a ≤ S16384.size a
  k0_off264_inb : ∀ i : grid0.Coords, ∀ a, (k0_off264 i) a + S1x2x256.size a ≤ S16384x2x256.size a
  k0_off265_inb : ∀ i : grid0.Coords, ∀ a, (k0_off265 i) a + S1.size a ≤ S16384.size a
  k0_off267_inb : ∀ i : grid0.Coords, ∀ a, (k0_off267 i) a + S1x2x256.size a ≤ S16384x2x256.size a
  k0_off268_inb : ∀ i : grid0.Coords, ∀ a, (k0_off268 i) a + S1.size a ≤ S16384.size a
  k0_off270_inb : ∀ i : grid0.Coords, ∀ a, (k0_off270 i) a + S1x2x256.size a ≤ S16384x2x256.size a
  k0_off271_inb : ∀ i : grid0.Coords, ∀ a, (k0_off271 i) a + S1.size a ≤ S16384.size a
  k0_off273_inb : ∀ i : grid0.Coords, ∀ a, (k0_off273 i) a + S1x2x256.size a ≤ S16384x2x256.size a
  k0_off274_inb : ∀ i : grid0.Coords, ∀ a, (k0_off274 i) a + S1.size a ≤ S16384.size a
  k0_off276_inb : ∀ i : grid0.Coords, ∀ a, (k0_off276 i) a + S1x2x256.size a ≤ S16384x2x256.size a
  k0_off277_inb : ∀ i : grid0.Coords, ∀ a, (k0_off277 i) a + S1.size a ≤ S16384.size a
  k0_off279_inb : ∀ i : grid0.Coords, ∀ a, (k0_off279 i) a + S1x2x256.size a ≤ S16384x2x256.size a
  k0_off280_inb : ∀ i : grid0.Coords, ∀ a, (k0_off280 i) a + S1.size a ≤ S16384.size a
  k0_off282_inb : ∀ i : grid0.Coords, ∀ a, (k0_off282 i) a + S1x2x256.size a ≤ S16384x2x256.size a
  k0_off283_inb : ∀ i : grid0.Coords, ∀ a, (k0_off283 i) a + S1.size a ≤ S16384.size a
  k0_off285_inb : ∀ i : grid0.Coords, ∀ a, (k0_off285 i) a + S1x2x256.size a ≤ S16384x2x256.size a
  k0_off286_inb : ∀ i : grid0.Coords, ∀ a, (k0_off286 i) a + S1.size a ≤ S16384.size a
  k0_off288_inb : ∀ i : grid0.Coords, ∀ a, (k0_off288 i) a + S1x2x256.size a ≤ S16384x2x256.size a
  k0_off289_inb : ∀ i : grid0.Coords, ∀ a, (k0_off289 i) a + S1.size a ≤ S16384.size a
  k0_off291_inb : ∀ i : grid0.Coords, ∀ a, (k0_off291 i) a + S1x2x256.size a ≤ S16384x2x256.size a
  k0_off292_inb : ∀ i : grid0.Coords, ∀ a, (k0_off292 i) a + S1.size a ≤ S16384.size a
  k0_off294_inb : ∀ i : grid0.Coords, ∀ a, (k0_off294 i) a + S1x2x256.size a ≤ S16384x2x256.size a
  k0_off295_inb : ∀ i : grid0.Coords, ∀ a, (k0_off295 i) a + S1.size a ≤ S16384.size a
  k0_off297_inb : ∀ i : grid0.Coords, ∀ a, (k0_off297 i) a + S1x2x256.size a ≤ S16384x2x256.size a
  k0_off298_inb : ∀ i : grid0.Coords, ∀ a, (k0_off298 i) a + S1.size a ≤ S16384.size a
  k0_off300_inb : ∀ i : grid0.Coords, ∀ a, (k0_off300 i) a + S1x2x256.size a ≤ S16384x2x256.size a
  k0_off301_inb : ∀ i : grid0.Coords, ∀ a, (k0_off301 i) a + S1.size a ≤ S16384.size a
  k0_off303_inb : ∀ i : grid0.Coords, ∀ a, (k0_off303 i) a + S1x2x256.size a ≤ S16384x2x256.size a
  k0_off304_inb : ∀ i : grid0.Coords, ∀ a, (k0_off304 i) a + S1.size a ≤ S16384.size a
  k0_off306_inb : ∀ i : grid0.Coords, ∀ a, (k0_off306 i) a + S1x2x256.size a ≤ S16384x2x256.size a
  k0_off307_inb : ∀ i : grid0.Coords, ∀ a, (k0_off307 i) a + S1.size a ≤ S16384.size a
  k0_off309_inb : ∀ i : grid0.Coords, ∀ a, (k0_off309 i) a + S1x2x256.size a ≤ S16384x2x256.size a
  k0_off310_inb : ∀ i : grid0.Coords, ∀ a, (k0_off310 i) a + S1.size a ≤ S16384.size a
  k0_off312_inb : ∀ i : grid0.Coords, ∀ a, (k0_off312 i) a + S1x2x256.size a ≤ S16384x2x256.size a
  k0_off313_inb : ∀ i : grid0.Coords, ∀ a, (k0_off313 i) a + S1.size a ≤ S16384.size a
  k0_off315_inb : ∀ i : grid0.Coords, ∀ a, (k0_off315 i) a + S1x2x256.size a ≤ S16384x2x256.size a
  k0_off316_inb : ∀ i : grid0.Coords, ∀ a, (k0_off316 i) a + S1.size a ≤ S16384.size a
  k0_off318_inb : ∀ i : grid0.Coords, ∀ a, (k0_off318 i) a + S1x2x256.size a ≤ S16384x2x256.size a
  k0_off319_inb : ∀ i : grid0.Coords, ∀ a, (k0_off319 i) a + S1.size a ≤ S16384.size a
  k0_off321_inb : ∀ i : grid0.Coords, ∀ a, (k0_off321 i) a + S1x2x256.size a ≤ S16384x2x256.size a
  k0_off322_inb : ∀ i : grid0.Coords, ∀ a, (k0_off322 i) a + S1.size a ≤ S16384.size a
  k0_off324_inb : ∀ i : grid0.Coords, ∀ a, (k0_off324 i) a + S1x2x256.size a ≤ S16384x2x256.size a
  k0_off325_inb : ∀ i : grid0.Coords, ∀ a, (k0_off325 i) a + S1.size a ≤ S16384.size a
  k0_off327_inb : ∀ i : grid0.Coords, ∀ a, (k0_off327 i) a + S1x2x256.size a ≤ S16384x2x256.size a
  k0_off328_inb : ∀ i : grid0.Coords, ∀ a, (k0_off328 i) a + S1.size a ≤ S16384.size a
  k0_off330_inb : ∀ i : grid0.Coords, ∀ a, (k0_off330 i) a + S1x2x256.size a ≤ S16384x2x256.size a
  k0_off331_inb : ∀ i : grid0.Coords, ∀ a, (k0_off331 i) a + S1.size a ≤ S16384.size a
  k0_off333_inb : ∀ i : grid0.Coords, ∀ a, (k0_off333 i) a + S1x2x256.size a ≤ S16384x2x256.size a
  k0_off334_inb : ∀ i : grid0.Coords, ∀ a, (k0_off334 i) a + S1.size a ≤ S16384.size a
  k0_off336_inb : ∀ i : grid0.Coords, ∀ a, (k0_off336 i) a + S1x2x256.size a ≤ S16384x2x256.size a
  k0_off337_inb : ∀ i : grid0.Coords, ∀ a, (k0_off337 i) a + S1.size a ≤ S16384.size a
  k0_off339_inb : ∀ i : grid0.Coords, ∀ a, (k0_off339 i) a + S1x2x256.size a ≤ S16384x2x256.size a
  k0_off340_inb : ∀ i : grid0.Coords, ∀ a, (k0_off340 i) a + S1.size a ≤ S16384.size a
  k0_off342_inb : ∀ i : grid0.Coords, ∀ a, (k0_off342 i) a + S1x2x256.size a ≤ S16384x2x256.size a
  k0_off343_inb : ∀ i : grid0.Coords, ∀ a, (k0_off343 i) a + S1.size a ≤ S16384.size a
  k0_off345_inb : ∀ i : grid0.Coords, ∀ a, (k0_off345 i) a + S1x2x256.size a ≤ S16384x2x256.size a
  k0_off346_inb : ∀ i : grid0.Coords, ∀ a, (k0_off346 i) a + S1.size a ≤ S16384.size a
  k0_off348_inb : ∀ i : grid0.Coords, ∀ a, (k0_off348 i) a + S1x2x256.size a ≤ S16384x2x256.size a
  k0_off349_inb : ∀ i : grid0.Coords, ∀ a, (k0_off349 i) a + S1.size a ≤ S16384.size a
  k0_off351_inb : ∀ i : grid0.Coords, ∀ a, (k0_off351 i) a + S1x2x256.size a ≤ S16384x2x256.size a
  k0_off352_inb : ∀ i : grid0.Coords, ∀ a, (k0_off352 i) a + S1.size a ≤ S16384.size a
  k0_off354_inb : ∀ i : grid0.Coords, ∀ a, (k0_off354 i) a + S1x2x256.size a ≤ S16384x2x256.size a
  k0_off355_inb : ∀ i : grid0.Coords, ∀ a, (k0_off355 i) a + S1.size a ≤ S16384.size a
  k0_off357_inb : ∀ i : grid0.Coords, ∀ a, (k0_off357 i) a + S1x2x256.size a ≤ S16384x2x256.size a
  k0_off358_inb : ∀ i : grid0.Coords, ∀ a, (k0_off358 i) a + S1.size a ≤ S16384.size a
  k0_off360_inb : ∀ i : grid0.Coords, ∀ a, (k0_off360 i) a + S1x2x256.size a ≤ S16384x2x256.size a
  k0_off361_inb : ∀ i : grid0.Coords, ∀ a, (k0_off361 i) a + S1.size a ≤ S16384.size a
  k0_off363_inb : ∀ i : grid0.Coords, ∀ a, (k0_off363 i) a + S1x2x256.size a ≤ S16384x2x256.size a
  k0_off364_inb : ∀ i : grid0.Coords, ∀ a, (k0_off364 i) a + S1.size a ≤ S16384.size a
  k0_off366_inb : ∀ i : grid0.Coords, ∀ a, (k0_off366 i) a + S1x2x256.size a ≤ S16384x2x256.size a
  k0_off367_inb : ∀ i : grid0.Coords, ∀ a, (k0_off367 i) a + S1.size a ≤ S16384.size a
  k0_off369_inb : ∀ i : grid0.Coords, ∀ a, (k0_off369 i) a + S1x2x256.size a ≤ S16384x2x256.size a
  k0_off370_inb : ∀ i : grid0.Coords, ∀ a, (k0_off370 i) a + S1.size a ≤ S16384.size a
  k0_off372_inb : ∀ i : grid0.Coords, ∀ a, (k0_off372 i) a + S1x2x256.size a ≤ S16384x2x256.size a
  k0_off373_inb : ∀ i : grid0.Coords, ∀ a, (k0_off373 i) a + S1.size a ≤ S16384.size a
  k0_off375_inb : ∀ i : grid0.Coords, ∀ a, (k0_off375 i) a + S1x2x256.size a ≤ S16384x2x256.size a
  k0_off376_inb : ∀ i : grid0.Coords, ∀ a, (k0_off376 i) a + S1.size a ≤ S16384.size a
  k0_off378_inb : ∀ i : grid0.Coords, ∀ a, (k0_off378 i) a + S1x2x256.size a ≤ S16384x2x256.size a
  k0_off379_inb : ∀ i : grid0.Coords, ∀ a, (k0_off379 i) a + S1.size a ≤ S16384.size a
  k0_off381_inb : ∀ i : grid0.Coords, ∀ a, (k0_off381 i) a + S1x2x256.size a ≤ S16384x2x256.size a
  k0_off382_inb : ∀ i : grid0.Coords, ∀ a, (k0_off382 i) a + S1.size a ≤ S16384.size a
  k0_off384_inb : ∀ i : grid0.Coords, ∀ a, (k0_off384 i) a + S1x2x256.size a ≤ S16384x2x256.size a

variable [Facts₀]

abbrev cc0_scratch0 : DmaSems sig S_ := SemArray.consecutive 0 S_ hcc0_scratch0

abbrev spec0 : Fin 0 → Pipeline.WinSpec sig grid0.rank := fun  | ⟨_, h⟩ => absurd h (Nat.not_lt_zero _)
theorem hcount0 : ∀ w, grid0.bufCount (spec0 w).reads (spec0 w).sync = (spec0 w).nbuf := fun  | ⟨_, h⟩ => absurd h (Nat.not_lt_zero _)
abbrev ix0 (pf : pre0.Contents (Elt F)) : (w : Fin 0) → grid0.Coords → Fin (spec0 w).shape.rank → Nat := fun  | ⟨_, h⟩ => absurd h (Nat.not_lt_zero _)
theorem hreads0 : ∀ (pf : pre0.Contents (Elt F)) w (i i' : grid0.Coords), (∀ a, (spec0 w).reads a = true → i a = i' a) → ix0 pf w i = ix0 pf w i' := fun pf => fun  | ⟨_, h⟩ => absurd h (Nat.not_lt_zero _)
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun  | ⟨_, h⟩ => absurd h (Nat.not_lt_zero _)
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun  | ⟨_, h⟩ => absurd h (Nat.not_lt_zero _)

class Facts : Prop extends Facts₀ where
  harr0 : ∀ w, (spec0 w).arr.IsWhole

variable [Facts]
-- ==== ReferenceIdeal.lean ====
abbrev S2x256x16384 : Shape := ⟨3, ![2, 256, 16384]⟩
abbrev S2x256x384x384 : Shape := ⟨4, ![2, 256, 384, 384]⟩
abbrev S16384x2 : Shape := ⟨2, ![16384, 2]⟩
abbrev S16384x1 : Shape := ⟨2, ![16384, 1]⟩
abbrev S16384 : Shape := ⟨1, ![16384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x16384, .f32⟩
  | .hbm, ⟨1, _⟩ => ⟨S2x256x384x384, .f32⟩
  | .hbm, ⟨2, _⟩ => ⟨S16384x2, .i32⟩
  | .hbm, ⟨3, _⟩ => ⟨S16384x1, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x1, .i32⟩
  | .hbm, ⟨35, _⟩ => ⟨S16384x2, .i32⟩
  | .hbm, ⟨36, _⟩ => ⟨S2x256x384x384, .f32⟩
  | _, _ => ⟨S2x256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_c_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  slices_S16384x2_S16384x1_0_1 : S16384x2.Slices ![0, 1] S16384x1
  bcast_S16384_S16384x1_0 : S16384.BroadcastsInDim S16384x1 (![0] : Fin 1 → Fin S16384x1.rank)
  concatenates_S16384x1_S16384x1_S16384x2_d1 : Shape.Concatenates [S16384x1, S16384x1] S16384x2 1
  scatter_S2x256x384x384_S16384x2_S2x256x16384_01_23_23_1_wf : ScatterDims.WF S2x256x384x384 S16384x2 S2x256x16384 [0, 1] [2, 3] [2, 3] 1

variable [Facts₀]

def scatter_S2x256x384x384_S16384x2_S2x256x16384_01_23_23_1 : ScatterDims S2x256x384x384 S16384x2 S2x256x16384 where
  updateWindowDims := [0, 1]
  insertedWindowDims := [2, 3]
  scatterDimsToOperandDims := [2, 3]
  indexVectorDim := 1
  wf := scatter_S2x256x384x384_S16384x2_S2x256x16384_01_23_23_1_wf

class Facts : Prop extends Facts₀ where

variable [Facts]
-- ==== Proof.ScatterSpec.lean ====
/-
  The scatter's specification, independent of any program: a table of row numbers, a source of rows, a target array.
  `scatN t X O n` is the target after the first `n` source rows have been placed, in order, each whole row `k` of
  `X` at the row of the target that the table's word `k` names; a later row placed at the same target row replaces
  the earlier one. Everything is stated element by element over literal shapes.
-/
import Idealize.ShloMosaic.PureOps
import Idealize.ShloMosaic.Lib.ValueIdx

noncomputable section

namespace Cert.Sc

open Idealize.ShloMosaic Idealize.ShloMosaic.ValueIdx

/-- The table of row numbers: one word per source row. -/
abbrev ST : Shape := ⟨1, ![16384]⟩
/-- The source: 16384 rows of 2 × 256. -/
abbrev SX : Shape := ⟨3, ![16384, 2, 256]⟩
/-- The target: 147456 rows of 2 × 256. -/
abbrev SO : Shape := ⟨3, ![147456, 2, 256]⟩

variable {α : Type}

/-- The table's word `n`, as a natural number (0 past the table's end, which no use reaches). -/
def tblNat (t : ST.Idx → BitVec 32) (n : ℕ) : ℕ := if h : n < 16384 then (t (ix1 ⟨n, h⟩)).toNat else 0

/-- The target `O` with source row `k` of `X` placed at its row `p`. -/
def rowPut (O : SO.Idx → α) (p : ℕ) (X : SX.Idx → α) (k : ℕ) : SO.Idx → α :=
  fun idx => if (idx 0).val = p then (if h : k < 16384 then X (ix3 ⟨k, h⟩ (idx 1) (idx 2)) else O idx) else O idx

/-- The target after the first `n` source rows have been placed, in order. -/
def scatN (t : ST.Idx → BitVec 32) (X : SX.Idx → α) (O : SO.Idx → α) : ℕ → SO.Idx → α
  | 0 => O
  | n + 1 => rowPut (scatN t X O n) (tblNat t n) X n

theorem scatN_zero (t : ST.Idx → BitVec 32) (X : SX.Idx → α) (O : SO.Idx → α) : scatN t X O 0 = O := rfl
theorem scatN_succ (t : ST.Idx → BitVec 32) (X : SX.Idx → α) (O : SO.Idx → α) (n : ℕ) :
    scatN t X O (n + 1) = rowPut (scatN t X O n) (tblNat t n) X n := rfl

/-- Placing rows `n₀, …, n₀ + j - 1` onto a target that already holds the first `n₀` gives the first `n₀ + j`. -/
def scatFrom (t : ST.Idx → BitVec 32) (X : SX.Idx → α) (O : SO.Idx → α) (n₀ : ℕ) : ℕ → SO.Idx → α
  | 0 => O
  | j + 1 => rowPut (scatFrom t X O n₀ j) (tblNat t (n₀ + j)) X (n₀ + j)

theorem scatFrom_scatN (t : ST.Idx → BitVec 32) (X : SX.Idx → α) (O : SO.Idx → α) (n₀ j : ℕ) :
    scatFrom t X (scatN t X O n₀) n₀ j = scatN t X O (n₀ + j) := by
  induction j with
  | zero => rfl
  | succ j ih => show rowPut _ _ X _ = rowPut _ _ X _; rw [ih]; rfl

/-- Row `k` is the LAST source row placed at target row `p` among the first `n`. -/
def IsLastAt (t : ST.Idx → BitVec 32) (n p k : ℕ) : Prop := k < n ∧ tblNat t k = p ∧ ∀ k', k < k' → k' < n → tblNat t k' ≠ p

/-- The target row a last placement reached holds that source row. -/
theorem scatN_of_last (t : ST.Idx → BitVec 32) (X : SX.Idx → α) (O : SO.Idx → α) (n : ℕ) (idx : SO.Idx) (k : ℕ) (hk : k < 16384)
    (h : IsLastAt t n (idx 0).val k) : scatN t X O n idx = X (ix3 ⟨k, hk⟩ (idx 1) (idx 2)) := by
  induction n with
  | zero => exact absurd h.1 (Nat.not_lt_zero _)
  | succ n ih =>
    obtain ⟨hkn, hp, hlast⟩ := h
    rw [scatN_succ]
    unfold rowPut
    by_cases hkn' : k = n
    · subst hkn'
      rw [if_pos hp.symm, dif_pos hk]
    · have hlt : k < n := by omega
      rw [if_neg (fun he => hlast n hlt (Nat.lt_succ_self n) he.symm)]
      exact ih ⟨hlt, hp, fun k' h1 h2 => hlast k' h1 (Nat.lt_succ_of_lt h2)⟩

/-- A target row no placement reached holds what it held. -/
theorem scatN_of_none (t : ST.Idx → BitVec 32) (X : SX.Idx → α) (O : SO.Idx → α) (n : ℕ) (idx : SO.Idx)
    (h : ∀ k, k < n → tblNat t k ≠ (idx 0).val) : scatN t X O n idx = O idx := by
  induction n with
  | zero => rfl
  | succ n ih =>
    rw [scatN_succ]
    unfold rowPut
    rw [if_neg (fun he => h n (Nat.lt_succ_self n) he.symm)]
    exact ih fun k hk => h k (Nat.lt_succ_of_lt hk)

/-- Either some row is the last placed at `p` among the first `n`, or none is placed there. -/
theorem last_or_none (t : ST.Idx → BitVec 32) (n p : ℕ) : (∃ k, IsLastAt t n p k) ∨ ∀ k, k < n → tblNat t k ≠ p := by
  induction n with
  | zero => exact Or.inr fun k hk => absurd hk (Nat.not_lt_zero _)
  | succ n ih =>
    by_cases hn : tblNat t n = p
    · exact Or.inl ⟨n, Nat.lt_succ_self n, hn, fun k' h1 h2 => absurd h2 (by omega)⟩
    · rcases ih with ⟨k, hk, hp, hl⟩ | hnone
      · refine Or.inl ⟨k, Nat.lt_succ_of_lt hk, hp, fun k' h1 h2 => ?_⟩
        by_cases hk' : k' = n
        · subst hk'; exact hn
        · exact hl k' h1 (by omega)
      · refine Or.inr fun k hk => ?_
        by_cases hk' : k = n
        · subst hk'; exact hn
        · exact hnone k (by omega)

end Cert.Sc

end
-- ==== Proof.ScatterBody.lean ====
import proofs.«431333_j41420664602705_3_alg».proof.Proof.Gen.KernelIdeal
import proofs.«431333_j41420664602705_3_alg».proof.Proof.Gen.KernelIdeal.Skeleton
import proofs.«431333_j41420664602705_3_alg».proof.Proof.LaunchKernelIdeal
import proofs.«431333_j41420664602705_3_alg».proof.Proof.ScatterSpec
import Idealize.ShloMosaic.Lib.Tactic
import Idealize.ShloMosaic.Lib.Pipeline.Kit

noncomputable section

namespace Cert.KernelIdeal.Sc

open Cert.KernelIdeal Cert.KernelIdeal.Gen Cert.KernelIdeal.GenP Cert.Sc

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's rounds copy beside the counters the transfers' invariants draw on. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A table word names a row of the result. -/
def RowOK (v : BitVec 32) : Prop := v.toNat < 147456

/-- Every word of the table names a row of the result, however the table is read. -/
def TblOK (c : Dev nD) (ft : Bf (F := F) c (Memref.whole main_v14)) : Prop :=
  ∀ (r : LoadRect S16384) (j : r.shape.Idx), RowOK (View.readAt (Elt F) (Memref.whole main_v14).view r ft j)

/-- A table word that names a row of the result gives a one-row rectangle inside the result. -/
theorem chk_of_rowOK (v : BitVec 32) (h : RowOK v) :
    ∀ a, (![v.toNat, 0, 0] : Fin 3 → ℕ) a + S1x2x256.size a ≤ S147456x2x256.size a := by
  intro a
  unfold RowOK at h
  fin_cases a
  · show v.toNat + 1 ≤ 147456
    omega
  · exact Nat.le_refl 2
  · exact Nat.le_refl 256

/-- The word `128 m + j` does not wrap for `m, j < 128`. -/
theorem off_val (m : ℕ) (hm : m < 128) (j : ℕ) (hj : j < 128) :
    (Scalar.addi (Scalar.muli (BitVec.ofNat 32 m) 128#32) (BitVec.ofNat 32 j)).toNat = 128 * m + j := by
  unfold Scalar.addi Scalar.muli IntOp.addi IntOp.muli
  rw [BitVec.toNat_add, BitVec.toNat_mul, BitVec.toNat_ofNat, BitVec.toNat_ofNat, BitVec.toNat_ofNat]
  have h1 : m % 2 ^ 32 = m := Nat.mod_eq_of_lt (by omega)
  have h2 : j % 2 ^ 32 = j := Nat.mod_eq_of_lt (by omega)
  have h3 : 128 % 2 ^ 32 = 128 := by norm_num
  rw [h1, h2, h3, Nat.mod_eq_of_lt (show m * 128 < 2 ^ 32 by omega), Nat.mod_eq_of_lt (show m * 128 + j < 2 ^ 32 by omega)]
  omega

/-- The destination row's view places `(y₀, y₁)` at `(p, y₀, y₁)`. -/
theorem emb_dst (p : ℕ) (hp : ∀ a, (![p, 0, 0] : Fin 3 → ℕ) a + S1x2x256.size a ≤ S147456x2x256.size a)
    (hs) (hq : S1x2x256.Squeezes S2x256) (y : S2x256.Idx) (a : Fin 3) :
    ((((Memref.whole main_v18).slice (Rect.unit (s := S147456x2x256) ![p, 0, 0] S1x2x256.size hp) hs).squeeze S2x256 hq).view.emb y a).val
      = (![p, (y 0).val, (y 1).val] : Fin 3 → ℕ) a := by
  have e : (((Memref.whole main_v18).slice (Rect.unit (s := S147456x2x256) ![p, 0, 0] S1x2x256.size hp) hs).squeeze S2x256 hq).view.emb y
      = (Rect.unit (s := S147456x2x256) ![p, 0, 0] S1x2x256.size hp).emb (Shape.reshapeEquiv hq.numel_eq y) := rfl
  rw [e, Shape.reshapeEquiv_cons_one, Rect.emb_apply]
  match a with
  | ⟨0, _⟩ => show p + 1 * 0 = p; omega
  | ⟨1, _⟩ => show 0 + 1 * (y 0).val = (y 0).val; omega
  | ⟨2, _⟩ => show 0 + 1 * (y 1).val = (y 1).val; omega

/-- The source row's view places `(y₀, y₁)` at `(k, y₀, y₁)`. -/
theorem emb_src (k : ℕ) (hk : ∀ a, (![k, 0, 0] : Fin 3 → ℕ) a + S1x2x256.size a ≤ S16384x2x256.size a)
    (hs) (hq : S1x2x256.Squeezes S2x256) (y : S2x256.Idx) (a : Fin 3) :
    ((((Memref.whole main_v15).slice (Rect.unit (s := S16384x2x256) ![k, 0, 0] S1x2x256.size hk) hs).squeeze S2x256 hq).view.emb y a).val
      = (![k, (y 0).val, (y 1).val] : Fin 3 → ℕ) a := by
  have e : (((Memref.whole main_v15).slice (Rect.unit (s := S16384x2x256) ![k, 0, 0] S1x2x256.size hk) hs).squeeze S2x256 hq).view.emb y
      = (Rect.unit (s := S16384x2x256) ![k, 0, 0] S1x2x256.size hk).emb (Shape.reshapeEquiv hq.numel_eq y) := rfl
  rw [e, Shape.reshapeEquiv_cons_one, Rect.emb_apply]
  match a with
  | ⟨0, _⟩ => show k + 1 * 0 = k; omega
  | ⟨1, _⟩ => show 0 + 1 * (y 0).val = (y 0).val; omega
  | ⟨2, _⟩ => show 0 + 1 * (y 1).val = (y 1).val; omega

/-- ONE PLACEMENT: writing, through the view of row `p` of the result, what the view of row `k` of the source reads,
    is `rowPut`. -/
theorem put_step (c : Dev nD) (p : ℕ) (hp : ∀ a, (![p, 0, 0] : Fin 3 → ℕ) a + S1x2x256.size a ≤ S147456x2x256.size a)
    (k : ℕ) (hk : ∀ a, (![k, 0, 0] : Fin 3 → ℕ) a + S1x2x256.size a ≤ S16384x2x256.size a)
    (hs1) (hq1 : S1x2x256.Squeezes S2x256) (hs2) (hq2 : S1x2x256.Squeezes S2x256)
    (O : Bf (F := F) c (Memref.whole main_v18)) (X : Bf (F := F) c (Memref.whole main_v15)) :
    View.write (Elt F) (((Memref.whole main_v18).slice (Rect.unit (s := S147456x2x256) ![p, 0, 0] S1x2x256.size hp) hs1).squeeze S2x256 hq1).view O
        (ReadAs.same.apply (View.read (Elt F)
          (((Memref.whole main_v15).slice (Rect.unit (s := S16384x2x256) ![k, 0, 0] S1x2x256.size hk) hs2).squeeze S2x256 hq2).view X)) Finset.univ
      = rowPut O p X k := by
  have hk' : k < 16384 := by have := hk 0; change k + 1 ≤ 16384 at this; omega
  funext idx
  unfold rowPut
  by_cases h0 : (idx 0).val = p
  · rw [if_pos h0, dif_pos hk']
    have hi : (((Memref.whole main_v18).slice (Rect.unit (s := S147456x2x256) ![p, 0, 0] S1x2x256.size hp) hs1).squeeze S2x256 hq1).view.emb
        (Idealize.ShloMosaic.ValueIdx.ix2 (idx 1) (idx 2)) = idx := by
      funext a
      apply Fin.ext
      rw [emb_dst]
      match a with
      | ⟨0, _⟩ => exact h0.symm
      | ⟨1, _⟩ => rfl
      | ⟨2, _⟩ => rfl
    conv_lhs => rw [← hi]
    rw [View.write_emb_of_mem _ _ (Finset.mem_univ _), ReadAs.apply_same, View.read_apply, cast_cast, cast_eq]
    congr 1
    funext a
    apply Fin.ext
    rw [emb_src]
    match a with
    | ⟨0, _⟩ => rfl
    | ⟨1, _⟩ => rfl
    | ⟨2, _⟩ => rfl
  · rw [if_neg h0]
    refine View.write_of_not_mem _ _ _ fun hm => h0 ?_
    obtain ⟨y, _, hy⟩ := Finset.mem_map.mp hm
    have := emb_dst p hp hs1 hq1 y 0
    rw [hy] at this
    exact this

/-- The same word read through the index cast. -/
theorem off_val_ic (m : ℕ) (hm : m < 128) (j : ℕ) (hj : j < 128) :
    (Scalar.indexCast (Scalar.addi (Scalar.muli (BitVec.ofNat 32 m) 128#32) (BitVec.ofNat 32 j))).toNat = 128 * m + j :=
  off_val m hm j hj

/-- Row offsets with equal first coordinates are equal. -/
theorem offs3_eq (v : BitVec 32) (n : ℕ) (h : v.toNat = n) : (![v.toNat, 0, 0] : Fin 3 → ℕ) = ![n, 0, 0] := by rw [h]

/-- Word offsets with equal coordinates are equal. -/
theorem offs1_eq (v : BitVec 32) (n : ℕ) (h : v.toNat = n) : (![v.toNat] : Fin 1 → ℕ) = ![n] := by rw [h]

/-- A load of one table word at offset `n` reads the table's word `n`. -/
theorem tbl_read (c : Dev nD) (ft : Bf (F := F) c (Memref.whole main_v14)) (off : Fin 1 → ℕ)
    (hin : ∀ a, off a + S1.size a ≤ S16384.size a) (hpos) (n : ℕ) (hn : off = ![n]) :
    (View.readAt (Elt F) (Memref.whole main_v14).view (Rect.unit (s := S16384) off S1.size hin).toLoadRect ft (Shape.Idx.first hpos) : BitVec 32).toNat
      = tblNat ft n := by
  subst hn
  have h16 : n < 16384 := by have := hin 0; change n + 1 ≤ 16384 at this; omega
  unfold tblNat
  rw [dif_pos h16, View.readAt_apply, View.read_apply, cast_eq]
  congr 2
  funext a
  apply Fin.ext
  match a with
  | ⟨0, _⟩ => show n + 1 * 0 = n; omega

/-- ONE MORE PLACEMENT: on a result that holds placements `n₀, …, n₀ + j - 1`, writing through the view of the row the
    table's word `n₀ + j` names what the view of source row `n₀ + j` reads gives placements `n₀, …, n₀ + j`. -/
theorem fold_step (c : Dev nD) (ft : Bf (F := F) c (Memref.whole main_v14)) (fx : Bf (F := F) c (Memref.whole main_v15))
    (fo : Bf (F := F) c (Memref.whole main_v18)) (n₀ j : ℕ)
    (offd : Fin 3 → ℕ) (hd : ∀ a, offd a + S1x2x256.size a ≤ S147456x2x256.size a)
    (offs : Fin 3 → ℕ) (hsrc : ∀ a, offs a + S1x2x256.size a ≤ S16384x2x256.size a)
    (hs1) (hq1 : S1x2x256.Squeezes S2x256) (hs2) (hq2 : S1x2x256.Squeezes S2x256)
    (f : Bf (F := F) c (Memref.whole main_v18))
    (hf : f = scatFrom ft fx fo n₀ j)
    (hdv : offd = ![tblNat ft (n₀ + j), 0, 0])
    (hsv : offs = ![n₀ + j, 0, 0]) :
    (View.write (Elt F) (((Memref.whole main_v18).slice (Rect.unit (s := S147456x2x256) offd S1x2x256.size hd) hs1).squeeze S2x256 hq1).view f
        (ReadAs.same.apply (View.read (Elt F)
          (((Memref.whole main_v15).slice (Rect.unit (s := S16384x2x256) offs S1x2x256.size hsrc) hs2).squeeze S2x256 hq2).view fx)) Finset.univ
        : Bf (F := F) c (Memref.whole main_v18))
      = scatFrom ft fx fo n₀ (j + 1) := by
  subst hf hdv hsv
  rw [put_step]
  rfl

set_option maxHeartbeats 4000000 in
/-- One grid step: from the table, the source and the result held whole, the kernel's transfer counter at zero and
    the core's `owes`, the body runs to its return with the table and the source as they were, the result with source
    rows `128 i, …, 128 i + 127` placed in order at the rows the table names, the counter back at zero. -/
theorem kernelRun (c : Dev nD) (i : grid0.Coords)
    (ft : Bf (F := F) c (Memref.whole main_v14)) (fx : Bf (F := F) c (Memref.whole main_v15)) (fo : Bf (F := F) c (Memref.whole main_v18))
    (hok : TblOK c ft) (W : Waits sig Unit) (Q : PUnit → sProp 𝕄) :
    iprop(pt c (Memref.whole main_v14) ft ∗ pt c (Memref.whole main_v15) fx ∗ pt c (Memref.whole main_v18) fo
      ∗ semVal ((c : Thread nD τ), .dma 0) 0 ∗ owes (c : Thread nD τ) 0 W
      ∗ (iprop(pt c (Memref.whole main_v14) ft ∗ pt c (Memref.whole main_v15) fx
            ∗ pt c (Memref.whole main_v18) (scatFrom ft fx fo (128 * (i 0).val) 128)
            ∗ semVal ((c : Thread nD τ), .dma 0) 0 ∗ ∃ W, owes (c : Thread nD τ) 0 W) -∗ Q ⟨⟩))
    ⊢ wp frame (wpE (defs₀ (F := F)) Variants.none c none) Set.univ
        (cc0__scatter_kernel i (Memref.whole main_v14) (Memref.isWhole_whole _) (Memref.whole main_v15) (Memref.isWhole_whole _) (Memref.whole main_v18) (Memref.isWhole_whole _) (Memref.whole main_v18) (Memref.isWhole_whole _) cc0_scratch0) Q := by
  iintro ⟨Ht, Hx, Ho, Hd, HO, Hk⟩
  sl_exec! (disch := exact chk_of_rowOK _ (hok _ _))
  have hO : (kernelRun.sl.Ho_w127 c i ft fx fo hok : Bf (F := F) c (Memref.whole main_v18))
      = scatFrom ft fx fo (128 * (i 0).val) 128 := by
    repeat
      refine fold_step c ft fx fo _ _ _ _ _ _ _ _ _ _ _ ?_
        (by refine offs3_eq _ _ ?_; refine tbl_read c ft _ _ _ _ ?_; refine offs1_eq _ _ ?_; exact off_val_ic _ (i 0).isLt _ (by norm_num))
        (by refine offs3_eq _ _ ?_; exact off_val _ (i 0).isLt _ (by norm_num))
    rfl
  rw [hO]
  sl_step
  iapply Hk
  isplitl [Ht]
  · iexact Ht
  isplitl [Hx]
  · iexact Hx
  isplitl [Ho]
  · iexact Ho
  isplitl [Hd]
  · iexact Hd
  · iexists _; iexact HO

end Cert.KernelIdeal.Sc

end
-- ==== Proof.ScatterHost.lean ====
import proofs.«431333_j41420664602705_3_alg».proof.Proof.ScatterBody
import Idealize.ShloMosaic.Lib.StableHlo.Run

noncomputable section

namespace Cert.KernelIdeal.Sc

open Cert.KernelIdeal Cert.KernelIdeal.Gen Cert.KernelIdeal.GenP Cert.Sc

open Idealize.ShloMosaic
open Idealize.ShloMosaic.TcCoe
open Idealize.SL Idealize.SL.Sem

variable {F : FTy → Type} [FloatOps F]

variable (m : (ℓ : Loc nD τ sig) → Buf (Elt F) ℓ)

/-- Core `c`'s buffers at launch, as the host operations' valuation; -/
abbrev V₀ (c : Dev nD) : Valuation τ sig (Elt F) := fun b => m ((c : Dev nD), b)
/-- and when the region is entered: the operations before it have run. -/
abbrev V (c : Dev nD) (b : Ref sig .tc) : Buf (Elt F) ((c : Thread nD τ).loc b) := StableHlo.after hostOps0 (V₀ m c) b

/-- What the region leaves in the result's buffer: all 16384 source rows placed, in order, on the copy of the
    (re-laid) original the region found there. -/
def kout (c : Dev nD) : SO.Idx → Elt F .f32 := scatN (V m c main_v14) (V m c main_v15) (V m c main_v18) 16384

/-- The program's result: the two operations after the region re-lay that buffer. -/
def kres (c : Dev nD) : S2x256x384x384.Idx → Elt F .f32 :=
  shapeCast S2x256x384x384 (transpose S2x256x147456 [1, 2, 0] (kout m c) transposes_S147456x2x256_S2x256x147456_1_2_0) shapeCasts_S2x256x147456_S2x256x384x384

/-- The run's post: the result array at `kres`, the three arguments as launched. -/
def QK : PUnit × MemSt nD τ sig (Elt F) → Prop := fun r => ∀ c : Dev nD,
  r.2.mem ((c.tc : Thread nD τ).loc main_v20) = kres m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

end Cert.KernelIdeal.Sc

end
-- ==== Proof.ScatterRunData.lean ====
/-
  The scatter program's launch, its data. @main is the host operations that compute the table of row numbers, the
  source rows and the copy of the original the kernel writes over; then one kernel region: no window, one prefetched
  table, one scoped DMA semaphore, 128 grid steps of 128 rows each; then the two host operations that re-lay the
  result. Here: the region's invariant — before grid point `t` the table and the source as the host operations left
  them, the result's buffer with the first `128 t` source rows placed in order (`scatN`), the kernel's transfer
  counter at zero —, the body obligation from `kernelRun`, what the host operations do and do not write, the
  valuation the region leaves, and the two host segments.
-/
import proofs.«431333_j41420664602705_3_alg».proof.Proof.ScatterHost
import Idealize.ShloMosaic.Lib.Pipeline.Regions

noncomputable section

namespace Cert.KernelIdeal.Sc

open Cert.KernelIdeal Cert.KernelIdeal.Gen Cert.KernelIdeal.GenP Cert.Sc

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

namespace Launch

/-- The pipeline library's algebra is the left component of the certificate's. -/
abbrev EP : Emb (UR sig nD τ) (MT nD τ sig Unit (Elt F) ℕ (UU nD τ) ℕ) := embL

abbrev 𝒱₀ : Variants := Variants.none

/-- No core owes another anything: no level is assigned. -/
abbrev L : GSem nD τ sig → Finset Unit := fun _ => ∅
abbrev lv : GSem nD τ sig → Unit → ℕ := fun _ _ => 0

/-! ## The grid -/

/-- The one coordinate of the grid's point `t` is `t`. -/
theorem coords0 (t : Fin grid0.N) : ((grid0.coords t) 0).val = t.val := by
  have hs : grid0.stride 0 = 1 := by decide
  have ht : t.val < 128 := N_0 ▸ t.isLt
  show t.val / grid0.stride 0 % 128 = t.val
  rw [hs, Nat.div_one]
  exact Nat.mod_eq_of_lt ht

/-! ## The invariant, at any contents of the table, the source and the result -/

/-- After `n` source rows: the table and the source as they were, the result with the first `n` rows placed, the
    kernel's transfer counter at zero, the scoped buffers. -/
def Φg (c : Dev nD) (ft : Bf (F := F) c (Memref.whole main_v14)) (fx : Bf (F := F) c (Memref.whole main_v15))
    (fo : Bf (F := F) c (Memref.whole main_v18)) (n : ℕ) : sProp 𝕄 :=
  iprop(pt c (Memref.whole main_v14) ft ∗ pt c (Memref.whole main_v15) fx ∗ pt c (Memref.whole main_v18) (scatN ft fx fo n)
    ∗ semVal ((c : Thread nD τ), .dma 0) 0
    ∗ Pipeline.scopedRest (Ix := Unit) (Name := ℕ) (U := UU nD τ) (Lvl := ℕ) (Val := Elt F) spec0 c)

/-- The proof data at any admissible table contents: no window; before point `t` the first `128 t` rows are placed;
    nothing owed. -/
def datsG (a : (p : Fin 1) → (pcfgs (F := F) p).Adm) (c : Dev nD) (ft : Bf (F := F) c (Memref.whole main_v14))
    (fx : Bf (F := F) c (Memref.whole main_v15)) (fo : Bf (F := F) c (Memref.whole main_v18)) (p : Fin 1) :
    Dat τ (Elt F) Unit ℕ (UU nD τ) ℕ (Pipeline.pin pcfgs a p) c where
  A w := w.elim0
  after w := w.elim0
  Φ t := Φg c ft fx fo (128 * t.val)
  q _ := fullShare
  owed _ := 0

/-- A separating conjunction over the windows is empty: there is none. -/
theorem bigSep_W0 (a : (p : Fin 1) → (pcfgs (F := F) p).Adm) (Ψ : Fin (Pipeline.pin (pcfgs (F := F)) a 0).W → sProp 𝕄) :
    bigSep Finset.univ Ψ = (BI.emp : sProp 𝕄) := by
  show bigSep (Finset.univ : Finset (Fin 0)) Ψ = _
  rfl

/-! ## The body obligation -/

/-- One grid step places the next 128 rows. -/
theorem step_rows (ft : ST.Idx → BitVec 32) {α : Type} (fx : SX.Idx → α) (fo : SO.Idx → α) (t : Fin grid0.N) :
    scatFrom ft fx (scatN ft fx fo (128 * t.val)) (128 * ((grid0.coords t) 0).val) 128 = scatN ft fx fo (128 * (t.val + 1)) := by
  rw [coords0, scatFrom_scatN, Nat.mul_succ]

/-- The library's body obligation: the invariant taken apart, `kernelRun` applied, its post reassembled. -/
theorem body_obligation (a : (p : Fin 1) → (pcfgs (F := F) p).Adm) (c : Dev nD) (ft : Bf (F := F) c (Memref.whole main_v14))
    (fx : Bf (F := F) c (Memref.whole main_v15)) (fo : Bf (F := F) c (Memref.whole main_v18)) (hok : TblOK c ft) :
    BodyObligation (datsG a c ft fx fo 0) (defs₀ (F := F)) 𝒱₀ () Set.univ := fun t => by
  rw [bigSep_W0, bigSep_W0]
  rw [show (datsG a c ft fx fo 0).Φ t.castSucc = Φg c ft fx fo (128 * t.val) from rfl,
    show (datsG a c ft fx fo 0).Φ t.succ = Φg c ft fx fo (128 * (t.val + 1)) from rfl]
  unfold Φg Dat.owesAt Pipeline.owesWithin
  rw [show (datsG a c ft fx fo 0).owed t.castSucc = 0 from rfl, show (datsG a c ft fx fo 0).owed t.succ = 0 from rfl]
  rw [← step_rows ft fx fo t]
  iintro ⟨⟨Ht, Hx, Ho, Hsem, Hr⟩, ⟨%W, %hW, HO⟩, -⟩
  iapply (kernelRun c (grid0.coords t) ft fx (scatN ft fx fo (128 * t.val)) hok W)
  isplitl [Ht]; · iexact Ht
  isplitl [Hx]; · iexact Hx
  isplitl [Ho]; · iexact Ho
  isplitl [Hsem]; · iexact Hsem
  isplitl [HO]; · iexact HO
  iintro ⟨Ht, Hx, Ho, Hsem, ⟨%W', HO⟩⟩
  isplitl [Ht Hx Ho Hsem Hr]
  · isplitl [Ht]; · iexact Ht
    isplitl [Hx]; · iexact Hx
    isplitl [Ho]; · iexact Ho
    isplitl [Hsem]; · iexact Hsem
    iexact Hr
  isplitl [HO]
  · iexists W'; isplitr; · ipureintro; exact fun _ _ => Or.inl trivial
    iexact HO
  iempintro

variable (m : (ℓ : Loc nD τ sig) → Buf (Elt F) ℓ)

/-! ## The host operations' buffers -/

/-- The device buffers behind the TensorCore's unscoped references: the set the host operations run within. -/
def ucRefs : Finset (DevRef τ sig) :=
  (Finset.univ.filter fun b : Ref sig .tc => ¬ b.isScoped).map ⟨Proc.devRef (sig := sig) (.tc : Proc τ), Proc.devRef_injective _⟩

omit [FloatOps F] in
/-- What the launch deals of unscoped buffers, at a valuation, is that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs
  rw [bigSep_map]
  rfl

omit [FloatOps F] in
/-- An unscoped TensorCore reference's buffer is in the set. -/
theorem mem_ucRefs (b : Ref sig .tc) (hb : b.isScoped = false) : Proc.devRef (τ := τ) .tc b ∈ ucRefs :=
  Finset.mem_map_of_mem _ (Finset.mem_filter.mpr ⟨Finset.mem_univ b, by rw [hb]; exact Bool.false_ne_true⟩)

omit [FloatOps F] in
/-- A host operation on TensorCore references stays within the set: it names no scoped buffer. -/
theorem sub_ucRefs (op : HloOp τ sig (Elt F)) (h : op.bufs ⊆ StableHlo.tcRefs τ sig) : op.bufs ⊆ ucRefs := fun b hb => by
  obtain ⟨r, -, rfl⟩ := Finset.mem_map.mp (h hb)
  exact mem_ucRefs r (op.no_scoped _ hb)

/-- No operation before the region writes an argument, -/
theorem not_written0 (b : Ref sig .tc) (hb : b = main_arg0 ∨ b = main_arg1 ∨ b = main_arg2) :
    ∀ op ∈ (hostOps0 (F := F)), Proc.devRef .tc b ∉ op.writes := by
  intro op hop
  simp only [List.mem_cons, List.mem_nil_iff, or_false] at hop
  rcases hb with rfl | rfl | rfl <;>
  rcases hop with rfl | rfl | rfl | rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)

/-- and none after it. -/
theorem not_written1 (b : Ref sig .tc) (hb : b = main_arg0 ∨ b = main_arg1 ∨ b = main_arg2) :
    ∀ op ∈ (hostOps1 (F := F)), Proc.devRef .tc b ∉ op.writes := by
  intro op hop
  simp only [List.mem_cons, List.mem_nil_iff, or_false] at hop
  rcases hb with rfl | rfl | rfl <;>
  rcases hop with rfl | rfl <;>
    simp only [StableHlo.unary_writes, StableHlo.reshape_writes, Finset.mem_singleton] <;>
    exact StableHlo.devRef_ne_of_ne (by decide)

/-- An argument reaches the region as launched. -/
theorem V_arg (c : Dev nD) (b : Ref sig .tc) (hb : b = main_arg0 ∨ b = main_arg1 ∨ b = main_arg2) :
    V m c b = m ((c : Thread nD τ).loc b) :=
  StableHlo.after_of_forall_not_mem (b := Proc.devRef .tc b) hostOps0 (V₀ m c) (not_written0 b hb)

/-! ## The valuation the region leaves, and the operations after it -/

/-- The buffers when the region is left: as entered, the result's at `kout`. -/
def V₁ (c : Dev nD) : Valuation τ sig (Elt F) :=
  Function.update (StableHlo.after hostOps0 (V₀ m c)) (Proc.devRef .tc main_v18) (kout m c)

theorem V₁_v18 (c : Dev nD) : V₁ m c (Proc.devRef .tc main_v18) = kout m c := by
  unfold V₁; rw [Function.update_self]

theorem V₁_ne (c : Dev nD) (b : DevRef τ sig) (hb : b ≠ Proc.devRef .tc main_v18) :
    V₁ m c b = StableHlo.after hostOps0 (V₀ m c) b := by
  unfold V₁; rw [Function.update_of_ne hb]

/-- The two operations after the region re-lay the result: the program's result array holds `kres`. -/
theorem after1_v20 (c : Dev nD) : StableHlo.after hostOps1 (V₁ m c) (Proc.devRef .tc main_v20) = kres m c := by
  simp only [StableHlo.after_cons, StableHlo.after_nil]
  rw [StableHlo.reshape_result', StableHlo.unary_result', V₁_v18]
  rfl

/-- An argument reaches the end as launched. -/
theorem after1_arg (c : Dev nD) (b : Ref sig .tc) (hb : b = main_arg0 ∨ b = main_arg1 ∨ b = main_arg2) :
    StableHlo.after hostOps1 (V₁ m c) (Proc.devRef .tc b) = m ((c : Thread nD τ).loc b) := by
  rw [StableHlo.after_of_forall_not_mem hostOps1 (V₁ m c) (not_written1 b hb),
    V₁_ne m c _ (StableHlo.devRef_ne_of_ne (by rcases hb with rfl | rfl | rfl <;> decide))]
  exact V_arg m c b hb

/-! ## The three buffers the kernel names -/

/-- The table's, the source's and the result's buffers. -/
def H3 : Finset (DevRef τ sig) := {Proc.devRef .tc main_v14, Proc.devRef .tc main_v15, Proc.devRef .tc main_v18}

omit [FloatOps F] in
theorem H3_sub : (H3 : Finset (DevRef τ sig)) ⊆ ucRefs := by
  intro b hb
  unfold H3 at hb
  simp only [Finset.mem_insert, Finset.mem_singleton] at hb
  rcases hb with rfl | rfl | rfl
  · exact mem_ucRefs main_v14 rfl
  · exact mem_ucRefs main_v15 rfl
  · exact mem_ucRefs main_v18 rfl

omit [FloatOps F] in
/-- The three held at a valuation, one by one. -/
theorem held_H3 (c : Dev nD) (W : Valuation τ sig (Elt F)) :
    (StableHlo.held (c : Thread nD τ) H3 W : sProp 𝕄)
      = iprop(pt c (Memref.whole main_v14) (W (Proc.devRef .tc main_v14)) ∗ pt c (Memref.whole main_v15) (W (Proc.devRef .tc main_v15))
          ∗ pt c (Memref.whole main_v18) (W (Proc.devRef .tc main_v18))) := by
  unfold StableHlo.held H3
  rw [bigSep_insert (by
        simp only [Finset.mem_insert, Finset.mem_singleton, not_or]
        exact ⟨StableHlo.devRef_ne_of_ne (by decide), StableHlo.devRef_ne_of_ne (by decide)⟩),
    bigSep_insert (by
        simp only [Finset.mem_singleton]
        exact StableHlo.devRef_ne_of_ne (by decide)),
    bigSep_singleton]
  rfl

/-- Outside the result's buffer the region leaves the valuation it found. -/
theorem held_rest_V₁ (c : Dev nD) :
    (StableHlo.held (c : Thread nD τ) (ucRefs \ H3) (V₁ m c) : sProp 𝕄)
      = StableHlo.held (c : Thread nD τ) (ucRefs \ H3) (StableHlo.after hostOps0 (V₀ m c)) :=
  StableHlo.held_congr (c : Thread nD τ) fun b hb => V₁_ne m c b fun he => by
    rw [he] at hb
    exact (Finset.mem_sdiff.mp hb).2 (by unfold H3; simp only [Finset.mem_insert, Finset.mem_singleton, or_true])

/-! ## The table's contents, the proof data -/

/-- The prefetched table's admissible contents: what the host operations computed on the one device. -/
def adm : (p : Fin 1) → (pcfgs (F := F) p).Adm := fun _ => ⟨fun k => V m 0 (pre0.ref k), trivial⟩

/-- The proof data on core `c`. -/
def dats (p : Fin 1) (c : Dev nD) : Dat τ (Elt F) Unit ℕ (UU nD τ) ℕ (Pipeline.pin pcfgs (adm m) p) c :=
  datsG (adm m) c (V m c main_v14) (V m c main_v15) (V m c main_v18) p

/-- The kernel's own semaphore: its one scoped DMA semaphore. -/
abbrev osem : Fin 1 → SemLoc sig := fun _ => .dma 0

theorem ownSemFacts : Pipeline.OwnSemFacts spec0 osem := by decide

omit [FloatOps F] in
/-- The kernel's own counter at zero. -/
theorem ownSems0_eq (c : Dev nD) :
    (Pipeline.ownSems0 (Ix := Unit) (Name := ℕ) (U := UU nD τ) (Lvl := ℕ) (Val := Elt F) (τ := τ) osem c : sProp 𝕄)
      = semVal ((c : Thread nD τ), .dma 0) 0 :=
  Pipeline.ownSems0_eq_of_list c osem [0] (by decide) (by decide)

/-- The launch element: the pipeline library's at the (absent) staging cells; no counter yet. -/
def u₀ : UU nD τ :=
  (initOf (Pipeline.cells (Pipeline.pin pcfgs (adm m)) (cellOf_inj (adm m))) (Pipeline.launchToks (Pipeline.pin pcfgs (adm m)) (cellOf_inj (adm m))), 1)

/-- What rides beside the buffers through the host operations: the core owes nothing. -/
abbrev R (c : Dev nD) : sProp 𝕄 := iprop(∃ W, owes (c : Thread nD τ) (0 : CellTallies nD τ sig Unit) W)

/-! ## The segments -/

/-- No operation before the region, and none after it, leaves its result unwritten. -/
theorem fresh0 : ∀ op ∈ (hostOps0 (F := F)), op.fresh = ∅ := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl <;> rfl

theorem fresh1 : ∀ op ∈ (hostOps1 (F := F)), op.fresh = ∅ := by
  intro op hop
  simp only [List.mem_cons, List.mem_nil_iff, or_false] at hop
  rcases hop with rfl | rfl <;> rfl

/-- The operations before the region, over the unscoped buffers from the launch contents. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    fresh0 (V₀ m) R

/-- The operations after it, from what the region leaves. -/
def seg1 : Pipeline.HostSeg (Name := ℕ) (U := UU nD τ) (pcfgs (F := F)) defs₀ 𝒱₀ L lv :=
  Pipeline.HostSeg.ofOps _ _ _ _ _ ucRefs hostOps1 (fun op h => sub_ucRefs op ((List.forall_iff_forall_mem.mp hostOps1_sub) op h))
    fresh1 (V₁ m) R

end Launch

end Cert.KernelIdeal.Sc

end
-- ==== Proof.ScatterRun.lean ====
/-
  The scatter program's launch: the kernel region as the library's record — entered from the buffers the host
  operations left, the table handed to the pipeline, the source, the result and the kernel's counter to the
  invariant; left with the result's buffer holding every source row placed in order — and the run of @main as the
  list of its three segments (host operations, the region, host operations).
-/
import proofs.«431333_j41420664602705_3_alg».proof.Proof.ScatterRunData

noncomputable section

namespace Cert.KernelIdeal.Sc

open Cert.KernelIdeal Cert.KernelIdeal.Gen Cert.KernelIdeal.GenP Cert.Sc

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

namespace Launch

/-! ## The region -/

/-- The table as the pipeline holds it is the table's buffer at the computed contents. -/
theorem prefHeld_eq :
    (Pipeline.prefHeld (pcfgs (F := F) 0).pre (0 : Dev nD) (fun _ => fullShare) (adm m 0).1 : sProp 𝕄)
      = pt (0 : Dev nD) (Memref.whole main_v14) (V m 0 main_v14) := by
  unfold Pipeline.prefHeld
  rw [bigSep_univ_of_subsingleton (0 : Fin 1)]
  rfl

omit [FloatOps F] in
/-- The held buffers are the three and the others. -/
theorem held_split3 (c : Dev nD) (W : Valuation τ sig (Elt F)) :
    (StableHlo.held (c : Thread nD τ) ucRefs W : sProp 𝕄)
      = iprop(iprop(pt c (Memref.whole main_v14) (W (Proc.devRef .tc main_v14)) ∗ pt c (Memref.whole main_v15) (W (Proc.devRef .tc main_v15))
          ∗ pt c (Memref.whole main_v18) (W (Proc.devRef .tc main_v18))) ∗ StableHlo.held (c : Thread nD τ) (ucRefs \ H3) W) := by
  rw [StableHlo.held_sub_split (c : Thread nD τ) H3_sub W, held_H3]

/-- ENTRY: the three buffers out of the held ones; the table to the pipeline, the source, the result and the counter
    to the invariant, the other buffers past the region. -/
theorem reg_entry (c : Dev nD) :
    iprop((iprop(StableHlo.held (c : Thread nD τ) ucRefs (StableHlo.after hostOps0 (V₀ m c)) ∗ R c))
        ∗ Pipeline.ownSems0 (Ix := Unit) (Name := ℕ) (U := UU nD τ) (Lvl := ℕ) (Val := Elt F) (τ := τ) osem c ∗ levAts L lv)
      ⊢ |={Set.univ}=> iprop((dats m 0 c).arrays ((dats m 0 c).arrAt · 0)
          ∗ Pipeline.prefHeld (pcfgs (F := F) 0).pre c (fun _ => fullShare) (adm m 0).1
          ∗ (dats m 0 c).owesAt () 0
          ∗ iprop(pt c (Memref.whole main_v15) (V m c main_v15) ∗ pt c (Memref.whole main_v18) (V m c main_v18) ∗ semVal ((c : Thread nD τ), .dma 0) 0)
          ∗ StableHlo.held (c : Thread nD τ) (ucRefs \ H3) (StableHlo.after hostOps0 (V₀ m c))) := by
  obtain rfl : c = 0 := Subsingleton.elim _ _
  rw [held_split3, ownSems0_eq, prefHeld_eq]
  unfold Dat.arrays
  rw [bigSep_W0]
  unfold Dat.owesAt Pipeline.owesWithin
  iintro ⟨⟨⟨⟨Ht, Hx, Ho⟩, Hz⟩, ⟨%W, HO⟩⟩, Hos, -⟩
  imodintro
  isplitr; · iempintro
  isplitl [Ht]; · iexact Ht
  isplitl [HO]
  · iexists W; isplitr; · ipureintro; exact fun _ _ => Or.inl trivial
    iexact HO
  isplitl [Hx Ho Hos]
  · isplitl [Hx]; · iexact Hx
    isplitl [Ho]; · iexact Ho
    iexact Hos
  iexact Hz

/-- The invariant at the first point: no row placed yet. -/
theorem reg_in (c : Dev nD) :
    iprop(iprop(pt c (Memref.whole main_v15) (V m c main_v15) ∗ pt c (Memref.whole main_v18) (V m c main_v18) ∗ semVal ((c : Thread nD τ), .dma 0) 0)
        ∗ Pipeline.prefHeld (pcfgs (F := F) 0).pre c (fun _ => fullShare) (adm m 0).1
        ∗ Pipeline.scopedRest (Ix := Unit) (Name := ℕ) (U := UU nD τ) (Lvl := ℕ) (Val := Elt F) (Pipeline.pin pcfgs (adm m) 0).spec c)
      ⊢ (dats m 0 c).Φ 0 := by
  obtain rfl : c = 0 := Subsingleton.elim _ _
  rw [prefHeld_eq, show (dats m 0 0).Φ 0 = Φg (0 : Dev nD) (V m 0 main_v14) (V m 0 main_v15) (V m 0 main_v18) (128 * 0) from rfl]
  unfold Φg
  rw [Nat.mul_zero, scatN_zero]
  iintro ⟨⟨Hx, Ho, Hos⟩, Ht, Hr⟩
  isplitl [Ht]; · iexact Ht
  isplitl [Hx]; · iexact Hx
  isplitl [Ho]; · iexact Ho
  isplitl [Hos]; · iexact Hos
  iexact Hr

/-- The invariant at the last point: every row placed. -/
theorem reg_out (c : Dev nD) :
    (dats m 0 c).Φ (Fin.last (Pipeline.pin pcfgs (adm m) 0).N)
      ⊢ iprop(iprop(pt c (Memref.whole main_v14) (V m c main_v14) ∗ pt c (Memref.whole main_v15) (V m c main_v15) ∗ pt c (Memref.whole main_v18) (kout m c))
          ∗ Pipeline.ownSems0 (Ix := Unit) (Name := ℕ) (U := UU nD τ) (Lvl := ℕ) (Val := Elt F) (τ := τ) osem c
          ∗ Pipeline.scopedRest (Ix := Unit) (Name := ℕ) (U := UU nD τ) (Lvl := ℕ) (Val := Elt F) (Pipeline.pin pcfgs (adm m) 0).spec c) := by
  have hN : (Fin.last (Pipeline.pin (pcfgs (F := F)) (adm m) 0).N).val = 128 := N_0
  rw [ownSems0_eq, show (dats m 0 c).Φ (Fin.last (Pipeline.pin pcfgs (adm m) 0).N)
      = Φg c (V m c main_v14) (V m c main_v15) (V m c main_v18) (128 * (Fin.last (Pipeline.pin (pcfgs (F := F)) (adm m) 0).N).val) from rfl, hN]
  unfold Φg kout
  iintro ⟨Ht, Hx, Ho, Hos, Hr⟩
  isplitl [Ht Hx Ho]
  · isplitl [Ht]; · iexact Ht
    isplitl [Hx]; · iexact Hx
    iexact Ho
  isplitl [Hos]; · iexact Hos
  iexact Hr

/-- EXIT: the three buffers back among the held ones, the result's at `kout`. -/
theorem reg_exit (c : Dev nD) :
    iprop((dats m 0 c).arrays ((dats m 0 c).arrAt · (Pipeline.pin pcfgs (adm m) 0).N) ∗ (dats m 0 c).owesAt () (Fin.last (Pipeline.pin pcfgs (adm m) 0).N)
        ∗ iprop(pt c (Memref.whole main_v14) (V m c main_v14) ∗ pt c (Memref.whole main_v15) (V m c main_v15) ∗ pt c (Memref.whole main_v18) (kout m c))
        ∗ StableHlo.held (c : Thread nD τ) (ucRefs \ H3) (StableHlo.after hostOps0 (V₀ m c)))
      ⊢ |={Set.univ}=> iprop(StableHlo.held (c : Thread nD τ) ucRefs (V₁ m c) ∗ R c) := by
  rw [held_split3, held_rest_V₁, V₁_v18,
    V₁_ne m c _ (StableHlo.devRef_ne_of_ne (show main_v14 ≠ main_v18 by decide)),
    V₁_ne m c _ (StableHlo.devRef_ne_of_ne (show main_v15 ≠ main_v18 by decide))]
  unfold Dat.owesAt Pipeline.owesWithin
  iintro ⟨-, ⟨%W, -, HO⟩, HY, HZ⟩
  imodintro
  isplitr [HO]
  · isplitl [HY]; · iexact HY
    iexact HZ
  iexists W; iexact HO

set_option backward.isDefEq.respectTransparency.types false in
/-- THE REGION: no window, the kernel's one DMA semaphore, the body obligation; entered from what the operations before
    it left, left with the result's buffer at `kout`. -/
def reg0 (hok : ∀ c, TblOK c (V m c main_v14)) : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 1
  osem := osem
  ho := ownSemFacts
  hbody c := (body_obligation (adm m) c (V m c main_v14) (V m c main_v15) (V m c main_v18) (hok c)).loose
  hwaits := Pipeline.hwaits_of_owed_zero _ _ _ _ L lv 0 fun _ _ => rfl
  pre c := iprop(StableHlo.held (c : Thread nD τ) ucRefs (StableHlo.after hostOps0 (V₀ m c)) ∗ R c)
  post c := iprop(StableHlo.held (c : Thread nD τ) ucRefs (V₁ m c) ∗ R c)
  X c := iprop(pt c (Memref.whole main_v15) (V m c main_v15) ∗ pt c (Memref.whole main_v18) (V m c main_v18) ∗ semVal ((c : Thread nD τ), .dma 0) 0)
  Y c := iprop(pt c (Memref.whole main_v14) (V m c main_v14) ∗ pt c (Memref.whole main_v15) (V m c main_v15) ∗ pt c (Memref.whole main_v18) (kout m c))
  Z c := StableHlo.held (c : Thread nD τ) (ucRefs \ H3) (StableHlo.after hostOps0 (V₀ m c))
  hentry c := reg_entry m c
  hin c := reg_in m c
  hout c := reg_out m c
  hexit c := reg_exit m c

/-- @main as the list of the three. -/
abbrev segs (hok : ∀ c, TblOK c (V m c main_v14)) : List (Pipeline.Seg (pcfgs (F := F)) (adm m) (dats m) () defs₀ 𝒱₀ L lv) :=
  [.host (seg0 m), .region (reg0 m hok), .host (seg1 m)]

/-- What the last operations leave: the unscoped buffers at their final contents. -/
abbrev Tₙ (c : Dev nD) : sProp 𝕄 := StableHlo.held (c : Thread nD τ) ucRefs (StableHlo.after hostOps1 (V₁ m c))

/-- The final buffers read against a final state. -/
theorem read_end (c : Dev nD) (s' : Phys nD τ sig (Elt F)) :
    iprop(Tₙ m c ∗ SI s') ⊢ (|={Set.univ}=> iprop(⌜s'.mem.mem ((c : Thread nD τ).loc main_v20) = kres m c
        ∧ s'.mem.mem ((c : Thread nD τ).loc main_arg0) = m ((c : Thread nD τ).loc main_arg0)
        ∧ s'.mem.mem ((c : Thread nD τ).loc main_arg1) = m ((c : Thread nD τ).loc main_arg1)
        ∧ s'.mem.mem ((c : Thread nD τ).loc main_arg2) = m ((c : Thread nD τ).loc main_arg2)⌝ ∗ SI s') : sProp 𝕄) := by
  unfold Tₙ StableHlo.held
  iintro ⟨Hh, HSI⟩
  ihave H := (pointsTo_read_all ucRefs (fun b => ((c : Thread nD τ).1, b)) (StableHlo.after hostOps1 (V₁ m c)) s') $$ [Hh HSI]
  · isplitl [Hh] <;> iassumption
  icases H with ⟨%h, HSI⟩
  imodintro
  isplitr
  · ipureintro
    refine ⟨?_, ?_, ?_, ?_⟩
    · exact (h _ (mem_ucRefs main_v20 rfl)).trans (after1_v20 m c)
    · exact (h _ (mem_ucRefs main_arg0 rfl)).trans (after1_arg m c main_arg0 (.inl rfl))
    · exact (h _ (mem_ucRefs main_arg1 rfl)).trans (after1_arg m c main_arg1 (.inr (.inl rfl)))
    · exact (h _ (mem_ucRefs main_arg2 rfl)).trans (after1_arg m c main_arg2 (.inr (.inr rfl)))
  iexact HSI

/-- The launch element yields the pipeline library's; the certificate keeps nothing per core. -/
theorem launch_elt :
    (ownU (u₀ m) : sProp 𝕄) ⊢ |={Set.univ}=> iprop(BI.own (EP (initOf (Pipeline.cells (Pipeline.pin pcfgs (adm m)) (cellOf_inj (adm m)))
        (Pipeline.launchToks (Pipeline.pin pcfgs (adm m)) (cellOf_inj (adm m))))) ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  rw [BI.bigSep_emp_const]
  iempintro

end Launch

open Launch in
set_option backward.isDefEq.respectTransparency.types false in
/-- At the compiled mesh, for any float values, from any memory with zero counters whose table (as the host
    operations compute it) names rows of the result: every weakly fair execution of @main on the TensorCores
    terminates, nothing faulting, and every final state has the result array at `kres` and the arguments as launched. -/
theorem run_main (hok : ∀ c, TblOK c (V m c main_v14)) :
    θ_run defs (onTc (τ := τ) (main (F := F))) ⟨m, fun _ => 0, ρ⟩ (QK m) :=
  Pipeline.θ_run_regions_kit (pcfgs (F := F)) (adm m) (dats m) () (cellOf_inj (adm m)) EP defs₀ 𝒱₀ L lv m ρ main (segs m hok)
    (fun c Q => by rw [main_segs (adm m) (dats m) () 𝒱₀ L lv (seg0 m) (seg1 m) (reg0 m hok) rfl rfl c])
    (by simp only [Pipeline.Seg.pipes_host, Pipeline.Seg.pipes_region, Pipeline.Seg.pipes_nil]; decide)
    (O₀ := 0) (hL := fun _ _ => rfl) (G := fun _ => iprop(emp)) (u₀ := u₀ m) (hu₀ := launch_elt m)
    (T₀ := fun c => iprop(StableHlo.held (c : Thread nD τ) ucRefs (V₀ m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v20) = kres m c
        ∧ s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2))
    (hfin := fun c s' => read_end m c s')
    (hQ := fun _ h => h)

end Cert.KernelIdeal.Sc

end
-- ==== Proof.ScatterHostVals.lean ====
import proofs.«431333_j41420664602705_3_alg».proof.Proof.ScatterHost
import proofs.«431333_j41420664602705_3_alg».proof.Pre_finite_inputs
import proofs.«431333_j41420664602705_3_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.Sc

open Cert.KernelIdeal Cert.KernelIdeal.Gen Cert.KernelIdeal.GenP Cert.Sc

open Idealize.ShloMosaic Idealize.ShloMosaic.ValueIdx
open Idealize.ShloMosaic.TcCoe
open Idealize.SL Idealize.SL.Sem

variable {F : FTy → Type} [FloatOps F]

/-- Every index of the pair array lies on the strided grid: below 192 (and, read as a signed word, not negative). -/
def IdxOK (ai : S16384x2.Idx → BitVec 32) : Prop := ∀ (k : Fin 16384) (c : Fin 2), (ai (ix2 k c)).toNat < 192

/-- A word that is, read signed, at least 0 and below 192 has its value below 192. -/
theorem toNat_lt_of_cmp (w : BitVec 32) (hge : IntOp.cmpi .sge w 0#32 = 1#1) (hlt : IntOp.cmpi .slt w 192#32 = 1#1) :
    w.toNat < 192 := by
  unfold IntOp.cmpi at hge hlt
  rw [StableHlo.Predicate.ofBool_eq_one_iff] at hge hlt
  simp only [BitVec.sle, BitVec.slt, decide_eq_true_eq] at hge hlt
  have e0 : (0#32 : BitVec 32).toInt = 0 := by decide
  have e1 : (192#32 : BitVec 32).toInt = 192 := by decide
  rw [e0] at hge
  rw [e1] at hlt
  have hw := w.isLt
  by_cases hm : 2 * w.toNat < 2 ^ 32
  · have e : w.toInt = (w.toNat : Int) := by rw [BitVec.toInt_eq_toNat_cond, if_pos hm]
    omega
  · have e : w.toInt = (w.toNat : Int) - ((2 ^ 32 : Nat) : Int) := by rw [BitVec.toInt_eq_toNat_cond, if_neg hm]
    omega

/-- The printed precondition, all ones, says so of the index argument (its float conjuncts are not used). -/
theorem idxOK_of_pre [Cert.Pre_finite_inputs.Facts] (a0 : FVec F Cert.Pre_finite_inputs.S2x256x16384 .f32) (a1 : FVec F Cert.Pre_finite_inputs.S2x256x384x384 .f32)
    (a2 : IVec Cert.Pre_finite_inputs.S16384x2 32) (h : Cert.Pre_finite_inputs.fn (F := F) a0 a1 a2 = fun _ => 1#1) : IdxOK a2 := by
  intro k q
  haveI : Subsingleton Cert.Pre_finite_inputs.S_.Idx := ⟨fun a b => funext fun d => d.elim0⟩
  have h0 := congrFun h ValueIdx.ix0
  dsimp only [Cert.Pre_finite_inputs.fn] at h0
  -- the last conjunct is the reduction of the two integer compares over all pairs
  have h14 := (IntOp.andi_eq_one.1 h0).2
  have hk := Host.reduce_andi_all _ _ _ _ _ h14 (ix2 k q)
  obtain ⟨hge, hlt⟩ := IntOp.andi_eq_one.1 hk
  exact toNat_lt_of_cmp _ hge hlt

/-- Column `o` of the pair array, cut out and flattened, read at row `k`: the pair array at `(k, o)`. -/
theorem col_read {α : Type} (A : S16384x2.Idx → α) (o : Nat) (q : Fin 2) (hq : q.val = o) (hs : S16384x2.Slices ![0, o] S16384x1)
    (hc : S16384x1.ShapeCasts S16384) (k : Fin 16384) :
    shapeCast S16384 (extractStridedSlice S16384x1 ![0, o] A hs) hc (ix1 k) = A (ix2 k q) := by
  refine (shapeCast_apply _ _ (ix1 k) (ix2 k (0 : Fin 1)) ?_).trans ?_
  · rw [Shape.rowMajor_val_two, Shape.rowMajor_val_one]
    show k.val * 1 + 0 = k.val
    omega
  · exact extractStridedSlice_apply _ _ _ _ _ fun a => match a with
      | ⟨0, _⟩ => (Nat.zero_add _).symm
      | ⟨1, _⟩ => hq

/-- The table word of a pair `(a₀, a₁)`, as the host computes it on 32-bit words: `(0 + a₀·2)·384 + (0 + a₁·2)`. -/
def tblWord (a0 a1 : BitVec 32) : BitVec 32 := (0#32 + a0 * 2#32) * 384#32 + (0#32 + a1 * 2#32)

/-- Two words below 192 combine to `768·a₀ + 2·a₁` with no wrap-around at 32 bits. -/
theorem word_val (a0 a1 : BitVec 32) (h0 : a0.toNat < 192) (h1 : a1.toNat < 192) :
    (tblWord a0 a1).toNat = 768 * a0.toNat + 2 * a1.toNat := by
  unfold tblWord
  simp only [BitVec.toNat_add, BitVec.toNat_mul, BitVec.toNat_ofNat, Nat.reducePow, Nat.reduceMod, Nat.zero_add]
  omega

variable (m : (ℓ : Loc nD τ sig) → Buf (Elt F) ℓ)

/-- The table's word `k` as the host operations compute it from the pair at row `k`. -/
theorem tbl_word (c : Dev nD) (k : Fin 16384) :
    V m c main_v14 (ix1 k)
      = tblWord (m ((c.tc : Thread nD τ).loc main_arg2) (ix2 k 0)) (m ((c.tc : Thread nD τ).loc main_arg2) (ix2 k 1)) := by
  have e : (V m c main_v14 : S16384.Idx → BitVec 32)
      = addi
          (muli
            (addi (broadcastInDim S16384 ![] bcast_S_S16384 (constantI S_ 32 0#32))
              (muli
                (shapeCast S16384 (extractStridedSlice S16384x1 ![0, 0] (m ((c.tc : Thread nD τ).loc main_arg2)) slices_S16384x2_S16384x1_0_0)
                  shapeCasts_S16384x1_S16384)
                (broadcastInDim S16384 ![] bcast_S_S16384 (constantI S_ 32 2#32))))
            (broadcastInDim S16384 ![] bcast_S_S16384 (constantI S_ 32 384#32)))
          (addi (broadcastInDim S16384 ![] bcast_S_S16384 (constantI S_ 32 0#32))
            (muli
              (shapeCast S16384 (extractStridedSlice S16384x1 ![0, 1] (m ((c.tc : Thread nD τ).loc main_arg2)) slices_S16384x2_S16384x1_0_1)
                shapeCasts_S16384x1_S16384)
              (broadcastInDim S16384 ![] bcast_S_S16384 (constantI S_ 32 2#32)))) := by
    dsimp only [V, hostOps0]; after_results; rfl
  rw [e]
  show tblWord
      (shapeCast S16384 (extractStridedSlice S16384x1 ![0, 0] (m ((c.tc : Thread nD τ).loc main_arg2)) slices_S16384x2_S16384x1_0_0)
        shapeCasts_S16384x1_S16384 (ix1 k))
      (shapeCast S16384 (extractStridedSlice S16384x1 ![0, 1] (m ((c.tc : Thread nD τ).loc main_arg2)) slices_S16384x2_S16384x1_0_1)
        shapeCasts_S16384x1_S16384 (ix1 k)) = _
  rw [col_read _ 0 0 rfl, col_read _ 1 1 rfl]

/-- The table the host computes: word `k` is `(2·a₀)·384 + 2·a₁` of the pair `(a₀, a₁)` at row `k` — no wrap-around below 192. -/
theorem tbl_val (c : Dev nD) (hI : IdxOK (m ((c.tc : Thread nD τ).loc main_arg2))) (k : Fin 16384) :
    tblNat (V m c main_v14) k.val
      = 768 * (m ((c.tc : Thread nD τ).loc main_arg2) (ix2 k 0)).toNat + 2 * (m ((c.tc : Thread nD τ).loc main_arg2) (ix2 k 1)).toNat := by
  unfold tblNat
  rw [dif_pos k.isLt]
  show (V m c main_v14 (ix1 k)).toNat = _
  rw [tbl_word]
  exact word_val _ _ (hI k 0) (hI k 1)

/-- So every table word, however read, names a row of the result. -/
theorem tblOK_of_idxOK (c : Dev nD) (hI : IdxOK (m ((c.tc : Thread nD τ).loc main_arg2))) : TblOK c (V m c main_v14) := by
  intro r j
  -- a read through the whole table is the table's contents at the index read
  show (V m c main_v14 (r.idx j)).toNat < 147456
  obtain ⟨k, hk⟩ : ∃ k : Fin 16384, r.idx j = ix1 k := ⟨_, eq_ix1 _⟩
  rw [hk, tbl_word, word_val _ _ (hI k 0) (hI k 1)]
  have h0 := hI k 0
  have h1 := hI k 1
  omega

/-- The source the region finds is the first argument with its row axis moved to the front. -/
theorem V_x (c : Dev nD) (k : Fin 16384) (b : Fin 2) (ch : Fin 256) :
    V m c main_v15 (ix3 k b ch) = m ((c.tc : Thread nD τ).loc main_arg0) (ix3 b ch k) := by
  have e : (V m c main_v15 : S16384x2x256.Idx → Elt F .f32)
      = transpose S16384x2x256 [2, 0, 1] (m ((c.tc : Thread nD τ).loc main_arg0)) transposes_S2x256x16384_S16384x2x256_2_0_1 := by
    dsimp only [V, hostOps0]; after_results
  rw [e]
  exact transpose_apply _ _ _ _ _ fun a => match a with | ⟨0, _⟩ => rfl | ⟨1, _⟩ => rfl | ⟨2, _⟩ => rfl

/-- The result's buffer as the region finds it is the second argument, its two spatial axes flattened and moved to the front. -/
theorem V_o (c : Dev nD) (p : Fin 147456) (b : Fin 2) (ch : Fin 256) :
    V m c main_v18 (ix3 p b ch)
      = m ((c.tc : Thread nD τ).loc main_arg1) (ix4 b ch ⟨p.val / 384, by omega⟩ ⟨p.val % 384, Nat.mod_lt _ (by decide)⟩) := by
  have e : (V m c main_v18 : S147456x2x256.Idx → Elt F .f32)
      = transpose S147456x2x256 [2, 0, 1]
          (shapeCast S2x256x147456 (m ((c.tc : Thread nD τ).loc main_arg1)) shapeCasts_S2x256x384x384_S2x256x147456)
          transposes_S2x256x147456_S147456x2x256_2_0_1 := by
    dsimp only [V, hostOps0]; after_results; rfl
  rw [e]
  refine (transpose_apply _ _ _ (ix3 p b ch) (ix3 b ch p) fun a => match a with | ⟨0, _⟩ => rfl | ⟨1, _⟩ => rfl | ⟨2, _⟩ => rfl).trans ?_
  refine shapeCast_apply (s := S2x256x384x384) (t := S2x256x147456) _ _ (ix3 b ch p)
    (ix4 b ch ⟨p.val / 384, by omega⟩ ⟨p.val % 384, Nat.mod_lt _ (by decide)⟩) ?_
  rw [Shape.rowMajor_val_three, Shape.rowMajor_val_four]
  show ((b.val * 256 + ch.val) * 384 + p.val / 384) * 384 + p.val % 384 = (b.val * 256 + ch.val) * 147456 + p.val
  omega

/-- The program's result at a cell is the region's result at the cell's flattened row. -/
theorem kres_apply (c : Dev nD) (b : Fin 2) (ch : Fin 256) (h w : Fin 384) :
    kres m c (ix4 b ch h w) = kout m c (ix3 ⟨h.val * 384 + w.val, by omega⟩ b ch) := by
  unfold kres
  refine (shapeCast_apply _ _ (ix4 b ch h w) (ix3 b ch ⟨h.val * 384 + w.val, by omega⟩) ?_).trans ?_
  · rw [Shape.rowMajor_val_three, Shape.rowMajor_val_four]
    show (b.val * 256 + ch.val) * 147456 + (h.val * 384 + w.val) = ((b.val * 256 + ch.val) * 384 + h.val) * 384 + w.val
    omega
  · exact transpose_apply _ _ _ _ _ fun a => match a with | ⟨0, _⟩ => rfl | ⟨1, _⟩ => rfl | ⟨2, _⟩ => rfl

end Cert.KernelIdeal.Sc

end
-- ==== Proof.LibScatterSet.lean ====
/-
  The host's scatter with the OVERWRITING combiner (the body returns the update: `x.at[idx].set(v)`), read at one
  element of the result. `Host.scatter` is the left fold, over the update indices in row-major order, of "replace the
  element the update lands on"; so an element holds the update that lands on it LAST in that order, and an element
  no update lands on holds the operand's.
-/
import Idealize.ShloMosaic.PureOps
import Mathlib.Data.List.Sort

noncomputable section

namespace Idealize.ShloMosaic.ScatterSet

open Idealize.ShloMosaic

section Fold

variable {ι κ β : Type}

/-- A left fold whose step leaves the value at `i` alone at every key that does not land on `i` leaves the value at
    `i` alone over a list none of whose keys lands on `i`. -/
theorem foldl_at_of_none (g : κ → Option ι) (step : (ι → β) → κ → (ι → β)) (i : ι)
    (hkeep : ∀ (r : ι → β) (n : κ), g n ≠ some i → step r n i = r i) :
    ∀ (l : List κ) (x : ι → β), (∀ n ∈ l, g n ≠ some i) → l.foldl step x i = x i := by
  intro l
  induction l with
  | nil => intro x _; rfl
  | cons a l ih =>
    intro x h
    rw [List.foldl_cons, ih (step x a) (fun n hn => h n (List.mem_cons_of_mem a hn))]
    exact hkeep x a (h a List.mem_cons_self)

/-- Over a strictly increasing list of keys, a left fold whose step writes `v n` at `i` when key `n` lands on `i` and
    leaves the value at `i` alone otherwise ends, at `i`, with `v n₀` for the greatest key `n₀` of the list landing on `i`. -/
theorem foldl_at_of_last [LT κ] (g : κ → Option ι) (v : κ → β) (step : (ι → β) → κ → (ι → β)) (i : ι)
    (hset : ∀ (r : ι → β) (n : κ), g n = some i → step r n i = v n)
    (hkeep : ∀ (r : ι → β) (n : κ), g n ≠ some i → step r n i = r i) (n₀ : κ) (hn₀ : g n₀ = some i) :
    ∀ (l : List κ) (x : ι → β), l.Pairwise (· < ·) → n₀ ∈ l → (∀ n ∈ l, n₀ < n → g n ≠ some i) →
      l.foldl step x i = v n₀ := by
  intro l
  induction l with
  | nil => intro x _ hmem; exact absurd hmem List.not_mem_nil
  | cons a l ih =>
    intro x hpw hmem hlast
    rw [List.foldl_cons]
    rw [List.pairwise_cons] at hpw
    by_cases ha : n₀ = a
    · subst ha
      rw [foldl_at_of_none g step i hkeep l (step x n₀) (fun n hn => hlast n (List.mem_cons_of_mem _ hn) (hpw.1 n hn))]
      exact hset x n₀ hn₀
    · have hmem' : n₀ ∈ l := by
        rcases List.mem_cons.mp hmem with h | h
        · exact absurd h ha
        · exact h
      exact ih (step x a) hpw.2 hmem' (fun n hn => hlast n (List.mem_cons_of_mem _ hn))

end Fold

variable {α : Type} {s si u : Shape} {w : Nat}

/-- The scatter's step with the overwriting combiner, at an update index that lands on `i`: the element `i` becomes
    that update. -/
private theorem step_set (d : ScatterDims s si u) (idx : IVec si w) (upd : u.Idx → α) (i : s.Idx) (r : s.Idx → α)
    (n : Fin u.numel) (h : d.resultIdx? (u.rowMajor.symm n) idx = some i) :
    (match d.resultIdx? (u.rowMajor.symm n) idx with
      | some i₁ => fun i' => if i' = i₁ then (fun (_ b : α) => b) (r i₁) (upd (u.rowMajor.symm n)) else r i'
      | none => r) i = upd (u.rowMajor.symm n) := by
  rw [h]
  simp

/-- The scatter's step at an update index that does not land on `i`: the element `i` is kept. -/
private theorem step_keep (d : ScatterDims s si u) (idx : IVec si w) (upd : u.Idx → α) (i : s.Idx) (r : s.Idx → α)
    (n : Fin u.numel) (h : d.resultIdx? (u.rowMajor.symm n) idx ≠ some i) :
    (match d.resultIdx? (u.rowMajor.symm n) idx with
      | some i₁ => fun i' => if i' = i₁ then (fun (_ b : α) => b) (r i₁) (upd (u.rowMajor.symm n)) else r i'
      | none => r) i = r i := by
  cases hg : d.resultIdx? (u.rowMajor.symm n) idx with
  | none => rfl
  | some i₁ =>
    have hne : i ≠ i₁ := fun he => h (by rw [hg, he])
    simp [hne]

/-- The element update `j₀` lands on, when no later update (in row-major order) lands there, holds that update. -/
theorem scatter_set_of_last (d : ScatterDims s si u) (x : s.Idx → α) (idx : IVec si w) (upd : u.Idx → α) (i : s.Idx) (j₀ : u.Idx)
    (hj₀ : d.resultIdx? j₀ idx = some i)
    (hlast : ∀ j : u.Idx, (u.rowMajor j₀).val < (u.rowMajor j).val → d.resultIdx? j idx ≠ some i) :
    Host.scatter d (fun _ b => b) x idx upd i = upd j₀ := by
  unfold Host.scatter
  have key := foldl_at_of_last (fun n : Fin u.numel => d.resultIdx? (u.rowMajor.symm n) idx)
    (fun n => upd (u.rowMajor.symm n)) _ i
    (fun r n h => step_set d idx upd i r n h) (fun r n h => step_keep d idx upd i r n h)
    (u.rowMajor j₀) (by rw [Equiv.symm_apply_apply]; exact hj₀)
    (List.finRange u.numel) x (List.sortedLT_finRange u.numel).pairwise (List.mem_finRange _)
    (fun n _ hlt => hlast (u.rowMajor.symm n) (by rw [Equiv.apply_symm_apply]; exact hlt))
  rw [Equiv.symm_apply_apply] at key
  exact key

/-- An element no update lands on holds the operand's. -/
theorem scatter_set_of_none (d : ScatterDims s si u) (x : s.Idx → α) (idx : IVec si w) (upd : u.Idx → α) (i : s.Idx)
    (hnone : ∀ j : u.Idx, d.resultIdx? j idx ≠ some i) :
    Host.scatter d (fun _ b => b) x idx upd i = x i := by
  unfold Host.scatter
  exact foldl_at_of_none (fun n : Fin u.numel => d.resultIdx? (u.rowMajor.symm n) idx) _ i
    (fun r n h => step_keep d idx upd i r n h) (List.finRange u.numel) x (fun n _ => hnone _)

end Idealize.ShloMosaic.ScatterSet

end
-- ==== Proof.RefValue.lean ====
import proofs.«431333_j41420664602705_3_alg».proof.Proof.Gen.ReferenceIdeal.Run
import proofs.«431333_j41420664602705_3_alg».proof.Proof.Gen.ReferenceIdeal.Read
import proofs.«431333_j41420664602705_3_alg».proof.Proof.LibScatterSet
import Idealize.ShloMosaic.Lib.ValueIdx
import Idealize.ShloMosaic.Lib.Pipeline.Value
import Idealize.ShloMosaic.Lib.StableHlo.Predicate

noncomputable section

namespace Cert.ReferenceIdeal.RefValue

open Cert.ReferenceIdeal Cert.ReferenceIdeal.Gen

open Idealize.ShloMosaic Idealize.ShloMosaic.ValueIdx
open Idealize.ShloMosaic.TcCoe
open Idealize.SL Idealize.SL.Sem

variable {F : FTy → Type} [FloatOps F]

/-- Row `k` of the pair array names the cell `(h, w)`: the strided coordinates `(2·a₀, 2·a₁)`. -/
def Hits (ai : S16384x2.Idx → BitVec 32) (h w : ℕ) (k : Fin 16384) : Prop :=
  2 * (ai (ix2 k 0)).toNat = h ∧ 2 * (ai (ix2 k 1)).toNat = w

/-- The reference's result as a function of its three arguments: the scatter, with the overwriting combiner, of `x` into `o` at the
    index vectors computed from the pair array (doubled, and wrapped when negative, which below 192 they never are). -/
def refTerm (x : FVec F S2x256x16384 .f32) (o : FVec F S2x256x384x384 .f32) (ai : IVec S16384x2 32) : FVec F S2x256x384x384 .f32 :=
  Host.scatter scatter_S2x256x384x384_S16384x2_S2x256x16384_01_23_23_1 (fun _ b => b) o (concatenate S16384x2 1 [⟨S16384x1, (broadcastInDim S16384x1 ![0] bcast_S16384_S16384x1_0 (select (cmpi .slt (addi (broadcastInDim S16384 ![] bcast_S_S16384 (constantI S_ 32 0#32)) (muli (shapeCast _ (extractStridedSlice S16384x1 ![0, 0] ai slices_S16384x2_S16384x1_0_0) shapeCasts_S16384x1_S16384) (broadcastInDim S16384 ![] bcast_S_S16384 (constantI S_ 32 2#32)))) (broadcastInDim S16384 ![] bcast_S_S16384 (constantI S_ 32 0#32))) (addi (addi (broadcastInDim S16384 ![] bcast_S_S16384 (constantI S_ 32 0#32)) (muli (shapeCast _ (extractStridedSlice S16384x1 ![0, 0] ai slices_S16384x2_S16384x1_0_0) shapeCasts_S16384x1_S16384) (broadcastInDim S16384 ![] bcast_S_S16384 (constantI S_ 32 2#32)))) (broadcastInDim S16384 ![] bcast_S_S16384 (constantI S_ 32 384#32))) (addi (broadcastInDim S16384 ![] bcast_S_S16384 (constantI S_ 32 0#32)) (muli (shapeCast _ (extractStridedSlice S16384x1 ![0, 0] ai slices_S16384x2_S16384x1_0_0) shapeCasts_S16384x1_S16384) (broadcastInDim S16384 ![] bcast_S_S16384 (constantI S_ 32 2#32))))))⟩, ⟨S16384x1, (broadcastInDim S16384x1 ![0] bcast_S16384_S16384x1_0 (select (cmpi .slt (addi (broadcastInDim S16384 ![] bcast_S_S16384 (constantI S_ 32 0#32)) (muli (shapeCast _ (extractStridedSlice S16384x1 ![0, 1] ai slices_S16384x2_S16384x1_0_1) shapeCasts_S16384x1_S16384) (broadcastInDim S16384 ![] bcast_S_S16384 (constantI S_ 32 2#32)))) (broadcastInDim S16384 ![] bcast_S_S16384 (constantI S_ 32 0#32))) (addi (addi (broadcastInDim S16384 ![] bcast_S_S16384 (constantI S_ 32 0#32)) (muli (shapeCast _ (extractStridedSlice S16384x1 ![0, 1] ai slices_S16384x2_S16384x1_0_1) shapeCasts_S16384x1_S16384) (broadcastInDim S16384 ![] bcast_S_S16384 (constantI S_ 32 2#32)))) (broadcastInDim S16384 ![] bcast_S_S16384 (constantI S_ 32 384#32))) (addi (broadcastInDim S16384 ![] bcast_S_S16384 (constantI S_ 32 0#32)) (muli (shapeCast _ (extractStridedSlice S16384x1 ![0, 1] ai slices_S16384x2_S16384x1_0_1) shapeCasts_S16384x1_S16384) (broadcastInDim S16384 ![] bcast_S_S16384 (constantI S_ 32 2#32))))))⟩] concatenates_S16384x1_S16384x1_S16384x2_d1) x

/-- The reference's run, with its result named. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

/-! ### Words -/

/-- Twice a word below 192, as the reference computes it, has twice the word's value. -/
theorem dbl_toNat (a : BitVec 32) (ha : a.toNat < 192) :
    (IntOp.addi 0#32 (IntOp.muli a 2#32)).toNat = 2 * a.toNat := by
  unfold IntOp.addi IntOp.muli
  rw [BitVec.toNat_add, BitVec.toNat_mul]
  simp only [BitVec.toNat_ofNat]
  omega

/-- The doubled word is not negative, so the wrap-around select keeps it. -/
theorem wrap_dbl (a : BitVec 32) (ha : a.toNat < 192) :
    Scalar.select (IntOp.cmpi .slt (IntOp.addi 0#32 (IntOp.muli a 2#32)) 0#32)
        (IntOp.addi (IntOp.addi 0#32 (IntOp.muli a 2#32)) 384#32) (IntOp.addi 0#32 (IntOp.muli a 2#32))
      = IntOp.addi 0#32 (IntOp.muli a 2#32) := by
  have hw := dbl_toNat a ha
  have hne : ¬ IntOp.cmpi .slt (IntOp.addi 0#32 (IntOp.muli a 2#32)) 0#32 = 1#1 := by
    rw [StableHlo.Predicate.slt_iff_toNat (by omega) (by decide)]
    simp
  rw [eq_zero_of_ne_one hne, select_zero]

/-- Read signed, the kept word is twice the word's value. -/
theorem wrap_dbl_toInt (a : BitVec 32) (ha : a.toNat < 192) :
    (Scalar.select (IntOp.cmpi .slt (IntOp.addi 0#32 (IntOp.muli a 2#32)) 0#32)
        (IntOp.addi (IntOp.addi 0#32 (IntOp.muli a 2#32)) 384#32) (IntOp.addi 0#32 (IntOp.muli a 2#32))).toInt
      = ((2 * a.toNat : ℕ) : ℤ) := by
  rw [wrap_dbl a ha, StableHlo.Predicate.toInt_eq_toNat_of_lt (by rw [dbl_toNat a ha]; omega), dbl_toNat a ha]

/-! ### The index array at an entry -/

/-- The slice, reshape and broadcast stages of column 0 read the pair array at `(k, 0)`. -/
theorem idx_col0 (k : Fin 16384) :
    Read.idx_main_v0 (Read.idx_main_v1 (Read.idx_main_v22 (ix2 k (0 : Fin 1)))) = ix2 k (0 : Fin 2) := by
  funext a
  match a with
  | ⟨0, _⟩ => exact Fin.ext (Nat.div_one _)
  | ⟨1, _⟩ => rfl

/-- The slice, reshape and broadcast stages of column 1 read the pair array at `(k, 1)`. -/
theorem idx_col1 (k : Fin 16384) :
    Read.idx_main_v6 (Read.idx_main_v7 (Read.idx_main_v23 (ix2 k (0 : Fin 1)))) = ix2 k (1 : Fin 2) := by
  funext a
  match a with
  | ⟨0, _⟩ => exact Fin.ext (Nat.div_one _)
  | ⟨1, _⟩ => rfl

/-- Entry `(k, 0)` of the index array: the wrapped double of the pair array's `(k, 0)`. -/
theorem idxArr_col0 (ai : IVec S16384x2 32) (k : Fin 16384) :
    Read.val_main_v24 (F := F) ai (ix2 k 0)
      = Scalar.select (IntOp.cmpi .slt (IntOp.addi 0#32 (IntOp.muli (ai (ix2 k 0)) 2#32)) 0#32)
        (IntOp.addi (IntOp.addi 0#32 (IntOp.muli (ai (ix2 k 0)) 2#32)) 384#32) (IntOp.addi 0#32 (IntOp.muli (ai (ix2 k 0)) 2#32)) := by
  unfold Read.val_main_v24
  refine (concatenate_pair_apply_left (t := S16384x2) (s₁ := S16384x1) (s₂ := S16384x1) (1 : Fin 2) _ _ _ (ix2 k 0) rfl (ix2 k (0 : Fin 1))
    (fun b => by match b with | ⟨0, _⟩ => rfl | ⟨1, _⟩ => rfl)).trans ?_
  simp only [Read.val_main_v22_apply, Read.val_main_v16_apply, Read.val_main_v13_apply, Read.val_main_v15_apply,
    Read.val_main_v5_apply, Read.val_main_v12_apply, Read.val_main_c_3_apply, Read.val_main_v14_apply, Read.val_main_c_4_apply,
    Read.val_main_v4_apply, Read.val_main_c_0_apply, Read.val_main_v3_apply, Read.val_main_v2_apply, Read.val_main_c_apply,
    Read.val_main_v1_apply, Read.val_main_v0_apply]
  rw [idx_col0 k]

/-- Entry `(k, 1)` of the index array: the wrapped double of the pair array's `(k, 1)`. -/
theorem idxArr_col1 (ai : IVec S16384x2 32) (k : Fin 16384) :
    Read.val_main_v24 (F := F) ai (ix2 k 1)
      = Scalar.select (IntOp.cmpi .slt (IntOp.addi 0#32 (IntOp.muli (ai (ix2 k 1)) 2#32)) 0#32)
        (IntOp.addi (IntOp.addi 0#32 (IntOp.muli (ai (ix2 k 1)) 2#32)) 384#32) (IntOp.addi 0#32 (IntOp.muli (ai (ix2 k 1)) 2#32)) := by
  unfold Read.val_main_v24
  refine (concatenate_pair_apply_right (t := S16384x2) (s₁ := S16384x1) (s₂ := S16384x1) (1 : Fin 2) _ _ _ (ix2 k 1) rfl rfl (ix2 k (0 : Fin 1))
    (fun b => by match b with | ⟨0, _⟩ => exact fun _ => rfl | ⟨1, _⟩ => exact fun h => absurd rfl h) rfl).trans ?_
  simp only [Read.val_main_v23_apply, Read.val_main_v21_apply, Read.val_main_v18_apply, Read.val_main_v20_apply,
    Read.val_main_v11_apply, Read.val_main_v17_apply, Read.val_main_c_5_apply, Read.val_main_v19_apply, Read.val_main_c_6_apply,
    Read.val_main_v10_apply, Read.val_main_c_2_apply, Read.val_main_v9_apply, Read.val_main_v8_apply, Read.val_main_c_1_apply,
    Read.val_main_v7_apply, Read.val_main_v6_apply]
  rw [idx_col1 k]

/-- Under the range condition, row `k` of the index array reads, signed, as twice the pair array's row `k`. -/
theorem idxArr_toInt (ai : IVec S16384x2 32) (hai : ∀ (k : Fin 16384) (c : Fin 2), (ai (ix2 k c)).toNat < 192) (k : Fin 16384) :
    (Read.val_main_v24 (F := F) ai (ix2 k 0)).toInt = ((2 * (ai (ix2 k 0)).toNat : ℕ) : ℤ)
      ∧ (Read.val_main_v24 (F := F) ai (ix2 k 1)).toInt = ((2 * (ai (ix2 k 1)).toNat : ℕ) : ℤ) :=
  ⟨by rw [idxArr_col0]; exact wrap_dbl_toInt _ (hai k 0), by rw [idxArr_col1]; exact wrap_dbl_toInt _ (hai k 1)⟩

/-! ### The scatter's landing index -/

local notation "dS" => scatter_S2x256x384x384_S16384x2_S2x256x16384_01_23_23_1

/-- The window starts at 0 on the two axes the index vector does not name, and at the index array's row `j 2` on the two it names. -/
theorem start_ax0 (j : S2x256x16384.Idx) (idx : IVec S16384x2 32) : ScatterDims.start dS j idx 0 = 0 := by
  unfold ScatterDims.start
  exact dif_neg (by decide)

/-- The place in the index array where update index `j` reads component `c` of its start index: row `j 2`, column `c`. -/
theorem siIdx_eq (j : S2x256x16384.Idx) (c : Fin (ScatterDims.scatterDimsToOperandDims dS).length) :
    ScatterDims.siIdx dS j c = ix2 (j 2) (⟨c.val, c.isLt⟩ : Fin 2) := by
  funext b
  match b with
  | ⟨0, _⟩ =>
    unfold ScatterDims.siIdx
    refine (dif_neg (fun h => Nat.zero_ne_one h)).trans ?_
    unfold ScatterDims.siCoord
    apply Fin.ext
    show (j _).val = (j 2).val
    exact congrArg (fun a : Fin 3 => (j a).val)
      (show (ScatterDims.uScatter dS)[List.idxOf (0 : Fin 2) (ScatterDims.siKept dS)]'(by decide) = (2 : Fin 3) by decide)
  | ⟨1, _⟩ =>
    unfold ScatterDims.siIdx
    exact dif_pos rfl

theorem start_ax1 (j : S2x256x16384.Idx) (idx : IVec S16384x2 32) : ScatterDims.start dS j idx 1 = 0 := by
  unfold ScatterDims.start
  exact dif_neg (by decide)

theorem start_ax2 (j : S2x256x16384.Idx) (idx : IVec S16384x2 32) : ScatterDims.start dS j idx 2 = (idx (ix2 (j 2) 0)).toInt := by
  unfold ScatterDims.start
  rw [dif_pos (by decide), siIdx_eq]
  rfl

theorem start_ax3 (j : S2x256x16384.Idx) (idx : IVec S16384x2 32) : ScatterDims.start dS j idx 3 = (idx (ix2 (j 2) 1)).toInt := by
  unfold ScatterDims.start
  rw [dif_pos (by decide), siIdx_eq]
  rfl

/-- The window coordinate is the update's own on the two window axes and 0 on the two inserted axes. -/
theorem window_ax0 (j : S2x256x16384.Idx) : ScatterDims.window dS j 0 = (j 0).val := by
  unfold ScatterDims.window
  rw [dif_pos (by decide)]
  exact congrArg (fun a : Fin 3 => (j a).val) (show _ = (0 : Fin 3) by decide)

theorem window_ax1 (j : S2x256x16384.Idx) : ScatterDims.window dS j 1 = (j 1).val := by
  unfold ScatterDims.window
  rw [dif_pos (by decide)]
  exact congrArg (fun a : Fin 3 => (j a).val) (show _ = (1 : Fin 3) by decide)

theorem window_ax2 (j : S2x256x16384.Idx) : ScatterDims.window dS j 2 = 0 := by
  unfold ScatterDims.window
  exact dif_neg (by decide)

theorem window_ax3 (j : S2x256x16384.Idx) : ScatterDims.window dS j 3 = 0 := by
  unfold ScatterDims.window
  exact dif_neg (by decide)

/-- An update index whose row of the index array reads `(p, q)`, both inside the operand, lands at `(j 0, j 1, p, q)`. -/
theorem resultIdx_of_read (idx : IVec S16384x2 32) (j : S2x256x16384.Idx) (p q : Fin 384)
    (h0 : (idx (ix2 (j 2) 0)).toInt = (p.val : ℤ)) (h1 : (idx (ix2 (j 2) 1)).toInt = (q.val : ℤ)) :
    ScatterDims.resultIdx? dS j idx = some (ix4 (j 0) (j 1) p q) := by
  have hj0 : (j 0).val < 2 := (j 0).isLt
  have hj1 : (j 1).val < 256 := (j 1).isLt
  have hp : p.val < 384 := p.isLt
  have hq : q.val < 384 := q.isLt
  have H : ∀ a, 0 ≤ ScatterDims.start dS j idx a + ScatterDims.window dS j a
      ∧ ScatterDims.start dS j idx a + ScatterDims.window dS j a < S2x256x384x384.size a := by
    intro a
    match a with
    | ⟨0, _⟩ =>
      exact (by rw [start_ax0, window_ax0]; omega :
        0 ≤ ScatterDims.start dS j idx 0 + (ScatterDims.window dS j 0 : ℤ) ∧ ScatterDims.start dS j idx 0 + (ScatterDims.window dS j 0 : ℤ) < (2 : ℤ))
    | ⟨1, _⟩ =>
      exact (by rw [start_ax1, window_ax1]; omega :
        0 ≤ ScatterDims.start dS j idx 1 + (ScatterDims.window dS j 1 : ℤ) ∧ ScatterDims.start dS j idx 1 + (ScatterDims.window dS j 1 : ℤ) < (256 : ℤ))
    | ⟨2, _⟩ =>
      exact (by rw [start_ax2, window_ax2, h0]; omega :
        0 ≤ ScatterDims.start dS j idx 2 + (ScatterDims.window dS j 2 : ℤ) ∧ ScatterDims.start dS j idx 2 + (ScatterDims.window dS j 2 : ℤ) < (384 : ℤ))
    | ⟨3, _⟩ =>
      exact (by rw [start_ax3, window_ax3, h1]; omega :
        0 ≤ ScatterDims.start dS j idx 3 + (ScatterDims.window dS j 3 : ℤ) ∧ ScatterDims.start dS j idx 3 + (ScatterDims.window dS j 3 : ℤ) < (384 : ℤ))
  unfold ScatterDims.resultIdx?
  rw [dif_pos H]
  refine congrArg some (funext fun a => ?_)
  match a with
  | ⟨0, _⟩ =>
    apply Fin.ext
    show (ScatterDims.start dS j idx 0 + (ScatterDims.window dS j 0 : ℤ)).toNat = (j 0).val
    rw [start_ax0, window_ax0]; omega
  | ⟨1, _⟩ =>
    apply Fin.ext
    show (ScatterDims.start dS j idx 1 + (ScatterDims.window dS j 1 : ℤ)).toNat = (j 1).val
    rw [start_ax1, window_ax1]; omega
  | ⟨2, _⟩ =>
    apply Fin.ext
    show (ScatterDims.start dS j idx 2 + (ScatterDims.window dS j 2 : ℤ)).toNat = p.val
    rw [start_ax2, window_ax2, h0]; omega
  | ⟨3, _⟩ =>
    apply Fin.ext
    show (ScatterDims.start dS j idx 3 + (ScatterDims.window dS j 3 : ℤ)).toNat = q.val
    rw [start_ax3, window_ax3, h1]; omega

/-! ### Row-major order within one (batch, channel) pair -/

/-- Among update indices with the same first two coordinates, a later row-major position is a later third coordinate. -/
theorem rowMajor_lt (b : Fin 2) (ch : Fin 256) (k : Fin 16384) (j : S2x256x16384.Idx) (h0 : j 0 = b) (h1 : j 1 = ch)
    (hlt : (S2x256x16384.rowMajor (ix3 b ch k)).val < (S2x256x16384.rowMajor j).val) : k.val < (j 2).val := by
  have e1 : (S2x256x16384.rowMajor (ix3 b ch k)).val = (b.val * 256 + ch.val) * 16384 + k.val :=
    Shape.rowMajor_val_three (d := ![2, 256, 16384]) (ix3 b ch k)
  have e2 : (S2x256x16384.rowMajor j).val = ((j 0).val * 256 + (j 1).val) * 16384 + (j 2).val :=
    Shape.rowMajor_val_three (d := ![2, 256, 16384]) j
  rw [e1, e2, h0, h1] at hlt
  omega

/-! ### The reference's result at an element -/

/-- What an update index's landing on `(b, ch, h, w)` says: its first two coordinates are `b`, `ch`, and its row of the pair array names `(h, w)`. -/
theorem lands_iff (ai : IVec S16384x2 32) (hai : ∀ (k : Fin 16384) (c : Fin 2), (ai (ix2 k c)).toNat < 192)
    (b : Fin 2) (ch : Fin 256) (h w : Fin 384) (j : S2x256x16384.Idx)
    (hj : ScatterDims.resultIdx? dS j (Read.val_main_v24 (F := F) ai) = some (ix4 b ch h w)) :
    j 0 = b ∧ j 1 = ch ∧ Hits ai h.val w.val (j 2) := by
  have hA0 : 2 * (ai (ix2 (j 2) 0)).toNat < 384 := by have := hai (j 2) 0; omega
  have hA1 : 2 * (ai (ix2 (j 2) 1)).toNat < 384 := by have := hai (j 2) 1; omega
  have hread := idxArr_toInt (F := F) ai hai (j 2)
  rw [resultIdx_of_read (Read.val_main_v24 (F := F) ai) j ⟨_, hA0⟩ ⟨_, hA1⟩ hread.1 hread.2] at hj
  have hfun := Option.some.inj hj
  have e0 : j 0 = b := congrFun hfun 0
  have e1 : j 1 = ch := congrFun hfun 1
  have e2 : (⟨_, hA0⟩ : Fin 384) = h := congrFun hfun 2
  have e3 : (⟨_, hA1⟩ : Fin 384) = w := congrFun hfun 3
  exact ⟨e0, e1, congrArg Fin.val e2, congrArg Fin.val e3⟩

/-- An update index `(b, ch, k)` whose row `k` of the pair array names `(h, w)` lands on `(b, ch, h, w)`. -/
theorem lands_of_hits (ai : IVec S16384x2 32) (hai : ∀ (k : Fin 16384) (c : Fin 2), (ai (ix2 k c)).toNat < 192)
    (b : Fin 2) (ch : Fin 256) (h w : Fin 384) (k : Fin 16384) (hk : Hits ai h.val w.val k) :
    ScatterDims.resultIdx? dS (ix3 b ch k) (Read.val_main_v24 (F := F) ai) = some (ix4 b ch h w) := by
  have hread := idxArr_toInt (F := F) ai hai k
  refine resultIdx_of_read (Read.val_main_v24 (F := F) ai) (ix3 b ch k) h w ?_ ?_
  · exact hread.1.trans (congrArg Nat.cast hk.1)
  · exact hread.2.trans (congrArg Nat.cast hk.2)

/-- The reference's result is the overwriting scatter of `x` into `o` at the index array. -/
theorem refTerm_eq (x : FVec F S2x256x16384 .f32) (o : FVec F S2x256x384x384 .f32) (ai : IVec S16384x2 32) :
    refTerm x o ai = Host.scatter dS (fun _ b => b) o (Read.val_main_v24 (F := F) ai) x := by
  unfold refTerm
  rw [Read.val_main_v25_eq]
  rfl

/-- A cell some row names holds the source's entry of the LAST such row. -/
theorem ref_of_last (x : FVec F S2x256x16384 .f32) (o : FVec F S2x256x384x384 .f32) (ai : IVec S16384x2 32)
    (hai : ∀ (k : Fin 16384) (c : Fin 2), (ai (ix2 k c)).toNat < 192)
    (b : Fin 2) (ch : Fin 256) (h w : Fin 384) (k : Fin 16384) (hk : Hits ai h.val w.val k)
    (hlast : ∀ k' : Fin 16384, k < k' → ¬ Hits ai h.val w.val k') :
    refTerm x o ai (ix4 b ch h w) = x (ix3 b ch k) := by
  rw [refTerm_eq]
  refine ScatterSet.scatter_set_of_last dS o (Read.val_main_v24 (F := F) ai) x (ix4 b ch h w) (ix3 b ch k)
    (lands_of_hits ai hai b ch h w k hk) ?_
  intro j hlt hj
  obtain ⟨e0, e1, hh⟩ := lands_iff ai hai b ch h w j hj
  exact hlast (j 2) (rowMajor_lt b ch k j e0 e1 hlt) hh

/-- A cell no row names keeps the original's entry. -/
theorem ref_of_none (x : FVec F S2x256x16384 .f32) (o : FVec F S2x256x384x384 .f32) (ai : IVec S16384x2 32)
    (hai : ∀ (k : Fin 16384) (c : Fin 2), (ai (ix2 k c)).toNat < 192)
    (b : Fin 2) (ch : Fin 256) (h w : Fin 384) (hnone : ∀ k : Fin 16384, ¬ Hits ai h.val w.val k) :
    refTerm x o ai (ix4 b ch h w) = o (ix4 b ch h w) := by
  rw [refTerm_eq]
  refine ScatterSet.scatter_set_of_none dS o (Read.val_main_v24 (F := F) ai) x (ix4 b ch h w) ?_
  intro j hj
  exact hnone (j 2) (lands_iff ai hai b ch h w j hj).2.2

end Cert.ReferenceIdeal.RefValue

end
-- ==== Proof.ScatterBridge.lean ====
/-
  The two results are one function. At a cell `(b, ch, h, w)` the kernel's result is the region's buffer at the flattened row
  `p = 384·h + w`; the table's word for source row `k` is `384·(2a₀) + 2a₁` of the pair `(a₀, a₁)` there, and since `2a₁`
  and `w` are both below 384 that word is `p` exactly when `(2a₀, 2a₁) = (h, w)`. So "the last source row placed at row
  `p`" and "the last update that lands on the cell" are the same row, and "no row placed at `p`" is "no update lands on the
  cell": in the first case both sides hold the source's entry of that row, in the second the original's.
-/
import proofs.«431333_j41420664602705_3_alg».proof.Proof.ScatterHostVals
import proofs.«431333_j41420664602705_3_alg».proof.Proof.RefValue

noncomputable section

namespace Cert.KernelIdeal.Sc

open Cert.KernelIdeal Cert.Sc

open Idealize.ShloMosaic Idealize.ShloMosaic.ValueIdx
open Idealize.ShloMosaic.TcCoe
open Idealize.SL Idealize.SL.Sem

variable {F : FTy → Type} [FloatOps F]

variable (m : (ℓ : Loc nD τ sig) → Buf (Elt F) ℓ)

/-- A table word is the cell's flattened row exactly when the pair names the cell. -/
theorem tbl_eq_iff_hits (c : Dev nD) (hI : IdxOK (m ((c.tc : Thread nD τ).loc main_arg2))) (k : Fin 16384) (h w : Fin 384) :
    tblNat (V m c main_v14) k.val = h.val * 384 + w.val
      ↔ Cert.ReferenceIdeal.RefValue.Hits (m ((c.tc : Thread nD τ).loc main_arg2)) h.val w.val k := by
  rw [tbl_val m c hI k]
  have h0 := hI k 0
  have h1 := hI k 1
  have hh := h.isLt
  have hw := w.isLt
  unfold Cert.ReferenceIdeal.RefValue.Hits
  constructor
  · intro e; constructor <;> omega
  · rintro ⟨e0, e1⟩; omega

/-- The kernel's result is the reference's, under the index bound. -/
theorem kres_eq_ref (c : Dev nD) (hI : IdxOK (m ((c.tc : Thread nD τ).loc main_arg2))) :
    kres m c = Cert.ReferenceIdeal.RefValue.refTerm (m ((c.tc : Thread nD τ).loc main_arg0)) (m ((c.tc : Thread nD τ).loc main_arg1))
      (m ((c.tc : Thread nD τ).loc main_arg2)) := by
  funext idx
  obtain ⟨b, ch, h, w, rfl⟩ : ∃ (b : Fin 2) (ch : Fin 256) (h w : Fin 384), idx = ix4 b ch h w := ⟨idx 0, idx 1, idx 2, idx 3, eq_ix4 idx⟩
  rw [kres_apply]
  unfold kout
  have hp : h.val * 384 + w.val < 147456 := by have := h.isLt; have := w.isLt; omega
  rcases last_or_none (V m c main_v14) 16384 (h.val * 384 + w.val) with ⟨k, hk, hkp, hkl⟩ | hnone
  · rw [scatN_of_last (V m c main_v14) (V m c main_v15) (V m c main_v18) 16384 (ix3 ⟨h.val * 384 + w.val, hp⟩ b ch) k hk ⟨hk, hkp, hkl⟩]
    rw [V_x m c ⟨k, hk⟩ b ch]
    refine (Cert.ReferenceIdeal.RefValue.ref_of_last _ _ _ hI b ch h w ⟨k, hk⟩ ((tbl_eq_iff_hits m c hI ⟨k, hk⟩ h w).mp hkp) ?_).symm
    intro k' hkk' hhit
    exact hkl k'.val hkk' k'.isLt ((tbl_eq_iff_hits m c hI k' h w).mpr hhit)
  · rw [scatN_of_none (V m c main_v14) (V m c main_v15) (V m c main_v18) 16384 (ix3 ⟨h.val * 384 + w.val, hp⟩ b ch) hnone]
    rw [V_o m c ⟨h.val * 384 + w.val, hp⟩ b ch]
    have e : (ix4 b ch (⟨(h.val * 384 + w.val) / 384, by omega⟩ : Fin 384) ⟨(h.val * 384 + w.val) % 384, Nat.mod_lt _ (by decide)⟩
        : (⟨4, ![2, 256, 384, 384]⟩ : Shape).Idx) = ix4 b ch h w := by
      have hw := w.isLt
      congr 1 <;> apply Fin.ext <;> simp only <;> omega
    rw [e]
    refine (Cert.ReferenceIdeal.RefValue.ref_of_none _ _ _ hI b ch h w ?_).symm
    intro k hhit
    exact hnone k.val k.isLt ((tbl_eq_iff_hits m c hI k h w).mpr hhit)

end Cert.KernelIdeal.Sc

end
-- ==== Proof.ScatterBodyK.lean ====
import proofs.«431333_j41420664602705_3_alg».proof.Proof.Gen.Kernel
import proofs.«431333_j41420664602705_3_alg».proof.Proof.Gen.Kernel.Skeleton
import proofs.«431333_j41420664602705_3_alg».proof.Proof.LaunchKernel
import proofs.«431333_j41420664602705_3_alg».proof.Proof.ScatterSpec
import Idealize.ShloMosaic.Lib.Tactic
import Idealize.ShloMosaic.Lib.Pipeline.Kit

noncomputable section

namespace Cert.Kernel.Sc

open Cert.Kernel Cert.Kernel.Gen Cert.Kernel.GenP Cert.Sc

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's rounds copy beside the counters the transfers' invariants draw on. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A table word names a row of the result. -/
def RowOK (v : BitVec 32) : Prop := v.toNat < 147456

/-- Every word of the table names a row of the result, however the table is read. -/
def TblOK (c : Dev nD) (ft : Bf (F := F) c (Memref.whole main_v14)) : Prop :=
  ∀ (r : LoadRect S16384) (j : r.shape.Idx), RowOK (View.readAt (Elt F) (Memref.whole main_v14).view r ft j)

/-- A table word that names a row of the result gives a one-row rectangle inside the result. -/
theorem chk_of_rowOK (v : BitVec 32) (h : RowOK v) :
    ∀ a, (![v.toNat, 0, 0] : Fin 3 → ℕ) a + S1x2x256.size a ≤ S147456x2x256.size a := by
  intro a
  unfold RowOK at h
  fin_cases a
  · show v.toNat + 1 ≤ 147456
    omega
  · exact Nat.le_refl 2
  · exact Nat.le_refl 256

/-- The word `128 m + j` does not wrap for `m, j < 128`. -/
theorem off_val (m : ℕ) (hm : m < 128) (j : ℕ) (hj : j < 128) :
    (Scalar.addi (Scalar.muli (BitVec.ofNat 32 m) 128#32) (BitVec.ofNat 32 j)).toNat = 128 * m + j := by
  unfold Scalar.addi Scalar.muli IntOp.addi IntOp.muli
  rw [BitVec.toNat_add, BitVec.toNat_mul, BitVec.toNat_ofNat, BitVec.toNat_ofNat, BitVec.toNat_ofNat]
  have h1 : m % 2 ^ 32 = m := Nat.mod_eq_of_lt (by omega)
  have h2 : j % 2 ^ 32 = j := Nat.mod_eq_of_lt (by omega)
  have h3 : 128 % 2 ^ 32 = 128 := by norm_num
  rw [h1, h2, h3, Nat.mod_eq_of_lt (show m * 128 < 2 ^ 32 by omega), Nat.mod_eq_of_lt (show m * 128 + j < 2 ^ 32 by omega)]
  omega

/-- The destination row's view places `(y₀, y₁)` at `(p, y₀, y₁)`. -/
theorem emb_dst (p : ℕ) (hp : ∀ a, (![p, 0, 0] : Fin 3 → ℕ) a + S1x2x256.size a ≤ S147456x2x256.size a)
    (hs) (hq : S1x2x256.Squeezes S2x256) (y : S2x256.Idx) (a : Fin 3) :
    ((((Memref.whole main_v18).slice (Rect.unit (s := S147456x2x256) ![p, 0, 0] S1x2x256.size hp) hs).squeeze S2x256 hq).view.emb y a).val
      = (![p, (y 0).val, (y 1).val] : Fin 3 → ℕ) a := by
  have e : (((Memref.whole main_v18).slice (Rect.unit (s := S147456x2x256) ![p, 0, 0] S1x2x256.size hp) hs).squeeze S2x256 hq).view.emb y
      = (Rect.unit (s := S147456x2x256) ![p, 0, 0] S1x2x256.size hp).emb (Shape.reshapeEquiv hq.numel_eq y) := rfl
  rw [e, Shape.reshapeEquiv_cons_one, Rect.emb_apply]
  match a with
  | ⟨0, _⟩ => show p + 1 * 0 = p; omega
  | ⟨1, _⟩ => show 0 + 1 * (y 0).val = (y 0).val; omega
  | ⟨2, _⟩ => show 0 + 1 * (y 1).val = (y 1).val; omega

/-- The source row's view places `(y₀, y₁)` at `(k, y₀, y₁)`. -/
theorem emb_src (k : ℕ) (hk : ∀ a, (![k, 0, 0] : Fin 3 → ℕ) a + S1x2x256.size a ≤ S16384x2x256.size a)
    (hs) (hq : S1x2x256.Squeezes S2x256) (y : S2x256.Idx) (a : Fin 3) :
    ((((Memref.whole main_v15).slice (Rect.unit (s := S16384x2x256) ![k, 0, 0] S1x2x256.size hk) hs).squeeze S2x256 hq).view.emb y a).val
      = (![k, (y 0).val, (y 1).val] : Fin 3 → ℕ) a := by
  have e : (((Memref.whole main_v15).slice (Rect.unit (s := S16384x2x256) ![k, 0, 0] S1x2x256.size hk) hs).squeeze S2x256 hq).view.emb y
      = (Rect.unit (s := S16384x2x256) ![k, 0, 0] S1x2x256.size hk).emb (Shape.reshapeEquiv hq.numel_eq y) := rfl
  rw [e, Shape.reshapeEquiv_cons_one, Rect.emb_apply]
  match a with
  | ⟨0, _⟩ => show k + 1 * 0 = k; omega
  | ⟨1, _⟩ => show 0 + 1 * (y 0).val = (y 0).val; omega
  | ⟨2, _⟩ => show 0 + 1 * (y 1).val = (y 1).val; omega

/-- ONE PLACEMENT: writing, through the view of row `p` of the result, what the view of row `k` of the source reads,
    is `rowPut`. -/
theorem put_step (c : Dev nD) (p : ℕ) (hp : ∀ a, (![p, 0, 0] : Fin 3 → ℕ) a + S1x2x256.size a ≤ S147456x2x256.size a)
    (k : ℕ) (hk : ∀ a, (![k, 0, 0] : Fin 3 → ℕ) a + S1x2x256.size a ≤ S16384x2x256.size a)
    (hs1) (hq1 : S1x2x256.Squeezes S2x256) (hs2) (hq2 : S1x2x256.Squeezes S2x256)
    (O : Bf (F := F) c (Memref.whole main_v18)) (X : Bf (F := F) c (Memref.whole main_v15)) :
    View.write (Elt F) (((Memref.whole main_v18).slice (Rect.unit (s := S147456x2x256) ![p, 0, 0] S1x2x256.size hp) hs1).squeeze S2x256 hq1).view O
        (ReadAs.same.apply (View.read (Elt F)
          (((Memref.whole main_v15).slice (Rect.unit (s := S16384x2x256) ![k, 0, 0] S1x2x256.size hk) hs2).squeeze S2x256 hq2).view X)) Finset.univ
      = rowPut O p X k := by
  have hk' : k < 16384 := by have := hk 0; change k + 1 ≤ 16384 at this; omega
  funext idx
  unfold rowPut
  by_cases h0 : (idx 0).val = p
  · rw [if_pos h0, dif_pos hk']
    have hi : (((Memref.whole main_v18).slice (Rect.unit (s := S147456x2x256) ![p, 0, 0] S1x2x256.size hp) hs1).squeeze S2x256 hq1).view.emb
        (Idealize.ShloMosaic.ValueIdx.ix2 (idx 1) (idx 2)) = idx := by
      funext a
      apply Fin.ext
      rw [emb_dst]
      match a with
      | ⟨0, _⟩ => exact h0.symm
      | ⟨1, _⟩ => rfl
      | ⟨2, _⟩ => rfl
    conv_lhs => rw [← hi]
    rw [View.write_emb_of_mem _ _ (Finset.mem_univ _), ReadAs.apply_same, View.read_apply, cast_cast, cast_eq]
    congr 1
    funext a
    apply Fin.ext
    rw [emb_src]
    match a with
    | ⟨0, _⟩ => rfl
    | ⟨1, _⟩ => rfl
    | ⟨2, _⟩ => rfl
  · rw [if_neg h0]
    refine View.write_of_not_mem _ _ _ fun hm => h0 ?_
    obtain ⟨y, _, hy⟩ := Finset.mem_map.mp hm
    have := emb_dst p hp hs1 hq1 y 0
    rw [hy] at this
    exact this

/-- The same word read through the index cast. -/
theorem off_val_ic (m : ℕ) (hm : m < 128) (j : ℕ) (hj : j < 128) :
    (Scalar.indexCast (Scalar.addi (Scalar.muli (BitVec.ofNat 32 m) 128#32) (BitVec.ofNat 32 j))).toNat = 128 * m + j :=
  off_val m hm j hj

/-- Row offsets with equal first coordinates are equal. -/
theorem offs3_eq (v : BitVec 32) (n : ℕ) (h : v.toNat = n) : (![v.toNat, 0, 0] : Fin 3 → ℕ) = ![n, 0, 0] := by rw [h]

/-- Word offsets with equal coordinates are equal. -/
theorem offs1_eq (v : BitVec 32) (n : ℕ) (h : v.toNat = n) : (![v.toNat] : Fin 1 → ℕ) = ![n] := by rw [h]

/-- A load of one table word at offset `n` reads the table's word `n`. -/
theorem tbl_read (c : Dev nD) (ft : Bf (F := F) c (Memref.whole main_v14)) (off : Fin 1 → ℕ)
    (hin : ∀ a, off a + S1.size a ≤ S16384.size a) (hpos) (n : ℕ) (hn : off = ![n]) :
    (View.readAt (Elt F) (Memref.whole main_v14).view (Rect.unit (s := S16384) off S1.size hin).toLoadRect ft (Shape.Idx.first hpos) : BitVec 32).toNat
      = tblNat ft n := by
  subst hn
  have h16 : n < 16384 := by have := hin 0; change n + 1 ≤ 16384 at this; omega
  unfold tblNat
  rw [dif_pos h16, View.readAt_apply, View.read_apply, cast_eq]
  congr 2
  funext a
  apply Fin.ext
  match a with
  | ⟨0, _⟩ => show n + 1 * 0 = n; omega

/-- ONE MORE PLACEMENT: on a result that holds placements `n₀, …, n₀ + j - 1`, writing through the view of the row the
    table's word `n₀ + j` names what the view of source row `n₀ + j` reads gives placements `n₀, …, n₀ + j`. -/
theorem fold_step (c : Dev nD) (ft : Bf (F := F) c (Memref.whole main_v14)) (fx : Bf (F := F) c (Memref.whole main_v15))
    (fo : Bf (F := F) c (Memref.whole main_v18)) (n₀ j : ℕ)
    (offd : Fin 3 → ℕ) (hd : ∀ a, offd a + S1x2x256.size a ≤ S147456x2x256.size a)
    (offs : Fin 3 → ℕ) (hsrc : ∀ a, offs a + S1x2x256.size a ≤ S16384x2x256.size a)
    (hs1) (hq1 : S1x2x256.Squeezes S2x256) (hs2) (hq2 : S1x2x256.Squeezes S2x256)
    (f : Bf (F := F) c (Memref.whole main_v18))
    (hf : f = scatFrom ft fx fo n₀ j)
    (hdv : offd = ![tblNat ft (n₀ + j), 0, 0])
    (hsv : offs = ![n₀ + j, 0, 0]) :
    (View.write (Elt F) (((Memref.whole main_v18).slice (Rect.unit (s := S147456x2x256) offd S1x2x256.size hd) hs1).squeeze S2x256 hq1).view f
        (ReadAs.same.apply (View.read (Elt F)
          (((Memref.whole main_v15).slice (Rect.unit (s := S16384x2x256) offs S1x2x256.size hsrc) hs2).squeeze S2x256 hq2).view fx)) Finset.univ
        : Bf (F := F) c (Memref.whole main_v18))
      = scatFrom ft fx fo n₀ (j + 1) := by
  subst hf hdv hsv
  rw [put_step]
  rfl

set_option maxHeartbeats 4000000 in
/-- One grid step: from the table, the source and the result held whole, the kernel's transfer counter at zero and
    the core's `owes`, the body runs to its return with the table and the source as they were, the result with source
    rows `128 i, …, 128 i + 127` placed in order at the rows the table names, the counter back at zero. -/
theorem kernelRun (c : Dev nD) (i : grid0.Coords)
    (ft : Bf (F := F) c (Memref.whole main_v14)) (fx : Bf (F := F) c (Memref.whole main_v15)) (fo : Bf (F := F) c (Memref.whole main_v18))
    (hok : TblOK c ft) (W : Waits sig Unit) (Q : PUnit → sProp 𝕄) :
    iprop(pt c (Memref.whole main_v14) ft ∗ pt c (Memref.whole main_v15) fx ∗ pt c (Memref.whole main_v18) fo
      ∗ semVal ((c : Thread nD τ), .dma 0) 0 ∗ owes (c : Thread nD τ) 0 W
      ∗ (iprop(pt c (Memref.whole main_v14) ft ∗ pt c (Memref.whole main_v15) fx
            ∗ pt c (Memref.whole main_v18) (scatFrom ft fx fo (128 * (i 0).val) 128)
            ∗ semVal ((c : Thread nD τ), .dma 0) 0 ∗ ∃ W, owes (c : Thread nD τ) 0 W) -∗ Q ⟨⟩))
    ⊢ wp frame (wpE (defs₀ (F := F)) Variants.none c none) Set.univ
        (cc0__scatter_kernel i (Memref.whole main_v14) (Memref.isWhole_whole _) (Memref.whole main_v15) (Memref.isWhole_whole _) (Memref.whole main_v18) (Memref.isWhole_whole _) (Memref.whole main_v18) (Memref.isWhole_whole _) cc0_scratch0) Q := by
  iintro ⟨Ht, Hx, Ho, Hd, HO, Hk⟩
  sl_exec! (disch := exact chk_of_rowOK _ (hok _ _))
  have hO : (kernelRun.sl.Ho_w127 c i ft fx fo hok : Bf (F := F) c (Memref.whole main_v18))
      = scatFrom ft fx fo (128 * (i 0).val) 128 := by
    repeat
      refine fold_step c ft fx fo _ _ _ _ _ _ _ _ _ _ _ ?_
        (by refine offs3_eq _ _ ?_; refine tbl_read c ft _ _ _ _ ?_; refine offs1_eq _ _ ?_; exact off_val_ic _ (i 0).isLt _ (by norm_num))
        (by refine offs3_eq _ _ ?_; exact off_val _ (i 0).isLt _ (by norm_num))
    rfl
  rw [hO]
  sl_step
  iapply Hk
  isplitl [Ht]
  · iexact Ht
  isplitl [Hx]
  · iexact Hx
  isplitl [Ho]
  · iexact Ho
  isplitl [Hd]
  · iexact Hd
  · iexists _; iexact HO

end Cert.Kernel.Sc

end
-- ==== Proof.ScatterHostK.lean ====
import proofs.«431333_j41420664602705_3_alg».proof.Proof.ScatterBodyK
import Idealize.ShloMosaic.Lib.StableHlo.Run

noncomputable section

namespace Cert.Kernel.Sc

open Cert.Kernel Cert.Kernel.Gen Cert.Kernel.GenP Cert.Sc

open Idealize.ShloMosaic
open Idealize.ShloMosaic.TcCoe
open Idealize.SL Idealize.SL.Sem

variable {F : FTy → Type} [FloatOps F]

variable (m : (ℓ : Loc nD τ sig) → Buf (Elt F) ℓ)

/-- Core `c`'s buffers at launch, as the host operations' valuation; -/
abbrev V₀ (c : Dev nD) : Valuation τ sig (Elt F) := fun b => m ((c : Dev nD), b)
/-- and when the region is entered: the operations before it have run. -/
abbrev V (c : Dev nD) (b : Ref sig .tc) : Buf (Elt F) ((c : Thread nD τ).loc b) := StableHlo.after hostOps0 (V₀ m c) b

/-- What the region leaves in the result's buffer: all 16384 source rows placed, in order, on the copy of the
    (re-laid) original the region found there. -/
def kout (c : Dev nD) : SO.Idx → Elt F .f32 := scatN (V m c main_v14) (V m c main_v15) (V m c main_v18) 16384

/-- The program's result: the two operations after the region re-lay that buffer. -/
def kres (c : Dev nD) : S2x256x384x384.Idx → Elt F .f32 :=
  shapeCast S2x256x384x384 (transpose S2x256x147456 [1, 2, 0] (kout m c) transposes_S147456x2x256_S2x256x147456_1_2_0) shapeCasts_S2x256x147456_S2x256x384x384

/-- The run's post: the result array at `kres`, the three arguments as launched. -/
def QK : PUnit × MemSt nD τ sig (Elt F) → Prop := fun r => ∀ c : Dev nD,
  r.2.mem ((c.tc : Thread nD τ).loc main_v20) = kres m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

end Cert.Kernel.Sc

end
-- ==== Proof.ScatterRunDataK.lean ====
/-
  The scatter program's launch, its data. @main is the host operations that compute the table of row numbers, the
  source rows and the copy of the original the kernel writes over; then one kernel region: no window, one prefetched
  table, one scoped DMA semaphore, 128 grid steps of 128 rows each; then the two host operations that re-lay the
  result. Here: the region's invariant — before grid point `t` the table and the source as the host operations left
  them, the result's buffer with the first `128 t` source rows placed in order (`scatN`), the kernel's transfer
  counter at zero —, the body obligation from `kernelRun`, what the host operations do and do not write, the
  valuation the region leaves, and the two host segments.
-/
import proofs.«431333_j41420664602705_3_alg».proof.Proof.ScatterHostK
import Idealize.ShloMosaic.Lib.Pipeline.Regions

noncomputable section

namespace Cert.Kernel.Sc

open Cert.Kernel Cert.Kernel.Gen Cert.Kernel.GenP Cert.Sc

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

namespace Launch

/-- The pipeline library's algebra is the left component of the certificate's. -/
abbrev EP : Emb (UR sig nD τ) (MT nD τ sig Unit (Elt F) ℕ (UU nD τ) ℕ) := embL

abbrev 𝒱₀ : Variants := Variants.none

/-- No core owes another anything: no level is assigned. -/
abbrev L : GSem nD τ sig → Finset Unit := fun _ => ∅
abbrev lv : GSem nD τ sig → Unit → ℕ := fun _ _ => 0

/-! ## The grid -/

/-- The one coordinate of the grid's point `t` is `t`. -/
theorem coords0 (t : Fin grid0.N) : ((grid0.coords t) 0).val = t.val := by
  have hs : grid0.stride 0 = 1 := by decide
  have ht : t.val < 128 := N_0 ▸ t.isLt
  show t.val / grid0.stride 0 % 128 = t.val
  rw [hs, Nat.div_one]
  exact Nat.mod_eq_of_lt ht

/-! ## The invariant, at any contents of the table, the source and the result -/

/-- After `n` source rows: the table and the source as they were, the result with the first `n` rows placed, the
    kernel's transfer counter at zero, the scoped buffers. -/
def Φg (c : Dev nD) (ft : Bf (F := F) c (Memref.whole main_v14)) (fx : Bf (F := F) c (Memref.whole main_v15))
    (fo : Bf (F := F) c (Memref.whole main_v18)) (n : ℕ) : sProp 𝕄 :=
  iprop(pt c (Memref.whole main_v14) ft ∗ pt c (Memref.whole main_v15) fx ∗ pt c (Memref.whole main_v18) (scatN ft fx fo n)
    ∗ semVal ((c : Thread nD τ), .dma 0) 0
    ∗ Pipeline.scopedRest (Ix := Unit) (Name := ℕ) (U := UU nD τ) (Lvl := ℕ) (Val := Elt F) spec0 c)

/-- The proof data at any admissible table contents: no window; before point `t` the first `128 t` rows are placed;
    nothing owed. -/
def datsG (a : (p : Fin 1) → (pcfgs (F := F) p).Adm) (c : Dev nD) (ft : Bf (F := F) c (Memref.whole main_v14))
    (fx : Bf (F := F) c (Memref.whole main_v15)) (fo : Bf (F := F) c (Memref.whole main_v18)) (p : Fin 1) :
    Dat τ (Elt F) Unit ℕ (UU nD τ) ℕ (Pipeline.pin pcfgs a p) c where
  A w := w.elim0
  after w := w.elim0
  Φ t := Φg c ft fx fo (128 * t.val)
  q _ := fullShare
  owed _ := 0

/-- A separating conjunction over the windows is empty: there is none. -/
theorem bigSep_W0 (a : (p : Fin 1) → (pcfgs (F := F) p).Adm) (Ψ : Fin (Pipeline.pin (pcfgs (F := F)) a 0).W → sProp 𝕄) :
    bigSep Finset.univ Ψ = (BI.emp : sProp 𝕄) := by
  show bigSep (Finset.univ : Finset (Fin 0)) Ψ = _
  rfl

/-! ## The body obligation -/

/-- One grid step places the next 128 rows. -/
theorem step_rows (ft : ST.Idx → BitVec 32) {α : Type} (fx : SX.Idx → α) (fo : SO.Idx → α) (t : Fin grid0.N) :
    scatFrom ft fx (scatN ft fx fo (128 * t.val)) (128 * ((grid0.coords t) 0).val) 128 = scatN ft fx fo (128 * (t.val + 1)) := by
  rw [coords0, scatFrom_scatN, Nat.mul_succ]

/-- The library's body obligation: the invariant taken apart, `kernelRun` applied, its post reassembled. -/
theorem body_obligation (a : (p : Fin 1) → (pcfgs (F := F) p).Adm) (c : Dev nD) (ft : Bf (F := F) c (Memref.whole main_v14))
    (fx : Bf (F := F) c (Memref.whole main_v15)) (fo : Bf (F := F) c (Memref.whole main_v18)) (hok : TblOK c ft) :
    BodyObligation (datsG a c ft fx fo 0) (defs₀ (F := F)) 𝒱₀ () Set.univ := fun t => by
  rw [bigSep_W0, bigSep_W0]
  rw [show (datsG a c ft fx fo 0).Φ t.castSucc = Φg c ft fx fo (128 * t.val) from rfl,
    show (datsG a c ft fx fo 0).Φ t.succ = Φg c ft fx fo (128 * (t.val + 1)) from rfl]
  unfold Φg Dat.owesAt Pipeline.owesWithin
  rw [show (datsG a c ft fx fo 0).owed t.castSucc = 0 from rfl, show (datsG a c ft fx fo 0).owed t.succ = 0 from rfl]
  rw [← step_rows ft fx fo t]
  iintro ⟨⟨Ht, Hx, Ho, Hsem, Hr⟩, ⟨%W, %hW, HO⟩, -⟩
  iapply (kernelRun c (grid0.coords t) ft fx (scatN ft fx fo (128 * t.val)) hok W)
  isplitl [Ht]; · iexact Ht
  isplitl [Hx]; · iexact Hx
  isplitl [Ho]; · iexact Ho
  isplitl [Hsem]; · iexact Hsem
  isplitl [HO]; · iexact HO
  iintro ⟨Ht, Hx, Ho, Hsem, ⟨%W', HO⟩⟩
  isplitl [Ht Hx Ho Hsem Hr]
  · isplitl [Ht]; · iexact Ht
    isplitl [Hx]; · iexact Hx
    isplitl [Ho]; · iexact Ho
    isplitl [Hsem]; · iexact Hsem
    iexact Hr
  isplitl [HO]
  · iexists W'; isplitr; · ipureintro; exact fun _ _ => Or.inl trivial
    iexact HO
  iempintro

variable (m : (ℓ : Loc nD τ sig) → Buf (Elt F) ℓ)

/-! ## The host operations' buffers -/

/-- The device buffers behind the TensorCore's unscoped references: the set the host operations run within. -/
def ucRefs : Finset (DevRef τ sig) :=
  (Finset.univ.filter fun b : Ref sig .tc => ¬ b.isScoped).map ⟨Proc.devRef (sig := sig) (.tc : Proc τ), Proc.devRef_injective _⟩

omit [FloatOps F] in
/-- What the launch deals of unscoped buffers, at a valuation, is that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs
  rw [bigSep_map]
  rfl

omit [FloatOps F] in
/-- An unscoped TensorCore reference's buffer is in the set. -/
theorem mem_ucRefs (b : Ref sig .tc) (hb : b.isScoped = false) : Proc.devRef (τ := τ) .tc b ∈ ucRefs :=
  Finset.mem_map_of_mem _ (Finset.mem_filter.mpr ⟨Finset.mem_univ b, by rw [hb]; exact Bool.false_ne_true⟩)

omit [FloatOps F] in
/-- A host operation on TensorCore references stays within the set: it names no scoped buffer. -/
theorem sub_ucRefs (op : HloOp τ sig (Elt F)) (h : op.bufs ⊆ StableHlo.tcRefs τ sig) : op.bufs ⊆ ucRefs := fun b hb => by
  obtain ⟨r, -, rfl⟩ := Finset.mem_map.mp (h hb)
  exact mem_ucRefs r (op.no_scoped _ hb)

/-- No operation before the region writes an argument, -/
theorem not_written0 (b : Ref sig .tc) (hb : b = main_arg0 ∨ b = main_arg1 ∨ b = main_arg2) :
    ∀ op ∈ (hostOps0 (F := F)), Proc.devRef .tc b ∉ op.writes := by
  intro op hop
  simp only [List.mem_cons, List.mem_nil_iff, or_false] at hop
  rcases hb with rfl | rfl | rfl <;>
  rcases hop with rfl | rfl | rfl | rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)

/-- and none after it. -/
theorem not_written1 (b : Ref sig .tc) (hb : b = main_arg0 ∨ b = main_arg1 ∨ b = main_arg2) :
    ∀ op ∈ (hostOps1 (F := F)), Proc.devRef .tc b ∉ op.writes := by
  intro op hop
  simp only [List.mem_cons, List.mem_nil_iff, or_false] at hop
  rcases hb with rfl | rfl | rfl <;>
  rcases hop with rfl | rfl <;>
    simp only [StableHlo.unary_writes, StableHlo.reshape_writes, Finset.mem_singleton] <;>
    exact StableHlo.devRef_ne_of_ne (by decide)

/-- An argument reaches the region as launched. -/
theorem V_arg (c : Dev nD) (b : Ref sig .tc) (hb : b = main_arg0 ∨ b = main_arg1 ∨ b = main_arg2) :
    V m c b = m ((c : Thread nD τ).loc b) :=
  StableHlo.after_of_forall_not_mem (b := Proc.devRef .tc b) hostOps0 (V₀ m c) (not_written0 b hb)

/-! ## The valuation the region leaves, and the operations after it -/

/-- The buffers when the region is left: as entered, the result's at `kout`. -/
def V₁ (c : Dev nD) : Valuation τ sig (Elt F) :=
  Function.update (StableHlo.after hostOps0 (V₀ m c)) (Proc.devRef .tc main_v18) (kout m c)

theorem V₁_v18 (c : Dev nD) : V₁ m c (Proc.devRef .tc main_v18) = kout m c := by
  unfold V₁; rw [Function.update_self]

theorem V₁_ne (c : Dev nD) (b : DevRef τ sig) (hb : b ≠ Proc.devRef .tc main_v18) :
    V₁ m c b = StableHlo.after hostOps0 (V₀ m c) b := by
  unfold V₁; rw [Function.update_of_ne hb]

/-- The two operations after the region re-lay the result: the program's result array holds `kres`. -/
theorem after1_v20 (c : Dev nD) : StableHlo.after hostOps1 (V₁ m c) (Proc.devRef .tc main_v20) = kres m c := by
  simp only [StableHlo.after_cons, StableHlo.after_nil]
  rw [StableHlo.reshape_result', StableHlo.unary_result', V₁_v18]
  rfl

/-- An argument reaches the end as launched. -/
theorem after1_arg (c : Dev nD) (b : Ref sig .tc) (hb : b = main_arg0 ∨ b = main_arg1 ∨ b = main_arg2) :
    StableHlo.after hostOps1 (V₁ m c) (Proc.devRef .tc b) = m ((c : Thread nD τ).loc b) := by
  rw [StableHlo.after_of_forall_not_mem hostOps1 (V₁ m c) (not_written1 b hb),
    V₁_ne m c _ (StableHlo.devRef_ne_of_ne (by rcases hb with rfl | rfl | rfl <;> decide))]
  exact V_arg m c b hb

/-! ## The three buffers the kernel names -/

/-- The table's, the source's and the result's buffers. -/
def H3 : Finset (DevRef τ sig) := {Proc.devRef .tc main_v14, Proc.devRef .tc main_v15, Proc.devRef .tc main_v18}

omit [FloatOps F] in
theorem H3_sub : (H3 : Finset (DevRef τ sig)) ⊆ ucRefs := by
  intro b hb
  unfold H3 at hb
  simp only [Finset.mem_insert, Finset.mem_singleton] at hb
  rcases hb with rfl | rfl | rfl
  · exact mem_ucRefs main_v14 rfl
  · exact mem_ucRefs main_v15 rfl
  · exact mem_ucRefs main_v18 rfl

omit [FloatOps F] in
/-- The three held at a valuation, one by one. -/
theorem held_H3 (c : Dev nD) (W : Valuation τ sig (Elt F)) :
    (StableHlo.held (c : Thread nD τ) H3 W : sProp 𝕄)
      = iprop(pt c (Memref.whole main_v14) (W (Proc.devRef .tc main_v14)) ∗ pt c (Memref.whole main_v15) (W (Proc.devRef .tc main_v15))
          ∗ pt c (Memref.whole main_v18) (W (Proc.devRef .tc main_v18))) := by
  unfold StableHlo.held H3
  rw [bigSep_insert (by
        simp only [Finset.mem_insert, Finset.mem_singleton, not_or]
        exact ⟨StableHlo.devRef_ne_of_ne (by decide), StableHlo.devRef_ne_of_ne (by decide)⟩),
    bigSep_insert (by
        simp only [Finset.mem_singleton]
        exact StableHlo.devRef_ne_of_ne (by decide)),
    bigSep_singleton]
  rfl

/-- Outside the result's buffer the region leaves the valuation it found. -/
theorem held_rest_V₁ (c : Dev nD) :
    (StableHlo.held (c : Thread nD τ) (ucRefs \ H3) (V₁ m c) : sProp 𝕄)
      = StableHlo.held (c : Thread nD τ) (ucRefs \ H3) (StableHlo.after hostOps0 (V₀ m c)) :=
  StableHlo.held_congr (c : Thread nD τ) fun b hb => V₁_ne m c b fun he => by
    rw [he] at hb
    exact (Finset.mem_sdiff.mp hb).2 (by unfold H3; simp only [Finset.mem_insert, Finset.mem_singleton, or_true])

/-! ## The table's contents, the proof data -/

/-- The prefetched table's admissible contents: what the host operations computed on the one device. -/
def adm : (p : Fin 1) → (pcfgs (F := F) p).Adm := fun _ => ⟨fun k => V m 0 (pre0.ref k), trivial⟩

/-- The proof data on core `c`. -/
def dats (p : Fin 1) (c : Dev nD) : Dat τ (Elt F) Unit ℕ (UU nD τ) ℕ (Pipeline.pin pcfgs (adm m) p) c :=
  datsG (adm m) c (V m c main_v14) (V m c main_v15) (V m c main_v18) p

/-- The kernel's own semaphore: its one scoped DMA semaphore. -/
abbrev osem : Fin 1 → SemLoc sig := fun _ => .dma 0

theorem ownSemFacts : Pipeline.OwnSemFacts spec0 osem := by decide

omit [FloatOps F] in
/-- The kernel's own counter at zero. -/
theorem ownSems0_eq (c : Dev nD) :
    (Pipeline.ownSems0 (Ix := Unit) (Name := ℕ) (U := UU nD τ) (Lvl := ℕ) (Val := Elt F) (τ := τ) osem c : sProp 𝕄)
      = semVal ((c : Thread nD τ), .dma 0) 0 :=
  Pipeline.ownSems0_eq_of_list c osem [0] (by decide) (by decide)

/-- The launch element: the pipeline library's at the (absent) staging cells; no counter yet. -/
def u₀ : UU nD τ :=
  (initOf (Pipeline.cells (Pipeline.pin pcfgs (adm m)) (cellOf_inj (adm m))) (Pipeline.launchToks (Pipeline.pin pcfgs (adm m)) (cellOf_inj (adm m))), 1)

/-- What rides beside the buffers through the host operations: the core owes nothing. -/
abbrev R (c : Dev nD) : sProp 𝕄 := iprop(∃ W, owes (c : Thread nD τ) (0 : CellTallies nD τ sig Unit) W)

/-! ## The segments -/

/-- No operation before the region, and none after it, leaves its result unwritten. -/
theorem fresh0 : ∀ op ∈ (hostOps0 (F := F)), op.fresh = ∅ := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl <;> rfl

theorem fresh1 : ∀ op ∈ (hostOps1 (F := F)), op.fresh = ∅ := by
  intro op hop
  simp only [List.mem_cons, List.mem_nil_iff, or_false] at hop
  rcases hop with rfl | rfl <;> rfl

/-- The operations before the region, over the unscoped buffers from the launch contents. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    fresh0 (V₀ m) R

/-- The operations after it, from what the region leaves. -/
def seg1 : Pipeline.HostSeg (Name := ℕ) (U := UU nD τ) (pcfgs (F := F)) defs₀ 𝒱₀ L lv :=
  Pipeline.HostSeg.ofOps _ _ _ _ _ ucRefs hostOps1 (fun op h => sub_ucRefs op ((List.forall_iff_forall_mem.mp hostOps1_sub) op h))
    fresh1 (V₁ m) R

end Launch

end Cert.Kernel.Sc

end
-- ==== Proof.ScatterRunK.lean ====
/-
  The scatter program's launch: the kernel region as the library's record — entered from the buffers the host
  operations left, the table handed to the pipeline, the source, the result and the kernel's counter to the
  invariant; left with the result's buffer holding every source row placed in order — and the run of @main as the
  list of its three segments (host operations, the region, host operations).
-/
import proofs.«431333_j41420664602705_3_alg».proof.Proof.ScatterRunDataK

noncomputable section

namespace Cert.Kernel.Sc

open Cert.Kernel Cert.Kernel.Gen Cert.Kernel.GenP Cert.Sc

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

namespace Launch

/-! ## The region -/

/-- The table as the pipeline holds it is the table's buffer at the computed contents. -/
theorem prefHeld_eq :
    (Pipeline.prefHeld (pcfgs (F := F) 0).pre (0 : Dev nD) (fun _ => fullShare) (adm m 0).1 : sProp 𝕄)
      = pt (0 : Dev nD) (Memref.whole main_v14) (V m 0 main_v14) := by
  unfold Pipeline.prefHeld
  rw [bigSep_univ_of_subsingleton (0 : Fin 1)]
  rfl

omit [FloatOps F] in
/-- The held buffers are the three and the others. -/
theorem held_split3 (c : Dev nD) (W : Valuation τ sig (Elt F)) :
    (StableHlo.held (c : Thread nD τ) ucRefs W : sProp 𝕄)
      = iprop(iprop(pt c (Memref.whole main_v14) (W (Proc.devRef .tc main_v14)) ∗ pt c (Memref.whole main_v15) (W (Proc.devRef .tc main_v15))
          ∗ pt c (Memref.whole main_v18) (W (Proc.devRef .tc main_v18))) ∗ StableHlo.held (c : Thread nD τ) (ucRefs \ H3) W) := by
  rw [StableHlo.held_sub_split (c : Thread nD τ) H3_sub W, held_H3]

/-- ENTRY: the three buffers out of the held ones; the table to the pipeline, the source, the result and the counter
    to the invariant, the other buffers past the region. -/
theorem reg_entry (c : Dev nD) :
    iprop((iprop(StableHlo.held (c : Thread nD τ) ucRefs (StableHlo.after hostOps0 (V₀ m c)) ∗ R c))
        ∗ Pipeline.ownSems0 (Ix := Unit) (Name := ℕ) (U := UU nD τ) (Lvl := ℕ) (Val := Elt F) (τ := τ) osem c ∗ levAts L lv)
      ⊢ |={Set.univ}=> iprop((dats m 0 c).arrays ((dats m 0 c).arrAt · 0)
          ∗ Pipeline.prefHeld (pcfgs (F := F) 0).pre c (fun _ => fullShare) (adm m 0).1
          ∗ (dats m 0 c).owesAt () 0
          ∗ iprop(pt c (Memref.whole main_v15) (V m c main_v15) ∗ pt c (Memref.whole main_v18) (V m c main_v18) ∗ semVal ((c : Thread nD τ), .dma 0) 0)
          ∗ StableHlo.held (c : Thread nD τ) (ucRefs \ H3) (StableHlo.after hostOps0 (V₀ m c))) := by
  obtain rfl : c = 0 := Subsingleton.elim _ _
  rw [held_split3, ownSems0_eq, prefHeld_eq]
  unfold Dat.arrays
  rw [bigSep_W0]
  unfold Dat.owesAt Pipeline.owesWithin
  iintro ⟨⟨⟨⟨Ht, Hx, Ho⟩, Hz⟩, ⟨%W, HO⟩⟩, Hos, -⟩
  imodintro
  isplitr; · iempintro
  isplitl [Ht]; · iexact Ht
  isplitl [HO]
  · iexists W; isplitr; · ipureintro; exact fun _ _ => Or.inl trivial
    iexact HO
  isplitl [Hx Ho Hos]
  · isplitl [Hx]; · iexact Hx
    isplitl [Ho]; · iexact Ho
    iexact Hos
  iexact Hz

/-- The invariant at the first point: no row placed yet. -/
theorem reg_in (c : Dev nD) :
    iprop(iprop(pt c (Memref.whole main_v15) (V m c main_v15) ∗ pt c (Memref.whole main_v18) (V m c main_v18) ∗ semVal ((c : Thread nD τ), .dma 0) 0)
        ∗ Pipeline.prefHeld (pcfgs (F := F) 0).pre c (fun _ => fullShare) (adm m 0).1
        ∗ Pipeline.scopedRest (Ix := Unit) (Name := ℕ) (U := UU nD τ) (Lvl := ℕ) (Val := Elt F) (Pipeline.pin pcfgs (adm m) 0).spec c)
      ⊢ (dats m 0 c).Φ 0 := by
  obtain rfl : c = 0 := Subsingleton.elim _ _
  rw [prefHeld_eq, show (dats m 0 0).Φ 0 = Φg (0 : Dev nD) (V m 0 main_v14) (V m 0 main_v15) (V m 0 main_v18) (128 * 0) from rfl]
  unfold Φg
  rw [Nat.mul_zero, scatN_zero]
  iintro ⟨⟨Hx, Ho, Hos⟩, Ht, Hr⟩
  isplitl [Ht]; · iexact Ht
  isplitl [Hx]; · iexact Hx
  isplitl [Ho]; · iexact Ho
  isplitl [Hos]; · iexact Hos
  iexact Hr

/-- The invariant at the last point: every row placed. -/
theorem reg_out (c : Dev nD) :
    (dats m 0 c).Φ (Fin.last (Pipeline.pin pcfgs (adm m) 0).N)
      ⊢ iprop(iprop(pt c (Memref.whole main_v14) (V m c main_v14) ∗ pt c (Memref.whole main_v15) (V m c main_v15) ∗ pt c (Memref.whole main_v18) (kout m c))
          ∗ Pipeline.ownSems0 (Ix := Unit) (Name := ℕ) (U := UU nD τ) (Lvl := ℕ) (Val := Elt F) (τ := τ) osem c
          ∗ Pipeline.scopedRest (Ix := Unit) (Name := ℕ) (U := UU nD τ) (Lvl := ℕ) (Val := Elt F) (Pipeline.pin pcfgs (adm m) 0).spec c) := by
  have hN : (Fin.last (Pipeline.pin (pcfgs (F := F)) (adm m) 0).N).val = 128 := N_0
  rw [ownSems0_eq, show (dats m 0 c).Φ (Fin.last (Pipeline.pin pcfgs (adm m) 0).N)
      = Φg c (V m c main_v14) (V m c main_v15) (V m c main_v18) (128 * (Fin.last (Pipeline.pin (pcfgs (F := F)) (adm m) 0).N).val) from rfl, hN]
  unfold Φg kout
  iintro ⟨Ht, Hx, Ho, Hos, Hr⟩
  isplitl [Ht Hx Ho]
  · isplitl [Ht]; · iexact Ht
    isplitl [Hx]; · iexact Hx
    iexact Ho
  isplitl [Hos]; · iexact Hos
  iexact Hr

/-- EXIT: the three buffers back among the held ones, the result's at `kout`. -/
theorem reg_exit (c : Dev nD) :
    iprop((dats m 0 c).arrays ((dats m 0 c).arrAt · (Pipeline.pin pcfgs (adm m) 0).N) ∗ (dats m 0 c).owesAt () (Fin.last (Pipeline.pin pcfgs (adm m) 0).N)
        ∗ iprop(pt c (Memref.whole main_v14) (V m c main_v14) ∗ pt c (Memref.whole main_v15) (V m c main_v15) ∗ pt c (Memref.whole main_v18) (kout m c))
        ∗ StableHlo.held (c : Thread nD τ) (ucRefs \ H3) (StableHlo.after hostOps0 (V₀ m c)))
      ⊢ |={Set.univ}=> iprop(StableHlo.held (c : Thread nD τ) ucRefs (V₁ m c) ∗ R c) := by
  rw [held_split3, held_rest_V₁, V₁_v18,
    V₁_ne m c _ (StableHlo.devRef_ne_of_ne (show main_v14 ≠ main_v18 by decide)),
    V₁_ne m c _ (StableHlo.devRef_ne_of_ne (show main_v15 ≠ main_v18 by decide))]
  unfold Dat.owesAt Pipeline.owesWithin
  iintro ⟨-, ⟨%W, -, HO⟩, HY, HZ⟩
  imodintro
  isplitr [HO]
  · isplitl [HY]; · iexact HY
    iexact HZ
  iexists W; iexact HO

set_option backward.isDefEq.respectTransparency.types false in
/-- THE REGION: no window, the kernel's one DMA semaphore, the body obligation; entered from what the operations before
    it left, left with the result's buffer at `kout`. -/
def reg0 (hok : ∀ c, TblOK c (V m c main_v14)) : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 1
  osem := osem
  ho := ownSemFacts
  hbody c := (body_obligation (adm m) c (V m c main_v14) (V m c main_v15) (V m c main_v18) (hok c)).loose
  hwaits := Pipeline.hwaits_of_owed_zero _ _ _ _ L lv 0 fun _ _ => rfl
  pre c := iprop(StableHlo.held (c : Thread nD τ) ucRefs (StableHlo.after hostOps0 (V₀ m c)) ∗ R c)
  post c := iprop(StableHlo.held (c : Thread nD τ) ucRefs (V₁ m c) ∗ R c)
  X c := iprop(pt c (Memref.whole main_v15) (V m c main_v15) ∗ pt c (Memref.whole main_v18) (V m c main_v18) ∗ semVal ((c : Thread nD τ), .dma 0) 0)
  Y c := iprop(pt c (Memref.whole main_v14) (V m c main_v14) ∗ pt c (Memref.whole main_v15) (V m c main_v15) ∗ pt c (Memref.whole main_v18) (kout m c))
  Z c := StableHlo.held (c : Thread nD τ) (ucRefs \ H3) (StableHlo.after hostOps0 (V₀ m c))
  hentry c := reg_entry m c
  hin c := reg_in m c
  hout c := reg_out m c
  hexit c := reg_exit m c

/-- @main as the list of the three. -/
abbrev segs (hok : ∀ c, TblOK c (V m c main_v14)) : List (Pipeline.Seg (pcfgs (F := F)) (adm m) (dats m) () defs₀ 𝒱₀ L lv) :=
  [.host (seg0 m), .region (reg0 m hok), .host (seg1 m)]

/-- What the last operations leave: the unscoped buffers at their final contents. -/
abbrev Tₙ (c : Dev nD) : sProp 𝕄 := StableHlo.held (c : Thread nD τ) ucRefs (StableHlo.after hostOps1 (V₁ m c))

/-- The final buffers read against a final state. -/
theorem read_end (c : Dev nD) (s' : Phys nD τ sig (Elt F)) :
    iprop(Tₙ m c ∗ SI s') ⊢ (|={Set.univ}=> iprop(⌜s'.mem.mem ((c : Thread nD τ).loc main_v20) = kres m c
        ∧ s'.mem.mem ((c : Thread nD τ).loc main_arg0) = m ((c : Thread nD τ).loc main_arg0)
        ∧ s'.mem.mem ((c : Thread nD τ).loc main_arg1) = m ((c : Thread nD τ).loc main_arg1)
        ∧ s'.mem.mem ((c : Thread nD τ).loc main_arg2) = m ((c : Thread nD τ).loc main_arg2)⌝ ∗ SI s') : sProp 𝕄) := by
  unfold Tₙ StableHlo.held
  iintro ⟨Hh, HSI⟩
  ihave H := (pointsTo_read_all ucRefs (fun b => ((c : Thread nD τ).1, b)) (StableHlo.after hostOps1 (V₁ m c)) s') $$ [Hh HSI]
  · isplitl [Hh] <;> iassumption
  icases H with ⟨%h, HSI⟩
  imodintro
  isplitr
  · ipureintro
    refine ⟨?_, ?_, ?_, ?_⟩
    · exact (h _ (mem_ucRefs main_v20 rfl)).trans (after1_v20 m c)
    · exact (h _ (mem_ucRefs main_arg0 rfl)).trans (after1_arg m c main_arg0 (.inl rfl))
    · exact (h _ (mem_ucRefs main_arg1 rfl)).trans (after1_arg m c main_arg1 (.inr (.inl rfl)))
    · exact (h _ (mem_ucRefs main_arg2 rfl)).trans (after1_arg m c main_arg2 (.inr (.inr rfl)))
  iexact HSI

/-- The launch element yields the pipeline library's; the certificate keeps nothing per core. -/
theorem launch_elt :
    (ownU (u₀ m) : sProp 𝕄) ⊢ |={Set.univ}=> iprop(BI.own (EP (initOf (Pipeline.cells (Pipeline.pin pcfgs (adm m)) (cellOf_inj (adm m)))
        (Pipeline.launchToks (Pipeline.pin pcfgs (adm m)) (cellOf_inj (adm m))))) ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  rw [BI.bigSep_emp_const]
  iempintro

end Launch

open Launch in
set_option backward.isDefEq.respectTransparency.types false in
/-- At the compiled mesh, for any float values, from any memory with zero counters whose table (as the host
    operations compute it) names rows of the result: every weakly fair execution of @main on the TensorCores
    terminates, nothing faulting, and every final state has the result array at `kres` and the arguments as launched. -/
theorem run_main (hok : ∀ c, TblOK c (V m c main_v14)) :
    θ_run defs (onTc (τ := τ) (main (F := F))) ⟨m, fun _ => 0, ρ⟩ (QK m) :=
  Pipeline.θ_run_regions_kit (pcfgs (F := F)) (adm m) (dats m) () (cellOf_inj (adm m)) EP defs₀ 𝒱₀ L lv m ρ main (segs m hok)
    (fun c Q => by rw [main_segs (adm m) (dats m) () 𝒱₀ L lv (seg0 m) (seg1 m) (reg0 m hok) rfl rfl c])
    (by simp only [Pipeline.Seg.pipes_host, Pipeline.Seg.pipes_region, Pipeline.Seg.pipes_nil]; decide)
    (O₀ := 0) (hL := fun _ _ => rfl) (G := fun _ => iprop(emp)) (u₀ := u₀ m) (hu₀ := launch_elt m)
    (T₀ := fun c => iprop(StableHlo.held (c : Thread nD τ) ucRefs (V₀ m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v20) = kres m c
        ∧ s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2))
    (hfin := fun c s' => read_end m c s')
    (hQ := fun _ h => h)

end Cert.Kernel.Sc

end
-- ==== Proof.ScatterHostValsK.lean ====
import proofs.«431333_j41420664602705_3_alg».proof.Proof.ScatterHostK
import proofs.«431333_j41420664602705_3_alg».proof.Pre_finite_inputs
import proofs.«431333_j41420664602705_3_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.Kernel.Sc

open Cert.Kernel Cert.Kernel.Gen Cert.Kernel.GenP Cert.Sc

open Idealize.ShloMosaic Idealize.ShloMosaic.ValueIdx
open Idealize.ShloMosaic.TcCoe
open Idealize.SL Idealize.SL.Sem

variable {F : FTy → Type} [FloatOps F]

/-- Every index of the pair array lies on the strided grid: below 192 (and, read as a signed word, not negative). -/
def IdxOK (ai : S16384x2.Idx → BitVec 32) : Prop := ∀ (k : Fin 16384) (c : Fin 2), (ai (ix2 k c)).toNat < 192

/-- A word that is, read signed, at least 0 and below 192 has its value below 192. -/
theorem toNat_lt_of_cmp (w : BitVec 32) (hge : IntOp.cmpi .sge w 0#32 = 1#1) (hlt : IntOp.cmpi .slt w 192#32 = 1#1) :
    w.toNat < 192 := by
  unfold IntOp.cmpi at hge hlt
  rw [StableHlo.Predicate.ofBool_eq_one_iff] at hge hlt
  simp only [BitVec.sle, BitVec.slt, decide_eq_true_eq] at hge hlt
  have e0 : (0#32 : BitVec 32).toInt = 0 := by decide
  have e1 : (192#32 : BitVec 32).toInt = 192 := by decide
  rw [e0] at hge
  rw [e1] at hlt
  have hw := w.isLt
  by_cases hm : 2 * w.toNat < 2 ^ 32
  · have e : w.toInt = (w.toNat : Int) := by rw [BitVec.toInt_eq_toNat_cond, if_pos hm]
    omega
  · have e : w.toInt = (w.toNat : Int) - ((2 ^ 32 : Nat) : Int) := by rw [BitVec.toInt_eq_toNat_cond, if_neg hm]
    omega

/-- The printed precondition, all ones, says so of the index argument (its float conjuncts are not used). -/
theorem idxOK_of_pre [Cert.Pre_finite_inputs.Facts] (a0 : FVec F Cert.Pre_finite_inputs.S2x256x16384 .f32) (a1 : FVec F Cert.Pre_finite_inputs.S2x256x384x384 .f32)
    (a2 : IVec Cert.Pre_finite_inputs.S16384x2 32) (h : Cert.Pre_finite_inputs.fn (F := F) a0 a1 a2 = fun _ => 1#1) : IdxOK a2 := by
  intro k q
  haveI : Subsingleton Cert.Pre_finite_inputs.S_.Idx := ⟨fun a b => funext fun d => d.elim0⟩
  have h0 := congrFun h ValueIdx.ix0
  dsimp only [Cert.Pre_finite_inputs.fn] at h0
  -- the last conjunct is the reduction of the two integer compares over all pairs
  have h14 := (IntOp.andi_eq_one.1 h0).2
  have hk := Host.reduce_andi_all _ _ _ _ _ h14 (ix2 k q)
  obtain ⟨hge, hlt⟩ := IntOp.andi_eq_one.1 hk
  exact toNat_lt_of_cmp _ hge hlt

/-- Column `o` of the pair array, cut out and flattened, read at row `k`: the pair array at `(k, o)`. -/
theorem col_read {α : Type} (A : S16384x2.Idx → α) (o : Nat) (q : Fin 2) (hq : q.val = o) (hs : S16384x2.Slices ![0, o] S16384x1)
    (hc : S16384x1.ShapeCasts S16384) (k : Fin 16384) :
    shapeCast S16384 (extractStridedSlice S16384x1 ![0, o] A hs) hc (ix1 k) = A (ix2 k q) := by
  refine (shapeCast_apply _ _ (ix1 k) (ix2 k (0 : Fin 1)) ?_).trans ?_
  · rw [Shape.rowMajor_val_two, Shape.rowMajor_val_one]
    show k.val * 1 + 0 = k.val
    omega
  · exact extractStridedSlice_apply _ _ _ _ _ fun a => match a with
      | ⟨0, _⟩ => (Nat.zero_add _).symm
      | ⟨1, _⟩ => hq

/-- The table word of a pair `(a₀, a₁)`, as the host computes it on 32-bit words: `(0 + a₀·2)·384 + (0 + a₁·2)`. -/
def tblWord (a0 a1 : BitVec 32) : BitVec 32 := (0#32 + a0 * 2#32) * 384#32 + (0#32 + a1 * 2#32)

/-- Two words below 192 combine to `768·a₀ + 2·a₁` with no wrap-around at 32 bits. -/
theorem word_val (a0 a1 : BitVec 32) (h0 : a0.toNat < 192) (h1 : a1.toNat < 192) :
    (tblWord a0 a1).toNat = 768 * a0.toNat + 2 * a1.toNat := by
  unfold tblWord
  simp only [BitVec.toNat_add, BitVec.toNat_mul, BitVec.toNat_ofNat, Nat.reducePow, Nat.reduceMod, Nat.zero_add]
  omega

variable (m : (ℓ : Loc nD τ sig) → Buf (Elt F) ℓ)

/-- The table's word `k` as the host operations compute it from the pair at row `k`. -/
theorem tbl_word (c : Dev nD) (k : Fin 16384) :
    V m c main_v14 (ix1 k)
      = tblWord (m ((c.tc : Thread nD τ).loc main_arg2) (ix2 k 0)) (m ((c.tc : Thread nD τ).loc main_arg2) (ix2 k 1)) := by
  have e : (V m c main_v14 : S16384.Idx → BitVec 32)
      = addi
          (muli
            (addi (broadcastInDim S16384 ![] bcast_S_S16384 (constantI S_ 32 0#32))
              (muli
                (shapeCast S16384 (extractStridedSlice S16384x1 ![0, 0] (m ((c.tc : Thread nD τ).loc main_arg2)) slices_S16384x2_S16384x1_0_0)
                  shapeCasts_S16384x1_S16384)
                (broadcastInDim S16384 ![] bcast_S_S16384 (constantI S_ 32 2#32))))
            (broadcastInDim S16384 ![] bcast_S_S16384 (constantI S_ 32 384#32)))
          (addi (broadcastInDim S16384 ![] bcast_S_S16384 (constantI S_ 32 0#32))
            (muli
              (shapeCast S16384 (extractStridedSlice S16384x1 ![0, 1] (m ((c.tc : Thread nD τ).loc main_arg2)) slices_S16384x2_S16384x1_0_1)
                shapeCasts_S16384x1_S16384)
              (broadcastInDim S16384 ![] bcast_S_S16384 (constantI S_ 32 2#32)))) := by
    dsimp only [V, hostOps0]; after_results; rfl
  rw [e]
  show tblWord
      (shapeCast S16384 (extractStridedSlice S16384x1 ![0, 0] (m ((c.tc : Thread nD τ).loc main_arg2)) slices_S16384x2_S16384x1_0_0)
        shapeCasts_S16384x1_S16384 (ix1 k))
      (shapeCast S16384 (extractStridedSlice S16384x1 ![0, 1] (m ((c.tc : Thread nD τ).loc main_arg2)) slices_S16384x2_S16384x1_0_1)
        shapeCasts_S16384x1_S16384 (ix1 k)) = _
  rw [col_read _ 0 0 rfl, col_read _ 1 1 rfl]

/-- The table the host computes: word `k` is `(2·a₀)·384 + 2·a₁` of the pair `(a₀, a₁)` at row `k` — no wrap-around below 192. -/
theorem tbl_val (c : Dev nD) (hI : IdxOK (m ((c.tc : Thread nD τ).loc main_arg2))) (k : Fin 16384) :
    tblNat (V m c main_v14) k.val
      = 768 * (m ((c.tc : Thread nD τ).loc main_arg2) (ix2 k 0)).toNat + 2 * (m ((c.tc : Thread nD τ).loc main_arg2) (ix2 k 1)).toNat := by
  unfold tblNat
  rw [dif_pos k.isLt]
  show (V m c main_v14 (ix1 k)).toNat = _
  rw [tbl_word]
  exact word_val _ _ (hI k 0) (hI k 1)

/-- So every table word, however read, names a row of the result. -/
theorem tblOK_of_idxOK (c : Dev nD) (hI : IdxOK (m ((c.tc : Thread nD τ).loc main_arg2))) : TblOK c (V m c main_v14) := by
  intro r j
  -- a read through the whole table is the table's contents at the index read
  show (V m c main_v14 (r.idx j)).toNat < 147456
  obtain ⟨k, hk⟩ : ∃ k : Fin 16384, r.idx j = ix1 k := ⟨_, eq_ix1 _⟩
  rw [hk, tbl_word, word_val _ _ (hI k 0) (hI k 1)]
  have h0 := hI k 0
  have h1 := hI k 1
  omega

/-- The source the region finds is the first argument with its row axis moved to the front. -/
theorem V_x (c : Dev nD) (k : Fin 16384) (b : Fin 2) (ch : Fin 256) :
    V m c main_v15 (ix3 k b ch) = m ((c.tc : Thread nD τ).loc main_arg0) (ix3 b ch k) := by
  have e : (V m c main_v15 : S16384x2x256.Idx → Elt F .f32)
      = transpose S16384x2x256 [2, 0, 1] (m ((c.tc : Thread nD τ).loc main_arg0)) transposes_S2x256x16384_S16384x2x256_2_0_1 := by
    dsimp only [V, hostOps0]; after_results
  rw [e]
  exact transpose_apply _ _ _ _ _ fun a => match a with | ⟨0, _⟩ => rfl | ⟨1, _⟩ => rfl | ⟨2, _⟩ => rfl

/-- The result's buffer as the region finds it is the second argument, its two spatial axes flattened and moved to the front. -/
theorem V_o (c : Dev nD) (p : Fin 147456) (b : Fin 2) (ch : Fin 256) :
    V m c main_v18 (ix3 p b ch)
      = m ((c.tc : Thread nD τ).loc main_arg1) (ix4 b ch ⟨p.val / 384, by omega⟩ ⟨p.val % 384, Nat.mod_lt _ (by decide)⟩) := by
  have e : (V m c main_v18 : S147456x2x256.Idx → Elt F .f32)
      = transpose S147456x2x256 [2, 0, 1]
          (shapeCast S2x256x147456 (m ((c.tc : Thread nD τ).loc main_arg1)) shapeCasts_S2x256x384x384_S2x256x147456)
          transposes_S2x256x147456_S147456x2x256_2_0_1 := by
    dsimp only [V, hostOps0]; after_results; rfl
  rw [e]
  refine (transpose_apply _ _ _ (ix3 p b ch) (ix3 b ch p) fun a => match a with | ⟨0, _⟩ => rfl | ⟨1, _⟩ => rfl | ⟨2, _⟩ => rfl).trans ?_
  refine shapeCast_apply (s := S2x256x384x384) (t := S2x256x147456) _ _ (ix3 b ch p)
    (ix4 b ch ⟨p.val / 384, by omega⟩ ⟨p.val % 384, Nat.mod_lt _ (by decide)⟩) ?_
  rw [Shape.rowMajor_val_three, Shape.rowMajor_val_four]
  show ((b.val * 256 + ch.val) * 384 + p.val / 384) * 384 + p.val % 384 = (b.val * 256 + ch.val) * 147456 + p.val
  omega

/-- The program's result at a cell is the region's result at the cell's flattened row. -/
theorem kres_apply (c : Dev nD) (b : Fin 2) (ch : Fin 256) (h w : Fin 384) :
    kres m c (ix4 b ch h w) = kout m c (ix3 ⟨h.val * 384 + w.val, by omega⟩ b ch) := by
  unfold kres
  refine (shapeCast_apply _ _ (ix4 b ch h w) (ix3 b ch ⟨h.val * 384 + w.val, by omega⟩) ?_).trans ?_
  · rw [Shape.rowMajor_val_three, Shape.rowMajor_val_four]
    show (b.val * 256 + ch.val) * 147456 + (h.val * 384 + w.val) = ((b.val * 256 + ch.val) * 384 + h.val) * 384 + w.val
    omega
  · exact transpose_apply _ _ _ _ _ fun a => match a with | ⟨0, _⟩ => rfl | ⟨1, _⟩ => rfl | ⟨2, _⟩ => rfl

end Cert.Kernel.Sc

end
-- ==== Proof.lean ====
/-
  The claim: a scatter by row copies against the host's overwriting scatter, equal over the extended reals under the
  precondition that every index pair lies on the strided grid (below 192 in both places).

  The kernel re-lays its two float arguments so that the scattered axis is the leading one (source rows of 2 × 256, a
  result of 147456 such rows), computes for every source row `k` the row number `384·(2a₀) + 2a₁` of its pair, and at each of
  128 grid steps copies 128 source rows, one after the other and each copy awaited before the next, onto the result rows those
  numbers name; the result is then re-laid back. So the region's buffer ends as "the source rows placed in order"
  (`Cert.Sc.scatN`), where a later row replaces an earlier one at the same place: a cell holds the source's entry of the LAST
  row whose pair names it, or the original's entry if none does. The reference's scatter, a left fold over the updates in
  row-major order with the overwriting combiner, leaves exactly that. Nothing is computed on the floats, so their finiteness
  is never used; the index bound is what both frames need (an index off the grid is a copy outside the result) and what makes
  the row number determine the cell.
-/
import proofs.«431333_j41420664602705_3_alg».proof.Defs
import proofs.«431333_j41420664602705_3_alg».proof.Proof.Gen.Kernel
import proofs.«431333_j41420664602705_3_alg».proof.Proof.Gen.KernelIdeal
import proofs.«431333_j41420664602705_3_alg».proof.Proof.Gen.ReferenceIdeal
import proofs.«431333_j41420664602705_3_alg».proof.Proof.Gen.Pre_finite_inputs
import proofs.«431333_j41420664602705_3_alg».proof.Proof.ScatterRun
import proofs.«431333_j41420664602705_3_alg».proof.Proof.ScatterBridge
import proofs.«431333_j41420664602705_3_alg».proof.Proof.ScatterRunK
import proofs.«431333_j41420664602705_3_alg».proof.Proof.ScatterHostValsK
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments: its run under the index bound the precondition states. -/
theorem frame_k : Cert.frame_Kernel := fun m g hpre =>
  (θ_run Cert.Kernel.defs _ _).mono (fun _ h c => (h c).2)
    (Cert.Kernel.Sc.run_main (F := Bits) m g fun c =>
      Cert.Kernel.Sc.tblOK_of_idxOK m c (Cert.Kernel.Sc.idxOK_of_pre _ _ _ (hpre c)))

/-- The same run at the extended reals. -/
theorem frame_ki : Cert.frame_KernelIdeal := fun m g hpre =>
  (θ_run Cert.KernelIdeal.defs _ _).mono (fun _ h c => (h c).2)
    (Cert.KernelIdeal.Sc.run_main (F := Ideal) m g fun c =>
      Cert.KernelIdeal.Sc.tblOK_of_idxOK m c (Cert.KernelIdeal.Sc.idxOK_of_pre _ _ _ (hpre c)))

/-- The reference has no kernel: its frame is its run with the result dropped. -/
theorem frame_ri : Cert.frame_ReferenceIdeal := fun m g _ =>
  (θ_run Cert.ReferenceIdeal.defs _ _).mono (fun _ h c => (h c).2) (Cert.ReferenceIdeal.RefValue.run_ref (F := Ideal) m g)

/-- Both programs end with the kernel's result `kres`: the kernel by its run, the reference because under the index bound its
    scatter is that function of the arguments, which agree. -/
theorem algebraic : Cert.algebraic_KernelIdeal_ReferenceIdeal := by
  intro m g m' g' hpre hagree
  have hI : ∀ c : Dev Cert.KernelIdeal.nD, Cert.KernelIdeal.Sc.IdxOK (m ((c.tc : Thread Cert.KernelIdeal.nD Cert.KernelIdeal.τ).loc Cert.KernelIdeal.main_arg2)) :=
    fun c => Cert.KernelIdeal.Sc.idxOK_of_pre _ _ _ (hpre c)
  refine ⟨fun c => Cert.KernelIdeal.Sc.kres m c,
    Cert.KernelIdeal.Sc.run_main (F := Ideal) m g fun c => Cert.KernelIdeal.Sc.tblOK_of_idxOK m c (hI c), ?_⟩
  refine (θ_run Cert.ReferenceIdeal.defs _ _).mono (fun _ h c => ⟨(h c).1.trans ?_, (h c).2⟩)
    (Cert.ReferenceIdeal.RefValue.run_ref (F := Ideal) m' g')
  rw [(hagree c).1, (hagree c).2.1, (hagree c).2.2]
  exact (Cert.KernelIdeal.Sc.kres_eq_ref m c (hI c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
